-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S300000x256 : Shape := ⟨2, ![300000, 256]⟩
abbrev S2x300000 : Shape := ⟨2, ![2, 300000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S300000x256 : S_.BroadcastsInDim S300000x256 (![] : Fin 0 → Fin S300000x256.rank)
  reducesTo_S300000x256_S_d0_1 : S300000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S2x300000 : S_.BroadcastsInDim S2x300000 (![] : Fin 0 → Fin S2x300000.rank)
  reducesTo_S2x300000_S_d0_1 : S2x300000.ReducesTo [0, 1] S_

variable [Facts]

def fn_part5 {F : FTy → Type} [FloatOps F] (main_v82 : IVec S_ 1) (main_v84 : IVec S2x300000 1) : IVec S_ 1 :=
  let main_c_33 : IVec S_ 1 := constantI S_ 1 1#1
  let main_v85 : IVec S_ 1 := (fun x v => Host.reduce IntOp.andi x v reducesTo_S2x300000_S_d0_1 h_S_) main_v84 main_c_33
  let main_v86 : IVec S_ 1 := andi main_v82 main_v85
  main_v86

def fn_part4 {F : FTy → Type} [FloatOps F] (main_arg2 : IVec S2x300000 32) (main_arg15 : FVec F S256 .f32) (main_arg16 : FVec F S256 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_c_30 : IVec S_ 32 := constantI S_ 32 0#32
  let main_v79 : IVec S2x300000 32 := broadcastInDim S2x300000 ![] bcast_S_S2x300000 main_c_30
  let main_v80 : IVec S2x300000 1 := cmpi .sge main_arg2 main_v79
  let main_c_31 : IVec S_ 1 := constantI S_ 1 1#1
  let main_v81 : IVec S_ 1 := (fun x v => Host.reduce IntOp.andi x v reducesTo_S2x300000_S_d0_1 h_S_) main_v80 main_c_31
  let main_v82 : IVec S_ 1 := andi main_v78 main_v81
  let main_c_32 : IVec S_ 32 := constantI S_ 32 10000#32
  let main_v83 : IVec S2x300000 32 := broadcastInDim S2x300000 ![] bcast_S_S2x300000 main_c_32
  let main_v84 : IVec S2x300000 1 := cmpi .slt main_arg2 main_v83
  fn_part5 (F := F) main_v82 main_v84

def fn_part3 {F : FTy → Type} [FloatOps F] (main_arg2 : IVec S2x300000 32) (main_arg12 : FVec F S256 .f32) (main_arg13 : FVec F S256 .f32) (main_arg14 : FVec F S256 .f32) (main_arg15 : FVec F S256 .f32) (main_arg16 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg2 main_arg15 main_arg16 main_v63 main_v67

def fn_part2 {F : FTy → Type} [FloatOps F] (main_arg2 : IVec S2x300000 32) (main_arg8 : FVec F S256 .f32) (main_arg9 : FVec F S256x256 .f32) (main_arg10 : FVec F S256 .f32) (main_arg11 : FVec F S256x256 .f32) (main_arg12 : FVec F S256 .f32) (main_arg13 : FVec F S256 .f32) (main_arg14 : FVec F S256 .f32) (main_arg15 : FVec F S256 .f32) (main_arg16 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg2 main_arg12 main_arg13 main_arg14 main_arg15 main_arg16 main_v48 main_v49 main_v50

def fn_part1 {F : FTy → Type} [FloatOps F] (main_arg2 : IVec S2x300000 32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256 .f32) (main_arg14 : FVec F S256 .f32) (main_arg15 : FVec F S256 .f32) (main_arg16 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_v33

def fn {F : FTy → Type} [FloatOps F] (main_arg0 : FVec F S10000x256 .f32) (main_arg1 : FVec F S300000x256 .f32) (main_arg2 : IVec S2x300000 32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256 .f32) (main_arg14 : FVec F S256 .f32) (main_arg15 : FVec F S256 .f32) (main_arg16 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S300000x256 .f32 := Host.absf main_arg1
  let main_cst_0 : FVec F S_ .f32 := constant S_ .f32 0x7F800000#32
  let main_v5 : FVec F S300000x256 .f32 := broadcastInDim S300000x256 ![] bcast_S_S300000x256 main_cst_0
  let main_v6 : IVec S300000x256 1 := cmpf .olt main_v4 main_v5
  let main_c_1 : IVec S_ 1 := constantI S_ 1 1#1
  let main_v7 : IVec S_ 1 := (fun x v => Host.reduce IntOp.andi x v reducesTo_S300000x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg5 main_arg6 main_arg7 main_arg8 main_arg9 main_arg10 main_arg11 main_arg12 main_arg13 main_arg14 main_arg15 main_arg16 main_v13 main_v16
-- ==== Kernel.lean ====
abbrev S10000x256 : Shape := ⟨2, ![10000, 256]⟩
abbrev S300000x256 : Shape := ⟨2, ![300000, 256]⟩
abbrev S2x300000 : Shape := ⟨2, ![2, 300000]⟩
abbrev S256x256 : Shape := ⟨2, ![256, 256]⟩
abbrev S256 : Shape := ⟨1, ![256]⟩
abbrev S1x300000 : Shape := ⟨2, ![1, 300000]⟩
abbrev S300000 : Shape := ⟨1, ![300000]⟩
abbrev S1x256 : Shape := ⟨2, ![1, 256]⟩
abbrev S2000x256 : Shape := ⟨2, ![2000, 256]⟩
abbrev S_ : Shape := ⟨0, ![]⟩
abbrev S300000x1 : Shape := ⟨2, ![300000, 1]⟩
abbrev S1 : Shape := ⟨1, ![1]⟩
abbrev S1x1 : Shape := ⟨2, ![1, 1]⟩

abbrev nBuf : Space → Nat
  | .hbm => 143
  | .vmem => 66
  | .smem => 0
  | _ => 0

abbrev hbmTy0_0 (i : Nat) : BufTy := match i % 128 with
  | 0 => ⟨S10000x256, .f32⟩
  | 1 => ⟨S300000x256, .f32⟩
  | 2 => ⟨S2x300000, .i32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x256, .f32⟩
  | 12 => ⟨S256, .f32⟩
  | 13 => ⟨S256, .f32⟩
  | 14 => ⟨S256, .f32⟩
  | 15 => ⟨S256, .f32⟩
  | 16 => ⟨S256, .f32⟩
  | 17 => ⟨S1x300000, .i32⟩
  | 18 => ⟨S300000, .i32⟩
  | 19 => ⟨S1x300000, .i32⟩
  | 20 => ⟨S300000, .i32⟩
  | 21 => ⟨S256x256, .f32⟩
  | 22 => ⟨S256x256, .bf16⟩
  | 23 => ⟨S256x256, .f32⟩
  | 24 => ⟨S256x256, .bf16⟩
  | 25 => ⟨S256x256, .f32⟩
  | 26 => ⟨S256x256, .bf16⟩
  | 27 => ⟨S256x256, .f32⟩
  | 28 => ⟨S256x256, .bf16⟩
  | 29 => ⟨S256x256, .f32⟩
  | 30 => ⟨S256x256, .bf16⟩
  | 31 => ⟨S1x256, .f32⟩
  | 32 => ⟨S1x256, .f32⟩
  | 33 => ⟨S1x256, .f32⟩
  | 34 => ⟨S1x256, .f32⟩
  | 35 => ⟨S1x256, .f32⟩
  | 36 => ⟨S10000x256, .f32⟩
  | 37 => ⟨S10000x256, .f32⟩
  | 38 => ⟨S10000x256, .f32⟩
  | 39 => ⟨S10000x256, .f32⟩
  | 40 => ⟨S_, .i32⟩
  | 41 => ⟨S300000, .i32⟩
  | 42 => ⟨S300000, .i1⟩
  | 43 => ⟨S_, .i32⟩
  | 44 => ⟨S300000, .i32⟩
  | 45 => ⟨S300000, .i32⟩
  | 46 => ⟨S300000, .i32⟩
  | 47 => ⟨S300000x1, .i32⟩
  | 48 => ⟨S1, .i32⟩
  | 49 => ⟨S_, .i32⟩
  | 50 => ⟨S300000x1, .i32⟩
  | 51 => ⟨S300000x1, .i1⟩
  | 52 => ⟨S1x1, .i32⟩
  | 53 => ⟨S300000x1, .i32⟩
  | 54 => ⟨S300000x1, .i1⟩
  | 55 => ⟨S300000x1, .i1⟩
  | 56 => ⟨S_, .i1⟩
  | 57 => ⟨S300000, .i1⟩
  | 58 => ⟨S300000x256, .f32⟩
  | 59 => ⟨S300000x256, .i1⟩
  | 60 => ⟨S_, .f32⟩
  | 61 => ⟨S300000x256, .f32⟩
  | 62 => ⟨S300000x256, .f32⟩
  | 63 => ⟨S300000x256, .f32⟩
  | 64 => ⟨S300000x256, .f32⟩
  | 65 => ⟨S_, .f32⟩
  | 66 => ⟨S10000x256, .f32⟩
  | 67 => ⟨S300000x1, .i32⟩
  | 68 => ⟨S10000x256, .f32⟩
  | 69 => ⟨S_, .i32⟩
  | 70 => ⟨S300000, .i32⟩
  | 71 => ⟨S300000, .i1⟩
  | 72 => ⟨S_, .i32⟩
  | 73 => ⟨S300000, .i32⟩
  | 74 => ⟨S300000, .i32⟩
  | 75 => ⟨S300000, .i32⟩
  | 76 => ⟨S300000x1, .i32⟩
  | 77 => ⟨S1, .i32⟩
  | 78 => ⟨S_, .i32⟩
  | 79 => ⟨S300000x1, .i32⟩
  | 80 => ⟨S300000x1, .i1⟩
  | 81 => ⟨S1x1, .i32⟩
  | 82 => ⟨S300000x1, .i32⟩
  | 83 => ⟨S300000x1, .i1⟩
  | 84 => ⟨S300000x1, .i1⟩
  | 85 => ⟨S_, .i1⟩
  | 86 => ⟨S300000, .i1⟩
  | 87 => ⟨S300000x256, .f32⟩
  | 88 => ⟨S300000x256, .i1⟩
  | 89 => ⟨S_, .f32⟩
  | 90 => ⟨S300000x256, .f32⟩
  | 91 => ⟨S300000x256, .f32⟩
  | 92 => ⟨S_, .i32⟩
  | 93 => ⟨S300000, .i32⟩
  | 94 => ⟨S300000, .i1⟩
  | 95 => ⟨S_, .i32⟩
  | 96 => ⟨S300000, .i32⟩
  | 97 => ⟨S300000, .i32⟩
  | 98 => ⟨S300000, .i32⟩
  | 99 => ⟨S300000x1, .i32⟩
  | 100 => ⟨S1, .i32⟩
  | 101 => ⟨S_, .i32⟩
  | 102 => ⟨S300000x1, .i32⟩
  | 103 => ⟨S300000x1, .i1⟩
  | 104 => ⟨S1x1, .i32⟩
  | 105 => ⟨S300000x1, .i32⟩
  | 106 => ⟨S300000x1, .i1⟩
  | 107 => ⟨S300000x1, .i1⟩
  | 108 => ⟨S_, .i1⟩
  | 109 => ⟨S300000, .i1⟩
  | 110 => ⟨S300000x256, .f32⟩
  | 111 => ⟨S300000x256, .i1⟩
  | 112 => ⟨S_, .f32⟩
  | 113 => ⟨S300000x256, .f32⟩
  | 114 => ⟨S300000x256, .f32⟩
  | 115 => ⟨S300000x256, .f32⟩
  | 116 => ⟨S1x256, .f32⟩
  | 117 => ⟨S1x256, .f32⟩
  | 118 => ⟨S_, .f32⟩
  | 119 => ⟨S1x256, .f32⟩
  | 120 => ⟨S1x256, .f32⟩
  | 121 => ⟨S_, .f32⟩
  | 122 => ⟨S1x256, .f32⟩
  | 123 => ⟨S1x256, .f32⟩
  | 124 => ⟨S1x256, .f32⟩
  | 125 => ⟨S1x256, .f32⟩
  | 126 => ⟨S1x256, .f32⟩
  | 127 => ⟨S1x256, .f32⟩
  | _ => ⟨S10000x256, .f32⟩

abbrev hbmTy0_1 (i : Nat) : BufTy := match i % 128 with
  | 0 => ⟨S300000x256, .f32⟩
  | 1 => ⟨S10000x256, .f32⟩
  | 2 => ⟨S1x256, .f32⟩
  | 3 => ⟨S1x256, .f32⟩
  | 4 => ⟨S_, .f32⟩
  | 5 => ⟨S1x256, .f32⟩
  | 6 => ⟨S1x256, .f32⟩
  | 7 => ⟨S_, .f32⟩
  | 8 => ⟨S1x256, .f32⟩
  | 9 => ⟨S1x256, .f32⟩
  | 10 => ⟨S1x256, .f32⟩
  | 11 => ⟨S1x256, .f32⟩
  | 12 => ⟨S1x256, .f32⟩
  | 13 => ⟨S1x256, .f32⟩
  | 14 => ⟨S10000x256, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x256, .bf16⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S256x256, .bf16⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .bf16⟩
  | .local _ .vmem, ⟨23, _⟩ => ⟨S1x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S1x256, .f32⟩
  | .local _ .vmem, ⟨37, _⟩ => ⟨S1x256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S2000x256, .f32⟩
  | .local _ .vmem, ⟨42, _⟩ => ⟨S1x256, .f32⟩
  | .local _ .vmem, ⟨43, _⟩ => ⟨S1x256, .f32⟩
  | .local _ .vmem, ⟨44, _⟩ => ⟨S1x256, .f32⟩
  | .local _ .vmem, ⟨45, _⟩ => ⟨S1x256, .f32⟩
  | .local _ .vmem, ⟨46, _⟩ => ⟨S2000x256, .f32⟩
  | .local _ .vmem, ⟨47, _⟩ => ⟨S2000x256, .f32⟩
  | .local _ .vmem, ⟨48, _⟩ => ⟨S2000x256, .f32⟩
  | .local _ .vmem, ⟨49, _⟩ => ⟨S2000x256, .f32⟩
  | .local _ .vmem, ⟨50, _⟩ => ⟨S2000x256, .f32⟩
  | .local _ .vmem, ⟨51, _⟩ => ⟨S2000x256, .f32⟩
  | .local _ .vmem, ⟨52, _⟩ => ⟨S2000x256, .f32⟩
  | .local _ .vmem, ⟨53, _⟩ => ⟨S2000x256, .f32⟩
  | .local _ .vmem, ⟨54, _⟩ => ⟨S1x256, .f32⟩
  | .local _ .vmem, ⟨55, _⟩ => ⟨S1x256, .f32⟩
  | .local _ .vmem, ⟨56, _⟩ => ⟨S2000x256, .f32⟩
  | .local _ .vmem, ⟨57, _⟩ => ⟨S2000x256, .f32⟩
  | .local _ .vmem, ⟨58, _⟩ => ⟨S2000x256, .f32⟩
  | .local _ .vmem, ⟨59, _⟩ => ⟨S2000x256, .f32⟩
  | .local _ .vmem, ⟨60, _⟩ => ⟨S1x256, .f32⟩
  | .local _ .vmem, ⟨61, _⟩ => ⟨S1x256, .f32⟩
  | .local _ .vmem, ⟨62, _⟩ => ⟨S1x256, .f32⟩
  | .local _ .vmem, ⟨63, _⟩ => ⟨S1x256, .f32⟩
  | .local _ .vmem, ⟨64, _⟩ => ⟨S2000x256, .f32⟩
  | .local _ .vmem, ⟨65, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19_0 : Ref sig .tc := ⟨.hbm, 36, rfl⟩
abbrev main_v19_1 : Ref sig .tc := ⟨.hbm, 37, rfl⟩
abbrev main_v19_2 : Ref sig .tc := ⟨.hbm, 38, rfl⟩
abbrev main_v19_3 : Ref sig .tc := ⟨.hbm, 39, rfl⟩
abbrev main_call0_c : Ref sig .tc := ⟨.hbm, 40, rfl⟩
abbrev main_call0_v0 : Ref sig .tc := ⟨.hbm, 41, rfl⟩
abbrev main_call0_v1 : Ref sig .tc := ⟨.hbm, 42, rfl⟩
abbrev main_call0_c_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_c_1 : Ref sig .tc := ⟨.hbm, 48, rfl⟩
abbrev main_call0_c_2 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_c_3 : Ref sig .tc := ⟨.hbm, 56, rfl⟩
abbrev main_call0_v12 : Ref sig .tc := ⟨.hbm, 57, rfl⟩
abbrev main_call0_v13 : Ref sig .tc := ⟨.hbm, 58, rfl⟩
abbrev main_call0_v14 : Ref sig .tc := ⟨.hbm, 59, rfl⟩
abbrev main_call0_cst : Ref sig .tc := ⟨.hbm, 60, rfl⟩
abbrev main_call0_v15 : Ref sig .tc := ⟨.hbm, 61, rfl⟩
abbrev main_v20 : Ref sig .tc := ⟨.hbm, 62, rfl⟩
abbrev main_v21_0 : Ref sig .tc := ⟨.hbm, 63, rfl⟩
abbrev main_v21_1 : Ref sig .tc := ⟨.hbm, 64, rfl⟩
abbrev main_cst : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_call1_c : Ref sig .tc := ⟨.hbm, 69, rfl⟩
abbrev main_call1_v0 : Ref sig .tc := ⟨.hbm, 70, rfl⟩
abbrev main_call1_v1 : Ref sig .tc := ⟨.hbm, 71, rfl⟩
abbrev main_call1_c_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_c_1 : Ref sig .tc := ⟨.hbm, 77, rfl⟩
abbrev main_call1_c_2 : Ref sig .tc := ⟨.hbm, 78, rfl⟩
abbrev main_call1_v6 : Ref sig .tc := ⟨.hbm, 79, rfl⟩
abbrev main_call1_v7 : Ref sig .tc := ⟨.hbm, 80, rfl⟩
abbrev main_call1_v8 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_c_3 : Ref sig .tc := ⟨.hbm, 85, rfl⟩
abbrev main_call1_v12 : Ref sig .tc := ⟨.hbm, 86, rfl⟩
abbrev main_call1_v13 : Ref sig .tc := ⟨.hbm, 87, rfl⟩
abbrev main_call1_v14 : Ref sig .tc := ⟨.hbm, 88, rfl⟩
abbrev main_call1_cst : Ref sig .tc := ⟨.hbm, 89, rfl⟩
abbrev main_call1_v15 : Ref sig .tc := ⟨.hbm, 90, rfl⟩
abbrev main_v25 : Ref sig .tc := ⟨.hbm, 91, rfl⟩
abbrev main_call2_c : Ref sig .tc := ⟨.hbm, 92, rfl⟩
abbrev main_call2_v0 : Ref sig .tc := ⟨.hbm, 93, rfl⟩
abbrev main_call2_v1 : Ref sig .tc := ⟨.hbm, 94, rfl⟩
abbrev main_call2_c_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_c_1 : Ref sig .tc := ⟨.hbm, 100, rfl⟩
abbrev main_call2_c_2 : Ref sig .tc := ⟨.hbm, 101, rfl⟩
abbrev main_call2_v6 : Ref sig .tc := ⟨.hbm, 102, rfl⟩
abbrev main_call2_v7 : Ref sig .tc := ⟨.hbm, 103, rfl⟩
abbrev main_call2_v8 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_c_3 : Ref sig .tc := ⟨.hbm, 108, rfl⟩
abbrev main_call2_v12 : Ref sig .tc := ⟨.hbm, 109, rfl⟩
abbrev main_call2_v13 : Ref sig .tc := ⟨.hbm, 110, rfl⟩
abbrev main_call2_v14 : Ref sig .tc := ⟨.hbm, 111, rfl⟩
abbrev main_call2_cst : Ref sig .tc := ⟨.hbm, 112, rfl⟩
abbrev main_call2_v15 : Ref sig .tc := ⟨.hbm, 113, rfl⟩
abbrev main_v26 : Ref sig .tc := ⟨.hbm, 114, rfl⟩
abbrev main_v27_0 : Ref sig .tc := ⟨.hbm, 115, rfl⟩
abbrev main_v27_1 : Ref sig .tc := ⟨.hbm, 116, rfl⟩
abbrev main_v27_2 : Ref sig .tc := ⟨.hbm, 117, rfl⟩
abbrev main_cst_0 : Ref sig .tc := ⟨.hbm, 118, rfl⟩
abbrev main_v28 : Ref sig .tc := ⟨.hbm, 119, rfl⟩
abbrev main_v29 : Ref sig .tc := ⟨.hbm, 120, rfl⟩
abbrev main_cst_1 : Ref sig .tc := ⟨.hbm, 121, rfl⟩
abbrev main_v30 : Ref sig .tc := ⟨.hbm, 122, rfl⟩
abbrev main_v31 : Ref sig .tc := ⟨.hbm, 123, rfl⟩
abbrev main_v32 : Ref sig .tc := ⟨.hbm, 124, rfl⟩
abbrev main_v33 : Ref sig .tc := ⟨.hbm, 125, rfl⟩
abbrev main_v34 : Ref sig .tc := ⟨.hbm, 126, rfl⟩
abbrev main_v35 : Ref sig .tc := ⟨.hbm, 127, rfl⟩
abbrev main_v36 : Ref sig .tc := ⟨.hbm, 128, rfl⟩
abbrev main_v37_0 : Ref sig .tc := ⟨.hbm, 129, rfl⟩
abbrev main_v37_1 : Ref sig .tc := ⟨.hbm, 130, rfl⟩
abbrev main_v37_2 : Ref sig .tc := ⟨.hbm, 131, rfl⟩
abbrev main_cst_2 : Ref sig .tc := ⟨.hbm, 132, rfl⟩
abbrev main_v38 : Ref sig .tc := ⟨.hbm, 133, rfl⟩
abbrev main_v39 : Ref sig .tc := ⟨.hbm, 134, rfl⟩
abbrev main_cst_3 : Ref sig .tc := ⟨.hbm, 135, rfl⟩
abbrev main_v40 : Ref sig .tc := ⟨.hbm, 136, rfl⟩
abbrev main_v41 : Ref sig .tc := ⟨.hbm, 137, rfl⟩
abbrev main_v42 : Ref sig .tc := ⟨.hbm, 138, rfl⟩
abbrev main_v43 : Ref sig .tc := ⟨.hbm, 139, rfl⟩
abbrev main_v44 : Ref sig .tc := ⟨.hbm, 140, rfl⟩
abbrev main_v45 : Ref sig .tc := ⟨.hbm, 141, rfl⟩
abbrev main_v46 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg5_0 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg3_0 : Ref sig .tc := ⟨.vmem, 43, rfl⟩
abbrev cc3_stg4_0 : Ref sig .tc := ⟨.vmem, 44, rfl⟩
abbrev cc3_stg5_0 : Ref sig .tc := ⟨.vmem, 45, rfl⟩
abbrev cc3_stg6_0 : Ref sig .tc := ⟨.vmem, 46, rfl⟩
abbrev cc3_stg6_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg2_1 : Ref sig .tc := ⟨.vmem, 53, rfl⟩
abbrev cc4_stg3_0 : Ref sig .tc := ⟨.vmem, 54, rfl⟩
abbrev cc4_stg4_0 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg1_1 : Ref sig .tc := ⟨.vmem, 59, rfl⟩
abbrev cc5_stg2_0 : Ref sig .tc := ⟨.vmem, 60, rfl⟩
abbrev cc5_stg3_0 : Ref sig .tc := ⟨.vmem, 61, rfl⟩
abbrev cc5_stg4_0 : Ref sig .tc := ⟨.vmem, 62, rfl⟩
abbrev cc5_stg5_0 : Ref sig .tc := ⟨.vmem, 63, rfl⟩
abbrev cc5_stg6_0 : Ref sig .tc := ⟨.vmem, 64, rfl⟩
abbrev cc5_stg6_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem4_1 : DmaSem sig := 25
abbrev cc1_sem5_0 : DmaSem sig := 26
abbrev cc1_sem5_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem5_0 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem3_0 : DmaSem sig := 43
abbrev cc3_sem4_0 : DmaSem sig := 44
abbrev cc3_sem5_0 : DmaSem sig := 45
abbrev cc3_sem6_0 : DmaSem sig := 46
abbrev cc3_sem6_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc4_sem2_1 : DmaSem sig := 53
abbrev cc4_sem3_0 : DmaSem sig := 54
abbrev cc4_sem4_0 : DmaSem sig := 55
abbrev cc5_sem0_0 : DmaSem sig := 56
abbrev cc5_sem0_1 : DmaSem sig := 57
abbrev cc5_sem1_0 : DmaSem sig := 58
abbrev cc5_sem1_1 : DmaSem sig := 59
abbrev cc5_sem2_0 : DmaSem sig := 60
abbrev cc5_sem3_0 : DmaSem sig := 61
abbrev cc5_sem4_0 : DmaSem sig := 62
abbrev cc5_sem5_0 : DmaSem sig := 63
abbrev cc5_sem6_0 : DmaSem sig := 64
abbrev cc5_sem6_1 : DmaSem sig := 65

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2000x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2000x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![150], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![150], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![150], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x256 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  transposes_S256x256_S256x256_1_0 : S256x256.Transposes [1, 0] S256x256
  bitsLt_bf16_f32 : FTy.bits .bf16 < FTy.bits .f32
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S_S300000 : S_.BroadcastsInDim S300000 (![] : Fin 0 → Fin S300000.rank)
  bcast_S300000_S300000x1_0 : S300000.BroadcastsInDim S300000x1 (![0] : Fin 1 → Fin S300000x1.rank)
  bcast_S_S300000x1 : S_.BroadcastsInDim S300000x1 (![] : Fin 0 → Fin S300000x1.rank)
  bcast_S1_S1x1_1 : S1.BroadcastsInDim S1x1 (![1] : Fin 1 → Fin S1x1.rank)
  bcast_S1x1_S300000x1_0_1 : S1x1.BroadcastsInDim S300000x1 (![0, 1] : Fin 2 → Fin S300000x1.rank)
  reducesTo_S300000x1_S300000_d1 : S300000x1.ReducesTo [1] S300000
  h_S_ : 0 < S_.numel
  bcast_S300000_S300000x256_0 : S300000.BroadcastsInDim S300000x256 (![0] : Fin 1 → Fin S300000x256.rank)
  bcast_S_S300000x256 : S_.BroadcastsInDim S300000x256 (![] : Fin 0 → Fin S300000x256.rank)
  shapeCasts_S2000x256_S2000x256 : S2000x256.ShapeCasts S2000x256
  bcast_S_S10000x256 : S_.BroadcastsInDim S10000x256 (![] : Fin 0 → Fin S10000x256.rank)
  reduces_S2000x256_S256 : S2000x256.Reduces [0] S256
  bcast_S_S1x256 : S_.BroadcastsInDim S1x256 (![] : Fin 0 → Fin S1x256.rank)
  dot_S2000x256_S256x256_S2000x256_1_0_0_1_n_n_wf : DotDims.WF S2000x256 S256x256 S2000x256 [1] [0] [0] [1] [] []
  gather_S10000x256_S300000x1_S300000x256_1_0_n_n_0_1_1256_wf : GatherDims.WF S10000x256 S300000x1 S300000x256 [1] [0] [] [0] [] 1 ![1, 256]
  scatter_S10000x256_S300000x1_S300000x256_1_0_0_1_wf : ScatterDims.WF S10000x256 S300000x1 S300000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x256.size a ≤ S10000x256.size a
  hwx0_9 : ∀ i : grid0.Coords, EltTy.bits .f32 = 32 ∨ (Rect.block (s := S10000x256) S2000x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x256.size a ≤ S10000x256.size a
  hwx0_10 : ∀ i : grid0.Coords, EltTy.bits .f32 = 32 ∨ (Rect.block (s := S10000x256) S2000x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x256.size a ≤ S10000x256.size a
  hwx0_11 : ∀ i : grid0.Coords, EltTy.bits .f32 = 32 ∨ (Rect.block (s := S10000x256) S2000x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x256.size a ≤ S10000x256.size a
  hwx0_12 : ∀ i : grid0.Coords, EltTy.bits .f32 = 32 ∨ (Rect.block (s := S10000x256) S2000x256.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S300000x256.size a
  hwx1_0 : ∀ i : grid1.Coords, EltTy.bits .f32 = 32 ∨ (Rect.block (s := S300000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S300000x256.size a
  hwx1_1 : ∀ i : grid1.Coords, EltTy.bits .f32 = 32 ∨ (Rect.block (s := S300000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S300000x256.size a
  hwx1_4 : ∀ i : grid1.Coords, EltTy.bits .f32 = 32 ∨ (Rect.block (s := S300000x256) S2000x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S300000x256.size a
  hwx1_5 : ∀ i : grid1.Coords, EltTy.bits .f32 = 32 ∨ (Rect.block (s := S300000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S300000x256.size a
  hwx2_0 : ∀ i : grid2.Coords, EltTy.bits .f32 = 32 ∨ (Rect.block (s := S300000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S300000x256.size a
  hwx2_1 : ∀ i : grid2.Coords, EltTy.bits .f32 = 32 ∨ (Rect.block (s := S300000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S300000x256.size a
  hwx2_2 : ∀ i : grid2.Coords, EltTy.bits .f32 = 32 ∨ (Rect.block (s := S300000x256) S2000x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S300000x256.size a
  hwx2_3 : ∀ i : grid2.Coords, EltTy.bits .f32 = 32 ∨ (Rect.block (s := S300000x256) S2000x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S300000x256.size a
  hwx3_0 : ∀ i : grid3.Coords, EltTy.bits .f32 = 32 ∨ (Rect.block (s := S300000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S300000x256.size a
  hwx3_1 : ∀ i : grid3.Coords, EltTy.bits .f32 = 32 ∨ (Rect.block (s := S300000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S300000x256.size a
  hwx3_6 : ∀ i : grid3.Coords, EltTy.bits .f32 = 32 ∨ (Rect.block (s := S300000x256) S2000x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S10000x256.size a
  hwx4_0 : ∀ i : grid4.Coords, EltTy.bits .f32 = 32 ∨ (Rect.block (s := S10000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S10000x256.size a
  hwx4_1 : ∀ i : grid4.Coords, EltTy.bits .f32 = 32 ∨ (Rect.block (s := S10000x256) S2000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S10000x256.size a
  hwx4_2 : ∀ i : grid4.Coords, EltTy.bits .f32 = 32 ∨ (Rect.block (s := S10000x256) S2000x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S10000x256.size a
  hwx5_0 : ∀ i : grid5.Coords, EltTy.bits .f32 = 32 ∨ (Rect.block (s := S10000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S10000x256.size a
  hwx5_1 : ∀ i : grid5.Coords, EltTy.bits .f32 = 32 ∨ (Rect.block (s := S10000x256) S2000x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x256.size a ≤ S1x256.size a
  hwx5_5 : ∀ i : grid5.Coords, EltTy.bits .f32 = 32 ∨ (Rect.block (s := S1x256) S1x256.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x256.size a ≤ S10000x256.size a
  hwx5_6 : ∀ i : grid5.Coords, EltTy.bits .f32 = 32 ∨ (Rect.block (s := S10000x256) S2000x256.size (cc5_transform_6 i) (hinb5_6 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S10000x256_S300000x1_S300000x256_1_0_n_n_0_1_1256 : GatherDims S10000x256 S300000x1 S300000x256 where
  offsetDims := [1]
  collapsedSliceDims := [0]
  operandBatchingDims := []
  startIndicesBatchingDims := []
  startIndexMap := [0]
  indexVectorDim := 1
  sliceSizes := ![1, 256]
  wf := gather_S10000x256_S300000x1_S300000x256_1_0_n_n_0_1_1256_wf
def scatter_S10000x256_S300000x1_S300000x256_1_0_0_1 : ScatterDims S10000x256 S300000x1 S300000x256 where
  updateWindowDims := [1]
  insertedWindowDims := [0]
  scatterDimsToOperandDims := [0]
  indexVectorDim := 1
  wf := scatter_S10000x256_S300000x1_S300000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19_0) S2000x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v19_1) S2000x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v19_2) S2000x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v19_3) S2000x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg1) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21_0) S2000x256.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v21_1) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v21_0) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v27_0) S2000x256.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v27_1) S1x256.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v27_2) S1x256.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v27_0) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v34) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v35) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v29) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v33) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v36) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v19_0) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v24) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v37_0) S2000x256.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v37_1) S1x256.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v37_2) S1x256.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v37_0) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg0) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v44) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v45) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v39) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v43) S1x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v46) S2000x256.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S10000x256 : Shape := ⟨2, ![10000, 256]⟩
abbrev S300000x256 : Shape := ⟨2, ![300000, 256]⟩
abbrev S2x300000 : Shape := ⟨2, ![2, 300000]⟩
abbrev S256x256 : Shape := ⟨2, ![256, 256]⟩
abbrev S256 : Shape := ⟨1, ![256]⟩
abbrev S1x300000 : Shape := ⟨2, ![1, 300000]⟩
abbrev S300000 : Shape := ⟨1, ![300000]⟩
abbrev S1x256 : Shape := ⟨2, ![1, 256]⟩
abbrev S_ : Shape := ⟨0, ![]⟩
abbrev S300000x1 : Shape := ⟨2, ![300000, 1]⟩

abbrev nBuf : Space → Nat
  | .hbm => 185
  | .vmem => 0
  | .smem => 0
  | _ => 0

abbrev hbmTy0_0 (i : Nat) : BufTy := match i % 128 with
  | 0 => ⟨S10000x256, .f32⟩
  | 1 => ⟨S300000x256, .f32⟩
  | 2 => ⟨S2x300000, .i32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x256, .f32⟩
  | 12 => ⟨S256, .f32⟩
  | 13 => ⟨S256, .f32⟩
  | 14 => ⟨S256, .f32⟩
  | 15 => ⟨S256, .f32⟩
  | 16 => ⟨S256, .f32⟩
  | 17 => ⟨S1x300000, .i32⟩
  | 18 => ⟨S300000, .i32⟩
  | 19 => ⟨S1x300000, .i32⟩
  | 20 => ⟨S300000, .i32⟩
  | 21 => ⟨S256x256, .f32⟩
  | 22 => ⟨S10000x256, .f32⟩
  | 23 => ⟨S1x256, .f32⟩
  | 24 => ⟨S10000x256, .f32⟩
  | 25 => ⟨S10000x256, .f32⟩
  | 26 => ⟨S256x256, .f32⟩
  | 27 => ⟨S10000x256, .f32⟩
  | 28 => ⟨S1x256, .f32⟩
  | 29 => ⟨S10000x256, .f32⟩
  | 30 => ⟨S10000x256, .f32⟩
  | 31 => ⟨S256x256, .f32⟩
  | 32 => ⟨S300000x256, .f32⟩
  | 33 => ⟨S1x256, .f32⟩
  | 34 => ⟨S300000x256, .f32⟩
  | 35 => ⟨S300000x256, .f32⟩
  | 36 => ⟨S256x256, .f32⟩
  | 37 => ⟨S10000x256, .f32⟩
  | 38 => ⟨S1x256, .f32⟩
  | 39 => ⟨S10000x256, .f32⟩
  | 40 => ⟨S10000x256, .f32⟩
  | 41 => ⟨S256x256, .f32⟩
  | 42 => ⟨S10000x256, .f32⟩
  | 43 => ⟨S1x256, .f32⟩
  | 44 => ⟨S10000x256, .f32⟩
  | 45 => ⟨S10000x256, .f32⟩
  | 46 => ⟨S300000x256, .f32⟩
  | 47 => ⟨S300000x256, .f32⟩
  | 48 => ⟨S_, .f32⟩
  | 49 => ⟨S300000x256, .f32⟩
  | 50 => ⟨S300000x256, .f32⟩
  | 51 => ⟨S_, .f32⟩
  | 52 => ⟨S300000x256, .f32⟩
  | 53 => ⟨S300000x256, .f32⟩
  | 54 => ⟨S_, .i32⟩
  | 55 => ⟨S300000, .i32⟩
  | 56 => ⟨S300000, .i1⟩
  | 57 => ⟨S_, .i32⟩
  | 58 => ⟨S300000, .i32⟩
  | 59 => ⟨S300000, .i32⟩
  | 60 => ⟨S300000, .i32⟩
  | 61 => ⟨S300000x1, .i32⟩
  | 62 => ⟨S300000x256, .f32⟩
  | 63 => ⟨S300000x256, .f32⟩
  | 64 => ⟨S_, .f32⟩
  | 65 => ⟨S10000x256, .f32⟩
  | 66 => ⟨S300000x1, .i32⟩
  | 67 => ⟨S10000x256, .f32⟩
  | 68 => ⟨S10000x256, .f32⟩
  | 69 => ⟨S_, .f32⟩
  | 70 => ⟨S256, .f32⟩
  | 71 => ⟨S1x256, .f32⟩
  | 72 => ⟨S_, .f32⟩
  | 73 => ⟨S1x256, .f32⟩
  | 74 => ⟨S1x256, .f32⟩
  | 75 => ⟨S_, .i32⟩
  | 76 => ⟨S_, .f32⟩
  | 77 => ⟨S256, .f32⟩
  | 78 => ⟨S1x256, .f32⟩
  | 79 => ⟨S_, .f32⟩
  | 80 => ⟨S1x256, .f32⟩
  | 81 => ⟨S1x256, .f32⟩
  | 82 => ⟨S10000x256, .f32⟩
  | 83 => ⟨S10000x256, .f32⟩
  | 84 => ⟨S10000x256, .f32⟩
  | 85 => ⟨S_, .f32⟩
  | 86 => ⟨S_, .f32⟩
  | 87 => ⟨S_, .f32⟩
  | 88 => ⟨S_, .f32⟩
  | 89 => ⟨S256, .f32⟩
  | 90 => ⟨S1x256, .f32⟩
  | 91 => ⟨S1x256, .f32⟩
  | 92 => ⟨S1x256, .f32⟩
  | 93 => ⟨S_, .f32⟩
  | 94 => ⟨S_, .i1⟩
  | 95 => ⟨S_, .f32⟩
  | 96 => ⟨S_, .f32⟩
  | 97 => ⟨S1x256, .f32⟩
  | 98 => ⟨S1x256, .f32⟩
  | 99 => ⟨S10000x256, .f32⟩
  | 100 => ⟨S10000x256, .f32⟩
  | 101 => ⟨S_, .f32⟩
  | 102 => ⟨S1x256, .f32⟩
  | 103 => ⟨S1x256, .f32⟩
  | 104 => ⟨S1x256, .f32⟩
  | 105 => ⟨S10000x256, .f32⟩
  | 106 => ⟨S10000x256, .f32⟩
  | 107 => ⟨S1x256, .f32⟩
  | 108 => ⟨S10000x256, .f32⟩
  | 109 => ⟨S10000x256, .f32⟩
  | 110 => ⟨S1x256, .f32⟩
  | 111 => ⟨S10000x256, .f32⟩
  | 112 => ⟨S10000x256, .f32⟩
  | 113 => ⟨S_, .f32⟩
  | 114 => ⟨S10000x256, .f32⟩
  | 115 => ⟨S10000x256, .f32⟩
  | 116 => ⟨S10000x256, .f32⟩
  | 117 => ⟨S_, .i32⟩
  | 118 => ⟨S300000, .i32⟩
  | 119 => ⟨S300000, .i1⟩
  | 120 => ⟨S_, .i32⟩
  | 121 => ⟨S300000, .i32⟩
  | 122 => ⟨S300000, .i32⟩
  | 123 => ⟨S300000, .i32⟩
  | 124 => ⟨S300000x1, .i32⟩
  | 125 => ⟨S300000x256, .f32⟩
  | 126 => ⟨S300000x256, .f32⟩
  | 127 => ⟨S_, .i32⟩
  | _ => ⟨S10000x256, .f32⟩

abbrev hbmTy0_1 (i : Nat) : BufTy := match i % 128 with
  | 0 => ⟨S300000, .i32⟩
  | 1 => ⟨S300000, .i1⟩
  | 2 => ⟨S_, .i32⟩
  | 3 => ⟨S300000, .i32⟩
  | 4 => ⟨S300000, .i32⟩
  | 5 => ⟨S300000, .i32⟩
  | 6 => ⟨S300000x1, .i32⟩
  | 7 => ⟨S300000x256, .f32⟩
  | 8 => ⟨S300000x256, .f32⟩
  | 9 => ⟨S_, .f32⟩
  | 10 => ⟨S256, .f32⟩
  | 11 => ⟨S1x256, .f32⟩
  | 12 => ⟨S_, .f32⟩
  | 13 => ⟨S1x256, .f32⟩
  | 14 => ⟨S1x256, .f32⟩
  | 15 => ⟨S_, .i32⟩
  | 16 => ⟨S_, .f32⟩
  | 17 => ⟨S256, .f32⟩
  | 18 => ⟨S1x256, .f32⟩
  | 19 => ⟨S_, .f32⟩
  | 20 => ⟨S1x256, .f32⟩
  | 21 => ⟨S1x256, .f32⟩
  | 22 => ⟨S300000x256, .f32⟩
  | 23 => ⟨S300000x256, .f32⟩
  | 24 => ⟨S300000x256, .f32⟩
  | 25 => ⟨S_, .f32⟩
  | 26 => ⟨S_, .f32⟩
  | 27 => ⟨S_, .f32⟩
  | 28 => ⟨S_, .f32⟩
  | 29 => ⟨S256, .f32⟩
  | 30 => ⟨S1x256, .f32⟩
  | 31 => ⟨S1x256, .f32⟩
  | 32 => ⟨S1x256, .f32⟩
  | 33 => ⟨S_, .f32⟩
  | 34 => ⟨S_, .i1⟩
  | 35 => ⟨S_, .f32⟩
  | 36 => ⟨S_, .f32⟩
  | 37 => ⟨S1x256, .f32⟩
  | 38 => ⟨S1x256, .f32⟩
  | 39 => ⟨S300000x256, .f32⟩
  | 40 => ⟨S300000x256, .f32⟩
  | 41 => ⟨S_, .f32⟩
  | 42 => ⟨S1x256, .f32⟩
  | 43 => ⟨S1x256, .f32⟩
  | 44 => ⟨S1x256, .f32⟩
  | 45 => ⟨S300000x256, .f32⟩
  | 46 => ⟨S300000x256, .f32⟩
  | 47 => ⟨S1x256, .f32⟩
  | 48 => ⟨S300000x256, .f32⟩
  | 49 => ⟨S300000x256, .f32⟩
  | 50 => ⟨S1x256, .f32⟩
  | 51 => ⟨S300000x256, .f32⟩
  | 52 => ⟨S300000x256, .f32⟩
  | 53 => ⟨S_, .f32⟩
  | 54 => ⟨S300000x256, .f32⟩
  | 55 => ⟨S300000x256, .f32⟩
  | 56 => ⟨S300000x256, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst : Ref sig .tc := ⟨.hbm, 48, rfl⟩
abbrev main_v31 : Ref sig .tc := ⟨.hbm, 49, rfl⟩
abbrev main_v32 : Ref sig .tc := ⟨.hbm, 50, rfl⟩
abbrev main_cst_0 : Ref sig .tc := ⟨.hbm, 51, rfl⟩
abbrev main_v33 : Ref sig .tc := ⟨.hbm, 52, rfl⟩
abbrev main_v34 : Ref sig .tc := ⟨.hbm, 53, rfl⟩
abbrev main_c : Ref sig .tc := ⟨.hbm, 54, rfl⟩
abbrev main_v35 : Ref sig .tc := ⟨.hbm, 55, rfl⟩
abbrev main_v36 : Ref sig .tc := ⟨.hbm, 56, rfl⟩
abbrev main_c_1 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_2 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_3 : Ref sig .tc := ⟨.hbm, 69, rfl⟩
abbrev main_v47 : Ref sig .tc := ⟨.hbm, 70, rfl⟩
abbrev main_v48 : Ref sig .tc := ⟨.hbm, 71, rfl⟩
abbrev main_cst_4 : Ref sig .tc := ⟨.hbm, 72, rfl⟩
abbrev main_v49 : Ref sig .tc := ⟨.hbm, 73, rfl⟩
abbrev main_v50 : Ref sig .tc := ⟨.hbm, 74, rfl⟩
abbrev main_c_5 : Ref sig .tc := ⟨.hbm, 75, rfl⟩
abbrev main_call0_cst : Ref sig .tc := ⟨.hbm, 76, rfl⟩
abbrev main_call0_v0 : Ref sig .tc := ⟨.hbm, 77, rfl⟩
abbrev main_call0_v1 : Ref sig .tc := ⟨.hbm, 78, rfl⟩
abbrev main_call0_cst_0 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_v6 : Ref sig .tc := ⟨.hbm, 84, rfl⟩
abbrev main_call0_v7 : Ref sig .tc := ⟨.hbm, 85, rfl⟩
abbrev main_call0_cst_1 : Ref sig .tc := ⟨.hbm, 86, rfl⟩
abbrev main_call0_v8 : Ref sig .tc := ⟨.hbm, 87, rfl⟩
abbrev main_call0_cst_2 : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_call0_v12 : Ref sig .tc := ⟨.hbm, 92, rfl⟩
abbrev main_call0_cst_3 : Ref sig .tc := ⟨.hbm, 93, rfl⟩
abbrev main_call0_v13 : Ref sig .tc := ⟨.hbm, 94, rfl⟩
abbrev main_call0_cst_4 : Ref sig .tc := ⟨.hbm, 95, rfl⟩
abbrev main_call0_call0_v0 : Ref sig .tc := ⟨.hbm, 96, rfl⟩
abbrev main_call0_call0_v1 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_cst_6 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_call1_cst : Ref sig .tc := ⟨.hbm, 113, rfl⟩
abbrev main_call1_v0 : Ref sig .tc := ⟨.hbm, 114, rfl⟩
abbrev main_v65 : Ref sig .tc := ⟨.hbm, 115, rfl⟩
abbrev main_v66 : Ref sig .tc := ⟨.hbm, 116, rfl⟩
abbrev main_c_7 : Ref sig .tc := ⟨.hbm, 117, rfl⟩
abbrev main_v67 : Ref sig .tc := ⟨.hbm, 118, rfl⟩
abbrev main_v68 : Ref sig .tc := ⟨.hbm, 119, rfl⟩
abbrev main_c_8 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_c_9 : Ref sig .tc := ⟨.hbm, 127, rfl⟩
abbrev main_v75 : Ref sig .tc := ⟨.hbm, 128, rfl⟩
abbrev main_v76 : Ref sig .tc := ⟨.hbm, 129, rfl⟩
abbrev main_c_10 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_cst_11 : Ref sig .tc := ⟨.hbm, 137, rfl⟩
abbrev main_v83 : Ref sig .tc := ⟨.hbm, 138, rfl⟩
abbrev main_v84 : Ref sig .tc := ⟨.hbm, 139, rfl⟩
abbrev main_cst_12 : Ref sig .tc := ⟨.hbm, 140, rfl⟩
abbrev main_v85 : Ref sig .tc := ⟨.hbm, 141, rfl⟩
abbrev main_v86 : Ref sig .tc := ⟨.hbm, 142, rfl⟩
abbrev main_c_13 : Ref sig .tc := ⟨.hbm, 143, rfl⟩
abbrev main_call2_cst : Ref sig .tc := ⟨.hbm, 144, rfl⟩
abbrev main_call2_v0 : Ref sig .tc := ⟨.hbm, 145, rfl⟩
abbrev main_call2_v1 : Ref sig .tc := ⟨.hbm, 146, rfl⟩
abbrev main_call2_cst_0 : Ref sig .tc := ⟨.hbm, 147, rfl⟩
abbrev main_call2_v2 : Ref sig .tc := ⟨.hbm, 148, rfl⟩
abbrev main_call2_v3 : Ref sig .tc := ⟨.hbm, 149, rfl⟩
abbrev main_call2_v4 : Ref sig .tc := ⟨.hbm, 150, rfl⟩
abbrev main_call2_v5 : Ref sig .tc := ⟨.hbm, 151, rfl⟩
abbrev main_call2_v6 : Ref sig .tc := ⟨.hbm, 152, rfl⟩
abbrev main_call2_v7 : Ref sig .tc := ⟨.hbm, 153, rfl⟩
abbrev main_call2_cst_1 : Ref sig .tc := ⟨.hbm, 154, rfl⟩
abbrev main_call2_v8 : Ref sig .tc := ⟨.hbm, 155, rfl⟩
abbrev main_call2_cst_2 : Ref sig .tc := ⟨.hbm, 156, rfl⟩
abbrev main_call2_v9 : Ref sig .tc := ⟨.hbm, 157, rfl⟩
abbrev main_call2_v10 : Ref sig .tc := ⟨.hbm, 158, rfl⟩
abbrev main_call2_v11 : Ref sig .tc := ⟨.hbm, 159, rfl⟩
abbrev main_call2_v12 : Ref sig .tc := ⟨.hbm, 160, rfl⟩
abbrev main_call2_cst_3 : Ref sig .tc := ⟨.hbm, 161, rfl⟩
abbrev main_call2_v13 : Ref sig .tc := ⟨.hbm, 162, rfl⟩
abbrev main_call2_cst_4 : Ref sig .tc := ⟨.hbm, 163, rfl⟩
abbrev main_call2_call0_v0 : Ref sig .tc := ⟨.hbm, 164, rfl⟩
abbrev main_call2_call0_v1 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_cst_14 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_call3_cst : Ref sig .tc := ⟨.hbm, 181, rfl⟩
abbrev main_call3_v0 : Ref sig .tc := ⟨.hbm, 182, rfl⟩
abbrev main_v101 : Ref sig .tc := ⟨.hbm, 183, rfl⟩
abbrev main_v102 : Ref sig .tc := ⟨.hbm, 184, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  transposes_S256x256_S256x256_1_0 : S256x256.Transposes [1, 0] S256x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S1x256_S300000x256_0_1 : S1x256.BroadcastsInDim S300000x256 (![0, 1] : Fin 2 → Fin S300000x256.rank)
  bcast_S_S300000x256 : S_.BroadcastsInDim S300000x256 (![] : Fin 0 → Fin S300000x256.rank)
  bcast_S_S300000 : S_.BroadcastsInDim S300000 (![] : Fin 0 → Fin S300000.rank)
  bcast_S300000_S300000x1_0 : S300000.BroadcastsInDim S300000x1 (![0] : Fin 1 → Fin S300000x1.rank)
  bcast_S_S10000x256 : S_.BroadcastsInDim S10000x256 (![] : Fin 0 → Fin S10000x256.rank)
  reducesTo_S10000x256_S256_d0 : S10000x256.ReducesTo [0] S256
  h_S_ : 0 < S_.numel
  bcast_S_S1x256 : S_.BroadcastsInDim S1x256 (![] : Fin 0 → Fin S1x256.rank)
  reducesTo_S300000x256_S256_d0 : S300000x256.ReducesTo [0] S256
  dot_S10000x256_S256x256_S10000x256_1_0_0_1_n_n_wf : DotDims.WF S10000x256 S256x256 S10000x256 [1] [0] [0] [1] [] []
  dot_S300000x256_S256x256_S300000x256_1_0_0_1_n_n_wf : DotDims.WF S300000x256 S256x256 S300000x256 [1] [0] [0] [1] [] []
  gather_S10000x256_S300000x1_S300000x256_1_0_n_n_0_1_1256_wf : GatherDims.WF S10000x256 S300000x1 S300000x256 [1] [0] [] [0] [] 1 ![1, 256]
  scatter_S10000x256_S300000x1_S300000x256_1_0_0_1_wf : ScatterDims.WF S10000x256 S300000x1 S300000x256 [1] [0] [0] 1

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S300000x256_S256x256_S300000x256_1_0_0_1_n_n : DotDims S300000x256 S256x256 S300000x256 where
  lhsContracting := [1]
  rhsContracting := [0]
  lhsNonContracting := [0]
  rhsNonContracting := [1]
  lhsBatch := []
  rhsBatch := []
  wf := dot_S300000x256_S256x256_S300000x256_1_0_0_1_n_n_wf
def gather_S10000x256_S300000x1_S300000x256_1_0_n_n_0_1_1256 : GatherDims S10000x256 S300000x1 S300000x256 where
  offsetDims := [1]
  collapsedSliceDims := [0]
  operandBatchingDims := []
  startIndicesBatchingDims := []
  startIndexMap := [0]
  indexVectorDim := 1
  sliceSizes := ![1, 256]
  wf := gather_S10000x256_S300000x1_S300000x256_1_0_n_n_0_1_1256_wf
def scatter_S10000x256_S300000x1_S300000x256_1_0_0_1 : ScatterDims S10000x256 S300000x1 S300000x256 where
  updateWindowDims := [1]
  insertedWindowDims := [0]
  scatterDimsToOperandDims := [0]
  indexVectorDim := 1
  wf := scatter_S10000x256_S300000x1_S300000x256_1_0_0_1_wf

class Facts : Prop extends Facts₀ where

variable [Facts]
-- ==== Proof.Spec.lean ====
/- The gated graph-convolution layer as plain mathematics over the extended reals.

   Nodes carry feature rows `h r` (10000 rows of 256), edges carry rows `e q` (300000 rows of 256), and
   `ei` lists for every edge its aggregation node (row 0) and its neighbour node (row 1). Five affine maps
   (`x ↦ x wᵀ + b`) give Uh, Vh, Bh, Ch on nodes and Ae on edges. A message is `logistic (e q) * Vh (nbr q)`;
   messages are summed onto their aggregation node. The node pre-activation is `Uh + agg`, the edge
   pre-activation `Ae + Bh (agg node) + Ch (nbr)`. Each is normalised column by column over its whole
   batch (mean and variance over all rows), scaled, shifted, clamped at zero and added to the input row.

   Two spellings are carried side by side, chosen by a Boolean `k`:
   * a table row read at an index word: with `k = true` a word outside `[0, 9999]` (after a negative word
     is shifted up by 10000) reads the fill value; with `k = false` the row index is clamped;
   * the variance: with `k = true` the mean of squares minus the squared mean, with `k = false` the mean
     of squared deviations.
   On index words in range and finite rows the two spellings agree. -/
import Idealize.ShloMosaic.PureOps.Ideal
import Idealize.ShloMosaic.Lib.ValueIdx

noncomputable section

namespace Cert.Gcn

open Idealize.ShloMosaic Idealize.ShloMosaic.ValueIdx

abbrev SN : Shape := ⟨2, ![10000, 256]⟩
abbrev SE : Shape := ⟨2, ![300000, 256]⟩
abbrev SW : Shape := ⟨2, ![256, 256]⟩
abbrev SB : Shape := ⟨1, ![256]⟩
abbrev SI : Shape := ⟨2, ![2, 300000]⟩
abbrev SQ : Shape := ⟨2, ![300000, 1]⟩

/-- The seventeen arguments. -/
structure Inputs where
  h : SN.Idx → EReal
  e : SE.Idx → EReal
  ei : SI.Idx → BitVec 32
  Uw : SW.Idx → EReal
  Ub : SB.Idx → EReal
  Vw : SW.Idx → EReal
  Vb : SB.Idx → EReal
  Aw : SW.Idx → EReal
  Ab : SB.Idx → EReal
  Bw : SW.Idx → EReal
  Bb : SB.Idx → EReal
  Cw : SW.Idx → EReal
  Cb : SB.Idx → EReal
  gh : SB.Idx → EReal
  bh : SB.Idx → EReal
  ge : SB.Idx → EReal
  be : SB.Idx → EReal

/-- `(a wᵀ + b)` at row `r`, column `j`. -/
def lin {R : ℕ} (a : (⟨2, ![R, 256]⟩ : Shape).Idx → EReal) (w : SW.Idx → EReal) (b : SB.Idx → EReal)
    (r : Fin R) (j : Fin 256) : EReal :=
  (∑ c : Fin 256, a (ix2 r c) * w (ix2 j c)) + b (ix1 j)

/-- An index word with a negative value shifted up by the table's 10000 rows. -/
def nrm (v : BitVec 32) : BitVec 32 := if v.toInt < 0 then v + 10000#32 else v

/-- The table row an index word reads, clamped into the table. -/
def row (v : BitVec 32) : Fin 10000 := ⟨min (nrm v).toInt.toNat 9999, by omega⟩

/-- The word is a row of the table once shifted. -/
def inTable (v : BitVec 32) : Prop := 0 ≤ (nrm v).toInt ∧ (nrm v).toInt ≤ 9999

instance (v : BitVec 32) : Decidable (inTable v) := by unfold inTable; infer_instance

/-- What a read outside the table is filled with in the spelling `k = true`. -/
def fill : EReal := Ideal.ofBits .f32 0x7FC00000#32

/-- Row `v` of a table, column `j`, in either spelling. -/
def take (k : Bool) (tbl : Fin 10000 → Fin 256 → EReal) (v : BitVec 32) (j : Fin 256) : EReal :=
  if k = true ∧ ¬ inTable v then fill else tbl (row v) j

/-- How the sum of messages onto nodes is indexed: one index word per edge names the node row. -/
def sdims : ScatterDims SN SQ SE where
  updateWindowDims := [1]
  insertedWindowDims := [0]
  scatterDimsToOperandDims := [0]
  indexVectorDim := 1

/-- The three literals: the two batch sizes and the variance's guard. -/
def cN : EReal := Ideal.ofBits .f32 0x461C4000#32
def cE : EReal := Ideal.ofBits .f32 0x48927C00#32
def eps : EReal := Ideal.ofBits .f32 0x3727C5AC#32

/-- Column mean over a batch of `R` rows, divided by the literal `cnt`. -/
def mean {R : ℕ} (cnt : EReal) (p : Fin R → Fin 256 → EReal) (j : Fin 256) : EReal :=
  Ideal.div (∑ r : Fin R, p r j) cnt

/-- Column variance over the batch, in either spelling. -/
def var (k : Bool) {R : ℕ} (cnt : EReal) (p : Fin R → Fin 256 → EReal) (j : Fin 256) : EReal :=
  if k = true then Ideal.div (∑ r : Fin R, p r j * p r j) cnt - mean cnt p j * mean cnt p j
  else Ideal.div (∑ r : Fin R, (p r j - mean cnt p j) * (p r j - mean cnt p j)) cnt

/-- Normalise, scale, shift, clamp at zero, add the residual row. -/
def bn (k : Bool) {R : ℕ} (cnt : EReal) (p : Fin R → Fin 256 → EReal) (g b : SB.Idx → EReal)
    (res : Fin R → Fin 256 → EReal) (r : Fin R) (j : Fin 256) : EReal :=
  res r j + max (((p r j - mean cnt p j) * Ideal.rsqrt (var k cnt p j + eps)) * g (ix1 j) + b (ix1 j)) 0

variable (k : Bool) (x : Inputs)

def src (q : Fin 300000) : BitVec 32 := x.ei (ix2 0 q)
def dst (q : Fin 300000) : BitVec 32 := x.ei (ix2 1 q)

def Uh (r : Fin 10000) (j : Fin 256) : EReal := lin x.h x.Uw x.Ub r j
def Vh (r : Fin 10000) (j : Fin 256) : EReal := lin x.h x.Vw x.Vb r j
def Bh (r : Fin 10000) (j : Fin 256) : EReal := lin x.h x.Bw x.Bb r j
def Ch (r : Fin 10000) (j : Fin 256) : EReal := lin x.h x.Cw x.Cb r j
def Ae (q : Fin 300000) (j : Fin 256) : EReal := lin x.e x.Aw x.Ab q j

/-- The gated message of edge `q`. -/
def msg (q : Fin 300000) (j : Fin 256) : EReal := Ideal.logistic (x.e (ix2 q j)) * take k (Vh x) (dst x q) j

/-- The messages summed onto their aggregation nodes: zero plus every message whose index word names the row. -/
def agg : SN.Idx → EReal :=
  Ideal.hostScatterAdd sdims (fun _ => 0) (fun i : SQ.Idx => src x (i 0)) (fun i : SE.Idx => msg k x (i 0) (i 1))

def npre (r : Fin 10000) (j : Fin 256) : EReal := Uh x r j + agg k x (ix2 r j)
def epre (q : Fin 300000) (j : Fin 256) : EReal := (Ae x q j + take k (Bh x) (src x q) j) + take k (Ch x) (dst x q) j

/-- The two results. -/
def hout (r : Fin 10000) (j : Fin 256) : EReal :=
  bn k cN (npre k x) x.gh x.bh (fun r j => x.h (ix2 r j)) r j
def eout (q : Fin 300000) (j : Fin 256) : EReal :=
  bn k cE (epre k x) x.ge x.be (fun q j => x.e (ix2 q j)) q j

/-- A finite extended real. -/
def IsReal (t : EReal) : Prop := t ≠ ⊤ ∧ t ≠ ⊥

/-- Every float argument holds finite numbers only. -/
structure Inputs.Finite : Prop where
  h : ∀ i, IsReal (x.h i)
  e : ∀ i, IsReal (x.e i)
  Uw : ∀ i, IsReal (x.Uw i)
  Ub : ∀ i, IsReal (x.Ub i)
  Vw : ∀ i, IsReal (x.Vw i)
  Vb : ∀ i, IsReal (x.Vb i)
  Aw : ∀ i, IsReal (x.Aw i)
  Ab : ∀ i, IsReal (x.Ab i)
  Bw : ∀ i, IsReal (x.Bw i)
  Bb : ∀ i, IsReal (x.Bb i)
  Cw : ∀ i, IsReal (x.Cw i)
  Cb : ∀ i, IsReal (x.Cb i)
  gh : ∀ i, IsReal (x.gh i)
  bh : ∀ i, IsReal (x.bh i)
  ge : ∀ i, IsReal (x.ge i)
  be : ∀ i, IsReal (x.be i)

/-- Every index word names a node row. -/
def Inputs.InRange : Prop := ∀ i, 0 ≤ (x.ei i).toInt ∧ (x.ei i).toInt < 10000

end Cert.Gcn

end
-- ==== Proof.KInputs.lean ====
/- The kernel program's seventeen argument arrays, read off a memory, as the layer's inputs. -/
import proofs.«421314_j74577812128000_1_alg».proof.KernelIdeal
import proofs.«421314_j74577812128000_1_alg».proof.Proof.Spec

noncomputable section

namespace Cert.KernelIdeal.Hand

open Idealize.ShloMosaic Idealize.SL.Sem Cert.KernelIdeal

/-- The layer's inputs as core `c` finds them in the memory `m`. -/
def kin (m : (ℓ : Loc nD τ sig) → Buf (Elt Ideal) ℓ) (c : Dev nD) : Cert.Gcn.Inputs where
  h := m ((c.tc : Thread nD τ).loc main_arg0)
  e := m ((c.tc : Thread nD τ).loc main_arg1)
  ei := m ((c.tc : Thread nD τ).loc main_arg2)
  Uw := m ((c.tc : Thread nD τ).loc main_arg3)
  Ub := m ((c.tc : Thread nD τ).loc main_arg4)
  Vw := m ((c.tc : Thread nD τ).loc main_arg5)
  Vb := m ((c.tc : Thread nD τ).loc main_arg6)
  Aw := m ((c.tc : Thread nD τ).loc main_arg7)
  Ab := m ((c.tc : Thread nD τ).loc main_arg8)
  Bw := m ((c.tc : Thread nD τ).loc main_arg9)
  Bb := m ((c.tc : Thread nD τ).loc main_arg10)
  Cw := m ((c.tc : Thread nD τ).loc main_arg11)
  Cb := m ((c.tc : Thread nD τ).loc main_arg12)
  gh := m ((c.tc : Thread nD τ).loc main_arg13)
  bh := m ((c.tc : Thread nD τ).loc main_arg14)
  ge := m ((c.tc : Thread nD τ).loc main_arg15)
  be := m ((c.tc : Thread nD τ).loc main_arg16)

end Cert.KernelIdeal.Hand

end
-- ==== Proof.RInputs.lean ====
/- The reference program's seventeen argument arrays, read off a memory, as the layer's inputs. -/
import proofs.«421314_j74577812128000_1_alg».proof.ReferenceIdeal
import proofs.«421314_j74577812128000_1_alg».proof.Proof.Spec

noncomputable section

namespace Cert.ReferenceIdeal.Hand

open Idealize.ShloMosaic Idealize.SL.Sem Cert.ReferenceIdeal

/-- The layer's inputs as core `c` finds them in the memory `m`. -/
def rin (m : (ℓ : Loc nD τ sig) → Buf (Elt Ideal) ℓ) (c : Dev nD) : Cert.Gcn.Inputs where
  h := m ((c.tc : Thread nD τ).loc main_arg0)
  e := m ((c.tc : Thread nD τ).loc main_arg1)
  ei := m ((c.tc : Thread nD τ).loc main_arg2)
  Uw := m ((c.tc : Thread nD τ).loc main_arg3)
  Ub := m ((c.tc : Thread nD τ).loc main_arg4)
  Vw := m ((c.tc : Thread nD τ).loc main_arg5)
  Vb := m ((c.tc : Thread nD τ).loc main_arg6)
  Aw := m ((c.tc : Thread nD τ).loc main_arg7)
  Ab := m ((c.tc : Thread nD τ).loc main_arg8)
  Bw := m ((c.tc : Thread nD τ).loc main_arg9)
  Bb := m ((c.tc : Thread nD τ).loc main_arg10)
  Cw := m ((c.tc : Thread nD τ).loc main_arg11)
  Cb := m ((c.tc : Thread nD τ).loc main_arg12)
  gh := m ((c.tc : Thread nD τ).loc main_arg13)
  bh := m ((c.tc : Thread nD τ).loc main_arg14)
  ge := m ((c.tc : Thread nD τ).loc main_arg15)
  be := m ((c.tc : Thread nD τ).loc main_arg16)

end Cert.ReferenceIdeal.Hand

end
-- ==== Proof.Rd.lean ====
/- Reading an array of the ideal instance as a plain function into the extended reals (or into 32-bit words). -/
import Idealize.ShloMosaic.PureOps.Ideal

namespace Cert.Gcn

open Idealize.ShloMosaic

/-- A float array (of any format: every format is the extended reals here) as a function of its index. -/
abbrev rd {S : Shape} (v : S.Idx → EReal) : S.Idx → EReal := v

/-- A 32-bit integer array as a function of its index. -/
abbrev rdi {S : Shape} (v : S.Idx → BitVec 32) : S.Idx → BitVec 32 := v

end Cert.Gcn
-- ==== Proof.KR0.lean ====
/- Region 0 of the kernel's program, the four node-side linear projections, read as whole arrays.

   The region walks the 10000 node rows in five blocks of 2000. At each block it multiplies the block of
   rows by four 256 x 256 matrices (already transposed, so the product contracts the row's column index
   with the matrix's row index) and adds to every row of each product one bias row. Over the extended
   reals the narrowing of the rows to a shorter float format changes nothing, the product into a zero
   accumulator is the plain sum of products, and the broadcast of a one-row array reads that row.

   First the value one block's store holds at a row and column of the block; then what a block writes
   back, as the block of ONE function of the region's input arrays; then, since the five blocks tile
   the 10000 rows (row r lies in block r / 2000), each output array is that function everywhere. -/
import proofs.«421314_j74577812128000_1_alg».proof.Proof.Gen.KernelIdeal.Frame
import proofs.«421314_j74577812128000_1_alg».proof.Proof.Rd
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Hand

open Idealize.ShloMosaic Idealize.ShloMosaic.ValueIdx Idealize.ShloMosaic.TcCoe Idealize.SL.Sem Cert.KernelIdeal Cert.KernelIdeal.Gen
open Idealize.ShloMosaic.Pipeline (Dat)
open Cert.Gcn (rd)

-- The buffer contents the region is entered with: every statement below holds at any.
variable (V : (c : Dev nD) → (b : Ref sig .tc) → Buf (Elt Ideal) ((c : Thread nD τ).loc b))

namespace R0

/-! ## One block's product at a row and a column -/

/-- The product's left operand index keeps the output's row, -/
theorem lhs_proj_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- and its column is the contracted position. -/
theorem lhs_proj_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- The right operand's row is the contracted position, -/
theorem rhs_proj_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- and its column the output's column. -/
theorem rhs_proj_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A block of rows times a matrix, into the zero accumulator, at row `p` and column `j`: the sum over the
    contracted position `s` of row entry `(p, s)` times matrix entry `(s, j)`. -/
theorem proj_apply (x : FVec Ideal S2000x256 .bf16) (w : FVec Ideal S256x256 .bf16) (p : Fin 2000) (j : Fin 256) :
    matmul dot_S2000x256_S256x256_S2000x256_1_0_0_1_n_n none x w (constant (F := Ideal) S2000x256 .f32 0x00000000#32) (ix2 p j)
      = ∑ s : Fin 256, x (ix2 p s) * w (ix2 s j) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p j) ((contrEquiv1 dot_S2000x256_S256x256_S2000x256_1_0_0_1_n_n 256 rfl rfl).symm k) = ix2 p k := funext fun a => Fin.ext (by
    match a with
    | ⟨0, _⟩ => exact lhs_proj_0 _ _
    | ⟨1, _⟩ => exact (lhs_proj_1 _ _).trans hk)
  have er : dot_S2000x256_S256x256_S2000x256_1_0_0_1_n_n.rhsIdx (ix2 p j) ((contrEquiv1 dot_S2000x256_S256x256_S2000x256_1_0_0_1_n_n 256 rfl rfl).symm k) = ix2 k j := funext fun a => Fin.ext (by
    match a with
    | ⟨0, _⟩ => exact (rhs_proj_0 _ _).trans hk
    | ⟨1, _⟩ => exact rhs_proj_1 _ _)
  rw [el, er]

/-- The value stored for the first projection at row `p`, column `j` of the block: the row of `x0` against column
    `j` of the matrix, plus the bias row's entry `j`. -/
theorem pay3_apply (x0 : Vec Ideal S2000x256 .f32) (w : Vec Ideal S256x256 .bf16) (b : Vec Ideal S1x256 .f32) (p : Fin 2000) (j : Fin 256) :
    (k0_pay3 (F := Ideal) x0 w b) (ix2 p j) = (∑ s : Fin 256, x0 (ix2 p s) * w (ix2 s j)) + b (ix2 (0 : Fin 1) j) := by
  unfold k0_pay3 k0_pay2
  dsimp only
  rw [addf_apply, broadcastTo_1b_ab_apply, shapeCast_self, shapeCast_self, proj_apply]
  rfl

/-! ## The projection as one function of whole arrays, and one block of it -/

/-- Rows `h` against the matrix `w`, plus the bias row `b`: entry `(r, j)` is `∑ s, h (r, s) * w (s, j) + b (0, j)`. -/
def proj (h : S10000x256.Idx → EReal) (w : S256x256.Idx → EReal) (b : S1x256.Idx → EReal) : S10000x256.Idx → EReal :=
  fun i => (∑ s : Fin 256, h (ix2 (⟨(i 0).val, idx2_lt0 i⟩ : Fin 10000) s) * w (ix2 s (⟨(i 1).val, idx2_lt1 i⟩ : Fin 256)))
    + b (ix2 (0 : Fin 1) (⟨(i 1).val, idx2_lt1 i⟩ : Fin 256))

/-- The stored value at any index of the block, the index's two coordinates named by their values. -/
theorem pay3_at (x0 : Vec Ideal S2000x256 .f32) (w : Vec Ideal S256x256 .bf16) (b : Vec Ideal S1x256 .f32) (y : S2000x256.Idx) :
    (k0_pay3 (F := Ideal) x0 w b) y
      = (∑ s : Fin 256, x0 (ix2 (⟨(y 0).val, idx2_lt0 y⟩ : Fin 2000) s) * w (ix2 s (⟨(y 1).val, idx2_lt1 y⟩ : Fin 256)))
        + b (ix2 (0 : Fin 1) (⟨(y 1).val, idx2_lt1 y⟩ : Fin 256)) := by
  obtain ⟨p, q, rfl⟩ : ∃ (p : Fin 2000) (q : Fin 256), y = ix2 p q := ⟨y 0, y 1, eq_ix2 y⟩
  exact pay3_apply x0 w b p q

/-- The other three stores hold the same expression of their own matrix and bias blocks (the fourth computes the
    product in one step and adds the bias row in the next). -/
theorem pay4_at (x0 : Vec Ideal S2000x256 .f32) (w : Vec Ideal S256x256 .bf16) (b : Vec Ideal S1x256 .f32) (y : S2000x256.Idx) :
    (k0_pay4 (F := Ideal) x0 w b) y
      = (∑ s : Fin 256, x0 (ix2 (⟨(y 0).val, idx2_lt0 y⟩ : Fin 2000) s) * w (ix2 s (⟨(y 1).val, idx2_lt1 y⟩ : Fin 256)))
        + b (ix2 (0 : Fin 1) (⟨(y 1).val, idx2_lt1 y⟩ : Fin 256)) :=
  pay3_at x0 w b y
theorem pay5_at (x0 : Vec Ideal S2000x256 .f32) (w : Vec Ideal S256x256 .bf16) (b : Vec Ideal S1x256 .f32) (y : S2000x256.Idx) :
    (k0_pay5 (F := Ideal) x0 w b) y
      = (∑ s : Fin 256, x0 (ix2 (⟨(y 0).val, idx2_lt0 y⟩ : Fin 2000) s) * w (ix2 s (⟨(y 1).val, idx2_lt1 y⟩ : Fin 256)))
        + b (ix2 (0 : Fin 1) (⟨(y 1).val, idx2_lt1 y⟩ : Fin 256)) :=
  pay3_at x0 w b y
theorem pay16_at (x0 : Vec Ideal S2000x256 .f32) (w : Vec Ideal S256x256 .bf16) (b : Vec Ideal S1x256 .f32) (y : S2000x256.Idx) :
    (k0_pay1 (F := Ideal) (k0_pay6 (F := Ideal) x0 w) b) y
      = (∑ s : Fin 256, x0 (ix2 (⟨(y 0).val, idx2_lt0 y⟩ : Fin 2000) s) * w (ix2 s (⟨(y 1).val, idx2_lt1 y⟩ : Fin 256)))
        + b (ix2 (0 : Fin 1) (⟨(y 1).val, idx2_lt1 y⟩ : Fin 256)) :=
  pay3_at x0 w b y

/-- If a block of 2000 rows `x0` is rows `2000 n …` of `h`, and the matrix and bias blocks are the whole arrays, the
    block's value at `y` is the projection at the array index `i` that sits `2000 n` rows further down. -/
theorem proj_block (h : S10000x256.Idx → EReal) (w : S256x256.Idx → EReal) (b : S1x256.Idx → EReal)
    (x0 : S2000x256.Idx → EReal) (x1 : S256x256.Idx → EReal) (x2 : S1x256.Idx → EReal) (n : Nat)
    (h0 : ∀ (x : S2000x256.Idx) (k : S10000x256.Idx), (k 0).val = 2000 * n + (x 0).val → (k 1).val = (x 1).val → x0 x = h k)
    (h1 : x1 = w) (h2 : x2 = b)
    (y : S2000x256.Idx) (i : S10000x256.Idx) (hi0 : (i 0).val = 2000 * n + (y 0).val) (hi1 : (i 1).val = (y 1).val) :
    (∑ s : Fin 256, x0 (ix2 (⟨(y 0).val, idx2_lt0 y⟩ : Fin 2000) s) * x1 (ix2 s (⟨(y 1).val, idx2_lt1 y⟩ : Fin 256)))
        + x2 (ix2 (0 : Fin 1) (⟨(y 1).val, idx2_lt1 y⟩ : Fin 256))
      = proj h w b i := by
  subst h1 h2
  unfold proj
  have e1 : (⟨(i 1).val, idx2_lt1 i⟩ : Fin 256) = ⟨(y 1).val, idx2_lt1 y⟩ := Fin.ext hi1
  rw [e1]
  refine congrArg (· + _) (Finset.sum_congr rfl fun s _ => congrArg (· * _) ?_)
  exact h0 _ _ hi0 rfl

/-! ## The blocks of the region's windows -/

theorem hz : (![0, 0] : Fin 2 → Nat) = fun _ => 0 := funext fun a => by fin_cases a <;> rfl

/-- The row windows (the node rows and the four outputs) sit at block `t` of rows and block 0 of columns. -/
theorem idx_rows : ∀ t : Fin cfg0.N, win0_0.index t (0 : Fin 2) = t.val ∧ win0_0.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-- The matrix and bias windows sit at block (0, 0) at every point. -/
theorem idx_whole : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- The node rows' block at point `t` is rows `2000 t … 2000 t + 1999` of the array. -/
theorem rows_apply (c : Dev nD) (t : Fin cfg0.N) (x : S2000x256.Idx) (k : S10000x256.Idx)
    (hk0 : (k 0).val = 2000 * t.val + (x 0).val) (hk1 : (k 1).val = (x 1).val) :
    rd (S := S2000x256) (iblk0 V c 0 t) x = rd (S := S10000x256) (V c main_arg0) k := by
  obtain ⟨e0, e1, -⟩ := idx_rows t
  show V c main_arg0 (((cfg0.win 0).blk t).view.emb x) = V c main_arg0 k
  congr 1
  funext a
  apply Fin.ext
  match a with
  | ⟨0, _⟩ => show win0_0.index t (0 : Fin 2) * 2000 + 1 * (x 0).val = (k 0).val; rw [e0, hk0]; omega
  | ⟨1, _⟩ => show win0_0.index t (1 : Fin 2) * 256 + 1 * (x 1).val = (k 1).val; rw [e1, hk1]; omega

/-- The first matrix's block is the whole matrix at every point, -/
theorem whole1 (c : Dev nD) (t : Fin cfg0.N) : rd (S := S256x256) (iblk0 V c 1 t) = rd (S := S256x256) (V c main_v5) := by
  obtain ⟨⟨e0, e1⟩, -⟩ := idx_whole t
  funext x
  show V c main_v5 (((cfg0.win 1).blk t).view.emb x) = V c main_v5 x
  congr 1
  funext a
  apply Fin.ext
  match a with
  | ⟨0, _⟩ => show win0_1.index t (0 : Fin 2) * 256 + 1 * (x 0).val = (x 0).val; rw [e0]; omega
  | ⟨1, _⟩ => show win0_1.index t (1 : Fin 2) * 256 + 1 * (x 1).val = (x 1).val; rw [e1]; omega
/-- and the first bias row's block the whole row. -/
theorem whole2 (c : Dev nD) (t : Fin cfg0.N) : rd (S := S1x256) (iblk0 V c 2 t) = rd (S := S1x256) (V c main_v14) := by
  obtain ⟨-, ⟨e0, e1⟩, -⟩ := idx_whole t
  funext x
  show V c main_v14 (((cfg0.win 2).blk t).view.emb x) = V c main_v14 x
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 256 + 1 * (x 1).val = (x 1).val; rw [e1]; omega

/-- The second matrix's block is the whole matrix at every point, -/
theorem whole3 (c : Dev nD) (t : Fin cfg0.N) : rd (S := S256x256) (iblk0 V c 3 t) = rd (S := S256x256) (V c main_v7) := by
  obtain ⟨-, -, ⟨e0, e1⟩, -⟩ := idx_whole t
  funext x
  show V c main_v7 (((cfg0.win 3).blk t).view.emb x) = V c main_v7 x
  congr 1
  funext a
  apply Fin.ext
  match a with
  | ⟨0, _⟩ => show win0_3.index t (0 : Fin 2) * 256 + 1 * (x 0).val = (x 0).val; rw [e0]; omega
  | ⟨1, _⟩ => show win0_3.index t (1 : Fin 2) * 256 + 1 * (x 1).val = (x 1).val; rw [e1]; omega
/-- and the second bias row's block the whole row. -/
theorem whole4 (c : Dev nD) (t : Fin cfg0.N) : rd (S := S1x256) (iblk0 V c 4 t) = rd (S := S1x256) (V c main_v15) := by
  obtain ⟨-, -, -, ⟨e0, e1⟩, -⟩ := idx_whole t
  funext x
  show V c main_v15 (((cfg0.win 4).blk t).view.emb x) = V c main_v15 x
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 256 + 1 * (x 1).val = (x 1).val; rw [e1]; omega
/-- The third matrix's block is the whole matrix at every point, -/
theorem whole5 (c : Dev nD) (t : Fin cfg0.N) : rd (S := S256x256) (iblk0 V c 5 t) = rd (S := S256x256) (V c main_v9) := by
  obtain ⟨-, -, -, -, ⟨e0, e1⟩, -⟩ := idx_whole t
  funext x
  show V c main_v9 (((cfg0.win 5).blk t).view.emb x) = V c main_v9 x
  congr 1
  funext a
  apply Fin.ext
  match a with
  | ⟨0, _⟩ => show win0_5.index t (0 : Fin 2) * 256 + 1 * (x 0).val = (x 0).val; rw [e0]; omega
  | ⟨1, _⟩ => show win0_5.index t (1 : Fin 2) * 256 + 1 * (x 1).val = (x 1).val; rw [e1]; omega
/-- and the third bias row's block the whole row. -/
theorem whole6 (c : Dev nD) (t : Fin cfg0.N) : rd (S := S1x256) (iblk0 V c 6 t) = rd (S := S1x256) (V c main_v16) := by
  obtain ⟨-, -, -, -, -, ⟨e0, e1⟩, -⟩ := idx_whole t
  funext x
  show V c main_v16 (((cfg0.win 6).blk t).view.emb x) = V c main_v16 x
  congr 1
  funext a
  apply Fin.ext
  match a with
  | ⟨0, _⟩ => show win0_6.index t (0 : Fin 2) * 1 + 1 * (x 0).val = (x 0).val; rw [e0]; omega
  | ⟨1, _⟩ => show win0_6.index t (1 : Fin 2) * 256 + 1 * (x 1).val = (x 1).val; rw [e1]; omega
/-- The fourth matrix's block is the whole matrix at every point, -/
theorem whole7 (c : Dev nD) (t : Fin cfg0.N) : rd (S := S256x256) (iblk0 V c 7 t) = rd (S := S256x256) (V c main_v11) := by
  obtain ⟨-, -, -, -, -, -, ⟨e0, e1⟩, -⟩ := idx_whole t
  funext x
  show V c main_v11 (((cfg0.win 7).blk t).view.emb x) = V c main_v11 x
  congr 1
  funext a
  apply Fin.ext
  match a with
  | ⟨0, _⟩ => show win0_7.index t (0 : Fin 2) * 256 + 1 * (x 0).val = (x 0).val; rw [e0]; omega
  | ⟨1, _⟩ => show win0_7.index t (1 : Fin 2) * 256 + 1 * (x 1).val = (x 1).val; rw [e1]; omega
/-- and the fourth bias row's block the whole row. -/
theorem whole8 (c : Dev nD) (t : Fin cfg0.N) : rd (S := S1x256) (iblk0 V c 8 t) = rd (S := S1x256) (V c main_v17) := by
  obtain ⟨-, -, -, -, -, -, -, ⟨e0, e1⟩⟩ := idx_whole t
  funext x
  show V c main_v17 (((cfg0.win 8).blk t).view.emb x) = V c main_v17 x
  congr 1
  funext a
  apply Fin.ext
  match a with
  | ⟨0, _⟩ => show win0_8.index t (0 : Fin 2) * 1 + 1 * (x 0).val = (x 0).val; rw [e0]; omega
  | ⟨1, _⟩ => show win0_8.index t (1 : Fin 2) * 256 + 1 * (x 1).val = (x 1).val; rw [e1]; omega

/-! ## Output window 9: the first projection -/

/-- What point `t` writes back is block `t` of the projection of the region's input arrays. -/
theorem flushed9_eq (c : Dev nD) (t : Fin cfg0.N) :
    (dat0 V c).flushed 9 t = ((cfg0.win 9).blk t).view.read (Elt Ideal)
      (proj (rd (S := S10000x256) (V c main_arg0)) (rd (S := S256x256) (V c main_v5)) (rd (S := S1x256) (V c main_v14))) := by
  show (cfg0.win 9).cut (grid0.coords t) ((dat0 V c).after 9 t) = _
  rw [after0_9]
  unfold out0_9
  rw [View.canon_unit_zero hz]
  simp only [View.ld_unit_zero (S := S2000x256) hz, View.ld_unit_zero (S := S256x256) hz, View.ld_unit_zero (S := S1x256) hz]
  obtain ⟨-, -, e0, e1, -⟩ := idx_rows t
  funext y
  show k0_pay3 (F := Ideal) (iblk0 V c 0 t) (iblk0 V c 1 t) (iblk0 V c 2 t) ((cfg0.win 9).xinj (grid0.coords t) y)
    = proj _ _ _ (((cfg0.win 9).blk t).view.emb y)
  refine (pay3_at (iblk0 V c 0 t) (iblk0 V c 1 t) (iblk0 V c 2 t) ((cfg0.win 9).xinj (grid0.coords t) y)).trans ?_
  refine proj_block _ _ _ _ _ _ t.val (fun x k hk0 hk1 => rows_apply V c t x k hk0 hk1) (whole1 V c t) (whole2 V c t) _ _ ?_ ?_
  · show win0_9.index t (0 : Fin 2) * 2000 + 1 * (y 0).val = 2000 * t.val + (y 0).val
    rw [e0]; omega
  · show win0_9.index t (1 : Fin 2) * 256 + 1 * (y 1).val = (y 1).val
    rw [e1]; omega

/-- An index of the array is in point `t`'s block iff each coordinate is in the block's range on its axis. -/
theorem mem_blk9 (t : Fin cfg0.N) (i : S10000x256.Idx) :
    i ∈ ((cfg0.win 9).blk t).view.set ↔ ∀ a : Fin 2, win0_9.index t a * S2000x256.size a ≤ (i a).val ∧ (i a).val < win0_9.index t a * S2000x256.size a + S2000x256.size a := by
  show i ∈ ((View.whole main_v19_0).slice (win0_9.rect t)).set ↔ _
  rw [View.set_slice_whole, Rect.mem_set_unit]
  exact Iff.rfl

/-- Every index is in some point's block: row `r` in block `r / 2000`. -/
theorem cover9 (i : S10000x256.Idx) : ∃ t : Fin cfg0.N, (cfg0.win 9).flush t = true ∧ i ∈ ((cfg0.win 9).blk t).view.set := by
  have hN : cfg0.N = 5 := N_0
  have hi0 : (i 0).val < 10000 := idx2_lt0 i
  have hi1 : (i 1).val < 256 := idx2_lt1 i
  obtain ⟨t, ht⟩ : ∃ t : Fin cfg0.N, t.val = (i 0).val / 2000 := ⟨⟨(i 0).val / 2000, by rw [hN]; omega⟩, rfl⟩
  obtain ⟨-, -, e0, e1, -⟩ := idx_rows t
  refine ⟨t, flush0_9 t, ?_⟩
  rw [mem_blk9]
  intro a
  match a with
  | ⟨0, _⟩ => show win0_9.index t (0 : Fin 2) * 2000 ≤ (i 0).val ∧ (i 0).val < win0_9.index t (0 : Fin 2) * 2000 + 2000; rw [e0, ht]; omega
  | ⟨1, _⟩ => show win0_9.index t (1 : Fin 2) * 256 ≤ (i 1).val ∧ (i 1).val < win0_9.index t (1 : Fin 2) * 256 + 256; rw [e1]; omega

/-- So the array ends holding the projection everywhere. -/
theorem final9 (c : Dev nD) : (dat0 V c).arrAt 9 cfg0.N
    = proj (rd (S := S10000x256) (V c main_arg0)) (rd (S := S256x256) (V c main_v5)) (rd (S := S1x256) (V c main_v14)) :=
  (dat0 V c).arrAt_eq_of_cover 9 _ (fun t _ => flushed9_eq V c t) cover9

/-! ## Output window 10: the second projection -/

/-- What point `t` writes back is block `t` of the projection of the region's input arrays. -/
theorem flushed10_eq (c : Dev nD) (t : Fin cfg0.N) :
    (dat0 V c).flushed 10 t = ((cfg0.win 10).blk t).view.read (Elt Ideal)
      (proj (rd (S := S10000x256) (V c main_arg0)) (rd (S := S256x256) (V c main_v7)) (rd (S := S1x256) (V c main_v15))) := by
  show (cfg0.win 10).cut (grid0.coords t) ((dat0 V c).after 10 t) = _
  rw [after0_10]
  unfold out0_10
  rw [View.canon_unit_zero hz]
  simp only [View.ld_unit_zero (S := S2000x256) hz, View.ld_unit_zero (S := S256x256) hz, View.ld_unit_zero (S := S1x256) hz]
  obtain ⟨-, -, -, -, e0, e1, -⟩ := idx_rows t
  funext y
  show k0_pay4 (F := Ideal) (iblk0 V c 0 t) (iblk0 V c 3 t) (iblk0 V c 4 t) ((cfg0.win 10).xinj (grid0.coords t) y)
    = proj _ _ _ (((cfg0.win 10).blk t).view.emb y)
  refine (pay4_at (iblk0 V c 0 t) (iblk0 V c 3 t) (iblk0 V c 4 t) ((cfg0.win 10).xinj (grid0.coords t) y)).trans ?_
  refine proj_block _ _ _ _ _ _ t.val (fun x k hk0 hk1 => rows_apply V c t x k hk0 hk1) (whole3 V c t) (whole4 V c t) _ _ ?_ ?_
  · show win0_10.index t (0 : Fin 2) * 2000 + 1 * (y 0).val = 2000 * t.val + (y 0).val
    rw [e0]; omega
  · show win0_10.index t (1 : Fin 2) * 256 + 1 * (y 1).val = (y 1).val
    rw [e1]; omega

/-- An index of the array is in point `t`'s block iff each coordinate is in the block's range on its axis. -/
theorem mem_blk10 (t : Fin cfg0.N) (i : S10000x256.Idx) :
    i ∈ ((cfg0.win 10).blk t).view.set ↔ ∀ a : Fin 2, win0_10.index t a * S2000x256.size a ≤ (i a).val ∧ (i a).val < win0_10.index t a * S2000x256.size a + S2000x256.size a := by
  show i ∈ ((View.whole main_v19_1).slice (win0_10.rect t)).set ↔ _
  rw [View.set_slice_whole, Rect.mem_set_unit]
  exact Iff.rfl

/-- Every index is in some point's block: row `r` in block `r / 2000`. -/
theorem cover10 (i : S10000x256.Idx) : ∃ t : Fin cfg0.N, (cfg0.win 10).flush t = true ∧ i ∈ ((cfg0.win 10).blk t).view.set := by
  have hN : cfg0.N = 5 := N_0
  have hi0 : (i 0).val < 10000 := idx2_lt0 i
  have hi1 : (i 1).val < 256 := idx2_lt1 i
  obtain ⟨t, ht⟩ : ∃ t : Fin cfg0.N, t.val = (i 0).val / 2000 := ⟨⟨(i 0).val / 2000, by rw [hN]; omega⟩, rfl⟩
  obtain ⟨-, -, -, -, e0, e1, -⟩ := idx_rows t
  refine ⟨t, flush0_10 t, ?_⟩
  rw [mem_blk10]
  intro a
  match a with
  | ⟨0, _⟩ => show win0_10.index t (0 : Fin 2) * 2000 ≤ (i 0).val ∧ (i 0).val < win0_10.index t (0 : Fin 2) * 2000 + 2000; rw [e0, ht]; omega
  | ⟨1, _⟩ => show win0_10.index t (1 : Fin 2) * 256 ≤ (i 1).val ∧ (i 1).val < win0_10.index t (1 : Fin 2) * 256 + 256; rw [e1]; omega

/-- So the array ends holding the projection everywhere. -/
theorem final10 (c : Dev nD) : (dat0 V c).arrAt 10 cfg0.N
    = proj (rd (S := S10000x256) (V c main_arg0)) (rd (S := S256x256) (V c main_v7)) (rd (S := S1x256) (V c main_v15)) :=
  (dat0 V c).arrAt_eq_of_cover 10 _ (fun t _ => flushed10_eq V c t) cover10

/-! ## Output window 11: the third projection -/

/-- What point `t` writes back is block `t` of the projection of the region's input arrays. -/
theorem flushed11_eq (c : Dev nD) (t : Fin cfg0.N) :
    (dat0 V c).flushed 11 t = ((cfg0.win 11).blk t).view.read (Elt Ideal)
      (proj (rd (S := S10000x256) (V c main_arg0)) (rd (S := S256x256) (V c main_v9)) (rd (S := S1x256) (V c main_v16))) := by
  show (cfg0.win 11).cut (grid0.coords t) ((dat0 V c).after 11 t) = _
  rw [after0_11]
  unfold out0_11
  rw [View.canon_unit_zero hz]
  simp only [View.ld_unit_zero (S := S2000x256) hz, View.ld_unit_zero (S := S256x256) hz, View.ld_unit_zero (S := S1x256) hz]
  obtain ⟨-, -, -, -, -, -, e0, e1, -⟩ := idx_rows t
  funext y
  show k0_pay5 (F := Ideal) (iblk0 V c 0 t) (iblk0 V c 5 t) (iblk0 V c 6 t) ((cfg0.win 11).xinj (grid0.coords t) y)
    = proj _ _ _ (((cfg0.win 11).blk t).view.emb y)
  refine (pay5_at (iblk0 V c 0 t) (iblk0 V c 5 t) (iblk0 V c 6 t) ((cfg0.win 11).xinj (grid0.coords t) y)).trans ?_
  refine proj_block _ _ _ _ _ _ t.val (fun x k hk0 hk1 => rows_apply V c t x k hk0 hk1) (whole5 V c t) (whole6 V c t) _ _ ?_ ?_
  · show win0_11.index t (0 : Fin 2) * 2000 + 1 * (y 0).val = 2000 * t.val + (y 0).val
    rw [e0]; omega
  · show win0_11.index t (1 : Fin 2) * 256 + 1 * (y 1).val = (y 1).val
    rw [e1]; omega

/-- An index of the array is in point `t`'s block iff each coordinate is in the block's range on its axis. -/
theorem mem_blk11 (t : Fin cfg0.N) (i : S10000x256.Idx) :
    i ∈ ((cfg0.win 11).blk t).view.set ↔ ∀ a : Fin 2, win0_11.index t a * S2000x256.size a ≤ (i a).val ∧ (i a).val < win0_11.index t a * S2000x256.size a + S2000x256.size a := by
  show i ∈ ((View.whole main_v19_2).slice (win0_11.rect t)).set ↔ _
  rw [View.set_slice_whole, Rect.mem_set_unit]
  exact Iff.rfl

/-- Every index is in some point's block: row `r` in block `r / 2000`. -/
theorem cover11 (i : S10000x256.Idx) : ∃ t : Fin cfg0.N, (cfg0.win 11).flush t = true ∧ i ∈ ((cfg0.win 11).blk t).view.set := by
  have hN : cfg0.N = 5 := N_0
  have hi0 : (i 0).val < 10000 := idx2_lt0 i
  have hi1 : (i 1).val < 256 := idx2_lt1 i
  obtain ⟨t, ht⟩ : ∃ t : Fin cfg0.N, t.val = (i 0).val / 2000 := ⟨⟨(i 0).val / 2000, by rw [hN]; omega⟩, rfl⟩
  obtain ⟨-, -, -, -, -, -, e0, e1, -⟩ := idx_rows t
  refine ⟨t, flush0_11 t, ?_⟩
  rw [mem_blk11]
  intro a
  match a with
  | ⟨0, _⟩ => show win0_11.index t (0 : Fin 2) * 2000 ≤ (i 0).val ∧ (i 0).val < win0_11.index t (0 : Fin 2) * 2000 + 2000; rw [e0, ht]; omega
  | ⟨1, _⟩ => show win0_11.index t (1 : Fin 2) * 256 ≤ (i 1).val ∧ (i 1).val < win0_11.index t (1 : Fin 2) * 256 + 256; rw [e1]; omega

/-- So the array ends holding the projection everywhere. -/
theorem final11 (c : Dev nD) : (dat0 V c).arrAt 11 cfg0.N
    = proj (rd (S := S10000x256) (V c main_arg0)) (rd (S := S256x256) (V c main_v9)) (rd (S := S1x256) (V c main_v16)) :=
  (dat0 V c).arrAt_eq_of_cover 11 _ (fun t _ => flushed11_eq V c t) cover11

/-! ## Output window 12: the fourth projection -/

/-- What point `t` writes back is block `t` of the projection of the region's input arrays. -/
theorem flushed12_eq (c : Dev nD) (t : Fin cfg0.N) :
    (dat0 V c).flushed 12 t = ((cfg0.win 12).blk t).view.read (Elt Ideal)
      (proj (rd (S := S10000x256) (V c main_arg0)) (rd (S := S256x256) (V c main_v11)) (rd (S := S1x256) (V c main_v17))) := by
  show (cfg0.win 12).cut (grid0.coords t) ((dat0 V c).after 12 t) = _
  rw [after0_12]
  unfold out0_12
  rw [View.canon_unit_zero hz]
  simp only [View.ld_unit_zero (S := S2000x256) hz, View.ld_unit_zero (S := S256x256) hz, View.ld_unit_zero (S := S1x256) hz]
  obtain ⟨-, -, -, -, -, -, -, -, e0, e1⟩ := idx_rows t
  funext y
  show k0_pay1 (F := Ideal) (k0_pay6 (F := Ideal) (iblk0 V c 0 t) (iblk0 V c 7 t)) (iblk0 V c 8 t) ((cfg0.win 12).xinj (grid0.coords t) y)
    = proj _ _ _ (((cfg0.win 12).blk t).view.emb y)
  refine (pay16_at (iblk0 V c 0 t) (iblk0 V c 7 t) (iblk0 V c 8 t) ((cfg0.win 12).xinj (grid0.coords t) y)).trans ?_
  refine proj_block _ _ _ _ _ _ t.val (fun x k hk0 hk1 => rows_apply V c t x k hk0 hk1) (whole7 V c t) (whole8 V c t) _ _ ?_ ?_
  · show win0_12.index t (0 : Fin 2) * 2000 + 1 * (y 0).val = 2000 * t.val + (y 0).val
    rw [e0]; omega
  · show win0_12.index t (1 : Fin 2) * 256 + 1 * (y 1).val = (y 1).val
    rw [e1]; omega

/-- An index of the array is in point `t`'s block iff each coordinate is in the block's range on its axis. -/
theorem mem_blk12 (t : Fin cfg0.N) (i : S10000x256.Idx) :
    i ∈ ((cfg0.win 12).blk t).view.set ↔ ∀ a : Fin 2, win0_12.index t a * S2000x256.size a ≤ (i a).val ∧ (i a).val < win0_12.index t a * S2000x256.size a + S2000x256.size a := by
  show i ∈ ((View.whole main_v19_3).slice (win0_12.rect t)).set ↔ _
  rw [View.set_slice_whole, Rect.mem_set_unit]
  exact Iff.rfl

/-- Every index is in some point's block: row `r` in block `r / 2000`. -/
theorem cover12 (i : S10000x256.Idx) : ∃ t : Fin cfg0.N, (cfg0.win 12).flush t = true ∧ i ∈ ((cfg0.win 12).blk t).view.set := by
  have hN : cfg0.N = 5 := N_0
  have hi0 : (i 0).val < 10000 := idx2_lt0 i
  have hi1 : (i 1).val < 256 := idx2_lt1 i
  obtain ⟨t, ht⟩ : ∃ t : Fin cfg0.N, t.val = (i 0).val / 2000 := ⟨⟨(i 0).val / 2000, by rw [hN]; omega⟩, rfl⟩
  obtain ⟨-, -, -, -, -, -, -, -, e0, e1⟩ := idx_rows t
  refine ⟨t, flush0_12 t, ?_⟩
  rw [mem_blk12]
  intro a
  match a with
  | ⟨0, _⟩ => show win0_12.index t (0 : Fin 2) * 2000 ≤ (i 0).val ∧ (i 0).val < win0_12.index t (0 : Fin 2) * 2000 + 2000; rw [e0, ht]; omega
  | ⟨1, _⟩ => show win0_12.index t (1 : Fin 2) * 256 ≤ (i 1).val ∧ (i 1).val < win0_12.index t (1 : Fin 2) * 256 + 256; rw [e1]; omega

/-- So the array ends holding the projection everywhere. -/
theorem final12 (c : Dev nD) : (dat0 V c).arrAt 12 cfg0.N
    = proj (rd (S := S10000x256) (V c main_arg0)) (rd (S := S256x256) (V c main_v11)) (rd (S := S1x256) (V c main_v17)) :=
  (dat0 V c).arrAt_eq_of_cover 12 _ (fun t _ => flushed12_eq V c t) cover12

end R0

/-! ## The four output arrays, entry by entry -/

/-- The first projection's array after the region, entry `(r, j)`: row `r` of the node rows against column `j` of
    its matrix, plus entry `j` of its bias row. -/
theorem r0_out9 (c : Dev nD) (r : Fin 10000) (j : Fin 256) :
    rd (S := S10000x256) ((dat0 V c).arrAt 9 cfg0.N) (ix2 r j)
      = (∑ s : Fin 256, rd (S := S10000x256) (V c main_arg0) (ix2 r s) * rd (S := S256x256) (V c main_v5) (ix2 s j))
        + rd (S := S1x256) (V c main_v14) (ix2 0 j) := by
  rw [R0.final9 V c]
  rfl

/-- The second projection's array after the region, entry `(r, j)`: row `r` of the node rows against column `j` of
    its matrix, plus entry `j` of its bias row. -/
theorem r0_out10 (c : Dev nD) (r : Fin 10000) (j : Fin 256) :
    rd (S := S10000x256) ((dat0 V c).arrAt 10 cfg0.N) (ix2 r j)
      = (∑ s : Fin 256, rd (S := S10000x256) (V c main_arg0) (ix2 r s) * rd (S := S256x256) (V c main_v7) (ix2 s j))
        + rd (S := S1x256) (V c main_v15) (ix2 0 j) := by
  rw [R0.final10 V c]
  rfl

/-- The third projection's array after the region, entry `(r, j)`: row `r` of the node rows against column `j` of
    its matrix, plus entry `j` of its bias row. -/
theorem r0_out11 (c : Dev nD) (r : Fin 10000) (j : Fin 256) :
    rd (S := S10000x256) ((dat0 V c).arrAt 11 cfg0.N) (ix2 r j)
      = (∑ s : Fin 256, rd (S := S10000x256) (V c main_arg0) (ix2 r s) * rd (S := S256x256) (V c main_v9) (ix2 s j))
        + rd (S := S1x256) (V c main_v16) (ix2 0 j) := by
  rw [R0.final11 V c]
  rfl

/-- The fourth projection's array after the region, entry `(r, j)`: row `r` of the node rows against column `j` of
    its matrix, plus entry `j` of its bias row. -/
theorem r0_out12 (c : Dev nD) (r : Fin 10000) (j : Fin 256) :
    rd (S := S10000x256) ((dat0 V c).arrAt 12 cfg0.N) (ix2 r j)
      = (∑ s : Fin 256, rd (S := S10000x256) (V c main_arg0) (ix2 r s) * rd (S := S256x256) (V c main_v11) (ix2 s j))
        + rd (S := S1x256) (V c main_v17) (ix2 0 j) := by
  rw [R0.final12 V c]
  rfl

end Cert.KernelIdeal.Hand

end
-- ==== Proof.KR1.lean ====
/- Region 1 of the layer (the edge projection and the gating factor), read as whole arrays.

   The region walks the 300000 edge rows in 150 blocks of 2000 rows.  At each block it leaves, in its first result, the block's
   rows times a 256 x 256 weight matrix plus a bias row, and in its second result the logistic of the block times the
   matching block of a second edge-indexed array, element by element.  Here both results are read index by index as
   functions of the region's whole input arrays, whatever those arrays hold when the region starts:

   * `r1_out5`: second result at (q, j) = logistic (e q j) * v q j;
   * `r1_out4`: first result at (q, j) = (sum over s of e q s * w s j) + b 0 j.

   The steps: what the body stores at an index of a block (a matrix product into a zero accumulator is the plain sum over
   the contracted coordinate; the bias row is repeated down the rows; narrowing the float format changes nothing over the
   extended reals); an element (p, j) of block t of an edge-indexed array is element (2000 t + p, j) of the array, while the
   weight and bias blocks are their whole arrays; row q lies in block q / 2000, so the blocks fill the array. -/
import proofs.«421314_j74577812128000_1_alg».proof.Proof.Gen.KernelIdeal.Frame
import proofs.«421314_j74577812128000_1_alg».proof.Proof.Spec
import proofs.«421314_j74577812128000_1_alg».proof.Proof.Rd
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Hand

open Idealize.ShloMosaic Idealize.ShloMosaic.ValueIdx Idealize.ShloMosaic.TcCoe Idealize.SL.Sem Cert.KernelIdeal Cert.KernelIdeal.Gen
open Idealize.ShloMosaic.Pipeline (Dat)
open Cert.Gcn (rd)

/-! ## What the body stores, at an index of the block -/

/-- The offsets `(0, 0)` are zero on every axis. -/
theorem r1_offsets_zero : (![0, 0] : Fin 2 → Nat) = fun _ => 0 := funext fun a => by fin_cases a <;> rfl

/-- The gating payload at an index: the logistic of the first block times the second block. -/
theorem r1_gate_apply (x0 x1 : Vec Ideal S2000x256 .f32) (y : S2000x256.Idx) :
    (k1_pay2 (F := Ideal) x0 x1) y = Ideal.logistic (x0 y) * x1 y := by
  unfold k1_pay2
  simp only [shapeCast_self]
  rfl

/-- Left operand of the product, row axis: the result's row. -/
theorem lhs_r1_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl

/-- Left operand, column axis: the contracted coordinate. -/
theorem lhs_r1_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q

/-- Right operand, row axis: the contracted coordinate. -/
theorem rhs_r1_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q

/-- Right operand, column axis: the result's column. -/
theorem rhs_r1_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The block product into the zero accumulator, at (p, j): the sum over the contracted coordinate. -/
theorem r1_product_apply (a : FVec Ideal S2000x256 .bf16) (w : FVec Ideal S256x256 .bf16) (p : Fin 2000) (j : Fin 256) :
    matmul dot_S2000x256_S256x256_S2000x256_1_0_0_1_n_n none a w (constant (F := Ideal) S2000x256 .f32 0x00000000#32) (ix2 p j)
      = ∑ s : Fin 256, a (ix2 p s) * w (ix2 s j) := by
  simp only [matmul]
  rw [Ideal.matmul_constant_zero_apply, ← Equiv.sum_comp (contrEquiv1 dot_S2000x256_S256x256_S2000x256_1_0_0_1_n_n 256 rfl rfl).symm]
  refine Finset.sum_congr rfl fun s _ => ?_
  have hs := contrEquiv1_symm_val dot_S2000x256_S256x256_S2000x256_1_0_0_1_n_n 256 rfl rfl s
  have el : dot_S2000x256_S256x256_S2000x256_1_0_0_1_n_n.lhsIdx (ix2 p j) ((contrEquiv1 dot_S2000x256_S256x256_S2000x256_1_0_0_1_n_n 256 rfl rfl).symm s) = ix2 p s := funext fun ax => Fin.ext (by
    match ax with
    | ⟨0, _⟩ => exact lhs_r1_0 _ _
    | ⟨1, _⟩ => exact (lhs_r1_1 _ _).trans hs)
  have er : dot_S2000x256_S256x256_S2000x256_1_0_0_1_n_n.rhsIdx (ix2 p j) ((contrEquiv1 dot_S2000x256_S256x256_S2000x256_1_0_0_1_n_n 256 rfl rfl).symm s) = ix2 s j := funext fun ax => Fin.ext (by
    match ax with
    | ⟨0, _⟩ => exact (rhs_r1_0 _ _).trans hs
    | ⟨1, _⟩ => exact rhs_r1_1 _ _)
  rw [el, er]

/-- The projection payload at (p, j): row p of the block times the weights' column j, plus the bias row at j. -/
theorem r1_proj_apply (x0 : Vec Ideal S2000x256 .f32) (x2 : Vec Ideal S256x256 .bf16) (x3 : Vec Ideal S1x256 .f32)
    (p : Fin 2000) (j : Fin 256) :
    (k1_pay1 (F := Ideal) x0 x2 x3) (ix2 p j)
      = (∑ s : Fin 256, x0 (ix2 p s) * x2 (ix2 s j)) + x3 (ix2 (0 : Fin 1) j) := by
  unfold k1_pay1
  simp only [shapeCast_self]
  show matmul dot_S2000x256_S256x256_S2000x256_1_0_0_1_n_n none (truncf .bf16 x0 bitsLt_bf16_f32) x2 (constant (F := Ideal) S2000x256 .f32 0x00000000#32) (ix2 p j)
      + broadcastTo S2000x256 x3 broadcasts_S1x256_S2000x256 (ix2 p j) = _
  rw [r1_product_apply, broadcastTo_1b_ab_apply]
  rfl

/-! ## From blocks to arrays -/

/-- The whole-array function of the gating result. -/
def r1_gate (e v : S300000x256.Idx → EReal) : S300000x256.Idx → EReal :=
  fun i => Ideal.logistic (e i) * v i

/-- The whole-array function of the projection result. -/
def r1_proj (e : S300000x256.Idx → EReal) (w : S256x256.Idx → EReal) (b : S1x256.Idx → EReal) : S300000x256.Idx → EReal :=
  fun i => (∑ s : Fin 256, e (ix2 (i 0) s) * w (ix2 s (i 1))) + b (ix2 (0 : Fin 1) (i 1))

/-- The block index of every window at every point of the grid: the four edge-indexed windows are at block (t, 0), the
    weights and the bias row at block (0, 0). -/
theorem r1_block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- What point `t` writes back of the gating result is block `t` of `r1_gate` of the two edge-indexed input arrays. -/
theorem r1_flushed5 (c : Dev nD) (t : Fin cfg1.N) :
    (dat1 V c).flushed 5 t = ((cfg1.win 5).blk t).view.read (Elt Ideal) (r1_gate (V c main_arg1) (V c main_v20)) := by
  show (cfg1.win 5).cut (grid1.coords t) ((dat1 V c).after 5 t) = _
  rw [after1_5]
  unfold out1_5
  rw [View.canon_unit_zero r1_offsets_zero]
  simp only [View.ld_unit_zero (S := S2000x256) r1_offsets_zero]
  obtain ⟨a0, a1, b0, b1, -, -, -, -, -, -, f0, f1⟩ := r1_block_index t
  funext y
  refine (r1_gate_apply _ _ _).trans ?_
  show Ideal.logistic (V c main_arg1 (((cfg1.win 0).blk t).view.emb y)) * V c main_v20 (((cfg1.win 1).blk t).view.emb y)
    = Ideal.logistic (V c main_arg1 (((cfg1.win 5).blk t).view.emb y)) * V c main_v20 (((cfg1.win 5).blk t).view.emb y)
  have h0 : ((cfg1.win 0).blk t).view.emb y = ((cfg1.win 5).blk t).view.emb y := by
    funext a; apply Fin.ext
    match a with
    | ⟨0, _⟩ => show win1_0.index t (0 : Fin 2) * 2000 + 1 * (y 0).val = win1_5.index t (0 : Fin 2) * 2000 + 1 * (y 0).val; omega
    | ⟨1, _⟩ => show win1_0.index t (1 : Fin 2) * 256 + 1 * (y 1).val = win1_5.index t (1 : Fin 2) * 256 + 1 * (y 1).val; omega
  have h1 : ((cfg1.win 1).blk t).view.emb y = ((cfg1.win 5).blk t).view.emb y := by
    funext a; apply Fin.ext
    match a with
    | ⟨0, _⟩ => show win1_1.index t (0 : Fin 2) * 2000 + 1 * (y 0).val = win1_5.index t (0 : Fin 2) * 2000 + 1 * (y 0).val; omega
    | ⟨1, _⟩ => show win1_1.index t (1 : Fin 2) * 256 + 1 * (y 1).val = win1_5.index t (1 : Fin 2) * 256 + 1 * (y 1).val; omega
  rw [h0, h1]

/-- An index of the gating result's array lies in point `t`'s block iff each coordinate is in the block's range. -/
theorem r1_mem_blk5 (t : Fin cfg1.N) (i : S300000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v21_1).slice (win1_5.rect t)).set ↔ _
  rw [View.set_slice_whole, Rect.mem_set_unit]
  exact Iff.rfl

/-- Row `q` lies in the block of point `q / 2000`: the blocks fill the gating result's array. -/
theorem r1_cover5 (i : S300000x256.Idx) :
    ∃ t : Fin cfg1.N, (cfg1.win 5).flush t = true ∧ i ∈ ((cfg1.win 5).blk t).view.set := by
  have hi0 : (i 0).val < 300000 := (i 0).isLt
  have hi1 : (i 1).val < 256 := (i 1).isLt
  have hN : cfg1.N = 150 := N_1
  let t : Fin cfg1.N := ⟨(i 0).val / 2000, by rw [hN]; omega⟩
  obtain ⟨-, -, -, -, -, -, -, -, -, -, f0, f1⟩ := r1_block_index t
  have ht : t.val = (i 0).val / 2000 := rfl
  refine ⟨t, flush1_5 t, ?_⟩
  rw [r1_mem_blk5]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- The gating result after the region, as a whole array. -/
theorem r1_final5 (c : Dev nD) : (dat1 V c).arrAt 5 cfg1.N = r1_gate (V c main_arg1) (V c main_v20) :=
  (dat1 V c).arrAt_eq_of_cover 5 (r1_gate (V c main_arg1) (V c main_v20)) (fun t _ => r1_flushed5 V c t) r1_cover5

/-- The gating result at edge `q`, column `j`: the logistic of the edge feature times the second input there. -/
theorem r1_out5 (c : Dev nD) (q : Fin 300000) (j : Fin 256) :
    rd (S := S300000x256) ((dat1 V c).arrAt 5 cfg1.N) (ix2 q j)
      = Ideal.logistic (rd (S := S300000x256) (V c main_arg1) (ix2 q j)) * rd (S := S300000x256) (V c main_v20) (ix2 q j) :=
  congrFun (r1_final5 V c) (ix2 q j)

/-! ## The projection result -/

/-- `r1_proj` at an index whose coordinates are `q` and `j`. -/
theorem r1_proj_at (e : S300000x256.Idx → EReal) (w : S256x256.Idx → EReal) (b : S1x256.Idx → EReal)
    (i : S300000x256.Idx) (q : Fin 300000) (j : Fin 256) (h0 : (i 0).val = q.val) (h1 : (i 1).val = j.val) :
    r1_proj e w b i = (∑ s : Fin 256, e (ix2 q s) * w (ix2 s j)) + b (ix2 (0 : Fin 1) j) := by
  obtain rfl : i = ix2 q j := by
    funext a; apply Fin.ext
    match a with
    | ⟨0, _⟩ => exact h0
    | ⟨1, _⟩ => exact h1
  rfl

/-- Element (p, s) of the edge features' block at point `t` is element (2000 t + p, s) of the array. -/
theorem r1_edge_block (c : Dev nD) (t : Fin cfg1.N) (p : Fin 2000) (s : Fin 256) (q : Fin 300000)
    (hq : q.val = t.val * 2000 + p.val) :
    (iblk1 V c 0 t : Vec Ideal S2000x256 .f32) (ix2 p s) = rd (S := S300000x256) (V c main_arg1) (ix2 q s) := by
  obtain ⟨a0, a1, -⟩ := r1_block_index t
  show rd (S := S300000x256) (V c main_arg1) (((cfg1.win 0).blk t).view.emb (ix2 p s)) = _
  refine congrArg (rd (S := S300000x256) (V c main_arg1)) (funext fun a => Fin.ext ?_)
  match a with
  | ⟨0, _⟩ => show win1_0.index t (0 : Fin 2) * 2000 + 1 * p.val = q.val; omega
  | ⟨1, _⟩ => show win1_0.index t (1 : Fin 2) * 256 + 1 * s.val = s.val; omega

/-- The weights' block at any point is the whole weight array. -/
theorem r1_weight_block (c : Dev nD) (t : Fin cfg1.N) (s j : Fin 256) :
    (iblk1 V c 2 t : Vec Ideal S256x256 .bf16) (ix2 s j) = rd (S := S256x256) (V c main_v13) (ix2 s j) := by
  obtain ⟨-, -, -, -, w0, w1, -⟩ := r1_block_index t
  show rd (S := S256x256) (V c main_v13) (((cfg1.win 2).blk t).view.emb (ix2 s j)) = _
  refine congrArg (rd (S := S256x256) (V c main_v13)) (funext fun a => Fin.ext ?_)
  match a with
  | ⟨0, _⟩ => show win1_2.index t (0 : Fin 2) * 256 + 1 * s.val = s.val; omega
  | ⟨1, _⟩ => show win1_2.index t (1 : Fin 2) * 256 + 1 * j.val = j.val; omega

/-- The bias row's block at any point is the whole row. -/
theorem r1_bias_block (c : Dev nD) (t : Fin cfg1.N) (j : Fin 256) :
    (iblk1 V c 3 t : Vec Ideal S1x256 .f32) (ix2 (0 : Fin 1) j) = rd (S := S1x256) (V c main_v18) (ix2 (0 : Fin 1) j) := by
  obtain ⟨-, -, -, -, -, -, b0, b1, -⟩ := r1_block_index t
  show rd (S := S1x256) (V c main_v18) (((cfg1.win 3).blk t).view.emb (ix2 (0 : Fin 1) j)) = _
  refine congrArg (rd (S := S1x256) (V c main_v18)) (funext fun a => Fin.ext ?_)
  match a with
  | ⟨0, _⟩ => show win1_3.index t (0 : Fin 2) * 1 + 1 * 0 = 0; omega
  | ⟨1, _⟩ => show win1_3.index t (1 : Fin 2) * 256 + 1 * j.val = j.val; omega

/-- What point `t` writes back of the projection result is block `t` of `r1_proj` of the edge features, the weights and
    the bias row. -/
theorem r1_flushed4 (c : Dev nD) (t : Fin cfg1.N) :
    (dat1 V c).flushed 4 t
      = ((cfg1.win 4).blk t).view.read (Elt Ideal) (r1_proj (V c main_arg1) (V c main_v13) (V c main_v18)) := by
  show (cfg1.win 4).cut (grid1.coords t) ((dat1 V c).after 4 t) = _
  rw [after1_4]
  unfold out1_4
  rw [View.canon_unit_zero r1_offsets_zero]
  simp only [View.ld_unit_zero (S := S2000x256) r1_offsets_zero, View.ld_unit_zero (S := S256x256) r1_offsets_zero,
    View.ld_unit_zero (S := S1x256) r1_offsets_zero]
  obtain ⟨-, -, -, -, -, -, -, -, e0, e1, -⟩ := r1_block_index t
  have hN : cfg1.N = 150 := N_1
  have ht : t.val < 150 := hN ▸ t.isLt
  funext y
  obtain ⟨p, j, rfl⟩ : ∃ (p : Fin 2000) (j : Fin 256), y = ix2 p j := ⟨y 0, y 1, eq_ix2 y⟩
  refine (r1_proj_apply _ _ _ p j).trans ?_
  have hq : t.val * 2000 + p.val < 300000 := by have := p.isLt; omega
  refine Eq.trans ?_ (r1_proj_at (V c main_arg1) (V c main_v13) (V c main_v18) (((cfg1.win 4).blk t).view.emb (ix2 p j))
    ⟨t.val * 2000 + p.val, hq⟩ j ?_ ?_).symm
  · refine congrArg₂ (· + ·) (Finset.sum_congr rfl fun s _ => congrArg₂ (· * ·) ?_ ?_) ?_
    · exact r1_edge_block V c t p s ⟨t.val * 2000 + p.val, hq⟩ rfl
    · exact r1_weight_block V c t s j
    · exact r1_bias_block V c t j
  · show win1_4.index t (0 : Fin 2) * 2000 + 1 * p.val = t.val * 2000 + p.val; omega
  · show win1_4.index t (1 : Fin 2) * 256 + 1 * j.val = j.val; omega

/-- An index of the projection result's array lies in point `t`'s block iff each coordinate is in the block's range. -/
theorem r1_mem_blk4 (t : Fin cfg1.N) (i : S300000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v21_0).slice (win1_4.rect t)).set ↔ _
  rw [View.set_slice_whole, Rect.mem_set_unit]
  exact Iff.rfl

/-- Row `q` lies in the block of point `q / 2000`: the blocks fill the projection result's array. -/
theorem r1_cover4 (i : S300000x256.Idx) :
    ∃ t : Fin cfg1.N, (cfg1.win 4).flush t = true ∧ i ∈ ((cfg1.win 4).blk t).view.set := by
  have hi0 : (i 0).val < 300000 := (i 0).isLt
  have hi1 : (i 1).val < 256 := (i 1).isLt
  have hN : cfg1.N = 150 := N_1
  let t : Fin cfg1.N := ⟨(i 0).val / 2000, by rw [hN]; omega⟩
  obtain ⟨-, -, -, -, -, -, -, -, e0, e1, -⟩ := r1_block_index t
  have ht : t.val = (i 0).val / 2000 := rfl
  refine ⟨t, flush1_4 t, ?_⟩
  rw [r1_mem_blk4]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 256 ≤ (i 1).val ∧ (i 1).val < win1_4.index t (1 : Fin 2) * 256 + 256; omega

/-- The projection result after the region, as a whole array. -/
theorem r1_final4 (c : Dev nD) :
    (dat1 V c).arrAt 4 cfg1.N = r1_proj (V c main_arg1) (V c main_v13) (V c main_v18) :=
  (dat1 V c).arrAt_eq_of_cover 4 (r1_proj (V c main_arg1) (V c main_v13) (V c main_v18)) (fun t _ => r1_flushed4 V c t) r1_cover4

/-- The projection result at edge `q`, column `j`: the edge's feature row times column `j` of the weights, plus the bias. -/
theorem r1_out4 (c : Dev nD) (q : Fin 300000) (j : Fin 256) :
    rd (S := S300000x256) ((dat1 V c).arrAt 4 cfg1.N) (ix2 q j)
      = (∑ s : Fin 256, rd (S := S300000x256) (V c main_arg1) (ix2 q s) * rd (S := S256x256) (V c main_v13) (ix2 s j))
        + rd (S := S1x256) (V c main_v18) (ix2 0 j) :=
  congrFun (r1_final4 V c) (ix2 q j)

end Cert.KernelIdeal.Hand

end
-- ==== Proof.KR2.lean ====
/- Region 2 of the layer: the column statistics of the edge pre-activation.

   The region reads three [300000,256] arrays in 150 blocks of 2000 rows. At every block it stores the
   element-wise sum of the three blocks (added left to right) into the first output, and it keeps two
   [1,256] rows: the running column sum of that stored block and the running column sum of its squares.
   The first block resets both rows to zero before adding; every later block adds to what the block
   before left. Only after the last block are the two rows written to their arrays.

   Three facts are proved here, at any contents `V` of the buffers when the region is entered:
   * the first output's array is the element-wise sum `P q j` of the three inputs;
   * the second output's row is, column by column, `∑ q, P q j` over all 300000 rows;
   * the third output's row is `∑ q, P q j * P q j`.
   The running rows are followed by induction on the block number: after block `n` a row holds the sum of the
   contributions of the blocks `0 … n`. The 300000 rows are then regrouped as 150 blocks of 2000 rows; over the
   extended reals addition is commutative and associative without any side condition, so the regrouping asks
   nothing of the entries. -/
import proofs.«421314_j74577812128000_1_alg».proof.Proof.Gen.KernelIdeal.Frame
import proofs.«421314_j74577812128000_1_alg».proof.Proof.Rd
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import Mathlib.Algebra.BigOperators.Fin
import Mathlib.Logic.Equiv.Fin.Basic

noncomputable section

namespace Cert.KernelIdeal.Hand

open Idealize.ShloMosaic Idealize.ShloMosaic.ValueIdx Idealize.ShloMosaic.TcCoe Idealize.SL.Sem Cert.KernelIdeal Cert.KernelIdeal.Gen
open Idealize.ShloMosaic.Pipeline (Dat)
open Cert.Gcn (rd)

/-! ## What each of the two control cases leaves in each output, as the body's arithmetic -/

section Pieces
variable {F : FTy → Type} [FloatOps F]

/-- Both offsets of a whole-buffer rectangle are zero. -/
theorem r2_hz : (![0, 0] : Fin 2 → Nat) = fun _ => 0 := funext fun a => by fin_cases a <;> rfl

/-- At a later point the body's one store into the block output holds the three loaded blocks' sum. -/
theorem r2_out_B_3 (c : Dev nD) (i : grid2.Coords)
    (a1 : Memref sig .tc .vmem S2000x256 .f32) (h1 : a1.IsWhole) (a2 : Memref sig .tc .vmem S2000x256 .f32) (h2 : a2.IsWhole)
    (a3 : Memref sig .tc .vmem S2000x256 .f32) (h3 : a3.IsWhole) (a4 : Memref sig .tc .vmem S2000x256 .f32) (h4 : a4.IsWhole)
    (a5 : Memref sig .tc .vmem S1x256 .f32) (h5 : a5.IsWhole) (a6 : Memref sig .tc .vmem S1x256 .f32) (h6 : a6.IsWhole)
    (hc : ¬cond2_0 i) (x0 x1 x2 : Vec F S2000x256 .f32) (xo4 xo5 : Vec F S1x256 .f32) :
    out2_B_3 c i a1 h1 a2 h2 a3 h3 a4 h4 a5 h5 a6 h6 hc x0 x1 x2 xo4 xo5 = k2_pay3 x0 x1 x2 := by
  unfold out2_B_3
  rw [View.read_writes_eq_canon _ _ _ (cover2_B_3 c i a1 h1 a2 h2 a3 h3 a4 h4 a5 h5 a6 h6 hc x0 x1 x2 xo4 xo5)]
  unfold kernelRun2_B
  dsimp only
  sl_unfold_words
  rw [View.canon_unit_zero r2_hz]
  simp only [View.readAt_eq_ld, h1.read_unread, h2.read_unread, h3.read_unread, View.ld_unit_zero (S := S2000x256) r2_hz]

/-- At a later point the running column sum is the row found there plus the block's column sums. -/
theorem r2_out_B_4 (c : Dev nD) (i : grid2.Coords)
    (a1 : Memref sig .tc .vmem S2000x256 .f32) (h1 : a1.IsWhole) (a2 : Memref sig .tc .vmem S2000x256 .f32) (h2 : a2.IsWhole)
    (a3 : Memref sig .tc .vmem S2000x256 .f32) (h3 : a3.IsWhole) (a4 : Memref sig .tc .vmem S2000x256 .f32) (h4 : a4.IsWhole)
    (a5 : Memref sig .tc .vmem S1x256 .f32) (h5 : a5.IsWhole) (a6 : Memref sig .tc .vmem S1x256 .f32) (h6 : a6.IsWhole)
    (hc : ¬cond2_0 i) (x0 x1 x2 : Vec F S2000x256 .f32) (xo4 xo5 : Vec F S1x256 .f32) :
    out2_B_4 c i a1 h1 a2 h2 a3 h3 a4 h4 a5 h5 a6 h6 hc x0 x1 x2 xo4 xo5 = k2_pay4 x0 x1 x2 xo4 := by
  unfold out2_B_4
  rw [View.read_writes_eq_canon _ _ _ (cover2_B_4 c i a1 h1 a2 h2 a3 h3 a4 h4 a5 h5 a6 h6 hc x0 x1 x2 xo4 xo5)]
  unfold kernelRun2_B
  dsimp only
  sl_unfold_words
  rw [View.canon_unit_zero r2_hz]
  simp only [View.readAt_eq_ld, h1.read_unread, h2.read_unread, h3.read_unread, h5.read_unread,
    View.ld_unit_zero (S := S2000x256) r2_hz, View.ld_unit_zero (S := S1x256) r2_hz]

/-- At a later point the running column sum of squares likewise. -/
theorem r2_out_B_5 (c : Dev nD) (i : grid2.Coords)
    (a1 : Memref sig .tc .vmem S2000x256 .f32) (h1 : a1.IsWhole) (a2 : Memref sig .tc .vmem S2000x256 .f32) (h2 : a2.IsWhole)
    (a3 : Memref sig .tc .vmem S2000x256 .f32) (h3 : a3.IsWhole) (a4 : Memref sig .tc .vmem S2000x256 .f32) (h4 : a4.IsWhole)
    (a5 : Memref sig .tc .vmem S1x256 .f32) (h5 : a5.IsWhole) (a6 : Memref sig .tc .vmem S1x256 .f32) (h6 : a6.IsWhole)
    (hc : ¬cond2_0 i) (x0 x1 x2 : Vec F S2000x256 .f32) (xo4 xo5 : Vec F S1x256 .f32) :
    out2_B_5 c i a1 h1 a2 h2 a3 h3 a4 h4 a5 h5 a6 h6 hc x0 x1 x2 xo4 xo5 = k2_pay5 x0 x1 x2 xo5 := by
  unfold out2_B_5
  rw [View.read_writes_eq_canon _ _ _ (cover2_B_5 c i a1 h1 a2 h2 a3 h3 a4 h4 a5 h5 a6 h6 hc x0 x1 x2 xo4 xo5)]
  unfold kernelRun2_B
  dsimp only
  sl_unfold_words
  rw [View.canon_unit_zero r2_hz]
  simp only [View.readAt_eq_ld, h1.read_unread, h2.read_unread, h3.read_unread, h6.read_unread,
    View.ld_unit_zero (S := S2000x256) r2_hz, View.ld_unit_zero (S := S1x256) r2_hz]

/-- At the first point the block output holds the three loaded blocks' sum as well. -/
theorem r2_out_A_3 (c : Dev nD) (i : grid2.Coords)
    (a1 : Memref sig .tc .vmem S2000x256 .f32) (h1 : a1.IsWhole) (a2 : Memref sig .tc .vmem S2000x256 .f32) (h2 : a2.IsWhole)
    (a3 : Memref sig .tc .vmem S2000x256 .f32) (h3 : a3.IsWhole) (a4 : Memref sig .tc .vmem S2000x256 .f32) (h4 : a4.IsWhole)
    (a5 : Memref sig .tc .vmem S1x256 .f32) (h5 : a5.IsWhole) (a6 : Memref sig .tc .vmem S1x256 .f32) (h6 : a6.IsWhole)
    (hc : cond2_0 i) (x0 x1 x2 : Vec F S2000x256 .f32) :
    out2_A_3 c i a1 h1 a2 h2 a3 h3 a4 h4 a5 h5 a6 h6 hc x0 x1 x2 = k2_pay3 x0 x1 x2 := by
  unfold out2_A_3
  rw [View.read_writes_eq_canon _ _ _ (cover2_A_3 c i a1 h1 a2 h2 a3 h3 a4 h4 a5 h5 a6 h6 hc x0 x1 x2)]
  unfold kernelRun2_A
  dsimp only
  sl_unfold_words
  rw [View.canon_unit_zero r2_hz]
  simp only [View.readAt_eq_ld, h1.read_unread, h2.read_unread, h3.read_unread, View.ld_unit_zero (S := S2000x256) r2_hz]

/-- At the first point the running column sum is reset to the zero row, read back, and the block's column sums added. -/
theorem r2_out_A_4 (c : Dev nD) (i : grid2.Coords)
    (a1 : Memref sig .tc .vmem S2000x256 .f32) (h1 : a1.IsWhole) (a2 : Memref sig .tc .vmem S2000x256 .f32) (h2 : a2.IsWhole)
    (a3 : Memref sig .tc .vmem S2000x256 .f32) (h3 : a3.IsWhole) (a4 : Memref sig .tc .vmem S2000x256 .f32) (h4 : a4.IsWhole)
    (a5 : Memref sig .tc .vmem S1x256 .f32) (h5 : a5.IsWhole) (a6 : Memref sig .tc .vmem S1x256 .f32) (h6 : a6.IsWhole)
    (hc : cond2_0 i) (x0 x1 x2 : Vec F S2000x256 .f32) :
    out2_A_4 c i a1 h1 a2 h2 a3 h3 a4 h4 a5 h5 a6 h6 hc x0 x1 x2 = k2_pay4 x0 x1 x2 (k2_pay1 (F := F)) := by
  unfold out2_A_4
  rw [View.read_writes_eq_canon _ _ _ (cover2_A_4 c i a1 h1 a2 h2 a3 h3 a4 h4 a5 h5 a6 h6 hc x0 x1 x2)]
  unfold kernelRun2_A
  dsimp only
  sl_unfold_words
  rw [View.canon_cons_unit_zero (S := S1x256) r2_hz, View.readCov_unit_zero (S := S1x256) _ r2_hz]
  simp only [View.readAt_eq_ld, h1.read_unread, h2.read_unread, h3.read_unread, View.ld_unit_zero (S := S2000x256) r2_hz]

/-- At the first point the running column sum of squares likewise. -/
theorem r2_out_A_5 (c : Dev nD) (i : grid2.Coords)
    (a1 : Memref sig .tc .vmem S2000x256 .f32) (h1 : a1.IsWhole) (a2 : Memref sig .tc .vmem S2000x256 .f32) (h2 : a2.IsWhole)
    (a3 : Memref sig .tc .vmem S2000x256 .f32) (h3 : a3.IsWhole) (a4 : Memref sig .tc .vmem S2000x256 .f32) (h4 : a4.IsWhole)
    (a5 : Memref sig .tc .vmem S1x256 .f32) (h5 : a5.IsWhole) (a6 : Memref sig .tc .vmem S1x256 .f32) (h6 : a6.IsWhole)
    (hc : cond2_0 i) (x0 x1 x2 : Vec F S2000x256 .f32) :
    out2_A_5 c i a1 h1 a2 h2 a3 h3 a4 h4 a5 h5 a6 h6 hc x0 x1 x2 = k2_pay5 x0 x1 x2 (k2_pay2 (F := F)) := by
  unfold out2_A_5
  rw [View.read_writes_eq_canon _ _ _ (cover2_A_5 c i a1 h1 a2 h2 a3 h3 a4 h4 a5 h5 a6 h6 hc x0 x1 x2)]
  unfold kernelRun2_A
  dsimp only
  sl_unfold_words
  rw [View.canon_cons_unit_zero (S := S1x256) r2_hz, View.readCov_unit_zero (S := S1x256) _ r2_hz]
  simp only [View.readAt_eq_ld, h1.read_unread, h2.read_unread, h3.read_unread, View.ld_unit_zero (S := S2000x256) r2_hz]

end Pieces

/-! ## The body's arithmetic at one element, over the extended reals -/

/-- The stored block at row `r`, column `j`: the three blocks' entries there, added left to right. -/
theorem r2_pay3_apply (x0 x1 x2 : Vec Ideal S2000x256 .f32) (r : Fin 2000) (j : Fin 256) :
    k2_pay3 x0 x1 x2 (ix2 r j) = x0 (ix2 r j) + x1 (ix2 r j) + x2 (ix2 r j) := by
  unfold k2_pay3
  simp only [shapeCast_self]
  rfl

/-- The zero row of the reset, at column `j`. -/
theorem r2_pay1_apply (j : Fin 256) : (k2_pay1 (F := Ideal)) (ix2 (0 : Fin 1) j) = 0 := by
  unfold k2_pay1
  exact Ideal.ofBits_zero_f32

/-- The second zero row of the reset, at column `j`. -/
theorem r2_pay2_apply (j : Fin 256) : (k2_pay2 (F := Ideal)) (ix2 (0 : Fin 1) j) = 0 := by
  unfold k2_pay2
  exact Ideal.ofBits_zero_f32

/-- Reducing a [2000,256] block along its rows: the index put back at row `r` of column `j` is `(r, j)`. -/
theorem r2_lift (h : S2000x256.Reduces [0] S256) (j : Fin 256) (r : Fin 2000) :
    h.lift (ix1 j) r = (ix2 r j : S2000x256.Idx) := by
  funext a
  match a with
  | ⟨0, _⟩ => rfl
  | ⟨1, _⟩ => rfl

/-- The new running sum at column `j`: the old one plus the stored block's column sum. -/
theorem r2_pay4_apply (x0 x1 x2 : Vec Ideal S2000x256 .f32) (acc : Vec Ideal S1x256 .f32) (j : Fin 256) :
    k2_pay4 x0 x1 x2 acc (ix2 (0 : Fin 1) j) = acc (ix2 (0 : Fin 1) j) + ∑ r : Fin 2000, k2_pay3 x0 x1 x2 (ix2 r j) := by
  unfold k2_pay4
  refine (addf_apply _ _ _).trans ?_
  refine congrArg₂ (· + ·) (congrFun (shapeCast_self acc _) _) ?_
  refine (shapeCast_a_1a_apply _ _ (0 : Fin 1) j).trans ?_
  refine (Ideal.multiReduction_add_single (k2_pay3 x0 x1 x2) _ reduces_S2000x256_S256 _ _ (ix1 j)).trans ?_
  exact Finset.sum_congr rfl fun r _ => congrArg (k2_pay3 x0 x1 x2) (r2_lift _ j r)

/-- The new running sum of squares at column `j`: the old one plus the column sum of the stored block's squares. -/
theorem r2_pay5_apply (x0 x1 x2 : Vec Ideal S2000x256 .f32) (acc : Vec Ideal S1x256 .f32) (j : Fin 256) :
    k2_pay5 x0 x1 x2 acc (ix2 (0 : Fin 1) j)
      = acc (ix2 (0 : Fin 1) j) + ∑ r : Fin 2000, k2_pay3 x0 x1 x2 (ix2 r j) * k2_pay3 x0 x1 x2 (ix2 r j) := by
  unfold k2_pay5
  refine (addf_apply _ _ _).trans ?_
  refine congrArg₂ (· + ·) (congrFun (shapeCast_self acc _) _) ?_
  refine (shapeCast_a_1a_apply _ _ (0 : Fin 1) j).trans ?_
  refine (Ideal.multiReduction_add_single (mulf (k2_pay3 x0 x1 x2) (k2_pay3 x0 x1 x2)) _ reduces_S2000x256_S256 _ _ (ix1 j)).trans ?_
  exact Finset.sum_congr rfl fun r _ => (mulf_apply _ _ _).trans (by rw [r2_lift _ j r])

/-! ## The blocks a grid point reads, and the arrays they come from -/

variable (V : (c : Dev nD) → (b : Ref sig .tc) → Buf (Elt Ideal) ((c : Thread nD τ).loc b))

/-- The three input blocks at grid point `t`, as [2000,256] arrays of extended reals. -/
abbrev r2_b0 (c : Dev nD) (t : Fin cfg2.N) : S2000x256.Idx → EReal := iblk2 V c 0 t
abbrev r2_b1 (c : Dev nD) (t : Fin cfg2.N) : S2000x256.Idx → EReal := iblk2 V c 1 t
abbrev r2_b2 (c : Dev nD) (t : Fin cfg2.N) : S2000x256.Idx → EReal := iblk2 V c 2 t

/-- The sum of the three input arrays at row `q`, column `j`, added left to right. -/
abbrev r2_P (c : Dev nD) (q : Fin 300000) (j : Fin 256) : EReal :=
  rd (S := S300000x256) (V c main_v21_0) (ix2 q j) + rd (S := S300000x256) (V c main_v25) (ix2 q j)
    + rd (S := S300000x256) (V c main_v26) (ix2 q j)

/-- The grid has 150 points. -/
theorem r2_lt (t : Fin cfg2.N) : t.val < 150 := lt_of_lt_of_eq t.isLt N_2

/-- Where the windows sit at grid point `t`: the four block windows at block row `t`, the two accumulator rows at
    their one block; checked at each of the 150 points. -/
theorem r2_idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Row `r` of the block at grid point `t` is row `2000 t + r` of the array. -/
def r2_row (t : Fin cfg2.N) (r : Fin 2000) : Fin 300000 :=
  ⟨2000 * t.val + r.val, by have := r2_lt t; have := r.isLt; omega⟩

/-- Through each of the four block windows, element `(r, j)` of the block at point `t` is element `(2000 t + r, j)` of the array. -/
theorem r2_emb0 (t : Fin cfg2.N) (r : Fin 2000) (j : Fin 256) :
    ((cfg2.win 0).blk t).view.emb (ix2 r j) = (ix2 (r2_row t r) j : S300000x256.Idx) := by
  funext a; apply Fin.ext
  match a with
  | ⟨0, _⟩ => show win2_0.index t (0 : Fin 2) * 2000 + 1 * r.val = 2000 * t.val + r.val; rw [(r2_idx t).1]; omega
  | ⟨1, _⟩ => show win2_0.index t (1 : Fin 2) * 256 + 1 * j.val = j.val; rw [(r2_idx t).2.1]; omega

theorem r2_emb1 (t : Fin cfg2.N) (r : Fin 2000) (j : Fin 256) :
    ((cfg2.win 1).blk t).view.emb (ix2 r j) = (ix2 (r2_row t r) j : S300000x256.Idx) := by
  funext a; apply Fin.ext
  match a with
  | ⟨0, _⟩ => show win2_1.index t (0 : Fin 2) * 2000 + 1 * r.val = 2000 * t.val + r.val; rw [(r2_idx t).2.2.1]; omega
  | ⟨1, _⟩ => show win2_1.index t (1 : Fin 2) * 256 + 1 * j.val = j.val; rw [(r2_idx t).2.2.2.1]; omega

theorem r2_emb2 (t : Fin cfg2.N) (r : Fin 2000) (j : Fin 256) :
    ((cfg2.win 2).blk t).view.emb (ix2 r j) = (ix2 (r2_row t r) j : S300000x256.Idx) := by
  funext a; apply Fin.ext
  match a with
  | ⟨0, _⟩ => show win2_2.index t (0 : Fin 2) * 2000 + 1 * r.val = 2000 * t.val + r.val; rw [(r2_idx t).2.2.2.2.1]; omega
  | ⟨1, _⟩ => show win2_2.index t (1 : Fin 2) * 256 + 1 * j.val = j.val; rw [(r2_idx t).2.2.2.2.2.1]; omega

theorem r2_emb3 (t : Fin cfg2.N) (r : Fin 2000) (j : Fin 256) :
    ((cfg2.win 3).blk t).view.emb (ix2 r j) = (ix2 (r2_row t r) j : S300000x256.Idx) := by
  funext a; apply Fin.ext
  match a with
  | ⟨0, _⟩ => show win2_3.index t (0 : Fin 2) * 2000 + 1 * r.val = 2000 * t.val + r.val; rw [(r2_idx t).2.2.2.2.2.2.1]; omega
  | ⟨1, _⟩ => show win2_3.index t (1 : Fin 2) * 256 + 1 * j.val = j.val; rw [(r2_idx t).2.2.2.2.2.2.2.1]; omega

/-- An input block's entry is the array's entry at the block's row offset. -/
theorem r2_b0_apply (c : Dev nD) (t : Fin cfg2.N) (r : Fin 2000) (j : Fin 256) :
    r2_b0 V c t (ix2 r j) = rd (S := S300000x256) (V c main_v21_0) (ix2 (r2_row t r) j) := by
  show rd (S := S300000x256) (V c main_v21_0) (((cfg2.win 0).blk t).view.emb (ix2 r j)) = _
  rw [r2_emb0]
theorem r2_b1_apply (c : Dev nD) (t : Fin cfg2.N) (r : Fin 2000) (j : Fin 256) :
    r2_b1 V c t (ix2 r j) = rd (S := S300000x256) (V c main_v25) (ix2 (r2_row t r) j) := by
  show rd (S := S300000x256) (V c main_v25) (((cfg2.win 1).blk t).view.emb (ix2 r j)) = _
  rw [r2_emb1]
theorem r2_b2_apply (c : Dev nD) (t : Fin cfg2.N) (r : Fin 2000) (j : Fin 256) :
    r2_b2 V c t (ix2 r j) = rd (S := S300000x256) (V c main_v26) (ix2 (r2_row t r) j) := by
  show rd (S := S300000x256) (V c main_v26) (((cfg2.win 2).blk t).view.emb (ix2 r j)) = _
  rw [r2_emb2]

/-- So the block the body stores at point `t` holds, at `(r, j)`, the three arrays' sum at row `2000 t + r`. -/
theorem r2_blk_apply (c : Dev nD) (t : Fin cfg2.N) (r : Fin 2000) (j : Fin 256) :
    k2_pay3 (F := Ideal) (r2_b0 V c t) (r2_b1 V c t) (r2_b2 V c t) (ix2 r j) = r2_P V c (r2_row t r) j := by
  rw [r2_pay3_apply, r2_b0_apply, r2_b1_apply, r2_b2_apply]

/-! ## The block output: at every point the stored block is the three input blocks' sum -/

/-- What the first output's staging buffer holds after point `t`, whichever of the two control cases `t` is in. -/
theorem r2_out3 (c : Dev nD) (t : Fin cfg2.N) :
    (outsAt2 V c t.val t.isLt).1 = k2_pay3 (F := Ideal) (r2_b0 V c t) (r2_b1 V c t) (r2_b2 V c t) := by
  by_cases h0 : t.val % 150 = 0
  · rw [outsAt2_A V c t h0]
    dsimp only
    exact r2_out_A_3 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t)
  · rw [outsAt2_B V c t h0]
    dsimp only
    exact r2_out_B_3 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2

/-- The array the block output ends at: the three input arrays' element-wise sum. -/
abbrev r2_G3 (c : Dev nD) : S300000x256.Idx → EReal := fun i =>
  rd (S := S300000x256) (V c main_v21_0) i + rd (S := S300000x256) (V c main_v25) i + rd (S := S300000x256) (V c main_v26) i

/-- What point `t` writes back is block `t` of that array. -/
theorem r2_flushed3 (c : Dev nD) (t : Fin cfg2.N) :
    (dat2 V c).flushed 3 t = ((cfg2.win 3).blk t).view.read (Elt Ideal) (r2_G3 V c) := by
  show (cfg2.win 3).cut (grid2.coords t) ((dat2 V c).after 3 t) = _
  rw [after2_3, r2_out3]
  refine funext fun (y : S2000x256.Idx) => ?_
  obtain ⟨r, j, rfl⟩ : ∃ (r : Fin 2000) (j : Fin 256), y = ix2 r j := ⟨y 0, y 1, eq_ix2 y⟩
  show k2_pay3 (F := Ideal) (r2_b0 V c t) (r2_b1 V c t) (r2_b2 V c t) (ix2 r j) = r2_G3 V c (((cfg2.win 3).blk t).view.emb (ix2 r j))
  rw [r2_emb3, r2_blk_apply]

/-- Every row of the array lies in the block of the point `row / 2000`. -/
theorem r2_cover3 (i : S300000x256.Idx) :
    ∃ t : Fin cfg2.N, (cfg2.win 3).flush t = true ∧ i ∈ ((cfg2.win 3).blk t).view.set := by
  have hi0 : (i 0).val < 300000 := idx2_lt0 i
  have hi1 : (i 1).val < 256 := idx2_lt1 i
  obtain ⟨t, ht⟩ : ∃ t : Fin cfg2.N, t.val = (i 0).val / 2000 :=
    ⟨⟨(i 0).val / 2000, lt_of_lt_of_eq (show (i 0).val / 2000 < 150 by omega) N_2.symm⟩, rfl⟩
  refine ⟨t, flush2_3 t, ?_⟩
  show i ∈ ((View.whole main_v27_0).slice (win2_3.rect t)).set
  rw [View.set_slice_whole, Rect.mem_set_unit]
  intro a
  match a with
  | ⟨0, _⟩ =>
    show win2_3.index t (0 : Fin 2) * 2000 ≤ (i 0).val ∧ (i 0).val < win2_3.index t (0 : Fin 2) * 2000 + 2000
    rw [(r2_idx t).2.2.2.2.2.2.1, ht]; omega
  | ⟨1, _⟩ =>
    show win2_3.index t (1 : Fin 2) * 256 ≤ (i 1).val ∧ (i 1).val < win2_3.index t (1 : Fin 2) * 256 + 256
    rw [(r2_idx t).2.2.2.2.2.2.2.1]; omega

/-- After the region the block output's array is the element-wise sum of the three inputs. -/
theorem r2_final3 (c : Dev nD) : (dat2 V c).arrAt 3 cfg2.N = r2_G3 V c :=
  (dat2 V c).arrAt_eq_of_cover 3 (r2_G3 V c) (fun t _ => r2_flushed3 V c t) r2_cover3

/-- The first output at row `q`, column `j`: the three inputs' entries there, added left to right. -/
theorem r2_pre (c : Dev nD) (q : Fin 300000) (j : Fin 256) :
    rd (S := S300000x256) ((dat2 V c).arrAt 3 cfg2.N) (ix2 q j)
      = rd (S := S300000x256) (V c main_v21_0) (ix2 q j) + rd (S := S300000x256) (V c main_v25) (ix2 q j)
        + rd (S := S300000x256) (V c main_v26) (ix2 q j) :=
  congrFun (r2_final3 V c) (ix2 q j)

/-! ## The two accumulator rows: after point `n` they hold the column sums over the blocks `0 … n` -/

/-- Block `s`'s contribution to column `j` of the running sum: the column sum of the block stored at point `s` (zero past the grid). -/
def r2_bsum (c : Dev nD) (j : Fin 256) (s : ℕ) : EReal :=
  if h : s < cfg2.N then ∑ r : Fin 2000, k2_pay3 (F := Ideal) (r2_b0 V c ⟨s, h⟩) (r2_b1 V c ⟨s, h⟩) (r2_b2 V c ⟨s, h⟩) (ix2 r j) else 0

/-- After point `n` the running-sum row holds, at column `j`, the contributions of the blocks `0 … n`: the first point resets the row and adds its block, every later point adds its block to what the point before left. -/
theorem r2_acc4 (c : Dev nD) (j : Fin 256) : ∀ (n : ℕ) (h : n < cfg2.N),
    (outsAt2 V c n h).2.1 (ix2 (0 : Fin 1) j) = ∑ s ∈ Finset.range (n + 1), r2_bsum V c j s
  | 0, h => by
    have h0 : (⟨0, h⟩ : Fin cfg2.N).val % 150 = 0 := rfl
    rw [outsAt2_A V c ⟨0, h⟩ h0]
    dsimp only
    refine (congrFun (r2_out_A_4 (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) ((hcond2_0 ⟨0, h⟩).mpr h0) (iblk2 V c 0 ⟨0, h⟩) (iblk2 V c 1 ⟨0, h⟩) (iblk2 V c 2 ⟨0, h⟩)) (ix2 (0 : Fin 1) j)).trans ?_
    rw [r2_pay4_apply, r2_pay1_apply, zero_add, Finset.sum_range_one, r2_bsum, dif_pos h]
  | n + 1, h => by
    have hN : n + 1 < 150 := lt_of_lt_of_eq h N_2
    have hB : ¬(⟨n + 1, h⟩ : Fin cfg2.N).val % 150 = 0 := by show ¬(n + 1) % 150 = 0; omega
    rw [outsAt2_B V c ⟨n + 1, h⟩ hB]
    dsimp only
    refine (congrFun (r2_out_B_4 (F := Ideal) c (grid2.coords (⟨n + 1, h⟩ : Fin cfg2.N)) (ms2_0 (⟨n + 1, h⟩ : Fin cfg2.N)) (hs2_0 (⟨n + 1, h⟩ : Fin cfg2.N)) (ms2_1 (⟨n + 1, h⟩ : Fin cfg2.N)) (hs2_1 (⟨n + 1, h⟩ : Fin cfg2.N)) (ms2_2 (⟨n + 1, h⟩ : Fin cfg2.N)) (hs2_2 (⟨n + 1, h⟩ : Fin cfg2.N)) (ms2_3 (⟨n + 1, h⟩ : Fin cfg2.N)) (hs2_3 (⟨n + 1, h⟩ : Fin cfg2.N)) (ms2_4 (⟨n + 1, h⟩ : Fin cfg2.N)) (hs2_4 (⟨n + 1, h⟩ : Fin cfg2.N)) (ms2_5 (⟨n + 1, h⟩ : Fin cfg2.N)) (hs2_5 (⟨n + 1, h⟩ : Fin cfg2.N)) (fun hcnd => hB ((hcond2_0 (⟨n + 1, h⟩ : Fin cfg2.N)).mp hcnd)) (iblk2 V c 0 (⟨n + 1, h⟩ : Fin cfg2.N)) (iblk2 V c 1 (⟨n + 1, h⟩ : Fin cfg2.N)) (iblk2 V c 2 (⟨n + 1, h⟩ : Fin cfg2.N)) (outsAt2 V c ((⟨n + 1, h⟩ : Fin cfg2.N).val - 1) (Nat.lt_of_le_of_lt (Nat.sub_le _ _) (⟨n + 1, h⟩ : Fin cfg2.N).isLt)).2.1 (outsAt2 V c ((⟨n + 1, h⟩ : Fin cfg2.N).val - 1) (Nat.lt_of_le_of_lt (Nat.sub_le _ _) (⟨n + 1, h⟩ : Fin cfg2.N).isLt)).2.2) (ix2 (0 : Fin 1) j)).trans ?_
    rw [r2_pay4_apply, Finset.sum_range_succ _ (n + 1)]
    refine congrArg₂ (· + ·) (r2_acc4 c j n (Nat.lt_of_succ_lt h)) ?_
    rw [r2_bsum, dif_pos h]

/-- Block `s`'s contribution to column `j` of the running sum of squares (zero past the grid). -/
def r2_bsq (c : Dev nD) (j : Fin 256) (s : ℕ) : EReal :=
  if h : s < cfg2.N then ∑ r : Fin 2000, k2_pay3 (F := Ideal) (r2_b0 V c ⟨s, h⟩) (r2_b1 V c ⟨s, h⟩) (r2_b2 V c ⟨s, h⟩) (ix2 r j) * k2_pay3 (F := Ideal) (r2_b0 V c ⟨s, h⟩) (r2_b1 V c ⟨s, h⟩) (r2_b2 V c ⟨s, h⟩) (ix2 r j) else 0

/-- After point `n` the sum-of-squares row holds, at column `j`, the contributions of the blocks `0 … n`. -/
theorem r2_acc5 (c : Dev nD) (j : Fin 256) : ∀ (n : ℕ) (h : n < cfg2.N),
    (outsAt2 V c n h).2.2 (ix2 (0 : Fin 1) j) = ∑ s ∈ Finset.range (n + 1), r2_bsq V c j s
  | 0, h => by
    have h0 : (⟨0, h⟩ : Fin cfg2.N).val % 150 = 0 := rfl
    rw [outsAt2_A V c ⟨0, h⟩ h0]
    dsimp only
    refine (congrFun (r2_out_A_5 (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) ((hcond2_0 ⟨0, h⟩).mpr h0) (iblk2 V c 0 ⟨0, h⟩) (iblk2 V c 1 ⟨0, h⟩) (iblk2 V c 2 ⟨0, h⟩)) (ix2 (0 : Fin 1) j)).trans ?_
    rw [r2_pay5_apply, r2_pay2_apply, zero_add, Finset.sum_range_one, r2_bsq, dif_pos h]
  | n + 1, h => by
    have hN : n + 1 < 150 := lt_of_lt_of_eq h N_2
    have hB : ¬(⟨n + 1, h⟩ : Fin cfg2.N).val % 150 = 0 := by show ¬(n + 1) % 150 = 0; omega
    rw [outsAt2_B V c ⟨n + 1, h⟩ hB]
    dsimp only
    refine (congrFun (r2_out_B_5 (F := Ideal) c (grid2.coords (⟨n + 1, h⟩ : Fin cfg2.N)) (ms2_0 (⟨n + 1, h⟩ : Fin cfg2.N)) (hs2_0 (⟨n + 1, h⟩ : Fin cfg2.N)) (ms2_1 (⟨n + 1, h⟩ : Fin cfg2.N)) (hs2_1 (⟨n + 1, h⟩ : Fin cfg2.N)) (ms2_2 (⟨n + 1, h⟩ : Fin cfg2.N)) (hs2_2 (⟨n + 1, h⟩ : Fin cfg2.N)) (ms2_3 (⟨n + 1, h⟩ : Fin cfg2.N)) (hs2_3 (⟨n + 1, h⟩ : Fin cfg2.N)) (ms2_4 (⟨n + 1, h⟩ : Fin cfg2.N)) (hs2_4 (⟨n + 1, h⟩ : Fin cfg2.N)) (ms2_5 (⟨n + 1, h⟩ : Fin cfg2.N)) (hs2_5 (⟨n + 1, h⟩ : Fin cfg2.N)) (fun hcnd => hB ((hcond2_0 (⟨n + 1, h⟩ : Fin cfg2.N)).mp hcnd)) (iblk2 V c 0 (⟨n + 1, h⟩ : Fin cfg2.N)) (iblk2 V c 1 (⟨n + 1, h⟩ : Fin cfg2.N)) (iblk2 V c 2 (⟨n + 1, h⟩ : Fin cfg2.N)) (outsAt2 V c ((⟨n + 1, h⟩ : Fin cfg2.N).val - 1) (Nat.lt_of_le_of_lt (Nat.sub_le _ _) (⟨n + 1, h⟩ : Fin cfg2.N).isLt)).2.1 (outsAt2 V c ((⟨n + 1, h⟩ : Fin cfg2.N).val - 1) (Nat.lt_of_le_of_lt (Nat.sub_le _ _) (⟨n + 1, h⟩ : Fin cfg2.N).isLt)).2.2) (ix2 (0 : Fin 1) j)).trans ?_
    rw [r2_pay5_apply, Finset.sum_range_succ _ (n + 1)]
    refine congrArg₂ (· + ·) (r2_acc5 c j n (Nat.lt_of_succ_lt h)) ?_
    rw [r2_bsq, dif_pos h]

/-! ## 300000 rows as 150 blocks of 2000 -/

/-- A sum over the 300000 rows is the sum over the 150 blocks of the sums over each block's 2000 rows: the rows are
    re-indexed by (block, row in block), and addition needs no side condition to be regrouped. -/
theorem r2_sum_blocks {M : Type*} [AddCommMonoid M] (g : Fin 300000 → M) :
    ∑ q : Fin 300000, g q = ∑ s : Fin 150, ∑ r : Fin 2000, g ⟨2000 * s.val + r.val, by have := s.isLt; have := r.isLt; omega⟩ := by
  rw [← Equiv.sum_comp (finProdFinEquiv : Fin 150 × Fin 2000 ≃ Fin 300000) g, Fintype.sum_prod_type]
  refine Finset.sum_congr rfl fun s _ => Finset.sum_congr rfl fun r _ => congrArg g (Fin.ext ?_)
  show r.val + 2000 * s.val = 2000 * s.val + r.val
  omega

/-- The contributions of all 150 blocks add up to the column sum over all rows. -/
theorem r2_bsum_total (c : Dev nD) (j : Fin 256) :
    ∑ s ∈ Finset.range 150, r2_bsum V c j s = ∑ q : Fin 300000, r2_P V c q j := by
  rw [Finset.sum_range, r2_sum_blocks]
  refine Finset.sum_congr rfl fun s _ => ?_
  have hs : s.val < cfg2.N := lt_of_lt_of_eq s.isLt N_2.symm
  rw [r2_bsum, dif_pos hs]
  exact Finset.sum_congr rfl fun r _ => r2_blk_apply V c ⟨s.val, hs⟩ r j

/-- The squared contributions of all 150 blocks add up to the column sum of squares over all rows. -/
theorem r2_bsq_total (c : Dev nD) (j : Fin 256) :
    ∑ s ∈ Finset.range 150, r2_bsq V c j s = ∑ q : Fin 300000, r2_P V c q j * r2_P V c q j := by
  rw [Finset.sum_range, r2_sum_blocks]
  refine Finset.sum_congr rfl fun s _ => ?_
  have hs : s.val < cfg2.N := lt_of_lt_of_eq s.isLt N_2.symm
  rw [r2_bsq, dif_pos hs]
  exact Finset.sum_congr rfl fun r _ => by rw [r2_blk_apply V c ⟨s.val, hs⟩ r j]; rfl

/-! ## The accumulator rows after the region -/

/-- The grid has a last point, number 149. It is carried as a variable with that equation, never as a numeral: the
    contents after a point are defined by recursion on the point. -/
theorem r2_last : ∃ t : Fin cfg2.N, t.val = 149 := ⟨⟨149, lt_of_lt_of_eq (by decide : 149 < 150) N_2.symm⟩, rfl⟩

/-- What the running-sum row's staging buffer holds after point `tl`. -/
abbrev r2_G4 (c : Dev nD) (tl : Fin cfg2.N) : S1x256.Idx → EReal := (outsAt2 V c tl.val tl.isLt).2.1

/-- The row is written back once, after the last point `tl`; its one block is the whole [1,256] array. -/
theorem r2_flushed4 (c : Dev nD) (tl : Fin cfg2.N) (htl : tl.val = 149) (t : Fin cfg2.N) (hf : (cfg2.win 4).flush t = true) :
    (dat2 V c).flushed 4 t = ((cfg2.win 4).blk t).view.read (Elt Ideal) (r2_G4 V c tl) := by
  have ht := r2_lt t
  have h149 : t.val = 149 := by have := (flush2_4 t).mp hf; omega
  obtain rfl : t = tl := Fin.ext (h149.trans htl.symm)
  show (cfg2.win 4).cut (grid2.coords t) ((dat2 V c).after 4 t) = _
  rw [after2_4]
  refine funext fun (y : S1x256.Idx) => ?_
  show r2_G4 V c t y = r2_G4 V c t (((cfg2.win 4).blk t).view.emb y)
  refine congrArg (r2_G4 V c t) ?_
  funext a; apply Fin.ext
  match a with
  | ⟨0, _⟩ => show (y 0).val = win2_4.index t (0 : Fin 2) * 1 + 1 * (y 0).val; rw [(r2_idx t).2.2.2.2.2.2.2.2.1]; omega
  | ⟨1, _⟩ => show (y 1).val = win2_4.index t (1 : Fin 2) * 256 + 1 * (y 1).val; rw [(r2_idx t).2.2.2.2.2.2.2.2.2.1]; omega

/-- The last point's block covers the whole row. -/
theorem r2_cover4 (tl : Fin cfg2.N) (htl : tl.val = 149) (i : S1x256.Idx) :
    ∃ t : Fin cfg2.N, (cfg2.win 4).flush t = true ∧ i ∈ ((cfg2.win 4).blk t).view.set := by
  have hi0 : (i 0).val < 1 := idx2_lt0 i
  have hi1 : (i 1).val < 256 := idx2_lt1 i
  refine ⟨tl, (flush2_4 tl).mpr (by rw [htl]), ?_⟩
  show i ∈ ((View.whole main_v27_1).slice (win2_4.rect tl)).set
  rw [View.set_slice_whole, Rect.mem_set_unit]
  intro a
  match a with
  | ⟨0, _⟩ =>
    show win2_4.index tl (0 : Fin 2) * 1 ≤ (i 0).val ∧ (i 0).val < win2_4.index tl (0 : Fin 2) * 1 + 1
    rw [(r2_idx tl).2.2.2.2.2.2.2.2.1]; omega
  | ⟨1, _⟩ =>
    show win2_4.index tl (1 : Fin 2) * 256 ≤ (i 1).val ∧ (i 1).val < win2_4.index tl (1 : Fin 2) * 256 + 256
    rw [(r2_idx tl).2.2.2.2.2.2.2.2.2.1]; omega

/-- After the region the row's array is what the last point left in the staging buffer. -/
theorem r2_final4 (c : Dev nD) (tl : Fin cfg2.N) (htl : tl.val = 149) : (dat2 V c).arrAt 4 cfg2.N = r2_G4 V c tl :=
  (dat2 V c).arrAt_eq_of_cover 4 (r2_G4 V c tl) (r2_flushed4 V c tl htl) (r2_cover4 tl htl)

/-- What the sum-of-squares row's staging buffer holds after point `tl`. -/
abbrev r2_G5 (c : Dev nD) (tl : Fin cfg2.N) : S1x256.Idx → EReal := (outsAt2 V c tl.val tl.isLt).2.2

/-- The row is written back once, after the last point `tl`; its one block is the whole [1,256] array. -/
theorem r2_flushed5 (c : Dev nD) (tl : Fin cfg2.N) (htl : tl.val = 149) (t : Fin cfg2.N) (hf : (cfg2.win 5).flush t = true) :
    (dat2 V c).flushed 5 t = ((cfg2.win 5).blk t).view.read (Elt Ideal) (r2_G5 V c tl) := by
  have ht := r2_lt t
  have h149 : t.val = 149 := by have := (flush2_5 t).mp hf; omega
  obtain rfl : t = tl := Fin.ext (h149.trans htl.symm)
  show (cfg2.win 5).cut (grid2.coords t) ((dat2 V c).after 5 t) = _
  rw [after2_5]
  refine funext fun (y : S1x256.Idx) => ?_
  show r2_G5 V c t y = r2_G5 V c t (((cfg2.win 5).blk t).view.emb y)
  refine congrArg (r2_G5 V c t) ?_
  funext a; apply Fin.ext
  match a with
  | ⟨0, _⟩ => show (y 0).val = win2_5.index t (0 : Fin 2) * 1 + 1 * (y 0).val; rw [(r2_idx t).2.2.2.2.2.2.2.2.2.2.1]; omega
  | ⟨1, _⟩ => show (y 1).val = win2_5.index t (1 : Fin 2) * 256 + 1 * (y 1).val; rw [(r2_idx t).2.2.2.2.2.2.2.2.2.2.2]; omega

/-- The last point's block covers the whole row. -/
theorem r2_cover5 (tl : Fin cfg2.N) (htl : tl.val = 149) (i : S1x256.Idx) :
    ∃ t : Fin cfg2.N, (cfg2.win 5).flush t = true ∧ i ∈ ((cfg2.win 5).blk t).view.set := by
  have hi0 : (i 0).val < 1 := idx2_lt0 i
  have hi1 : (i 1).val < 256 := idx2_lt1 i
  refine ⟨tl, (flush2_5 tl).mpr (by rw [htl]), ?_⟩
  show i ∈ ((View.whole main_v27_2).slice (win2_5.rect tl)).set
  rw [View.set_slice_whole, Rect.mem_set_unit]
  intro a
  match a with
  | ⟨0, _⟩ =>
    show win2_5.index tl (0 : Fin 2) * 1 ≤ (i 0).val ∧ (i 0).val < win2_5.index tl (0 : Fin 2) * 1 + 1
    rw [(r2_idx tl).2.2.2.2.2.2.2.2.2.2.1]; omega
  | ⟨1, _⟩ =>
    show win2_5.index tl (1 : Fin 2) * 256 ≤ (i 1).val ∧ (i 1).val < win2_5.index tl (1 : Fin 2) * 256 + 256
    rw [(r2_idx tl).2.2.2.2.2.2.2.2.2.2.2]; omega

/-- After the region the row's array is what the last point left in the staging buffer. -/
theorem r2_final5 (c : Dev nD) (tl : Fin cfg2.N) (htl : tl.val = 149) : (dat2 V c).arrAt 5 cfg2.N = r2_G5 V c tl :=
  (dat2 V c).arrAt_eq_of_cover 5 (r2_G5 V c tl) (r2_flushed5 V c tl htl) (r2_cover5 tl htl)

/-! ## The three results of the region -/

/-- The second output at column `j`: the sum over all 300000 rows of the three inputs' sum. -/
theorem r2_sum (c : Dev nD) (j : Fin 256) :
    rd (S := S1x256) ((dat2 V c).arrAt 4 cfg2.N) (ix2 (0 : Fin 1) j)
      = ∑ q : Fin 300000, (rd (S := S300000x256) (V c main_v21_0) (ix2 q j) + rd (S := S300000x256) (V c main_v25) (ix2 q j)
          + rd (S := S300000x256) (V c main_v26) (ix2 q j)) := by
  obtain ⟨tl, htl⟩ := r2_last
  refine (congrFun (r2_final4 V c tl htl) (ix2 (0 : Fin 1) j)).trans ?_
  refine (r2_acc4 V c j tl.val tl.isLt).trans ?_
  rw [htl]
  exact r2_bsum_total V c j

/-- The third output at column `j`: the sum over all 300000 rows of the square of the three inputs' sum. -/
theorem r2_sumsq (c : Dev nD) (j : Fin 256) :
    rd (S := S1x256) ((dat2 V c).arrAt 5 cfg2.N) (ix2 (0 : Fin 1) j)
      = ∑ q : Fin 300000, (rd (S := S300000x256) (V c main_v21_0) (ix2 q j) + rd (S := S300000x256) (V c main_v25) (ix2 q j)
          + rd (S := S300000x256) (V c main_v26) (ix2 q j))
        * (rd (S := S300000x256) (V c main_v21_0) (ix2 q j) + rd (S := S300000x256) (V c main_v25) (ix2 q j)
          + rd (S := S300000x256) (V c main_v26) (ix2 q j)) := by
  obtain ⟨tl, htl⟩ := r2_last
  refine (congrFun (r2_final5 V c tl htl) (ix2 (0 : Fin 1) j)).trans ?_
  refine (r2_acc5 V c j tl.val tl.isLt).trans ?_
  rw [htl]
  exact r2_bsq_total V c j

end Cert.KernelIdeal.Hand

end
-- ==== Proof.KR4.lean ====
/- The fourth pipelined region: the element-wise sum of two [10000, 256] arrays and its column statistics.

   The grid has five points; point `t` sees rows `2000 t … 2000 t + 1999` of the two input arrays. Every point writes the
   element-wise sum of its two input blocks into its block of the first output array. Two further outputs are single rows
   of 256 columns that stay in place across the grid: the first point resets them to zero, and every point adds to the
   first row its block's column sums and to the second its block's column sums of squares. The rows are written back once,
   after the last point.

   Shown here, for any contents of the buffers on entry: the first output array ends holding the element-wise sum of the two
   input arrays; the first row ends holding, column by column, the sum of that element-wise sum over all 10000 rows; the
   second row the sum of its squares over all 10000 rows. The argument: each control case's stores read back as the body's
   arithmetic of the blocks; that arithmetic over the extended reals entry by entry (a reduction over the block's rows is a
   finite sum); an induction over the grid points with the invariant "after point `n` the rows hold the sums over the rows
   of blocks `0 … n`"; the five blocks of 2000 rows tile the 10000 rows, and a sum over consecutive rows regroups by blocks
   (addition of extended reals is commutative and associative, so no finiteness is needed). -/
import proofs.«421314_j74577812128000_1_alg».proof.Proof.Gen.KernelIdeal.Frame
import proofs.«421314_j74577812128000_1_alg».proof.Proof.Rd
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import Mathlib.Algebra.BigOperators.Fin

set_option maxRecDepth 16384

noncomputable section

namespace Cert.KernelIdeal.Hand.R4
open Idealize.ShloMosaic Idealize.ShloMosaic.ValueIdx Idealize.ShloMosaic.TcCoe Idealize.SL.Sem Cert.KernelIdeal Cert.KernelIdeal.Gen
open Idealize.ShloMosaic.Pipeline (Dat)
open Cert.Gcn (rd)

/-! ## What each control case leaves in the three outputs, as the body's arithmetic of the blocks -/

section Pieces
variable {F : FTy → Type} [FloatOps F]

theorem hz4 : (![0, 0] : Fin 2 → Nat) = fun _ => 0 := funext fun a => by fin_cases a <;> rfl

/-- At the first point the block of sums is the element-wise sum of the two input blocks. -/
theorem out4_A_2_eq (c : Dev nD) (i : grid4.Coords) (a1 : Memref sig .tc .vmem S2000x256 .f32) (h1 : a1.IsWhole) (a2 : Memref sig .tc .vmem S2000x256 .f32) (h2 : a2.IsWhole) (a3 : Memref sig .tc .vmem S2000x256 .f32) (h3 : a3.IsWhole) (a4 : Memref sig .tc .vmem S1x256 .f32) (h4 : a4.IsWhole) (a5 : Memref sig .tc .vmem S1x256 .f32) (h5 : a5.IsWhole) (hc : cond4_0 i) (x0 x1 : Vec F S2000x256 .f32) :
    out4_A_2 c i a1 h1 a2 h2 a3 h3 a4 h4 a5 h5 hc x0 x1 = k4_pay3 x0 x1 := by
  unfold out4_A_2
  rw [View.read_writes_eq_canon _ _ _ (cover4_A_2 c i a1 h1 a2 h2 a3 h3 a4 h4 a5 h5 hc x0 x1)]
  unfold kernelRun4_A
  dsimp only
  sl_unfold_words
  rw [View.canon_unit_zero (S := S2000x256) hz4]
  simp only [View.readAt_eq_ld, h1.read_unread, h2.read_unread, View.ld_unit_zero (S := S2000x256) hz4]

/-- At the first point the row of column sums is reset to the zero row and then the block's column sums are added. -/
theorem out4_A_3_eq (c : Dev nD) (i : grid4.Coords) (a1 : Memref sig .tc .vmem S2000x256 .f32) (h1 : a1.IsWhole) (a2 : Memref sig .tc .vmem S2000x256 .f32) (h2 : a2.IsWhole) (a3 : Memref sig .tc .vmem S2000x256 .f32) (h3 : a3.IsWhole) (a4 : Memref sig .tc .vmem S1x256 .f32) (h4 : a4.IsWhole) (a5 : Memref sig .tc .vmem S1x256 .f32) (h5 : a5.IsWhole) (hc : cond4_0 i) (x0 x1 : Vec F S2000x256 .f32) :
    out4_A_3 c i a1 h1 a2 h2 a3 h3 a4 h4 a5 h5 hc x0 x1 = k4_pay4 x0 x1 (k4_pay1 (F := F)) := by
  unfold out4_A_3
  rw [View.read_writes_eq_canon _ _ _ (cover4_A_3 c i a1 h1 a2 h2 a3 h3 a4 h4 a5 h5 hc x0 x1)]
  unfold kernelRun4_A
  dsimp only
  sl_unfold_words
  rw [View.canon_cons_unit_zero (S := S1x256) hz4, View.readCov_unit_zero (S := S1x256) _ hz4]
  simp only [View.readAt_eq_ld, h1.read_unread, h2.read_unread, View.ld_unit_zero (S := S2000x256) hz4]

/-- Likewise the row of column sums of squares. -/
theorem out4_A_4_eq (c : Dev nD) (i : grid4.Coords) (a1 : Memref sig .tc .vmem S2000x256 .f32) (h1 : a1.IsWhole) (a2 : Memref sig .tc .vmem S2000x256 .f32) (h2 : a2.IsWhole) (a3 : Memref sig .tc .vmem S2000x256 .f32) (h3 : a3.IsWhole) (a4 : Memref sig .tc .vmem S1x256 .f32) (h4 : a4.IsWhole) (a5 : Memref sig .tc .vmem S1x256 .f32) (h5 : a5.IsWhole) (hc : cond4_0 i) (x0 x1 : Vec F S2000x256 .f32) :
    out4_A_4 c i a1 h1 a2 h2 a3 h3 a4 h4 a5 h5 hc x0 x1 = k4_pay5 x0 x1 (k4_pay2 (F := F)) := by
  unfold out4_A_4
  rw [View.read_writes_eq_canon _ _ _ (cover4_A_4 c i a1 h1 a2 h2 a3 h3 a4 h4 a5 h5 hc x0 x1)]
  unfold kernelRun4_A
  dsimp only
  sl_unfold_words
  rw [View.canon_cons_unit_zero (S := S1x256) hz4, View.readCov_unit_zero (S := S1x256) _ hz4]
  simp only [View.readAt_eq_ld, h1.read_unread, h2.read_unread, View.ld_unit_zero (S := S2000x256) hz4]

/-- At a later point the block of sums is again the element-wise sum of the two input blocks. -/
theorem out4_B_2_eq (c : Dev nD) (i : grid4.Coords) (a1 : Memref sig .tc .vmem S2000x256 .f32) (h1 : a1.IsWhole) (a2 : Memref sig .tc .vmem S2000x256 .f32) (h2 : a2.IsWhole) (a3 : Memref sig .tc .vmem S2000x256 .f32) (h3 : a3.IsWhole) (a4 : Memref sig .tc .vmem S1x256 .f32) (h4 : a4.IsWhole) (a5 : Memref sig .tc .vmem S1x256 .f32) (h5 : a5.IsWhole) (hc : ¬cond4_0 i) (x0 x1 : Vec F S2000x256 .f32) (xo3 xo4 : Vec F S1x256 .f32) :
    out4_B_2 c i a1 h1 a2 h2 a3 h3 a4 h4 a5 h5 hc x0 x1 xo3 xo4 = k4_pay3 x0 x1 := by
  unfold out4_B_2
  rw [View.read_writes_eq_canon _ _ _ (cover4_B_2 c i a1 h1 a2 h2 a3 h3 a4 h4 a5 h5 hc x0 x1 xo3 xo4)]
  unfold kernelRun4_B
  dsimp only
  sl_unfold_words
  rw [View.canon_unit_zero (S := S2000x256) hz4]
  simp only [View.readAt_eq_ld, h1.read_unread, h2.read_unread, View.ld_unit_zero (S := S2000x256) hz4]

/-- At a later point the block's column sums are added to the row the point before left. -/
theorem out4_B_3_eq (c : Dev nD) (i : grid4.Coords) (a1 : Memref sig .tc .vmem S2000x256 .f32) (h1 : a1.IsWhole) (a2 : Memref sig .tc .vmem S2000x256 .f32) (h2 : a2.IsWhole) (a3 : Memref sig .tc .vmem S2000x256 .f32) (h3 : a3.IsWhole) (a4 : Memref sig .tc .vmem S1x256 .f32) (h4 : a4.IsWhole) (a5 : Memref sig .tc .vmem S1x256 .f32) (h5 : a5.IsWhole) (hc : ¬cond4_0 i) (x0 x1 : Vec F S2000x256 .f32) (xo3 xo4 : Vec F S1x256 .f32) :
    out4_B_3 c i a1 h1 a2 h2 a3 h3 a4 h4 a5 h5 hc x0 x1 xo3 xo4 = k4_pay4 x0 x1 xo3 := by
  unfold out4_B_3
  rw [View.read_writes_eq_canon _ _ _ (cover4_B_3 c i a1 h1 a2 h2 a3 h3 a4 h4 a5 h5 hc x0 x1 xo3 xo4)]
  unfold kernelRun4_B
  dsimp only
  sl_unfold_words
  rw [View.canon_unit_zero (S := S1x256) hz4]
  simp only [View.readAt_eq_ld, h1.read_unread, h2.read_unread, h4.read_unread, View.ld_unit_zero (S := S2000x256) hz4,
    View.ld_unit_zero (S := S1x256) hz4]

/-- Likewise the column sums of squares. -/
theorem out4_B_4_eq (c : Dev nD) (i : grid4.Coords) (a1 : Memref sig .tc .vmem S2000x256 .f32) (h1 : a1.IsWhole) (a2 : Memref sig .tc .vmem S2000x256 .f32) (h2 : a2.IsWhole) (a3 : Memref sig .tc .vmem S2000x256 .f32) (h3 : a3.IsWhole) (a4 : Memref sig .tc .vmem S1x256 .f32) (h4 : a4.IsWhole) (a5 : Memref sig .tc .vmem S1x256 .f32) (h5 : a5.IsWhole) (hc : ¬cond4_0 i) (x0 x1 : Vec F S2000x256 .f32) (xo3 xo4 : Vec F S1x256 .f32) :
    out4_B_4 c i a1 h1 a2 h2 a3 h3 a4 h4 a5 h5 hc x0 x1 xo3 xo4 = k4_pay5 x0 x1 xo4 := by
  unfold out4_B_4
  rw [View.read_writes_eq_canon _ _ _ (cover4_B_4 c i a1 h1 a2 h2 a3 h3 a4 h4 a5 h5 hc x0 x1 xo3 xo4)]
  unfold kernelRun4_B
  dsimp only
  sl_unfold_words
  rw [View.canon_unit_zero (S := S1x256) hz4]
  simp only [View.readAt_eq_ld, h1.read_unread, h2.read_unread, h5.read_unread, View.ld_unit_zero (S := S2000x256) hz4,
    View.ld_unit_zero (S := S1x256) hz4]

end Pieces

/-! ## The body's arithmetic over the extended reals, entry by entry -/

section Values

/-- The reset row holds zero. -/
theorem pay1_apply (j : Fin 256) : k4_pay1 (F := Ideal) (ix2 0 j) = 0 := by
  unfold k4_pay1
  exact Ideal.ofBits_zero_f32

theorem pay2_apply (j : Fin 256) : k4_pay2 (F := Ideal) (ix2 0 j) = 0 := by
  unfold k4_pay2
  exact Ideal.ofBits_zero_f32

/-- The element-wise sum of two blocks. -/
theorem pay3_apply (x0 x1 : Vec Ideal S2000x256 .f32) (r : Fin 2000) (j : Fin 256) :
    k4_pay3 (F := Ideal) x0 x1 (ix2 r j) = x0 (ix2 r j) + x1 (ix2 r j) := by
  unfold k4_pay3
  simp only [shapeCast_self]
  rfl

/-- A sum over the 2000 rows of a block, column by column. -/
theorem colsum_apply (v : FVec Ideal S2000x256 .f32) (hφ : FKind.Formats .f32)
    (hacc : (0x00000000#32 : BitVec 32) = FKind.add.neutral .f32 hφ) (j : Fin 256) :
    multiReduction (F := Ideal) .add [0] S256 v 0x00000000#32 reduces_S2000x256_S256 hφ hacc (ix1 j)
      = ∑ r : Fin 2000, v (ix2 r j) := by
  refine (Ideal.multiReduction_add_single v 0x00000000#32 reduces_S2000x256_S256 hφ hacc (ix1 j)).trans ?_
  refine Finset.sum_congr rfl fun r _ => congrArg v ?_
  exact funext fun a => Fin.ext (match a with | ⟨0, _⟩ => rfl | ⟨1, _⟩ => rfl)

/-- The running row plus the block's column sums. -/
theorem pay4_apply (x0 x1 : Vec Ideal S2000x256 .f32) (acc : Vec Ideal S1x256 .f32) (j : Fin 256) :
    k4_pay4 (F := Ideal) x0 x1 acc (ix2 0 j) = acc (ix2 0 j) + ∑ r : Fin 2000, (x0 (ix2 r j) + x1 (ix2 r j)) := by
  unfold k4_pay4
  simp only [shapeCast_self]
  refine congrArg (acc (ix2 0 j) + ·) ?_
  refine (shapeCast_a_1a_apply _ _ 0 j).trans ?_
  refine (colsum_apply _ _ _ j).trans ?_
  exact Finset.sum_congr rfl fun r _ => pay3_apply x0 x1 r j

/-- The running row plus the block's column sums of squares. -/
theorem pay5_apply (x0 x1 : Vec Ideal S2000x256 .f32) (acc : Vec Ideal S1x256 .f32) (j : Fin 256) :
    k4_pay5 (F := Ideal) x0 x1 acc (ix2 0 j)
      = acc (ix2 0 j) + ∑ r : Fin 2000, (x0 (ix2 r j) + x1 (ix2 r j)) * (x0 (ix2 r j) + x1 (ix2 r j)) := by
  unfold k4_pay5
  simp only [shapeCast_self]
  refine congrArg (acc (ix2 0 j) + ·) ?_
  refine (shapeCast_a_1a_apply _ _ 0 j).trans ?_
  refine (colsum_apply _ _ _ j).trans ?_
  refine Finset.sum_congr rfl fun r _ => ?_
  show k4_pay3 (F := Ideal) x0 x1 (ix2 r j) * k4_pay3 (F := Ideal) x0 x1 (ix2 r j) = _
  rw [pay3_apply]

end Values

/-! ## A sum over consecutive rows, regrouped as blocks of equal length -/

section Sums

/-- The sum over `n` consecutive blocks of `K` rows is the sum over the first `K * n` rows. -/
theorem sum_range_blocks (g : ℕ → EReal) (K : ℕ) :
    ∀ n : ℕ, ∑ s ∈ Finset.range n, ∑ q ∈ Finset.range K, g (K * s + q) = ∑ i ∈ Finset.range (K * n), g i
  | 0 => by simp
  | n + 1 => by
    rw [Finset.sum_range_succ, sum_range_blocks g K n, Nat.mul_succ, Finset.sum_range_add]

/-- Five blocks of 2000 rows are the 10000 rows. -/
theorem sum_rows (g : ℕ → EReal) :
    ∑ s ∈ Finset.range 5, ∑ q : Fin 2000, g (2000 * s + q.val) = ∑ r : Fin 10000, g r.val := by
  have e : ∀ s : ℕ, ∑ q : Fin 2000, g (2000 * s + q.val) = ∑ q ∈ Finset.range 2000, g (2000 * s + q) :=
    fun s => (Finset.sum_range (fun q => g (2000 * s + q))).symm
  rw [Finset.sum_congr rfl fun s _ => e s, sum_range_blocks g 2000 5]
  exact Finset.sum_range g

end Sums

/-! ## The region's three output arrays -/

section Region

variable (V : (c : Dev nD) → (b : Ref sig .tc) → Buf (Elt Ideal) ((c : Thread nD τ).loc b))

/-- The two input arrays and their blocks of 2000 rows at a grid point. -/
abbrev uarr (c : Dev nD) : S10000x256.Idx → EReal := rd (S := S10000x256) (V c main_v19_0)
abbrev varr (c : Dev nD) : S10000x256.Idx → EReal := rd (S := S10000x256) (V c main_v24)
abbrev ublk (c : Dev nD) (t : Fin cfg4.N) : Vec Ideal S2000x256 .f32 := iblk4 V c 0 t
abbrev vblk (c : Dev nD) (t : Fin cfg4.N) : Vec Ideal S2000x256 .f32 := iblk4 V c 1 t

/-- The element-wise sum of the two arrays at row `r`, column `j`. -/
def pre4 (c : Dev nD) (r : Fin 10000) (j : Fin 256) : EReal := uarr V c (ix2 r j) + varr V c (ix2 r j)

/-- The same at a row number; zero past the last row. -/
def pre4n (c : Dev nD) (i : ℕ) (j : Fin 256) : EReal := if h : i < 10000 then pre4 V c ⟨i, h⟩ j else 0

/-- The block index of the three blocked windows at point `t` is `(t, 0)`. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

theorem row_lt (t : Fin cfg4.N) (q : Fin 2000) : 2000 * t.val + q.val < 10000 := by
  have ht : t.val < 5 := lt_of_lt_of_eq t.isLt (show cfg4.N = 5 from N_4)
  omega

/-- Row `q` of the block at point `t` is row `2000 t + q` of the array. -/
theorem ublk_apply (c : Dev nD) (t : Fin cfg4.N) (q : Fin 2000) (j : Fin 256) :
    ublk V c t (ix2 q j) = uarr V c (ix2 ⟨2000 * t.val + q.val, row_lt t q⟩ j) := by
  obtain ⟨e0, e1, -⟩ := idx4 t
  show iblk4 V c 0 t (ix2 q j) = _
  unfold iblk4
  rw [View.read_apply]
  show V c main_v19_0 _ = V c main_v19_0 _
  congr 1
  funext a
  apply Fin.ext
  match a with
  | ⟨0, _⟩ => show win4_0.index t 0 * 2000 + 1 * q.val = 2000 * t.val + q.val; rw [e0]; omega
  | ⟨1, _⟩ => show win4_0.index t 1 * 256 + 1 * j.val = j.val; rw [e1]; omega

theorem vblk_apply (c : Dev nD) (t : Fin cfg4.N) (q : Fin 2000) (j : Fin 256) :
    vblk V c t (ix2 q j) = varr V c (ix2 ⟨2000 * t.val + q.val, row_lt t q⟩ j) := by
  obtain ⟨-, -, e0, e1, -⟩ := idx4 t
  show iblk4 V c 1 t (ix2 q j) = _
  unfold iblk4
  rw [View.read_apply]
  show V c main_v24 _ = V c main_v24 _
  congr 1
  funext a
  apply Fin.ext
  match a with
  | ⟨0, _⟩ => show win4_1.index t 0 * 2000 + 1 * q.val = 2000 * t.val + q.val; rw [e0]; omega
  | ⟨1, _⟩ => show win4_1.index t 1 * 256 + 1 * j.val = j.val; rw [e1]; omega

/-- The element-wise sum of the two blocks at point `t` is the element-wise sum of the arrays at the block's rows. -/
theorem blk_pre (c : Dev nD) (t : Fin cfg4.N) (q : Fin 2000) (j : Fin 256) :
    ublk V c t (ix2 q j) + vblk V c t (ix2 q j) = pre4n V c (2000 * t.val + q.val) j := by
  rw [ublk_apply V c t q j, vblk_apply V c t q j]
  unfold pre4n
  rw [dif_pos (row_lt t q)]
  rfl

/-- THE INVARIANT over the grid points. After point `n` the block of sums holds the element-wise sum of the point's two
    input blocks; the first running row holds, column by column, the sum of the element-wise sums over all rows of the
    blocks `0 … n`; the second the sum of their squares. -/
theorem outs_inv (c : Dev nD) : ∀ (n : ℕ) (h : n < cfg4.N),
    (outsAt4 V c n h).1 = k4_pay3 (F := Ideal) (ublk V c ⟨n, h⟩) (vblk V c ⟨n, h⟩)
    ∧ (∀ j : Fin 256, rd (S := S1x256) (outsAt4 V c n h).2.1 (ix2 0 j)
        = ∑ s ∈ Finset.range (n + 1), ∑ q : Fin 2000, pre4n V c (2000 * s + q.val) j)
    ∧ (∀ j : Fin 256, rd (S := S1x256) (outsAt4 V c n h).2.2 (ix2 0 j)
        = ∑ s ∈ Finset.range (n + 1), ∑ q : Fin 2000, pre4n V c (2000 * s + q.val) j * pre4n V c (2000 * s + q.val) j)
  | 0, h => by
    rw [outsAt4_A V c ⟨0, h⟩ rfl]
    dsimp only
    refine ⟨out4_A_2_eq (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) _ (ublk V c ⟨0, h⟩) (vblk V c ⟨0, h⟩), fun j => ?_, fun j => ?_⟩
    · refine (congrFun (out4_A_3_eq (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) _ (ublk V c ⟨0, h⟩) (vblk V c ⟨0, h⟩)) (ix2 0 j)).trans ?_
      refine (pay4_apply _ _ _ j).trans ?_
      rw [pay1_apply, zero_add, Finset.sum_range_one]
      exact Finset.sum_congr rfl fun q _ => blk_pre V c ⟨0, h⟩ q j
    · refine (congrFun (out4_A_4_eq (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) _ (ublk V c ⟨0, h⟩) (vblk V c ⟨0, h⟩)) (ix2 0 j)).trans ?_
      refine (pay5_apply _ _ _ j).trans ?_
      rw [pay2_apply, zero_add, Finset.sum_range_one]
      exact Finset.sum_congr rfl fun q _ => by rw [blk_pre V c ⟨0, h⟩ q j]
  | n + 1, h => by
    have hN : n + 1 < 5 := lt_of_lt_of_eq h (show cfg4.N = 5 from N_4)
    have hB : ¬(⟨n + 1, h⟩ : Fin cfg4.N).val % 5 = 0 := by dsimp only; omega
    obtain ⟨-, ih3, ih4⟩ := outs_inv c n (Nat.lt_of_succ_lt h)
    rw [outsAt4_B V c ⟨n + 1, h⟩ hB]
    dsimp only
    refine ⟨out4_B_2_eq (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) _ (ublk V c ⟨n + 1, h⟩) (vblk V c ⟨n + 1, h⟩) (outsAt4 V c n (Nat.lt_of_succ_lt h)).2.1 (outsAt4 V c n (Nat.lt_of_succ_lt h)).2.2, fun j => ?_, fun j => ?_⟩
    · refine (congrFun (out4_B_3_eq (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) _ (ublk V c ⟨n + 1, h⟩) (vblk V c ⟨n + 1, h⟩) (outsAt4 V c n (Nat.lt_of_succ_lt h)).2.1 (outsAt4 V c n (Nat.lt_of_succ_lt h)).2.2) (ix2 0 j)).trans ?_
      refine (pay4_apply _ _ _ j).trans ?_
      rw [Finset.sum_range_succ _ (n + 1)]
      refine congrArg₂ (· + ·) (ih3 j) ?_
      exact Finset.sum_congr rfl fun q _ => blk_pre V c ⟨n + 1, h⟩ q j
    · refine (congrFun (out4_B_4_eq (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) _ (ublk V c ⟨n + 1, h⟩) (vblk V c ⟨n + 1, h⟩) (outsAt4 V c n (Nat.lt_of_succ_lt h)).2.1 (outsAt4 V c n (Nat.lt_of_succ_lt h)).2.2) (ix2 0 j)).trans ?_
      refine (pay5_apply _ _ _ j).trans ?_
      rw [Finset.sum_range_succ _ (n + 1)]
      refine congrArg₂ (· + ·) (ih4 j) ?_
      exact Finset.sum_congr rfl fun q _ => by rw [blk_pre V c ⟨n + 1, h⟩ q j]

/-! ### The block of sums: every point writes back its block of the element-wise sum of the two arrays -/

/-- The element-wise sum of the two arrays, as contents of the first output array. -/
abbrev sum2 (c : Dev nD) : S10000x256.Idx → EReal := fun i => uarr V c i + varr V c i

/-- Where row `q` of the output's block at point `t` lies in the array. -/
theorem emb2 (t : Fin cfg4.N) (q : Fin 2000) (j : Fin 256) :
    ((cfg4.win 2).blk t).view.emb (ix2 q j) = ix2 ⟨2000 * t.val + q.val, row_lt t q⟩ j := by
  obtain ⟨-, -, -, -, e0, e1⟩ := idx4 t
  funext a
  apply Fin.ext
  match a with
  | ⟨0, _⟩ => show win4_2.index t 0 * 2000 + 1 * q.val = 2000 * t.val + q.val; rw [e0]; omega
  | ⟨1, _⟩ => show win4_2.index t 1 * 256 + 1 * j.val = j.val; rw [e1]; omega

/-- What point `t` writes back is block `t` of the element-wise sum. -/
theorem flushed2_eq (c : Dev nD) (t : Fin cfg4.N) :
    (dat4 V c).flushed 2 t = ((cfg4.win 2).blk t).view.read (Elt Ideal) (sum2 V c) := by
  show (cfg4.win 2).cut (grid4.coords t) ((dat4 V c).after 2 t) = _
  rw [after4_2, (outs_inv V c t.val t.isLt).1]
  refine funext fun (y : S2000x256.Idx) => ?_
  obtain ⟨q, j, rfl⟩ : ∃ (q : Fin 2000) (j : Fin 256), y = ix2 q j := ⟨y 0, y 1, eq_ix2 y⟩
  show k4_pay3 (F := Ideal) (ublk V c t) (vblk V c t) (ix2 q j)
    = uarr V c (((cfg4.win 2).blk t).view.emb (ix2 q j)) + varr V c (((cfg4.win 2).blk t).view.emb (ix2 q j))
  rw [emb2 t q j]
  refine (pay3_apply _ _ q j).trans ?_
  rw [ublk_apply V c t q j, vblk_apply V c t q j]

/-- An index of the array lies in point `t`'s block iff each coordinate lies in the block's range on its axis. -/
theorem mem_blk2 (t : Fin cfg4.N) (i : S10000x256.Idx) :
    i ∈ ((cfg4.win 2).blk t).view.set ↔ ∀ a : Fin 2, win4_2.index t a * S2000x256.size a ≤ (i a).val
      ∧ (i a).val < win4_2.index t a * S2000x256.size a + S2000x256.size a := by
  show i ∈ ((View.whole main_v37_0).slice (win4_2.rect t)).set ↔ _
  rw [View.set_slice_whole, Rect.mem_set_unit]
  exact Iff.rfl

/-- The five blocks tile the array (row `r` lies in block `r / 2000`), so it ends holding the element-wise sum. -/
theorem final2 (c : Dev nD) : (dat4 V c).arrAt 2 cfg4.N = sum2 V c :=
  (dat4 V c).arrAt_eq_of_cover 2 (sum2 V c) (fun t _ => flushed2_eq V c t) fun i => by
    have hi0 : (i 0).val < 10000 := (i 0).isLt
    have hi1 : (i 1).val < 256 := (i 1).isLt
    have hlt : (i 0).val / 2000 < cfg4.N := by rw [show cfg4.N = 5 from N_4]; omega
    obtain ⟨-, -, -, -, e0, e1⟩ := idx4 ⟨(i 0).val / 2000, hlt⟩
    refine ⟨⟨(i 0).val / 2000, hlt⟩, flush4_2 _, ?_⟩
    rw [mem_blk2]
    intro a
    match a with
    | ⟨0, _⟩ =>
      show win4_2.index ⟨(i 0).val / 2000, hlt⟩ 0 * 2000 ≤ (i 0).val
        ∧ (i 0).val < win4_2.index ⟨(i 0).val / 2000, hlt⟩ 0 * 2000 + 2000
      rw [e0]; dsimp only; omega
    | ⟨1, _⟩ =>
      show win4_2.index ⟨(i 0).val / 2000, hlt⟩ 1 * 256 ≤ (i 1).val
        ∧ (i 1).val < win4_2.index ⟨(i 0).val / 2000, hlt⟩ 1 * 256 + 256
      rw [e1]; omega

/-! ### The two running rows: written back once, after the last point -/

theorem last_lt : 4 < cfg4.N := by rw [show cfg4.N = 5 from N_4]; decide

/-- The two rows as the last point leaves them. -/
abbrev row3 (c : Dev nD) : Vec Ideal S1x256 .f32 := (outsAt4 V c 4 last_lt).2.1
abbrev row4 (c : Dev nD) : Vec Ideal S1x256 .f32 := (outsAt4 V c 4 last_lt).2.2

/-- The one write-back of the first row, at the last point, writes what that point leaves: the row's one block is
    its whole array. -/
theorem flushed3_eq (c : Dev nD) (t : Fin cfg4.N) (hf : (cfg4.win 3).flush t = true) :
    (dat4 V c).flushed 3 t = ((cfg4.win 3).blk t).view.read (Elt Ideal) (row3 V c) := by
  have ht : t.val < 5 := lt_of_lt_of_eq t.isLt (show cfg4.N = 5 from N_4)
  have h4 : t.val = 4 := by have := (flush4_3 t).mp hf; omega
  obtain rfl : t = t4_4 := Fin.ext h4
  show (cfg4.win 3).cut (grid4.coords t4_4) ((dat4 V c).after 3 t4_4) = _
  rw [after4_3]
  have hz' : (fun a => win4_3.index t4_4 a * main_v37_1.ty.shape.size a) = fun _ => 0 :=
    funext fun a => by fin_cases a <;> decide
  exact (Memref.read_access_unit_zero (Elt Ideal) main_v37_1 hz' (fun a => by rw [congrFun hz' a]; simp) (row3 V c)).symm

theorem flushed4_eq (c : Dev nD) (t : Fin cfg4.N) (hf : (cfg4.win 4).flush t = true) :
    (dat4 V c).flushed 4 t = ((cfg4.win 4).blk t).view.read (Elt Ideal) (row4 V c) := by
  have ht : t.val < 5 := lt_of_lt_of_eq t.isLt (show cfg4.N = 5 from N_4)
  have h4 : t.val = 4 := by have := (flush4_4 t).mp hf; omega
  obtain rfl : t = t4_4 := Fin.ext h4
  show (cfg4.win 4).cut (grid4.coords t4_4) ((dat4 V c).after 4 t4_4) = _
  rw [after4_4]
  have hz' : (fun a => win4_4.index t4_4 a * main_v37_2.ty.shape.size a) = fun _ => 0 :=
    funext fun a => by fin_cases a <;> decide
  exact (Memref.read_access_unit_zero (Elt Ideal) main_v37_2 hz' (fun a => by rw [congrFun hz' a]; simp) (row4 V c)).symm

/-- So the first row's array ends holding what the last point leaves. -/
theorem final3 (c : Dev nD) : (dat4 V c).arrAt 3 cfg4.N = row3 V c :=
  (dat4 V c).arrAt_eq_of_cover 3 (row3 V c) (flushed3_eq V c) fun i =>
    ⟨t4_4, (flush4_3 t4_4).mpr rfl, by
      show i ∈ ((View.whole main_v37_1).slice (win4_3.rect t4_4)).set
      rw [View.set_slice_whole, Rect.mem_set_unit]
      intro a
      have h0 : (i 0 : Nat) < 1 := (i 0).isLt
      have h1 : (i 1 : Nat) < 256 := (i 1).isLt
      match a with
      | ⟨0, _⟩ =>
        show win4_3.index t4_4 0 * win4_3.size 0 ≤ (i 0 : Nat)
          ∧ (i 0 : Nat) < win4_3.index t4_4 0 * win4_3.size 0 + win4_3.xsize (grid4.coords t4_4) 0
        rw [show win4_3.index t4_4 0 * win4_3.size 0 = 0 from by decide +kernel,
          show win4_3.xsize (grid4.coords t4_4) 0 = 1 from by decide +kernel]; omega
      | ⟨1, _⟩ =>
        show win4_3.index t4_4 1 * win4_3.size 1 ≤ (i 1 : Nat)
          ∧ (i 1 : Nat) < win4_3.index t4_4 1 * win4_3.size 1 + win4_3.xsize (grid4.coords t4_4) 1
        rw [show win4_3.index t4_4 1 * win4_3.size 1 = 0 from by decide +kernel,
          show win4_3.xsize (grid4.coords t4_4) 1 = 256 from by decide +kernel]; omega⟩

theorem final4 (c : Dev nD) : (dat4 V c).arrAt 4 cfg4.N = row4 V c :=
  (dat4 V c).arrAt_eq_of_cover 4 (row4 V c) (flushed4_eq V c) fun i =>
    ⟨t4_4, (flush4_4 t4_4).mpr rfl, by
      show i ∈ ((View.whole main_v37_2).slice (win4_4.rect t4_4)).set
      rw [View.set_slice_whole, Rect.mem_set_unit]
      intro a
      have h0 : (i 0 : Nat) < 1 := (i 0).isLt
      have h1 : (i 1 : Nat) < 256 := (i 1).isLt
      match a with
      | ⟨0, _⟩ =>
        show win4_4.index t4_4 0 * win4_4.size 0 ≤ (i 0 : Nat)
          ∧ (i 0 : Nat) < win4_4.index t4_4 0 * win4_4.size 0 + win4_4.xsize (grid4.coords t4_4) 0
        rw [show win4_4.index t4_4 0 * win4_4.size 0 = 0 from by decide +kernel,
          show win4_4.xsize (grid4.coords t4_4) 0 = 1 from by decide +kernel]; omega
      | ⟨1, _⟩ =>
        show win4_4.index t4_4 1 * win4_4.size 1 ≤ (i 1 : Nat)
          ∧ (i 1 : Nat) < win4_4.index t4_4 1 * win4_4.size 1 + win4_4.xsize (grid4.coords t4_4) 1
        rw [show win4_4.index t4_4 1 * win4_4.size 1 = 0 from by decide +kernel,
          show win4_4.xsize (grid4.coords t4_4) 1 = 256 from by decide +kernel]; omega⟩

/-! ### The three arrays after the region -/

/-- The first output array is the element-wise sum of the two input arrays. -/
theorem r4_pre (c : Dev nD) (r : Fin 10000) (j : Fin 256) :
    rd (S := S10000x256) ((dat4 V c).arrAt 2 cfg4.N) (ix2 r j)
      = rd (S := S10000x256) (V c main_v19_0) (ix2 r j) + rd (S := S10000x256) (V c main_v24) (ix2 r j) :=
  congrFun (final2 V c) (ix2 r j)

/-- The second holds, column by column, the sum of that element-wise sum over all 10000 rows. -/
theorem r4_sum (c : Dev nD) (j : Fin 256) :
    rd (S := S1x256) ((dat4 V c).arrAt 3 cfg4.N) (ix2 0 j)
      = ∑ r : Fin 10000, (rd (S := S10000x256) (V c main_v19_0) (ix2 r j) + rd (S := S10000x256) (V c main_v24) (ix2 r j)) := by
  refine (congrFun (final3 V c) (ix2 0 j)).trans ?_
  refine ((outs_inv V c 4 last_lt).2.1 j).trans ?_
  refine (sum_rows (fun i => pre4n V c i j)).trans ?_
  refine Finset.sum_congr rfl fun r _ => ?_
  show pre4n V c r.val j = _
  unfold pre4n
  rw [dif_pos r.isLt]
  rfl

/-- The third holds, column by column, the sum of its squares over all 10000 rows. -/
theorem r4_sumsq (c : Dev nD) (j : Fin 256) :
    rd (S := S1x256) ((dat4 V c).arrAt 4 cfg4.N) (ix2 0 j)
      = ∑ r : Fin 10000, (rd (S := S10000x256) (V c main_v19_0) (ix2 r j) + rd (S := S10000x256) (V c main_v24) (ix2 r j))
          * (rd (S := S10000x256) (V c main_v19_0) (ix2 r j) + rd (S := S10000x256) (V c main_v24) (ix2 r j)) := by
  refine (congrFun (final4 V c) (ix2 0 j)).trans ?_
  refine ((outs_inv V c 4 last_lt).2.2 j).trans ?_
  refine (sum_rows (fun i => pre4n V c i j * pre4n V c i j)).trans ?_
  refine Finset.sum_congr rfl fun r _ => ?_
  show pre4n V c r.val j * pre4n V c r.val j = _
  unfold pre4n
  rw [dif_pos r.isLt]
  rfl

end Region

end Cert.KernelIdeal.Hand.R4
end
-- ==== Proof.KR35.lean ====
/- The two normalising regions of the layer, each read as one function of its input arrays.

   Both regions run the same body over blocks of 2000 rows: with `pre` the pre-activation rows, `res` the
   residual rows and four one-row operands — the column means `mu`, the column variances `var`, the scale
   `gam` and the shift `bet` — every stored element is
     `res + max (((pre − mu) · rsqrt (var + eps)) · gam + bet) 0`.
   Region 5 does this for the 10000 node rows in 5 blocks, region 3 for the 300000 edge rows in 150 blocks.
   For each region: the block index of every operand at every grid point; each operand's block read as
   rows of its array (row `p` of block `t` is row `2000 t + p`; the one-row operands are whole at every point);
   the stored value at a row and column; what a point writes back as a block of one whole-array function; the
   blocks cover the array (row `r` lies in block `r / 2000`); hence the output array, element by element. -/
import proofs.«421314_j74577812128000_1_alg».proof.Proof.Gen.KernelIdeal.Frame
import proofs.«421314_j74577812128000_1_alg».proof.Proof.Spec
import proofs.«421314_j74577812128000_1_alg».proof.Proof.Rd
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Hand.R35
open Idealize.ShloMosaic Idealize.ShloMosaic.ValueIdx Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

private theorem hz2 : (![0, 0] : Fin 2 → Nat) = fun _ => 0 := funext fun a => by fin_cases a <;> rfl

/-- Normalise a row against per-column statistics, scale, shift, clamp at zero, add the residual:
    `res + max (((pre − mu) · rsqrt (var + eps)) · gam + bet) 0`, the column's statistics read at row 0. -/
def normClampRow {R : ℕ} (pre res : (⟨2, ![R, 256]⟩ : Shape).Idx → EReal)
    (gam bet mu var : (⟨2, ![1, 256]⟩ : Shape).Idx → EReal) : (⟨2, ![R, 256]⟩ : Shape).Idx → EReal :=
  fun i => res i + max ((((pre i - mu (ix2 0 (i 1))) * Ideal.rsqrt (var (ix2 0 (i 1)) + Cert.Gcn.eps)) * gam (ix2 0 (i 1))) + bet (ix2 0 (i 1))) 0

theorem normClampRow_apply {R : ℕ} (pre res : (⟨2, ![R, 256]⟩ : Shape).Idx → EReal)
    (gam bet mu var : (⟨2, ![1, 256]⟩ : Shape).Idx → EReal) (r : Fin R) (j : Fin 256) :
    normClampRow pre res gam bet mu var (ix2 r j)
      = res (ix2 r j) + max ((((pre (ix2 r j) - mu (ix2 0 j)) * Ideal.rsqrt (var (ix2 0 j) + Cert.Gcn.eps)) * gam (ix2 0 j)) + bet (ix2 0 j)) 0 := rfl

/-! ## Region 5: the node rows -/

/-- The block index of every window at every point of the five-point grid: the row windows move with the point,
    the one-row windows stay. -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- Row `p` of the pre-activation block at point `t` is row `2000 t + p` of the array. -/
theorem blk5_0 (c : Dev nD) (t : Fin cfg5.N) (p : Fin 2000) (j : Fin 256) (r : Fin 10000)
    (hr : r.val = 2000 * t.val + p.val) :
    (iblk5 V c 0 t : Vec Ideal S2000x256 .f32) (ix2 p j) = (V c main_v37_0 : Vec Ideal S10000x256 .f32) (ix2 r j) := by
  obtain ⟨e0, e1, -⟩ := idx5 t
  unfold iblk5
  rw [View.read_apply]
  show V c main_v37_0 _ = V c main_v37_0 _
  congr 1
  funext a
  apply Fin.ext
  match a with
  | ⟨0, _⟩ => show win5_0.index t (0 : Fin 2) * 2000 + 1 * p.val = r.val; rw [e0, hr]; omega
  | ⟨1, _⟩ => show win5_0.index t (1 : Fin 2) * 256 + 1 * j.val = j.val; rw [e1]; omega

/-- Row `p` of the residual block at point `t` is row `2000 t + p` of the array. -/
theorem blk5_1 (c : Dev nD) (t : Fin cfg5.N) (p : Fin 2000) (j : Fin 256) (r : Fin 10000)
    (hr : r.val = 2000 * t.val + p.val) :
    (iblk5 V c 1 t : Vec Ideal S2000x256 .f32) (ix2 p j) = (V c main_arg0 : Vec Ideal S10000x256 .f32) (ix2 r j) := by
  obtain ⟨-, -, e0, e1, -⟩ := idx5 t
  unfold iblk5
  rw [View.read_apply]
  show V c main_arg0 _ = V c main_arg0 _
  congr 1
  funext a
  apply Fin.ext
  match a with
  | ⟨0, _⟩ => show win5_1.index t (0 : Fin 2) * 2000 + 1 * p.val = r.val; rw [e0, hr]; omega
  | ⟨1, _⟩ => show win5_1.index t (1 : Fin 2) * 256 + 1 * j.val = j.val; rw [e1]; omega

/-- The scale row's block is the scale row at every point. -/
theorem blk5_2 (c : Dev nD) (t : Fin cfg5.N) (j : Fin 256) :
    (iblk5 V c 2 t : Vec Ideal S1x256 .f32) (ix2 0 j) = (V c main_v44 : Vec Ideal S1x256 .f32) (ix2 0 j) := by
  obtain ⟨-, -, -, -, e0, e1, -⟩ := idx5 t
  unfold iblk5
  rw [View.read_apply]
  show V c main_v44 _ = V c main_v44 _
  congr 1
  funext a
  apply Fin.ext
  match a with
  | ⟨0, _⟩ => show win5_2.index t (0 : Fin 2) * 1 + 1 * 0 = 0; rw [e0]
  | ⟨1, _⟩ => show win5_2.index t (1 : Fin 2) * 256 + 1 * j.val = j.val; rw [e1]; omega

/-- The shift row's block is the shift row at every point. -/
theorem blk5_3 (c : Dev nD) (t : Fin cfg5.N) (j : Fin 256) :
    (iblk5 V c 3 t : Vec Ideal S1x256 .f32) (ix2 0 j) = (V c main_v45 : Vec Ideal S1x256 .f32) (ix2 0 j) := by
  obtain ⟨-, -, -, -, -, -, e0, e1, -⟩ := idx5 t
  unfold iblk5
  rw [View.read_apply]
  show V c main_v45 _ = V c main_v45 _
  congr 1
  funext a
  apply Fin.ext
  match a with
  | ⟨0, _⟩ => show win5_3.index t (0 : Fin 2) * 1 + 1 * 0 = 0; rw [e0]
  | ⟨1, _⟩ => show win5_3.index t (1 : Fin 2) * 256 + 1 * j.val = j.val; rw [e1]; omega

/-- The mean row's block is the mean row at every point. -/
theorem blk5_4 (c : Dev nD) (t : Fin cfg5.N) (j : Fin 256) :
    (iblk5 V c 4 t : Vec Ideal S1x256 .f32) (ix2 0 j) = (V c main_v39 : Vec Ideal S1x256 .f32) (ix2 0 j) := by
  obtain ⟨-, -, -, -, -, -, -, -, e0, e1, -⟩ := idx5 t
  unfold iblk5
  rw [View.read_apply]
  show V c main_v39 _ = V c main_v39 _
  congr 1
  funext a
  apply Fin.ext
  match a with
  | ⟨0, _⟩ => show win5_4.index t (0 : Fin 2) * 1 + 1 * 0 = 0; rw [e0]
  | ⟨1, _⟩ => show win5_4.index t (1 : Fin 2) * 256 + 1 * j.val = j.val; rw [e1]; omega

/-- The variance row's block is the variance row at every point. -/
theorem blk5_5 (c : Dev nD) (t : Fin cfg5.N) (j : Fin 256) :
    (iblk5 V c 5 t : Vec Ideal S1x256 .f32) (ix2 0 j) = (V c main_v43 : Vec Ideal S1x256 .f32) (ix2 0 j) := by
  obtain ⟨-, -, -, -, -, -, -, -, -, -, e0, e1, -⟩ := idx5 t
  unfold iblk5
  rw [View.read_apply]
  show V c main_v43 _ = V c main_v43 _
  congr 1
  funext a
  apply Fin.ext
  match a with
  | ⟨0, _⟩ => show win5_5.index t (0 : Fin 2) * 1 + 1 * 0 = 0; rw [e0]
  | ⟨1, _⟩ => show win5_5.index t (1 : Fin 2) * 256 + 1 * j.val = j.val; rw [e1]; omega

/-- The stored value at row `p`, column `j` of a block: the residual plus the clamped, scaled and shifted
    normalisation of the pre-activation, the column's statistics read from the one-row operands. -/
theorem pay5_apply (v0 : Vec Ideal S2000x256 .f32) (v2 v7 v13 v17 : Vec Ideal S1x256 .f32) (v21 : Vec Ideal S2000x256 .f32)
    (p : Fin 2000) (j : Fin 256) :
    (k5_pay1 (F := Ideal) v0 v2 v7 v13 v17 v21 : Vec Ideal S2000x256 .f32) (ix2 p j)
      = v21 (ix2 p j) + max ((((v0 (ix2 p j) - v7 (ix2 0 j)) * Ideal.rsqrt (v2 (ix2 0 j) + Cert.Gcn.eps)) * v13 (ix2 0 j)) + v17 (ix2 0 j)) 0 := by
  unfold k5_pay1
  simp only [shapeCast_self]
  rw [addf_apply, maximumf_apply, addf_apply, mulf_apply, mulf_apply, subf_apply]
  rw [broadcastTo_1b_ab_apply, broadcastTo_1b_ab_apply, broadcastTo_1b_ab_apply, broadcastTo_1b_ab_apply]
  rw [broadcast_apply]
  show _ + max (_ * Ideal.rsqrt (v2 (ix2 0 j) + Ideal.ofBits .f32 0x3727C5AC#32) * _ + _) (Ideal.ofBits .f32 0x00000000#32) = _
  rw [Ideal.ofBits_zero_f32]
  rfl

/-- What point `t` writes back is block `t` of the normalised array. -/
theorem flushed5 (c : Dev nD) (t : Fin cfg5.N) :
    (dat5 V c).flushed 6 t = ((cfg5.win 6).blk t).view.read (Elt Ideal)
      (normClampRow (V c main_v37_0) (V c main_arg0) (V c main_v44) (V c main_v45) (V c main_v39) (V c main_v43)) := by
  show (cfg5.win 6).cut (grid5.coords t) ((dat5 V c).after 6 t) = _
  rw [after5_6]
  unfold out5_6
  rw [View.canon_unit_zero hz2]
  simp only [View.ld_unit_zero (S := S2000x256) hz2, View.ld_unit_zero (S := S1x256) hz2]
  funext y
  obtain ⟨p, j, rfl⟩ : ∃ (p : Fin 2000) (j : Fin 256), y = ix2 p j := ⟨y 0, y 1, eq_ix2 y⟩
  have hN : grid5.N = 5 := N_5
  have ht : t.val < grid5.N := t.isLt
  have hp : p.val < 2000 := p.isLt
  obtain ⟨-, -, -, -, -, -, -, -, -, -, -, -, e0, e1⟩ := idx5 t
  have hr : 2000 * t.val + p.val < 10000 := by omega
  have hemb : ((cfg5.win 6).blk t).view.emb (ix2 p j) = (ix2 (⟨2000 * t.val + p.val, hr⟩ : Fin 10000) j : S10000x256.Idx) := by
    funext a
    apply Fin.ext
    match a with
    | ⟨0, _⟩ => show win5_6.index t (0 : Fin 2) * 2000 + 1 * p.val = 2000 * t.val + p.val; rw [e0]; omega
    | ⟨1, _⟩ => show win5_6.index t (1 : Fin 2) * 256 + 1 * j.val = j.val; rw [e1]; omega
  show (k5_pay1 (F := Ideal) (iblk5 V c 0 t) (iblk5 V c 5 t) (iblk5 V c 4 t) (iblk5 V c 2 t) (iblk5 V c 3 t) (iblk5 V c 1 t) : Vec Ideal S2000x256 .f32) (ix2 p j)
    = normClampRow (V c main_v37_0) (V c main_arg0) (V c main_v44) (V c main_v45) (V c main_v39) (V c main_v43) (((cfg5.win 6).blk t).view.emb (ix2 p j))
  rw [hemb, normClampRow_apply]
  refine (pay5_apply _ _ _ _ _ _ p j).trans ?_
  rw [blk5_0 V c t p j ⟨2000 * t.val + p.val, hr⟩ rfl, blk5_1 V c t p j ⟨2000 * t.val + p.val, hr⟩ rfl,
    blk5_2 V c t j, blk5_3 V c t j, blk5_4 V c t j, blk5_5 V c t j]

/-- An index lies in point `t`'s output block iff each coordinate lies in the block's range. -/
theorem mem_blk5 (t : Fin cfg5.N) (i : S10000x256.Idx) :
    i ∈ ((cfg5.win 6).blk t).view.set ↔ ∀ a : Fin 2, win5_6.index t a * S2000x256.size a ≤ (i a).val ∧ (i a).val < win5_6.index t a * S2000x256.size a + S2000x256.size a := by
  show i ∈ ((View.whole main_v46).slice (win5_6.rect t)).set ↔ _
  rw [View.set_slice_whole, Rect.mem_set_unit]
  exact Iff.rfl

/-- Row `r` lies in the block of point `r / 2000`: the five blocks cover the array. -/
theorem cover5 (i : S10000x256.Idx) :
    ∃ t : Fin cfg5.N, (cfg5.win 6).flush t = true ∧ i ∈ ((cfg5.win 6).blk t).view.set := by
  have hN : grid5.N = 5 := N_5
  have hi0 : (i 0).val < 10000 := idx2_lt0 i
  have hi1 : (i 1).val < 256 := idx2_lt1 i
  have hq : (i 0).val / 2000 < grid5.N := by rw [hN]; omega
  refine ⟨⟨(i 0).val / 2000, hq⟩, flush5_6 _, ?_⟩
  obtain ⟨-, -, -, -, -, -, -, -, -, -, -, -, e0, e1⟩ := idx5 ⟨(i 0).val / 2000, hq⟩
  rw [mem_blk5]
  intro a
  match a with
  | ⟨0, _⟩ =>
    show win5_6.index ⟨(i 0).val / 2000, hq⟩ (0 : Fin 2) * 2000 ≤ (i 0).val ∧ (i 0).val < win5_6.index ⟨(i 0).val / 2000, hq⟩ (0 : Fin 2) * 2000 + 2000
    rw [e0]
    show (i 0).val / 2000 * 2000 ≤ (i 0).val ∧ (i 0).val < (i 0).val / 2000 * 2000 + 2000
    omega
  | ⟨1, _⟩ =>
    show win5_6.index ⟨(i 0).val / 2000, hq⟩ (1 : Fin 2) * 256 ≤ (i 1).val ∧ (i 1).val < win5_6.index ⟨(i 0).val / 2000, hq⟩ (1 : Fin 2) * 256 + 256
    rw [e1]
    omega

/-- After the region the output array is the normalised array. -/
theorem final5 (c : Dev nD) :
    (dat5 V c).arrAt 6 cfg5.N
      = normClampRow (V c main_v37_0) (V c main_arg0) (V c main_v44) (V c main_v45) (V c main_v39) (V c main_v43) :=
  (dat5 V c).arrAt_eq_of_cover 6 _ (fun t _ => flushed5 V c t) cover5

/-- Region 5's output at row `r`, column `j`. -/
theorem r5_out6 (c : Dev nD) (r : Fin 10000) (j : Fin 256) :
    Cert.Gcn.rd (S := S10000x256) ((dat5 V c).arrAt 6 cfg5.N) (ix2 r j)
      = Cert.Gcn.rd (S := S10000x256) (V c main_arg0) (ix2 r j)
        + max ((((Cert.Gcn.rd (S := S10000x256) (V c main_v37_0) (ix2 r j) - Cert.Gcn.rd (S := S1x256) (V c main_v39) (ix2 0 j))
                * Ideal.rsqrt (Cert.Gcn.rd (S := S1x256) (V c main_v43) (ix2 0 j) + Cert.Gcn.eps))
               * Cert.Gcn.rd (S := S1x256) (V c main_v44) (ix2 0 j)) + Cert.Gcn.rd (S := S1x256) (V c main_v45) (ix2 0 j)) 0 := by
  rw [final5]
  rfl

/-! ## Region 3: the edge rows -/

/-- The block index of every window at every point of the 150-point grid: the row windows move with the point,
    the one-row windows stay. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row `p` of the pre-activation block at point `t` is row `2000 t + p` of the array. -/
theorem blk3_0 (c : Dev nD) (t : Fin cfg3.N) (p : Fin 2000) (j : Fin 256) (r : Fin 300000)
    (hr : r.val = 2000 * t.val + p.val) :
    (iblk3 V c 0 t : Vec Ideal S2000x256 .f32) (ix2 p j) = (V c main_v27_0 : Vec Ideal S300000x256 .f32) (ix2 r j) := by
  obtain ⟨e0, e1, -⟩ := idx3 t
  unfold iblk3
  rw [View.read_apply]
  show V c main_v27_0 _ = V c main_v27_0 _
  congr 1
  funext a
  apply Fin.ext
  match a with
  | ⟨0, _⟩ => show win3_0.index t (0 : Fin 2) * 2000 + 1 * p.val = r.val; rw [e0, hr]; omega
  | ⟨1, _⟩ => show win3_0.index t (1 : Fin 2) * 256 + 1 * j.val = j.val; rw [e1]; omega

/-- Row `p` of the residual block at point `t` is row `2000 t + p` of the array. -/
theorem blk3_1 (c : Dev nD) (t : Fin cfg3.N) (p : Fin 2000) (j : Fin 256) (r : Fin 300000)
    (hr : r.val = 2000 * t.val + p.val) :
    (iblk3 V c 1 t : Vec Ideal S2000x256 .f32) (ix2 p j) = (V c main_arg1 : Vec Ideal S300000x256 .f32) (ix2 r j) := by
  obtain ⟨-, -, e0, e1, -⟩ := idx3 t
  unfold iblk3
  rw [View.read_apply]
  show V c main_arg1 _ = V c main_arg1 _
  congr 1
  funext a
  apply Fin.ext
  match a with
  | ⟨0, _⟩ => show win3_1.index t (0 : Fin 2) * 2000 + 1 * p.val = r.val; rw [e0, hr]; omega
  | ⟨1, _⟩ => show win3_1.index t (1 : Fin 2) * 256 + 1 * j.val = j.val; rw [e1]; omega

/-- The scale row's block is the scale row at every point. -/
theorem blk3_2 (c : Dev nD) (t : Fin cfg3.N) (j : Fin 256) :
    (iblk3 V c 2 t : Vec Ideal S1x256 .f32) (ix2 0 j) = (V c main_v34 : Vec Ideal S1x256 .f32) (ix2 0 j) := by
  obtain ⟨-, -, -, -, e0, e1, -⟩ := idx3 t
  unfold iblk3
  rw [View.read_apply]
  show V c main_v34 _ = V c main_v34 _
  congr 1
  funext a
  apply Fin.ext
  match a with
  | ⟨0, _⟩ => show win3_2.index t (0 : Fin 2) * 1 + 1 * 0 = 0; rw [e0]
  | ⟨1, _⟩ => show win3_2.index t (1 : Fin 2) * 256 + 1 * j.val = j.val; rw [e1]; omega

/-- The shift row's block is the shift row at every point. -/
theorem blk3_3 (c : Dev nD) (t : Fin cfg3.N) (j : Fin 256) :
    (iblk3 V c 3 t : Vec Ideal S1x256 .f32) (ix2 0 j) = (V c main_v35 : Vec Ideal S1x256 .f32) (ix2 0 j) := by
  obtain ⟨-, -, -, -, -, -, e0, e1, -⟩ := idx3 t
  unfold iblk3
  rw [View.read_apply]
  show V c main_v35 _ = V c main_v35 _
  congr 1
  funext a
  apply Fin.ext
  match a with
  | ⟨0, _⟩ => show win3_3.index t (0 : Fin 2) * 1 + 1 * 0 = 0; rw [e0]
  | ⟨1, _⟩ => show win3_3.index t (1 : Fin 2) * 256 + 1 * j.val = j.val; rw [e1]; omega

/-- The mean row's block is the mean row at every point. -/
theorem blk3_4 (c : Dev nD) (t : Fin cfg3.N) (j : Fin 256) :
    (iblk3 V c 4 t : Vec Ideal S1x256 .f32) (ix2 0 j) = (V c main_v29 : Vec Ideal S1x256 .f32) (ix2 0 j) := by
  obtain ⟨-, -, -, -, -, -, -, -, e0, e1, -⟩ := idx3 t
  unfold iblk3
  rw [View.read_apply]
  show V c main_v29 _ = V c main_v29 _
  congr 1
  funext a
  apply Fin.ext
  match a with
  | ⟨0, _⟩ => show win3_4.index t (0 : Fin 2) * 1 + 1 * 0 = 0; rw [e0]
  | ⟨1, _⟩ => show win3_4.index t (1 : Fin 2) * 256 + 1 * j.val = j.val; rw [e1]; omega

/-- The variance row's block is the variance row at every point. -/
theorem blk3_5 (c : Dev nD) (t : Fin cfg3.N) (j : Fin 256) :
    (iblk3 V c 5 t : Vec Ideal S1x256 .f32) (ix2 0 j) = (V c main_v33 : Vec Ideal S1x256 .f32) (ix2 0 j) := by
  obtain ⟨-, -, -, -, -, -, -, -, -, -, e0, e1, -⟩ := idx3 t
  unfold iblk3
  rw [View.read_apply]
  show V c main_v33 _ = V c main_v33 _
  congr 1
  funext a
  apply Fin.ext
  match a with
  | ⟨0, _⟩ => show win3_5.index t (0 : Fin 2) * 1 + 1 * 0 = 0; rw [e0]
  | ⟨1, _⟩ => show win3_5.index t (1 : Fin 2) * 256 + 1 * j.val = j.val; rw [e1]; omega

/-- The stored value at row `p`, column `j` of a block: the residual plus the clamped, scaled and shifted
    normalisation of the pre-activation, the column's statistics read from the one-row operands. -/
theorem pay3_apply (v0 : Vec Ideal S2000x256 .f32) (v2 v7 v13 v17 : Vec Ideal S1x256 .f32) (v21 : Vec Ideal S2000x256 .f32)
    (p : Fin 2000) (j : Fin 256) :
    (k3_pay1 (F := Ideal) v0 v2 v7 v13 v17 v21 : Vec Ideal S2000x256 .f32) (ix2 p j)
      = v21 (ix2 p j) + max ((((v0 (ix2 p j) - v7 (ix2 0 j)) * Ideal.rsqrt (v2 (ix2 0 j) + Cert.Gcn.eps)) * v13 (ix2 0 j)) + v17 (ix2 0 j)) 0 := by
  unfold k3_pay1
  simp only [shapeCast_self]
  rw [addf_apply, maximumf_apply, addf_apply, mulf_apply, mulf_apply, subf_apply]
  rw [broadcastTo_1b_ab_apply, broadcastTo_1b_ab_apply, broadcastTo_1b_ab_apply, broadcastTo_1b_ab_apply]
  rw [broadcast_apply]
  show _ + max (_ * Ideal.rsqrt (v2 (ix2 0 j) + Ideal.ofBits .f32 0x3727C5AC#32) * _ + _) (Ideal.ofBits .f32 0x00000000#32) = _
  rw [Ideal.ofBits_zero_f32]
  rfl

/-- What point `t` writes back is block `t` of the normalised array. -/
theorem flushed3 (c : Dev nD) (t : Fin cfg3.N) :
    (dat3 V c).flushed 6 t = ((cfg3.win 6).blk t).view.read (Elt Ideal)
      (normClampRow (V c main_v27_0) (V c main_arg1) (V c main_v34) (V c main_v35) (V c main_v29) (V c main_v33)) := by
  show (cfg3.win 6).cut (grid3.coords t) ((dat3 V c).after 6 t) = _
  rw [after3_6]
  unfold out3_6
  rw [View.canon_unit_zero hz2]
  simp only [View.ld_unit_zero (S := S2000x256) hz2, View.ld_unit_zero (S := S1x256) hz2]
  funext y
  obtain ⟨p, j, rfl⟩ : ∃ (p : Fin 2000) (j : Fin 256), y = ix2 p j := ⟨y 0, y 1, eq_ix2 y⟩
  have hN : grid3.N = 150 := N_3
  have ht : t.val < grid3.N := t.isLt
  have hp : p.val < 2000 := p.isLt
  obtain ⟨-, -, -, -, -, -, -, -, -, -, -, -, e0, e1⟩ := idx3 t
  have hr : 2000 * t.val + p.val < 300000 := by omega
  have hemb : ((cfg3.win 6).blk t).view.emb (ix2 p j) = (ix2 (⟨2000 * t.val + p.val, hr⟩ : Fin 300000) j : S300000x256.Idx) := by
    funext a
    apply Fin.ext
    match a with
    | ⟨0, _⟩ => show win3_6.index t (0 : Fin 2) * 2000 + 1 * p.val = 2000 * t.val + p.val; rw [e0]; omega
    | ⟨1, _⟩ => show win3_6.index t (1 : Fin 2) * 256 + 1 * j.val = j.val; rw [e1]; omega
  show (k3_pay1 (F := Ideal) (iblk3 V c 0 t) (iblk3 V c 5 t) (iblk3 V c 4 t) (iblk3 V c 2 t) (iblk3 V c 3 t) (iblk3 V c 1 t) : Vec Ideal S2000x256 .f32) (ix2 p j)
    = normClampRow (V c main_v27_0) (V c main_arg1) (V c main_v34) (V c main_v35) (V c main_v29) (V c main_v33) (((cfg3.win 6).blk t).view.emb (ix2 p j))
  rw [hemb, normClampRow_apply]
  refine (pay3_apply _ _ _ _ _ _ p j).trans ?_
  rw [blk3_0 V c t p j ⟨2000 * t.val + p.val, hr⟩ rfl, blk3_1 V c t p j ⟨2000 * t.val + p.val, hr⟩ rfl,
    blk3_2 V c t j, blk3_3 V c t j, blk3_4 V c t j, blk3_5 V c t j]

/-- An index lies in point `t`'s output block iff each coordinate lies in the block's range. -/
theorem mem_blk3 (t : Fin cfg3.N) (i : S300000x256.Idx) :
    i ∈ ((cfg3.win 6).blk t).view.set ↔ ∀ a : Fin 2, win3_6.index t a * S2000x256.size a ≤ (i a).val ∧ (i a).val < win3_6.index t a * S2000x256.size a + S2000x256.size a := by
  show i ∈ ((View.whole main_v36).slice (win3_6.rect t)).set ↔ _
  rw [View.set_slice_whole, Rect.mem_set_unit]
  exact Iff.rfl

/-- Row `r` lies in the block of point `r / 2000`: the 150 blocks cover the array. -/
theorem cover3 (i : S300000x256.Idx) :
    ∃ t : Fin cfg3.N, (cfg3.win 6).flush t = true ∧ i ∈ ((cfg3.win 6).blk t).view.set := by
  have hN : grid3.N = 150 := N_3
  have hi0 : (i 0).val < 300000 := idx2_lt0 i
  have hi1 : (i 1).val < 256 := idx2_lt1 i
  have hq : (i 0).val / 2000 < grid3.N := by rw [hN]; omega
  refine ⟨⟨(i 0).val / 2000, hq⟩, flush3_6 _, ?_⟩
  obtain ⟨-, -, -, -, -, -, -, -, -, -, -, -, e0, e1⟩ := idx3 ⟨(i 0).val / 2000, hq⟩
  rw [mem_blk3]
  intro a
  match a with
  | ⟨0, _⟩ =>
    show win3_6.index ⟨(i 0).val / 2000, hq⟩ (0 : Fin 2) * 2000 ≤ (i 0).val ∧ (i 0).val < win3_6.index ⟨(i 0).val / 2000, hq⟩ (0 : Fin 2) * 2000 + 2000
    rw [e0]
    show (i 0).val / 2000 * 2000 ≤ (i 0).val ∧ (i 0).val < (i 0).val / 2000 * 2000 + 2000
    omega
  | ⟨1, _⟩ =>
    show win3_6.index ⟨(i 0).val / 2000, hq⟩ (1 : Fin 2) * 256 ≤ (i 1).val ∧ (i 1).val < win3_6.index ⟨(i 0).val / 2000, hq⟩ (1 : Fin 2) * 256 + 256
    rw [e1]
    omega

/-- After the region the output array is the normalised array. -/
theorem final3 (c : Dev nD) :
    (dat3 V c).arrAt 6 cfg3.N
      = normClampRow (V c main_v27_0) (V c main_arg1) (V c main_v34) (V c main_v35) (V c main_v29) (V c main_v33) :=
  (dat3 V c).arrAt_eq_of_cover 6 _ (fun t _ => flushed3 V c t) cover3

/-- Region 3's output at row `q`, column `j`. -/
theorem r3_out6 (c : Dev nD) (q : Fin 300000) (j : Fin 256) :
    Cert.Gcn.rd (S := S300000x256) ((dat3 V c).arrAt 6 cfg3.N) (ix2 q j)
      = Cert.Gcn.rd (S := S300000x256) (V c main_arg1) (ix2 q j)
        + max ((((Cert.Gcn.rd (S := S300000x256) (V c main_v27_0) (ix2 q j) - Cert.Gcn.rd (S := S1x256) (V c main_v29) (ix2 0 j))
                * Ideal.rsqrt (Cert.Gcn.rd (S := S1x256) (V c main_v33) (ix2 0 j) + Cert.Gcn.eps))
               * Cert.Gcn.rd (S := S1x256) (V c main_v34) (ix2 0 j)) + Cert.Gcn.rd (S := S1x256) (V c main_v35) (ix2 0 j)) 0 := by
  rw [final3]
  rfl

end Cert.KernelIdeal.Hand.R35
end
-- ==== Proof.KWalkA.lean ====
/- What the first three kernel regions of the gated graph-convolution program find in their input arrays when they
   are entered, in terms of the launch memory and of the arrays earlier regions leave.

   Region 0 reads the node features as launched, the four node weight matrices transposed and the four node biases
   laid out as single rows. Region 1 reads the edge features as launched, the edge weight matrix transposed, the
   edge bias as a row, and, per edge, the row of region 0's second output named by the edge's neighbour word.
   Region 2 reads region 1's first output and, per edge, rows of region 0's third and fourth outputs named by the
   aggregation word and by the neighbour word.

   A read of rows is one chain of operations applied three times: a negative index word is shifted up by the
   table's 10000 rows, the shifted word is tested against [0, 9999], the row is gathered with the word clamped into
   the table, and a word that fails the test reads a fill constant instead. The chain is evaluated once, as a
   function of a table and a vector of index words, and read at an edge and a column; each of the three stretches
   is then that function of two of the buffers it finds. Everything else here follows a buffer back through the
   boundaries of the run that do not write it. -/
import proofs.«421314_j74577812128000_1_alg».proof.Proof.Gen.KernelIdeal.Frame
import proofs.«421314_j74577812128000_1_alg».proof.Proof.Spec
import proofs.«421314_j74577812128000_1_alg».proof.Proof.Rd
import Idealize.ShloMosaic.Lib.Pipeline.Value
import Idealize.ShloMosaic.Lib.ValueIdx
import Idealize.ShloMosaic.Lib.ValueLayout
import Idealize.ShloMosaic.PureOps.Reduce
import Idealize.ShloMosaic.PureOps.Ideal.Laws
import Idealize.ShloMosaic.Lib.StableHlo.Predicate
import Idealize.ShloMosaic.Lib.Tactic

set_option maxRecDepth 16384

noncomputable section

namespace Cert.KernelIdeal.Hand.WA
open Idealize.ShloMosaic Idealize.ShloMosaic.ValueIdx Idealize.ShloMosaic.TcCoe Idealize.SL.Sem
open Cert.KernelIdeal Cert.KernelIdeal.Gen
open Idealize.ShloMosaic.Pipeline (Dat)
open Cert.Gcn (rd rdi)

/-- A buffer that no operation of a stretch writes is left as the stretch found it. -/
local macro "host_keep " h:ident : tactic =>
  `(tactic| exact StableHlo.after_of_forall_not_mem _ _ (List.forall_iff_forall_mem.mp (by
      simp only [$h:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## A row read from a table at an index word: the operations at one element -/

section TakeAtIndex

local notation "gD" => gather_S10000x256_S300000x1_S300000x256_1_0_n_n_0_1_1256

/-- The table row a start index names: the word read signed and clamped into the table. -/
def rowOf {w : Nat} (n : BitVec w) : Fin 10000 := ⟨min n.toInt.toNat 9999, by omega⟩

/-- The gather of whole rows reads, at edge `q` and column `j`, the table at the row the start index names,
    read signed and clamped into the table, and the same column. -/
theorem gather_rows_apply {α : Type} {w : Nat} (x : S10000x256.Idx → α) (idx : IVec S300000x1 w) (q : Fin 300000) (j : Fin 256) :
    Host.gather gD x idx (ix2 q j)
      = x (ix2 (rowOf (idx (ix2 q 0))) j) := by
  unfold Host.gather
  congr 1
  funext a
  refine Fin.ext ?_
  match a with
  | ⟨0, _⟩ =>
    show GatherDims.start gD (ix2 q j) idx 0 + GatherDims.batchCoord gD (ix2 q j) 0 + GatherDims.offCoord gD (ix2 q j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gD from List.mem_singleton.mpr rfl)]
    have hsi : GatherDims.siIdx gD (ix2 q j) ⟨List.idxOf (0 : Fin 2) (GatherDims.startIndexMap gD),
        List.idxOf_lt_length_iff.2 (List.mem_singleton.mpr rfl)⟩ = ix2 q 0 := by
      funext b; refine Fin.ext ?_
      match b with
      | ⟨0, _⟩ => rfl
      | ⟨1, _⟩ => rfl
    rw [hsi]
    rfl
  | ⟨1, _⟩ =>
    show GatherDims.start gD (ix2 q j) idx 1 + GatherDims.batchCoord gD (ix2 q j) 1 + GatherDims.offCoord gD (ix2 q j) 1 = _
    rw [GatherDims.batchCoord_eq_zero _ _ _ List.not_mem_nil]
    have hs : GatherDims.start gD (ix2 q j) idx 1 = 0 := by
      unfold GatherDims.start
      rw [dif_neg (show ¬ (1 : Fin 2) ∈ GatherDims.startIndexMap gD from fun h => absurd (List.mem_singleton.mp h) (by decide))]
    rw [hs]
    have hk : (1 : Fin 2) ∈ GatherDims.sKept gD := (GatherDims.mem_sKept _ _).mpr
      ⟨fun h => absurd (List.mem_singleton.mp h) (by decide), List.not_mem_nil⟩
    unfold GatherDims.offCoord
    rw [dif_pos hk]
    simp only [Nat.zero_add]
    rfl

/-- A reduction by `and` along an axis of one element, from the bit 1, reads that element. -/
theorem reduce_unit_apply (x : IVec S300000x1 1) (q : Fin 300000) :
    Host.reduce IntOp.andi x (constantI S_ 1 1#1) reducesTo_S300000x1_S300000_d1 h_S_ (ix1 q) = x (ix2 q 0) := by
  have hR : S300000x1.Reduces [1] S300000 := by decide
  rw [Host.reduce_eq_fold_single IntOp.andi x _ reducesTo_S300000x1_S300000_d1 hR h_S_ (ix1 q)]
  haveI : Unique (Fin (S300000x1.size 1)) := (inferInstance : Unique (Fin 1))
  rw [Finset.univ_unique, Finset.fold_singleton]
  have hl : ∀ k : Fin (S300000x1.size 1), hR.lift (ix1 q) k = ix2 q 0 := by
    intro k
    have hk : k.val < 1 := k.isLt
    funext b; refine Fin.ext ?_
    rw [Shape.Reduces.lift_val]
    match b with
    | ⟨0, _⟩ => rfl
    | ⟨1, _⟩ =>
      show Shape.Reduces.liftVal hR (ix1 q) k.val ⟨1, _⟩ = 0
      unfold Shape.Reduces.liftVal
      split
      · omega
      · next h => exact absurd rfl h
  show IntOp.andi (x (hR.lift (ix1 q) default)) 1#1 = _
  rw [hl]
  show x (ix2 q 0) &&& 1#1 = _
  rcases BitVec.eq_zero_or_eq_one (x (ix2 q 0)) with h | h <;> rw [h] <;> rfl

end TakeAtIndex

section TakeChain

local notation "gD" => gather_S10000x256_S300000x1_S300000x256_1_0_n_n_0_1_1256

/-- An index word, shifted up by the table's length when it is negative. -/
theorem nrm_word (v : BitVec 32) :
    Scalar.select (IntOp.cmpi .slt v 0#32) (IntOp.addi v 10000#32) v = Cert.Gcn.nrm v := by
  have h0 : (0#32 : BitVec 32).toInt = 0 := by decide
  unfold Cert.Gcn.nrm Scalar.select IntOp.cmpi IntOp.addi
  by_cases h : v.toInt < 0
  · simp [BitVec.slt, h0, h]
  · simp [BitVec.slt, h0, h]

/-- The range test on a shifted word: both comparisons hold exactly when it names a row of the table. -/
theorem mask_word (n : BitVec 32) :
    IntOp.andi (IntOp.cmpi .sge n 0#32) (IntOp.cmpi .sle n 9999#32) = 1#1 ↔ (0 ≤ n.toInt ∧ n.toInt ≤ 9999) := by
  have h0 : (0#32 : BitVec 32).toInt = 0 := by decide
  have h9 : (9999#32 : BitVec 32).toInt = 9999 := by decide
  unfold IntOp.andi IntOp.cmpi
  simp only [BitVec.sle, h0, h9]
  by_cases a : 0 ≤ n.toInt <;> by_cases b : n.toInt ≤ 9999 <;> simp [a, b]

/-- The column of start indices: every index word, a negative one shifted up by the table's length. -/
def takeIdx (i : IVec S300000 32) : IVec S300000x1 32 :=
  broadcastInDim S300000x1 ![0] bcast_S300000_S300000x1_0
    (select (cmpi .slt i (broadcastInDim S300000 ![] bcast_S_S300000 (constantI S_ 32 0#32)))
      (addi i (broadcastInDim S300000 ![] bcast_S_S300000 (constantI S_ 32 10000#32))) i)

/-- Per edge, whether its start index names a row of the table. -/
def takeMask (v : IVec S300000x1 32) : IVec S300000 1 :=
  Host.reduce IntOp.andi
    (andi (cmpi .sge v (broadcastInDim S300000x1 ![] bcast_S_S300000x1 (constantI S_ 32 0#32)))
      (cmpi .sle v (broadcastInDim S300000x1 ![0, 1] bcast_S1x1_S300000x1_0_1
        (broadcastInDim S1x1 ![1] bcast_S1_S1x1_1 (constantI S1 32 9999#32)))))
    (constantI S_ 1 1#1) reducesTo_S300000x1_S300000_d1 h_S_

/-- The rows of a table read at a vector of index words, a word outside the table reading the fill value:
    the whole chain of operations as one function of the table and the index words. -/
def takeFn (x : Vec Ideal S10000x256 .f32) (i : IVec S300000 32) : Vec Ideal S300000x256 .f32 :=
  select (broadcastInDim S300000x256 ![0] bcast_S300000_S300000x256_0 (takeMask (takeIdx i)))
    (Host.gather gD x (takeIdx i))
    (broadcastInDim S300000x256 ![] bcast_S_S300000x256 (constant (F := Ideal) S_ .f32 0x7FC00000#32))

/-- At edge `q` and column `j` the chain reads the table's row named by the edge's index word, or the fill value
    when the word names none. -/
theorem takeFn_apply (x : Vec Ideal S10000x256 .f32) (i : IVec S300000 32) (q : Fin 300000) (j : Fin 256) :
    takeFn x i (ix2 q j) = Cert.Gcn.take true (fun r j => x (ix2 r j)) (i (ix1 q)) j := by
  have hidx : takeIdx i (ix2 q 0) = Cert.Gcn.nrm (i (ix1 q)) := by
    unfold takeIdx
    rw [broadcastInDim_apply _ _ _ (ix2 q 0) (ix1 q) (fun a => match a with | ⟨0, _⟩ => rfl)]
    exact nrm_word (i (ix1 q))
  have hmask : broadcastInDim S300000x256 ![0] bcast_S300000_S300000x256_0 (takeMask (takeIdx i)) (ix2 q j)
      = IntOp.andi (IntOp.cmpi .sge (takeIdx i (ix2 q 0)) 0#32) (IntOp.cmpi .sle (takeIdx i (ix2 q 0)) 9999#32) := by
    rw [broadcastInDim_apply _ _ _ (ix2 q j) (ix1 q) (fun a => match a with | ⟨0, _⟩ => rfl)]
    unfold takeMask
    rw [reduce_unit_apply]
    rfl
  unfold takeFn
  rw [select_apply, hmask, gather_rows_apply, hidx]
  show Scalar.select _ _ Cert.Gcn.fill = _
  unfold Cert.Gcn.take
  by_cases h : Cert.Gcn.inTable (i (ix1 q))
  · rw [(mask_word _).mpr h, select_one, if_neg (fun hh => hh.2 h)]
    rfl
  · rw [eq_zero_of_ne_one (fun e => h ((mask_word _).mp e)), select_zero, if_pos ⟨rfl, h⟩]

end TakeChain

/-! ## The three reads of rows in the program: one chain over three sets of buffers -/

section Stretches

variable (W : Valuation τ sig (Elt Ideal))

/-- The first read: the rows of the second output of region 0 at the neighbour words. -/
theorem take_after1 :
    rd (S := S300000x256) (StableHlo.after hostOps1 W (Proc.devRef .tc main_v20))
      = takeFn (rd (S := S10000x256) (W (Proc.devRef .tc main_v19_1))) (rdi (S := S300000) (W (Proc.devRef .tc main_v3))) := by
  after_results
  simp only [StableHlo.TRef.toBuf, StableHlo.TRef.ofBuf, cast_eq]
  rfl

/-- The second read: the rows of the third output of region 0 at the aggregation words. -/
theorem take_after2_1 :
    rd (S := S300000x256) (StableHlo.after hostOps2_1 W (Proc.devRef .tc main_v25))
      = takeFn (rd (S := S10000x256) (W (Proc.devRef .tc main_v19_2))) (rdi (S := S300000) (W (Proc.devRef .tc main_v1))) := by
  after_results
  simp only [StableHlo.TRef.toBuf, StableHlo.TRef.ofBuf, cast_eq]
  rfl

/-- The third read: the rows of the fourth output of region 0 at the neighbour words. -/
theorem take_after2_2 :
    rd (S := S300000x256) (StableHlo.after hostOps2_2 W (Proc.devRef .tc main_v26))
      = takeFn (rd (S := S10000x256) (W (Proc.devRef .tc main_v19_3))) (rdi (S := S300000) (W (Proc.devRef .tc main_v3))) := by
  after_results
  simp only [StableHlo.TRef.toBuf, StableHlo.TRef.ofBuf, cast_eq]
  rfl

end Stretches

/-! ## What regions 0, 1 and 2 find in their input arrays -/

section Entries

variable (m : (ℓ : Loc nD τ sig) → Buf (Elt Ideal) ℓ) (ρ : Dev nD → PrngReg) (c : Dev nD)

/-! ### Region 0: the node features as launched, the four weight matrices transposed, the four biases as rows -/

theorem v1_arg0 :
    rd (S := S10000x256) (V1 m ρ c main_arg0) = rd (S := S10000x256) (m ((c : Thread nD τ).loc main_arg0)) := by
  show StableHlo.after hostOps0 (W0 m ρ c) (Proc.devRef .tc main_arg0) = _
  host_keep hostOps0

theorem v1_w_v5 (s j : Fin 256) :
    rd (S := S256x256) (V1 m ρ c main_v5) (ix2 s j) = rd (S := S256x256) (m ((c : Thread nD τ).loc main_arg3)) (ix2 j s) := by
  show StableHlo.after hostOps0 (W0 m ρ c) (Proc.devRef .tc main_v5) (ix2 s j) = _
  after_results
  exact transpose_ix2_apply _ _ s j

theorem v1_w_v7 (s j : Fin 256) :
    rd (S := S256x256) (V1 m ρ c main_v7) (ix2 s j) = rd (S := S256x256) (m ((c : Thread nD τ).loc main_arg5)) (ix2 j s) := by
  show StableHlo.after hostOps0 (W0 m ρ c) (Proc.devRef .tc main_v7) (ix2 s j) = _
  after_results
  exact transpose_ix2_apply _ _ s j

theorem v1_w_v9 (s j : Fin 256) :
    rd (S := S256x256) (V1 m ρ c main_v9) (ix2 s j) = rd (S := S256x256) (m ((c : Thread nD τ).loc main_arg9)) (ix2 j s) := by
  show StableHlo.after hostOps0 (W0 m ρ c) (Proc.devRef .tc main_v9) (ix2 s j) = _
  after_results
  exact transpose_ix2_apply _ _ s j

theorem v1_w_v11 (s j : Fin 256) :
    rd (S := S256x256) (V1 m ρ c main_v11) (ix2 s j) = rd (S := S256x256) (m ((c : Thread nD τ).loc main_arg11)) (ix2 j s) := by
  show StableHlo.after hostOps0 (W0 m ρ c) (Proc.devRef .tc main_v11) (ix2 s j) = _
  after_results
  exact transpose_ix2_apply _ _ s j

theorem v1_b_v14 (j : Fin 256) :
    rd (S := S1x256) (V1 m ρ c main_v14) (ix2 0 j) = rd (S := S256) (m ((c : Thread nD τ).loc main_arg4)) (ix1 j) := by
  show StableHlo.after hostOps0 (W0 m ρ c) (Proc.devRef .tc main_v14) (ix2 0 j) = _
  after_results
  exact shapeCast_a_1a_apply _ _ 0 j

theorem v1_b_v15 (j : Fin 256) :
    rd (S := S1x256) (V1 m ρ c main_v15) (ix2 0 j) = rd (S := S256) (m ((c : Thread nD τ).loc main_arg6)) (ix1 j) := by
  show StableHlo.after hostOps0 (W0 m ρ c) (Proc.devRef .tc main_v15) (ix2 0 j) = _
  after_results
  exact shapeCast_a_1a_apply _ _ 0 j

theorem v1_b_v16 (j : Fin 256) :
    rd (S := S1x256) (V1 m ρ c main_v16) (ix2 0 j) = rd (S := S256) (m ((c : Thread nD τ).loc main_arg10)) (ix1 j) := by
  show StableHlo.after hostOps0 (W0 m ρ c) (Proc.devRef .tc main_v16) (ix2 0 j) = _
  after_results
  exact shapeCast_a_1a_apply _ _ 0 j

theorem v1_b_v17 (j : Fin 256) :
    rd (S := S1x256) (V1 m ρ c main_v17) (ix2 0 j) = rd (S := S256) (m ((c : Thread nD τ).loc main_arg12)) (ix1 j) := by
  show StableHlo.after hostOps0 (W0 m ρ c) (Proc.devRef .tc main_v17) (ix2 0 j) = _
  after_results
  exact shapeCast_a_1a_apply _ _ 0 j

/-! ### The two rows of index words, as the first stretch lays them out, and where later boundaries still find them -/

/-- The aggregation words: row 0 of the index array, as a vector. -/
theorem W1_v1 (q : Fin 300000) :
    rdi (S := S300000) (W1 m ρ c (Proc.devRef .tc main_v1)) (ix1 q)
      = rdi (S := S2x300000) (m ((c : Thread nD τ).loc main_arg2)) (ix2 0 q) := by
  show StableHlo.after hostOps0 (W0 m ρ c) (Proc.devRef .tc main_v1) (ix1 q) = _
  after_results
  refine (shapeCast_1a_a_apply _ _ q).trans ?_
  exact slice2_axis0_apply 0 _ _ 0 q 0 rfl

/-- The neighbour words: row 1 of the index array, as a vector. -/
theorem W1_v3 (q : Fin 300000) :
    rdi (S := S300000) (W1 m ρ c (Proc.devRef .tc main_v3)) (ix1 q)
      = rdi (S := S2x300000) (m ((c : Thread nD τ).loc main_arg2)) (ix2 1 q) := by
  show StableHlo.after hostOps0 (W0 m ρ c) (Proc.devRef .tc main_v3) (ix1 q) = _
  after_results
  refine (shapeCast_1a_a_apply _ _ q).trans ?_
  exact slice2_axis0_apply 1 _ _ 0 q 1 rfl

/-- Region 0 leaves both vectors of index words alone. -/
theorem W2_v1 : W2 m ρ c (Proc.devRef .tc main_v1) = W1 m ρ c (Proc.devRef .tc main_v1) :=
  W2_of_ne m ρ c main_v1 (by decide)
theorem W2_v3 : W2 m ρ c (Proc.devRef .tc main_v3) = W1 m ρ c (Proc.devRef .tc main_v3) :=
  W2_of_ne m ρ c main_v3 (by decide)

/-! ### Region 1: the edge features as launched, one weight matrix and bias, and the neighbours' rows -/

theorem v3_arg1 :
    rd (S := S300000x256) (V3 m ρ c main_arg1) = rd (S := S300000x256) (m ((c : Thread nD τ).loc main_arg1)) :=
  calc W3 m ρ c (Proc.devRef .tc main_arg1)
    _ = W2 m ρ c (Proc.devRef .tc main_arg1) := by host_keep hostOps1
    _ = W1 m ρ c (Proc.devRef .tc main_arg1) := W2_of_ne m ρ c main_arg1 (by decide)
    _ = W0 m ρ c (Proc.devRef .tc main_arg1) := by host_keep hostOps0
    _ = m ((c : Thread nD τ).loc main_arg1) := rfl

theorem v3_w_v13 (s j : Fin 256) :
    rd (S := S256x256) (V3 m ρ c main_v13) (ix2 s j) = rd (S := S256x256) (m ((c : Thread nD τ).loc main_arg7)) (ix2 j s) := by
  have e : W3 m ρ c (Proc.devRef .tc main_v13) = W1 m ρ c (Proc.devRef .tc main_v13) :=
    calc W3 m ρ c (Proc.devRef .tc main_v13)
      _ = W2 m ρ c (Proc.devRef .tc main_v13) := by host_keep hostOps1
      _ = W1 m ρ c (Proc.devRef .tc main_v13) := W2_of_ne m ρ c main_v13 (by decide)
  show rd (S := S256x256) (W3 m ρ c (Proc.devRef .tc main_v13)) (ix2 s j) = _
  rw [e]
  show StableHlo.after hostOps0 (W0 m ρ c) (Proc.devRef .tc main_v13) (ix2 s j) = _
  after_results
  exact transpose_ix2_apply _ _ s j

theorem v3_b_v18 (j : Fin 256) :
    rd (S := S1x256) (V3 m ρ c main_v18) (ix2 0 j) = rd (S := S256) (m ((c : Thread nD τ).loc main_arg8)) (ix1 j) := by
  have e : W3 m ρ c (Proc.devRef .tc main_v18) = W1 m ρ c (Proc.devRef .tc main_v18) :=
    calc W3 m ρ c (Proc.devRef .tc main_v18)
      _ = W2 m ρ c (Proc.devRef .tc main_v18) := by host_keep hostOps1
      _ = W1 m ρ c (Proc.devRef .tc main_v18) := W2_of_ne m ρ c main_v18 (by decide)
  show rd (S := S1x256) (W3 m ρ c (Proc.devRef .tc main_v18)) (ix2 0 j) = _
  rw [e]
  show StableHlo.after hostOps0 (W0 m ρ c) (Proc.devRef .tc main_v18) (ix2 0 j) = _
  after_results
  exact shapeCast_a_1a_apply _ _ 0 j

theorem v3_v20 (q : Fin 300000) (j : Fin 256) :
    rd (S := S300000x256) (V3 m ρ c main_v20) (ix2 q j)
      = Cert.Gcn.take true (fun r j => rd (S := S10000x256) ((dat0 (V1 m ρ) c).arrAt 10 cfg0.N) (ix2 r j))
          (rdi (S := S2x300000) (m ((c : Thread nD τ).loc main_arg2)) (ix2 1 q)) j := by
  have et : rd (S := S10000x256) (W2 m ρ c (Proc.devRef .tc main_v19_1))
      = rd (S := S10000x256) ((dat0 (V1 m ρ) c).arrAt 10 cfg0.N) := W2_arr m ρ c 10
  show rd (S := S300000x256) (StableHlo.after hostOps1 (W2 m ρ c) (Proc.devRef .tc main_v20)) (ix2 q j) = _
  rw [take_after1, takeFn_apply, et, W2_v3, W1_v3]

end Entries

/-! ### Region 2: the gates region 1 left, and two more reads of rows -/

section Entries2

variable (m : (ℓ : Loc nD τ sig) → Buf (Elt Ideal) ℓ) (ρ : Dev nD → PrngReg) (c : Dev nD)

theorem v7_v21 :
    rd (S := S300000x256) (V7 m ρ c main_v21_0) = rd (S := S300000x256) ((dat1 (V3 m ρ) c).arrAt 4 cfg1.N) :=
  calc W7 m ρ c (Proc.devRef .tc main_v21_0)
    _ = W6 m ρ c (Proc.devRef .tc main_v21_0) := by host_keep hostOps2_2
    _ = W5 m ρ c (Proc.devRef .tc main_v21_0) := by host_keep hostOps2_1
    _ = W4 m ρ c (Proc.devRef .tc main_v21_0) := by host_keep hostOps2
    _ = (dat1 (V3 m ρ) c).arrAt 4 cfg1.N := W4_arr m ρ c 4

/-- The third output of region 0 is still in place when its rows are read. -/
theorem W5_v19_2 :
    rd (S := S10000x256) (W5 m ρ c (Proc.devRef .tc main_v19_2)) = rd (S := S10000x256) ((dat0 (V1 m ρ) c).arrAt 11 cfg0.N) :=
  calc W5 m ρ c (Proc.devRef .tc main_v19_2)
    _ = W4 m ρ c (Proc.devRef .tc main_v19_2) := by host_keep hostOps2
    _ = W3 m ρ c (Proc.devRef .tc main_v19_2) := W4_of_ne m ρ c main_v19_2 (by decide)
    _ = W2 m ρ c (Proc.devRef .tc main_v19_2) := by host_keep hostOps1
    _ = (dat0 (V1 m ρ) c).arrAt 11 cfg0.N := W2_arr m ρ c 11

/-- So is the fourth. -/
theorem W6_v19_3 :
    rd (S := S10000x256) (W6 m ρ c (Proc.devRef .tc main_v19_3)) = rd (S := S10000x256) ((dat0 (V1 m ρ) c).arrAt 12 cfg0.N) :=
  calc W6 m ρ c (Proc.devRef .tc main_v19_3)
    _ = W5 m ρ c (Proc.devRef .tc main_v19_3) := by host_keep hostOps2_1
    _ = W4 m ρ c (Proc.devRef .tc main_v19_3) := by host_keep hostOps2
    _ = W3 m ρ c (Proc.devRef .tc main_v19_3) := W4_of_ne m ρ c main_v19_3 (by decide)
    _ = W2 m ρ c (Proc.devRef .tc main_v19_3) := by host_keep hostOps1
    _ = (dat0 (V1 m ρ) c).arrAt 12 cfg0.N := W2_arr m ρ c 12

/-- The aggregation words are untouched up to the second read of rows. -/
theorem W5_v1 : W5 m ρ c (Proc.devRef .tc main_v1) = W1 m ρ c (Proc.devRef .tc main_v1) :=
  calc W5 m ρ c (Proc.devRef .tc main_v1)
    _ = W4 m ρ c (Proc.devRef .tc main_v1) := by host_keep hostOps2
    _ = W3 m ρ c (Proc.devRef .tc main_v1) := W4_of_ne m ρ c main_v1 (by decide)
    _ = W2 m ρ c (Proc.devRef .tc main_v1) := by host_keep hostOps1
    _ = W1 m ρ c (Proc.devRef .tc main_v1) := W2_v1 m ρ c

/-- The neighbour words are untouched up to the third. -/
theorem W6_v3 : W6 m ρ c (Proc.devRef .tc main_v3) = W1 m ρ c (Proc.devRef .tc main_v3) :=
  calc W6 m ρ c (Proc.devRef .tc main_v3)
    _ = W5 m ρ c (Proc.devRef .tc main_v3) := by host_keep hostOps2_1
    _ = W4 m ρ c (Proc.devRef .tc main_v3) := by host_keep hostOps2
    _ = W3 m ρ c (Proc.devRef .tc main_v3) := W4_of_ne m ρ c main_v3 (by decide)
    _ = W2 m ρ c (Proc.devRef .tc main_v3) := by host_keep hostOps1
    _ = W1 m ρ c (Proc.devRef .tc main_v3) := W2_v3 m ρ c

theorem v7_v25 (q : Fin 300000) (j : Fin 256) :
    rd (S := S300000x256) (V7 m ρ c main_v25) (ix2 q j)
      = Cert.Gcn.take true (fun r j => rd (S := S10000x256) ((dat0 (V1 m ρ) c).arrAt 11 cfg0.N) (ix2 r j))
          (rdi (S := S2x300000) (m ((c : Thread nD τ).loc main_arg2)) (ix2 0 q)) j := by
  have e7 : W7 m ρ c (Proc.devRef .tc main_v25) = W6 m ρ c (Proc.devRef .tc main_v25) := by host_keep hostOps2_2
  show rd (S := S300000x256) (W7 m ρ c (Proc.devRef .tc main_v25)) (ix2 q j) = _
  rw [e7]
  show rd (S := S300000x256) (StableHlo.after hostOps2_1 (W5 m ρ c) (Proc.devRef .tc main_v25)) (ix2 q j) = _
  rw [take_after2_1, takeFn_apply, W5_v19_2, W5_v1, W1_v1]

theorem v7_v26 (q : Fin 300000) (j : Fin 256) :
    rd (S := S300000x256) (V7 m ρ c main_v26) (ix2 q j)
      = Cert.Gcn.take true (fun r j => rd (S := S10000x256) ((dat0 (V1 m ρ) c).arrAt 12 cfg0.N) (ix2 r j))
          (rdi (S := S2x300000) (m ((c : Thread nD τ).loc main_arg2)) (ix2 1 q)) j := by
  show rd (S := S300000x256) (StableHlo.after hostOps2_2 (W6 m ρ c) (Proc.devRef .tc main_v26)) (ix2 q j) = _
  rw [take_after2_2, takeFn_apply, W6_v19_3, W6_v3, W1_v3]

end Entries2

end Cert.KernelIdeal.Hand.WA
end
-- ==== Proof.KWalkB.lean ====
/- Where the later regions of the layer find their operands, and where the two results end.

   The program is six kernel regions among stretches of host operations. Each region's value is stated at
   the buffer contents it is entered with; this module says what those contents are for regions 3, 4 and 5
   (the edge normalisation, the node pre-activation with its column statistics, the node normalisation), in
   terms of the launch memory and of the arrays earlier regions leave, and that the two results of the
   program are the output arrays of regions 5 and 3.

   Two kinds of step recur. A buffer that a stretch of host operations does not write, and that a region
   does not own as a window's array, is carried across unchanged; a buffer a stretch does write is the
   stretch's operations applied to what was there before, read at an index. -/
import proofs.«421314_j74577812128000_1_alg».proof.Proof.Gen.KernelIdeal.Frame
import proofs.«421314_j74577812128000_1_alg».proof.Proof.Spec
import proofs.«421314_j74577812128000_1_alg».proof.Proof.Rd
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.Lib.Tactic

set_option maxRecDepth 16384

noncomputable section

namespace Cert.KernelIdeal.Hand.WB
open Idealize.ShloMosaic Idealize.ShloMosaic.ValueIdx Idealize.ShloMosaic.TcCoe Idealize.SL.Sem
open Cert.KernelIdeal Cert.KernelIdeal.Gen
open Idealize.ShloMosaic.Pipeline (Dat)
open Cert.Gcn (rd rdi)

/-- A stretch of host operations leaves a buffer none of them writes as it was: every operation's result
    buffer is told apart from the given one as a reference. -/
local macro "host_keeps " ops:ident : term =>
  `(StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## The host stretches, from any earlier contents

Each lemma of this section runs one stretch from buffer contents `W` it knows nothing about, and reads one
of the stretch's results at an index in terms of `W` at the stretch's operands. -/

section Stretches

variable (W : Valuation τ sig (Elt Ideal))

/-- The stretch before region 0 cuts row 0 out of the index array and drops the unit axis: entry `q` of the
    result is the index word `(0, q)`. -/
theorem ops0_v1 (q : Fin 300000) :
    rdi (S := S300000) (StableHlo.after (hostOps0 (F := Ideal)) W (Proc.devRef .tc main_v1)) (ix1 q)
      = rdi (S := S2x300000) (W (Proc.devRef .tc main_arg2)) (ix2 0 q) := by
  have e : rdi (S := S300000) (StableHlo.after (hostOps0 (F := Ideal)) W (Proc.devRef .tc main_v1))
      = shapeCast S300000 (extractStridedSlice S1x300000 ![0, 0] (rdi (S := S2x300000) (W (Proc.devRef .tc main_arg2)))
          slices_S2x300000_S1x300000_0_0) shapeCasts_S1x300000_S300000 := by
    after_results <;> rfl
  rw [e, shapeCast_1a_a_apply, slice2_axis0_apply 0 _ _ (0 : Fin 1) q (0 : Fin 2) rfl]

/-- The sum of messages: the stretch after region 1 scatters the message array onto a zero array of node
    rows, each edge's row going to the node its index word names. -/
theorem ops2_v24 :
    rd (S := S10000x256) (StableHlo.after (hostOps2 (F := Ideal)) W (Proc.devRef .tc main_v24))
      = Ideal.hostScatterAdd Cert.Gcn.sdims (fun _ => 0)
          (fun i : Cert.Gcn.SQ.Idx => rdi (S := S300000) (W (Proc.devRef .tc main_v1)) (ix1 (i 0)))
          (rd (S := S300000x256) (W (Proc.devRef .tc main_v21_1))) := by
  have e : rd (S := S10000x256) (StableHlo.after (hostOps2 (F := Ideal)) W (Proc.devRef .tc main_v24))
      = Host.scatterAdd scatter_S10000x256_S300000x1_S300000x256_1_0_0_1
          (broadcastInDim S10000x256 ![] bcast_S_S10000x256 (constant (F := Ideal) S_ .f32 0x00000000#32))
          (broadcastInDim S300000x1 ![0] bcast_S300000_S300000x1_0 (rdi (S := S300000) (W (Proc.devRef .tc main_v1))))
          (rd (S := S300000x256) (W (Proc.devRef .tc main_v21_1))) := by
    after_results <;> rfl
  have hd : scatter_S10000x256_S300000x1_S300000x256_1_0_0_1 = Cert.Gcn.sdims := rfl
  have hz : (broadcastInDim S10000x256 ![] bcast_S_S10000x256 (constant (F := Ideal) S_ .f32 0x00000000#32) : S10000x256.Idx → EReal)
      = fun _ => 0 := by
    funext i
    rw [broadcastInDim_scalar_apply, constant_apply, Ideal.ofBits_zero_f32]
  have hi : (broadcastInDim S300000x1 ![0] bcast_S300000_S300000x1_0 (rdi (S := S300000) (W (Proc.devRef .tc main_v1))) : IVec S300000x1 32)
      = fun i : Cert.Gcn.SQ.Idx => rdi (S := S300000) (W (Proc.devRef .tc main_v1)) (ix1 (i 0)) := by
    funext i
    exact broadcastInDim_apply _ _ _ i (ix1 (i 0)) (fun a => match a with | ⟨0, _⟩ => rfl)
  rw [e]
  show Ideal.hostScatterAdd _ _ _ _ = _
  rw [hd, hz, hi]

/-- The stretch before region 3: the column sums of region 2 divided by the number of edges … -/
theorem ops3_v29 (j : Fin 256) :
    rd (S := S1x256) (StableHlo.after (hostOps3 (F := Ideal)) W (Proc.devRef .tc main_v29)) (ix2 0 j)
      = Ideal.div (rd (S := S1x256) (W (Proc.devRef .tc main_v27_1)) (ix2 0 j)) Cert.Gcn.cE := by
  have e : rd (S := S1x256) (StableHlo.after (hostOps3 (F := Ideal)) W (Proc.devRef .tc main_v29))
      = Host.divf (rd (S := S1x256) (W (Proc.devRef .tc main_v27_1)))
          (broadcastInDim S1x256 ![] bcast_S_S1x256 (constant (F := Ideal) S_ .f32 0x48927C00#32)) := by
    after_results <;> rfl
  rw [e, hostDivf_apply, broadcastInDim_scalar_apply, constant_apply]
  rfl

/-- … and the column sums of squares divided likewise, less the square of the first quotient. -/
theorem ops3_v33 (j : Fin 256) :
    rd (S := S1x256) (StableHlo.after (hostOps3 (F := Ideal)) W (Proc.devRef .tc main_v33)) (ix2 0 j)
      = Ideal.div (rd (S := S1x256) (W (Proc.devRef .tc main_v27_2)) (ix2 0 j)) Cert.Gcn.cE
        - rd (S := S1x256) (StableHlo.after (hostOps3 (F := Ideal)) W (Proc.devRef .tc main_v29)) (ix2 0 j)
          * rd (S := S1x256) (StableHlo.after (hostOps3 (F := Ideal)) W (Proc.devRef .tc main_v29)) (ix2 0 j) := by
  have e29 : rd (S := S1x256) (StableHlo.after (hostOps3 (F := Ideal)) W (Proc.devRef .tc main_v29))
      = Host.divf (rd (S := S1x256) (W (Proc.devRef .tc main_v27_1)))
          (broadcastInDim S1x256 ![] bcast_S_S1x256 (constant (F := Ideal) S_ .f32 0x48927C00#32)) := by
    after_results <;> rfl
  have e : rd (S := S1x256) (StableHlo.after (hostOps3 (F := Ideal)) W (Proc.devRef .tc main_v33))
      = subf (Host.divf (rd (S := S1x256) (W (Proc.devRef .tc main_v27_2)))
              (broadcastInDim S1x256 ![] bcast_S_S1x256 (constant (F := Ideal) S_ .f32 0x48927C00#32)))
          (mulf (Host.divf (rd (S := S1x256) (W (Proc.devRef .tc main_v27_1)))
                  (broadcastInDim S1x256 ![] bcast_S_S1x256 (constant (F := Ideal) S_ .f32 0x48927C00#32)))
                (Host.divf (rd (S := S1x256) (W (Proc.devRef .tc main_v27_1)))
                  (broadcastInDim S1x256 ![] bcast_S_S1x256 (constant (F := Ideal) S_ .f32 0x48927C00#32)))) := by
    after_results <;> rfl
  rw [e29, e, subf_apply, mulf_apply, hostDivf_apply, hostDivf_apply, broadcastInDim_scalar_apply, constant_apply]
  rfl

/-- The scale and shift rows of the edge normalisation are the two arguments with a unit axis put in front. -/
theorem ops3_v34 (j : Fin 256) :
    rd (S := S1x256) (StableHlo.after (hostOps3 (F := Ideal)) W (Proc.devRef .tc main_v34)) (ix2 0 j)
      = rd (S := S256) (W (Proc.devRef .tc main_arg15)) (ix1 j) := by
  have e : rd (S := S1x256) (StableHlo.after (hostOps3 (F := Ideal)) W (Proc.devRef .tc main_v34))
      = shapeCast S1x256 (rd (S := S256) (W (Proc.devRef .tc main_arg15))) shapeCasts_S256_S1x256 := by
    after_results <;> rfl
  rw [e, shapeCast_a_1a_apply]

theorem ops3_v35 (j : Fin 256) :
    rd (S := S1x256) (StableHlo.after (hostOps3 (F := Ideal)) W (Proc.devRef .tc main_v35)) (ix2 0 j)
      = rd (S := S256) (W (Proc.devRef .tc main_arg16)) (ix1 j) := by
  have e : rd (S := S1x256) (StableHlo.after (hostOps3 (F := Ideal)) W (Proc.devRef .tc main_v35))
      = shapeCast S1x256 (rd (S := S256) (W (Proc.devRef .tc main_arg16))) shapeCasts_S256_S1x256 := by
    after_results <;> rfl
  rw [e, shapeCast_a_1a_apply]

/-- The stretch before region 5 does for the node statistics what the one before region 3 does for the edge
    statistics: the column sums of region 4 divided by the number of nodes … -/
theorem ops5_v39 (j : Fin 256) :
    rd (S := S1x256) (StableHlo.after (hostOps5 (F := Ideal)) W (Proc.devRef .tc main_v39)) (ix2 0 j)
      = Ideal.div (rd (S := S1x256) (W (Proc.devRef .tc main_v37_1)) (ix2 0 j)) Cert.Gcn.cN := by
  have e : rd (S := S1x256) (StableHlo.after (hostOps5 (F := Ideal)) W (Proc.devRef .tc main_v39))
      = Host.divf (rd (S := S1x256) (W (Proc.devRef .tc main_v37_1)))
          (broadcastInDim S1x256 ![] bcast_S_S1x256 (constant (F := Ideal) S_ .f32 0x461C4000#32)) := by
    after_results <;> rfl
  rw [e, hostDivf_apply, broadcastInDim_scalar_apply, constant_apply]
  rfl

/-- … the column sums of squares divided likewise, less the square of the first quotient … -/
theorem ops5_v43 (j : Fin 256) :
    rd (S := S1x256) (StableHlo.after (hostOps5 (F := Ideal)) W (Proc.devRef .tc main_v43)) (ix2 0 j)
      = Ideal.div (rd (S := S1x256) (W (Proc.devRef .tc main_v37_2)) (ix2 0 j)) Cert.Gcn.cN
        - rd (S := S1x256) (StableHlo.after (hostOps5 (F := Ideal)) W (Proc.devRef .tc main_v39)) (ix2 0 j)
          * rd (S := S1x256) (StableHlo.after (hostOps5 (F := Ideal)) W (Proc.devRef .tc main_v39)) (ix2 0 j) := by
  have e39 : rd (S := S1x256) (StableHlo.after (hostOps5 (F := Ideal)) W (Proc.devRef .tc main_v39))
      = Host.divf (rd (S := S1x256) (W (Proc.devRef .tc main_v37_1)))
          (broadcastInDim S1x256 ![] bcast_S_S1x256 (constant (F := Ideal) S_ .f32 0x461C4000#32)) := by
    after_results <;> rfl
  have e : rd (S := S1x256) (StableHlo.after (hostOps5 (F := Ideal)) W (Proc.devRef .tc main_v43))
      = subf (Host.divf (rd (S := S1x256) (W (Proc.devRef .tc main_v37_2)))
              (broadcastInDim S1x256 ![] bcast_S_S1x256 (constant (F := Ideal) S_ .f32 0x461C4000#32)))
          (mulf (Host.divf (rd (S := S1x256) (W (Proc.devRef .tc main_v37_1)))
                  (broadcastInDim S1x256 ![] bcast_S_S1x256 (constant (F := Ideal) S_ .f32 0x461C4000#32)))
                (Host.divf (rd (S := S1x256) (W (Proc.devRef .tc main_v37_1)))
                  (broadcastInDim S1x256 ![] bcast_S_S1x256 (constant (F := Ideal) S_ .f32 0x461C4000#32)))) := by
    after_results <;> rfl
  rw [e39, e, subf_apply, mulf_apply, hostDivf_apply, hostDivf_apply, broadcastInDim_scalar_apply, constant_apply]
  rfl

/-- … and the scale and shift rows of the node normalisation are the two arguments with a unit axis in front. -/
theorem ops5_v44 (j : Fin 256) :
    rd (S := S1x256) (StableHlo.after (hostOps5 (F := Ideal)) W (Proc.devRef .tc main_v44)) (ix2 0 j)
      = rd (S := S256) (W (Proc.devRef .tc main_arg13)) (ix1 j) := by
  have e : rd (S := S1x256) (StableHlo.after (hostOps5 (F := Ideal)) W (Proc.devRef .tc main_v44))
      = shapeCast S1x256 (rd (S := S256) (W (Proc.devRef .tc main_arg13))) shapeCasts_S256_S1x256 := by
    after_results <;> rfl
  rw [e, shapeCast_a_1a_apply]

theorem ops5_v45 (j : Fin 256) :
    rd (S := S1x256) (StableHlo.after (hostOps5 (F := Ideal)) W (Proc.devRef .tc main_v45)) (ix2 0 j)
      = rd (S := S256) (W (Proc.devRef .tc main_arg14)) (ix1 j) := by
  have e : rd (S := S1x256) (StableHlo.after (hostOps5 (F := Ideal)) W (Proc.devRef .tc main_v45))
      = shapeCast S1x256 (rd (S := S256) (W (Proc.devRef .tc main_arg14))) shapeCasts_S256_S1x256 := by
    after_results <;> rfl
  rw [e, shapeCast_a_1a_apply]

end Stretches

/-! ## The boundaries of the run

From here on `m` is the launch memory. The contents at a boundary are read back through the boundaries
before it: across a stretch that does not write the buffer, across a region that does not own it, until the
stretch that wrote it, the region whose output it is, or the launch. An argument is written by nothing, so
its contents at any boundary are its contents at the end of the run, which are the launch memory's. -/

variable (m : (ℓ : Loc nD τ sig) → Buf (Elt Ideal) ℓ) (ρ : Dev nD → PrngReg) (c : Dev nD)

/-! ### Region 3's entry -/

/-- The edge pre-activation region 3 normalises is region 2's first output. -/
theorem v9_pre :
    rd (S := S300000x256) (V9 m ρ c main_v27_0) = rd (S := S300000x256) ((dat2 (V7 m ρ) c).arrAt 3 cfg2.N) :=
  calc W9 m ρ c (Proc.devRef .tc main_v27_0)
    _ = W8 m ρ c (Proc.devRef .tc main_v27_0) := host_keeps hostOps3
    _ = (dat2 (V7 m ρ) c).arrAt 3 cfg2.N := W8_arr m ρ c 3

/-- The edge features region 3 adds back are the argument's. -/
theorem v9_arg1 :
    rd (S := S300000x256) (V9 m ρ c main_arg1) = rd (S := S300000x256) (m ((c : Thread nD τ).loc main_arg1)) :=
  calc W9 m ρ c (Proc.devRef .tc main_arg1)
    _ = W10 m ρ c (Proc.devRef .tc main_arg1) :=
        ((W10_arr m ρ c 1).trans (((dat3 (V9 m ρ) c).arrAt_in 1 rfl _).trans (A_eq3 (V9 m ρ) c 1))).symm
    _ = W11 m ρ c (Proc.devRef .tc main_arg1) := (W11_of_ne m ρ c main_arg1 (by decide)).symm
    _ = W12 m ρ c (Proc.devRef .tc main_arg1) := (host_keeps hostOps5).symm
    _ = W13 m ρ c (Proc.devRef .tc main_arg1) := (W13_of_ne m ρ c main_arg1 (by decide)).symm
    _ = m ((c : Thread nD τ).loc main_arg1) := W13_main_arg1 m ρ c

/-- The scale argument of the edge normalisation, as region 2's exit holds it. -/
theorem w8_arg15 : W8 m ρ c (Proc.devRef .tc main_arg15) = m ((c : Thread nD τ).loc main_arg15) :=
  calc W8 m ρ c (Proc.devRef .tc main_arg15)
    _ = W9 m ρ c (Proc.devRef .tc main_arg15) := (host_keeps hostOps3).symm
    _ = W10 m ρ c (Proc.devRef .tc main_arg15) := (W10_of_ne m ρ c main_arg15 (by decide)).symm
    _ = W11 m ρ c (Proc.devRef .tc main_arg15) := (W11_of_ne m ρ c main_arg15 (by decide)).symm
    _ = W12 m ρ c (Proc.devRef .tc main_arg15) := (host_keeps hostOps5).symm
    _ = W13 m ρ c (Proc.devRef .tc main_arg15) := (W13_of_ne m ρ c main_arg15 (by decide)).symm
    _ = m ((c : Thread nD τ).loc main_arg15) := W13_main_arg15 m ρ c

/-- The shift argument of the edge normalisation, as region 2's exit holds it. -/
theorem w8_arg16 : W8 m ρ c (Proc.devRef .tc main_arg16) = m ((c : Thread nD τ).loc main_arg16) :=
  calc W8 m ρ c (Proc.devRef .tc main_arg16)
    _ = W9 m ρ c (Proc.devRef .tc main_arg16) := (host_keeps hostOps3).symm
    _ = W10 m ρ c (Proc.devRef .tc main_arg16) := (W10_of_ne m ρ c main_arg16 (by decide)).symm
    _ = W11 m ρ c (Proc.devRef .tc main_arg16) := (W11_of_ne m ρ c main_arg16 (by decide)).symm
    _ = W12 m ρ c (Proc.devRef .tc main_arg16) := (host_keeps hostOps5).symm
    _ = W13 m ρ c (Proc.devRef .tc main_arg16) := (W13_of_ne m ρ c main_arg16 (by decide)).symm
    _ = m ((c : Thread nD τ).loc main_arg16) := W13_main_arg16 m ρ c

/-- Region 3's scale row is the scale argument. -/
theorem v9_gamma (j : Fin 256) :
    rd (S := S1x256) (V9 m ρ c main_v34) (ix2 0 j) = rd (S := S256) (m ((c : Thread nD τ).loc main_arg15)) (ix1 j) := by
  have h := ops3_v34 (W8 m ρ c) j
  rw [w8_arg15 m ρ c] at h
  exact h

/-- Region 3's shift row is the shift argument. -/
theorem v9_beta (j : Fin 256) :
    rd (S := S1x256) (V9 m ρ c main_v35) (ix2 0 j) = rd (S := S256) (m ((c : Thread nD τ).loc main_arg16)) (ix1 j) := by
  have h := ops3_v35 (W8 m ρ c) j
  rw [w8_arg16 m ρ c] at h
  exact h

/-- Region 3's mean row: region 2's column sums over the number of edges. -/
theorem v9_mean (j : Fin 256) :
    rd (S := S1x256) (V9 m ρ c main_v29) (ix2 0 j)
      = Ideal.div (rd (S := S1x256) ((dat2 (V7 m ρ) c).arrAt 4 cfg2.N) (ix2 0 j)) Cert.Gcn.cE := by
  have h := ops3_v29 (W8 m ρ c) j
  rw [show W8 m ρ c (Proc.devRef .tc main_v27_1) = (dat2 (V7 m ρ) c).arrAt 4 cfg2.N from W8_arr m ρ c 4] at h
  exact h

/-- Region 3's variance row: region 2's column sums of squares over the number of edges, less the squared mean. -/
theorem v9_var (j : Fin 256) :
    rd (S := S1x256) (V9 m ρ c main_v33) (ix2 0 j)
      = Ideal.div (rd (S := S1x256) ((dat2 (V7 m ρ) c).arrAt 5 cfg2.N) (ix2 0 j)) Cert.Gcn.cE
        - rd (S := S1x256) (V9 m ρ c main_v29) (ix2 0 j) * rd (S := S1x256) (V9 m ρ c main_v29) (ix2 0 j) := by
  have h := ops3_v33 (W8 m ρ c) j
  rw [show W8 m ρ c (Proc.devRef .tc main_v27_2) = (dat2 (V7 m ρ) c).arrAt 5 cfg2.N from W8_arr m ρ c 5] at h
  exact h

/-! ### Region 4's entry -/

/-- The node map `Uh` region 4 adds the messages to is region 0's first output, untouched since. -/
theorem v10_uh :
    rd (S := S10000x256) (V10 m ρ c main_v19_0) = rd (S := S10000x256) ((dat0 (V1 m ρ) c).arrAt 9 cfg0.N) :=
  calc W10 m ρ c (Proc.devRef .tc main_v19_0)
    _ = W9 m ρ c (Proc.devRef .tc main_v19_0) := W10_of_ne m ρ c main_v19_0 (by decide)
    _ = W8 m ρ c (Proc.devRef .tc main_v19_0) := host_keeps hostOps3
    _ = W7 m ρ c (Proc.devRef .tc main_v19_0) := W8_of_ne m ρ c main_v19_0 (by decide)
    _ = W6 m ρ c (Proc.devRef .tc main_v19_0) := host_keeps hostOps2_2
    _ = W5 m ρ c (Proc.devRef .tc main_v19_0) := host_keeps hostOps2_1
    _ = W4 m ρ c (Proc.devRef .tc main_v19_0) := host_keeps hostOps2
    _ = W3 m ρ c (Proc.devRef .tc main_v19_0) := W4_of_ne m ρ c main_v19_0 (by decide)
    _ = W2 m ρ c (Proc.devRef .tc main_v19_0) := host_keeps hostOps1
    _ = (dat0 (V1 m ρ) c).arrAt 9 cfg0.N := W2_arr m ρ c 9

/-- Row 0 of the index array, as region 1's exit holds it: entry `q` is the launch memory's word `(0, q)`. -/
theorem w4_v1 (q : Fin 300000) :
    rdi (S := S300000) (W4 m ρ c (Proc.devRef .tc main_v1)) (ix1 q)
      = rdi (S := S2x300000) (m ((c : Thread nD τ).loc main_arg2)) (ix2 0 q) := by
  have hw : W4 m ρ c (Proc.devRef .tc main_v1) = W1 m ρ c (Proc.devRef .tc main_v1) :=
    calc W4 m ρ c (Proc.devRef .tc main_v1)
      _ = W3 m ρ c (Proc.devRef .tc main_v1) := W4_of_ne m ρ c main_v1 (by decide)
      _ = W2 m ρ c (Proc.devRef .tc main_v1) := host_keeps hostOps1
      _ = W1 m ρ c (Proc.devRef .tc main_v1) := W2_of_ne m ρ c main_v1 (by decide)
  rw [hw]
  exact ops0_v1 (W0 m ρ c) q

/-- The summed messages region 4 reads: region 1's message array scattered onto zero rows by row 0 of the
    index array. -/
theorem v10_agg :
    rd (S := S10000x256) (V10 m ρ c main_v24)
      = Ideal.hostScatterAdd Cert.Gcn.sdims (fun _ => 0)
          (fun i : Cert.Gcn.SQ.Idx => rdi (S := S2x300000) (m ((c : Thread nD τ).loc main_arg2)) (ix2 0 (i 0)))
          (rd (S := S300000x256) ((dat1 (V3 m ρ) c).arrAt 5 cfg1.N)) := by
  have hw : W10 m ρ c (Proc.devRef .tc main_v24) = W5 m ρ c (Proc.devRef .tc main_v24) :=
    calc W10 m ρ c (Proc.devRef .tc main_v24)
      _ = W9 m ρ c (Proc.devRef .tc main_v24) := W10_of_ne m ρ c main_v24 (by decide)
      _ = W8 m ρ c (Proc.devRef .tc main_v24) := host_keeps hostOps3
      _ = W7 m ρ c (Proc.devRef .tc main_v24) := W8_of_ne m ρ c main_v24 (by decide)
      _ = W6 m ρ c (Proc.devRef .tc main_v24) := host_keeps hostOps2_2
      _ = W5 m ρ c (Proc.devRef .tc main_v24) := host_keeps hostOps2_1
  have h := ops2_v24 (W4 m ρ c)
  rw [show W4 m ρ c (Proc.devRef .tc main_v21_1) = (dat1 (V3 m ρ) c).arrAt 5 cfg1.N from W4_arr m ρ c 5] at h
  have hi : (fun i : Cert.Gcn.SQ.Idx => rdi (S := S300000) (W4 m ρ c (Proc.devRef .tc main_v1)) (ix1 (i 0)))
      = fun i : Cert.Gcn.SQ.Idx => rdi (S := S2x300000) (m ((c : Thread nD τ).loc main_arg2)) (ix2 0 (i 0)) :=
    funext fun i => w4_v1 m ρ c (i 0)
  rw [hi] at h
  show rd (S := S10000x256) (W10 m ρ c (Proc.devRef .tc main_v24)) = _
  rw [hw]
  exact h

/-! ### Region 5's entry -/

/-- The node pre-activation region 5 normalises is region 4's first output. -/
theorem v12_pre :
    rd (S := S10000x256) (V12 m ρ c main_v37_0) = rd (S := S10000x256) ((dat4 (V10 m ρ) c).arrAt 2 cfg4.N) :=
  calc W12 m ρ c (Proc.devRef .tc main_v37_0)
    _ = W11 m ρ c (Proc.devRef .tc main_v37_0) := host_keeps hostOps5
    _ = (dat4 (V10 m ρ) c).arrAt 2 cfg4.N := W11_arr m ρ c 2

/-- The node features region 5 adds back are the argument's. -/
theorem v12_arg0 :
    rd (S := S10000x256) (V12 m ρ c main_arg0) = rd (S := S10000x256) (m ((c : Thread nD τ).loc main_arg0)) :=
  calc W12 m ρ c (Proc.devRef .tc main_arg0)
    _ = W13 m ρ c (Proc.devRef .tc main_arg0) :=
        ((W13_arr m ρ c 1).trans (((dat5 (V12 m ρ) c).arrAt_in 1 rfl _).trans (A_eq5 (V12 m ρ) c 1))).symm
    _ = m ((c : Thread nD τ).loc main_arg0) := W13_main_arg0 m ρ c

/-- The scale argument of the node normalisation, as region 4's exit holds it. -/
theorem w11_arg13 : W11 m ρ c (Proc.devRef .tc main_arg13) = m ((c : Thread nD τ).loc main_arg13) :=
  calc W11 m ρ c (Proc.devRef .tc main_arg13)
    _ = W12 m ρ c (Proc.devRef .tc main_arg13) := (host_keeps hostOps5).symm
    _ = W13 m ρ c (Proc.devRef .tc main_arg13) := (W13_of_ne m ρ c main_arg13 (by decide)).symm
    _ = m ((c : Thread nD τ).loc main_arg13) := W13_main_arg13 m ρ c

/-- The shift argument of the node normalisation, as region 4's exit holds it. -/
theorem w11_arg14 : W11 m ρ c (Proc.devRef .tc main_arg14) = m ((c : Thread nD τ).loc main_arg14) :=
  calc W11 m ρ c (Proc.devRef .tc main_arg14)
    _ = W12 m ρ c (Proc.devRef .tc main_arg14) := (host_keeps hostOps5).symm
    _ = W13 m ρ c (Proc.devRef .tc main_arg14) := (W13_of_ne m ρ c main_arg14 (by decide)).symm
    _ = m ((c : Thread nD τ).loc main_arg14) := W13_main_arg14 m ρ c

/-- Region 5's scale row is the scale argument. -/
theorem v12_gamma (j : Fin 256) :
    rd (S := S1x256) (V12 m ρ c main_v44) (ix2 0 j) = rd (S := S256) (m ((c : Thread nD τ).loc main_arg13)) (ix1 j) := by
  have h := ops5_v44 (W11 m ρ c) j
  rw [w11_arg13 m ρ c] at h
  exact h

/-- Region 5's shift row is the shift argument. -/
theorem v12_beta (j : Fin 256) :
    rd (S := S1x256) (V12 m ρ c main_v45) (ix2 0 j) = rd (S := S256) (m ((c : Thread nD τ).loc main_arg14)) (ix1 j) := by
  have h := ops5_v45 (W11 m ρ c) j
  rw [w11_arg14 m ρ c] at h
  exact h

/-- Region 5's mean row: region 4's column sums over the number of nodes. -/
theorem v12_mean (j : Fin 256) :
    rd (S := S1x256) (V12 m ρ c main_v39) (ix2 0 j)
      = Ideal.div (rd (S := S1x256) ((dat4 (V10 m ρ) c).arrAt 3 cfg4.N) (ix2 0 j)) Cert.Gcn.cN := by
  have h := ops5_v39 (W11 m ρ c) j
  rw [show W11 m ρ c (Proc.devRef .tc main_v37_1) = (dat4 (V10 m ρ) c).arrAt 3 cfg4.N from W11_arr m ρ c 3] at h
  exact h

/-- Region 5's variance row: region 4's column sums of squares over the number of nodes, less the squared mean. -/
theorem v12_var (j : Fin 256) :
    rd (S := S1x256) (V12 m ρ c main_v43) (ix2 0 j)
      = Ideal.div (rd (S := S1x256) ((dat4 (V10 m ρ) c).arrAt 4 cfg4.N) (ix2 0 j)) Cert.Gcn.cN
        - rd (S := S1x256) (V12 m ρ c main_v39) (ix2 0 j) * rd (S := S1x256) (V12 m ρ c main_v39) (ix2 0 j) := by
  have h := ops5_v43 (W11 m ρ c) j
  rw [show W11 m ρ c (Proc.devRef .tc main_v37_2) = (dat4 (V10 m ρ) c).arrAt 4 cfg4.N from W11_arr m ρ c 4] at h
  exact h

/-! ### The two results -/

/-- The node result is region 5's output array. -/
theorem w13_hout :
    rd (S := S10000x256) (W13 m ρ c (Proc.devRef .tc main_v46)) = rd (S := S10000x256) ((dat5 (V12 m ρ) c).arrAt 6 cfg5.N) :=
  W13_arr m ρ c 6

/-- The edge result is region 3's output array: regions 4 and 5 and the stretch between them leave it alone. -/
theorem w13_eout :
    rd (S := S300000x256) (W13 m ρ c (Proc.devRef .tc main_v36)) = rd (S := S300000x256) ((dat3 (V9 m ρ) c).arrAt 6 cfg3.N) :=
  calc W13 m ρ c (Proc.devRef .tc main_v36)
    _ = W12 m ρ c (Proc.devRef .tc main_v36) := W13_of_ne m ρ c main_v36 (by decide)
    _ = W11 m ρ c (Proc.devRef .tc main_v36) := host_keeps hostOps5
    _ = W10 m ρ c (Proc.devRef .tc main_v36) := W11_of_ne m ρ c main_v36 (by decide)
    _ = (dat3 (V9 m ρ) c).arrAt 6 cfg3.N := W10_arr m ρ c 6

end Cert.KernelIdeal.Hand.WB
end
-- ==== Proof.KChain.lean ====
/- The kernel program's two results, read off the last boundary of its run, are the layer of the specification in
   its spelling `k = true`.

   The run passes thirteen boundaries; at each, the buffers hold a known function of the launch memory. Region 0
   leaves the four node projections, region 1 the edge projection and the gated messages, the host sums the messages
   onto nodes and reads the projections' rows at the edges' index words, regions 2 and 4 leave each pre-activation
   together with its column sums and column sums of squares, the host turns those into a mean and a variance (mean of
   squares minus squared mean), and regions 3 and 5 normalise, scale, shift, clamp and add the residual. Each lemma
   below names one of these arrays as the specification's function of the seventeen arguments; the last two are the
   results. -/
import proofs.«421314_j74577812128000_1_alg».proof.Proof.Gen.KernelIdeal.Frame
import proofs.«421314_j74577812128000_1_alg».proof.Proof.Spec
import proofs.«421314_j74577812128000_1_alg».proof.Proof.Rd
import proofs.«421314_j74577812128000_1_alg».proof.Proof.KInputs
import proofs.«421314_j74577812128000_1_alg».proof.Proof.KR0
import proofs.«421314_j74577812128000_1_alg».proof.Proof.KR1
import proofs.«421314_j74577812128000_1_alg».proof.Proof.KR2
import proofs.«421314_j74577812128000_1_alg».proof.Proof.KR4
import proofs.«421314_j74577812128000_1_alg».proof.Proof.KR35
import proofs.«421314_j74577812128000_1_alg».proof.Proof.KWalkA
import proofs.«421314_j74577812128000_1_alg».proof.Proof.KWalkB
import Idealize.ShloMosaic.Lib.ValueIdx

noncomputable section

namespace Cert.KernelIdeal.Hand

open Idealize.ShloMosaic Idealize.ShloMosaic.ValueIdx Idealize.ShloMosaic.TcCoe Idealize.SL.Sem Cert.KernelIdeal Cert.KernelIdeal.Gen
open Idealize.ShloMosaic.Pipeline (Dat)
open Cert.Gcn (rd rdi)
open Cert.KernelIdeal.Hand.R4 Cert.KernelIdeal.Hand.R35 Cert.KernelIdeal.Hand.WA Cert.KernelIdeal.Hand.WB

variable (m : (ℓ : Loc nD τ sig) → Buf (Elt Ideal) ℓ) (ρ : Dev nD → PrngReg) (c : Dev nD)

/-! ## The five affine maps -/

theorem uh (r : Fin 10000) (j : Fin 256) :
    rd (S := S10000x256) ((dat0 (V1 m ρ) c).arrAt 9 cfg0.N) (ix2 r j) = Cert.Gcn.Uh (kin m c) r j := by

  rw [r0_out9, v1_b_v14]
  refine congrArg (· + _) (Finset.sum_congr rfl fun s _ => ?_)
  rw [v1_w_v5, v1_arg0]; rfl
theorem vh (r : Fin 10000) (j : Fin 256) :
    rd (S := S10000x256) ((dat0 (V1 m ρ) c).arrAt 10 cfg0.N) (ix2 r j) = Cert.Gcn.Vh (kin m c) r j := by

  rw [r0_out10, v1_b_v15]
  refine congrArg (· + _) (Finset.sum_congr rfl fun s _ => ?_)
  rw [v1_w_v7, v1_arg0]; rfl
theorem bh (r : Fin 10000) (j : Fin 256) :
    rd (S := S10000x256) ((dat0 (V1 m ρ) c).arrAt 11 cfg0.N) (ix2 r j) = Cert.Gcn.Bh (kin m c) r j := by

  rw [r0_out11, v1_b_v16]
  refine congrArg (· + _) (Finset.sum_congr rfl fun s _ => ?_)
  rw [v1_w_v9, v1_arg0]; rfl
theorem ch (r : Fin 10000) (j : Fin 256) :
    rd (S := S10000x256) ((dat0 (V1 m ρ) c).arrAt 12 cfg0.N) (ix2 r j) = Cert.Gcn.Ch (kin m c) r j := by

  rw [r0_out12, v1_b_v17]
  refine congrArg (· + _) (Finset.sum_congr rfl fun s _ => ?_)
  rw [v1_w_v11, v1_arg0]; rfl
theorem ae (q : Fin 300000) (j : Fin 256) :
    rd (S := S300000x256) ((dat1 (V3 m ρ) c).arrAt 4 cfg1.N) (ix2 q j) = Cert.Gcn.Ae (kin m c) q j := by

  rw [r1_out4, v3_b_v18]
  refine congrArg (· + _) (Finset.sum_congr rfl fun s _ => ?_)
  rw [v3_w_v13, v3_arg1]; rfl

theorem vh_tbl : (fun r j => rd (S := S10000x256) ((dat0 (V1 m ρ) c).arrAt 10 cfg0.N) (ix2 r j)) = Cert.Gcn.Vh (kin m c) :=
  funext fun r => funext fun j => vh m ρ c r j
theorem bh_tbl : (fun r j => rd (S := S10000x256) ((dat0 (V1 m ρ) c).arrAt 11 cfg0.N) (ix2 r j)) = Cert.Gcn.Bh (kin m c) :=
  funext fun r => funext fun j => bh m ρ c r j
theorem ch_tbl : (fun r j => rd (S := S10000x256) ((dat0 (V1 m ρ) c).arrAt 12 cfg0.N) (ix2 r j)) = Cert.Gcn.Ch (kin m c) :=
  funext fun r => funext fun j => ch m ρ c r j

/-! ## Messages, their sum onto nodes, the two pre-activations -/

theorem msgk (q : Fin 300000) (j : Fin 256) :
    rd (S := S300000x256) ((dat1 (V3 m ρ) c).arrAt 5 cfg1.N) (ix2 q j) = Cert.Gcn.msg true (kin m c) q j := by
  rw [r1_out5, v3_v20, vh_tbl, v3_arg1]; rfl

theorem aggk : rd (S := S10000x256) (V10 m ρ c main_v24) = Cert.Gcn.agg true (kin m c) := by
  have h1 : rd (S := S300000x256) ((dat1 (V3 m ρ) c).arrAt 5 cfg1.N) = fun i => Cert.Gcn.msg true (kin m c) (i 0) (i 1) :=
    funext fun i => by
      obtain ⟨a, b, rfl⟩ : ∃ (a : Fin 300000) (b : Fin 256), i = ix2 a b := ⟨i 0, i 1, eq_ix2 i⟩
      exact msgk m ρ c a b
  rw [v10_agg, h1]; rfl

theorem nprek (r : Fin 10000) (j : Fin 256) :
    rd (S := S10000x256) (V10 m ρ c main_v19_0) (ix2 r j) + rd (S := S10000x256) (V10 m ρ c main_v24) (ix2 r j)
      = Cert.Gcn.npre true (kin m c) r j := by
  rw [v10_uh, uh, aggk]; rfl

theorem eprek (q : Fin 300000) (j : Fin 256) :
    (rd (S := S300000x256) (V7 m ρ c main_v21_0) (ix2 q j) + rd (S := S300000x256) (V7 m ρ c main_v25) (ix2 q j))
        + rd (S := S300000x256) (V7 m ρ c main_v26) (ix2 q j)
      = Cert.Gcn.epre true (kin m c) q j := by
  rw [v7_v21, ae, v7_v25, bh_tbl, v7_v26, ch_tbl]; rfl

/-! ## The two results -/

theorem hval (r : Fin 10000) (j : Fin 256) :
    rd (S := S10000x256) (W13 m ρ c (Proc.devRef .tc main_v46)) (ix2 r j) = Cert.Gcn.hout true (kin m c) r j := by
  have hs : (∑ r : Fin 10000, (rd (S := S10000x256) (V10 m ρ c main_v19_0) (ix2 r j) + rd (S := S10000x256) (V10 m ρ c main_v24) (ix2 r j)))
      = ∑ r : Fin 10000, Cert.Gcn.npre true (kin m c) r j := Finset.sum_congr rfl fun r _ => nprek m ρ c r j
  have hq : (∑ r : Fin 10000, (rd (S := S10000x256) (V10 m ρ c main_v19_0) (ix2 r j) + rd (S := S10000x256) (V10 m ρ c main_v24) (ix2 r j))
        * (rd (S := S10000x256) (V10 m ρ c main_v19_0) (ix2 r j) + rd (S := S10000x256) (V10 m ρ c main_v24) (ix2 r j)))
      = ∑ r : Fin 10000, Cert.Gcn.npre true (kin m c) r j * Cert.Gcn.npre true (kin m c) r j :=
    Finset.sum_congr rfl fun r _ => by rw [nprek]
  rw [w13_hout, r5_out6, v12_pre, v12_arg0, v12_gamma, v12_beta, v12_var, v12_mean, r4_pre, r4_sum, r4_sumsq, hs, hq, nprek]
  rfl

theorem eval (q : Fin 300000) (j : Fin 256) :
    rd (S := S300000x256) (W13 m ρ c (Proc.devRef .tc main_v36)) (ix2 q j) = Cert.Gcn.eout true (kin m c) q j := by
  have hs : (∑ q : Fin 300000, ((rd (S := S300000x256) (V7 m ρ c main_v21_0) (ix2 q j) + rd (S := S300000x256) (V7 m ρ c main_v25) (ix2 q j))
        + rd (S := S300000x256) (V7 m ρ c main_v26) (ix2 q j)))
      = ∑ q : Fin 300000, Cert.Gcn.epre true (kin m c) q j := Finset.sum_congr rfl fun q _ => eprek m ρ c q j
  have hq : (∑ q : Fin 300000, ((rd (S := S300000x256) (V7 m ρ c main_v21_0) (ix2 q j) + rd (S := S300000x256) (V7 m ρ c main_v25) (ix2 q j))
        + rd (S := S300000x256) (V7 m ρ c main_v26) (ix2 q j))
        * ((rd (S := S300000x256) (V7 m ρ c main_v21_0) (ix2 q j) + rd (S := S300000x256) (V7 m ρ c main_v25) (ix2 q j))
        + rd (S := S300000x256) (V7 m ρ c main_v26) (ix2 q j)))
      = ∑ q : Fin 300000, Cert.Gcn.epre true (kin m c) q j * Cert.Gcn.epre true (kin m c) q j :=
    Finset.sum_congr rfl fun q _ => by rw [eprek]
  rw [w13_eout, r3_out6, v9_pre, v9_arg1, v9_gamma, v9_beta, v9_var, v9_mean, r2_pre, r2_sum, r2_sumsq, hs, hq, eprek]
  rfl

end Cert.KernelIdeal.Hand

end
-- ==== Proof.PreFacts.lean ====
/- The precondition read back as plain facts about the layer's seventeen inputs.

   The precondition is one Boolean word: the conjunction, over the sixteen float arrays, of
   "every entry has absolute value below +∞", and over the array of index words of "every word is at
   least 0" and "every word is below 10000". Each conjunct is an and-reduction of an array of one-bit
   comparison words down to a single word. If the whole conjunction is 1 then every conjunct is 1, an
   and-reduction that is 1 saw only 1s, and a comparison word that is 1 says its comparison holds:
   |x| < +∞ over the extended reals means x is neither +∞ nor -∞, and the two signed comparisons of an
   index word against the constants 0 and 10000 place its signed value in [0, 10000). -/
import proofs.«421314_j74577812128000_1_alg».proof.Defs
import proofs.«421314_j74577812128000_1_alg».proof.Proof.Gen.Pre_finite_inputs
import proofs.«421314_j74577812128000_1_alg».proof.Proof.KInputs
import Idealize.ShloMosaic.Lib.ReduceAll
import Idealize.ShloMosaic.Lib.StableHlo.Predicate

noncomputable section

namespace Cert.KernelIdeal.Hand

open Idealize.ShloMosaic Idealize.SL.Sem Idealize.ShloMosaic.ValueIdx Cert.KernelIdeal

/-- The scalar shape has one index. -/
instance : Subsingleton Cert.Pre_finite_inputs.S_.Idx := ⟨fun a b => funext fun d => d.elim0⟩

/-- The bit pattern of +∞ denotes the top extended real. -/
theorem inf_eq_top : Ideal.ofBits .f32 0x7F800000#32 = (⊤ : EReal) := by simp [Ideal.ofBits, Ideal.ieee]

/-- One entry: if the comparison word of "|x| < +∞" is 1 then x is a real number. The absolute value is
    max x (-x); it is below ⊤ exactly when both x and -x are, that is when x is neither ⊤ nor ⊥. -/
theorem isReal_of_abs_lt_inf (x : EReal)
    (h : Ideal.cmp .olt (max x (-x)) (Ideal.ofBits .f32 0x7F800000#32) = 1#1) : Cert.Gcn.IsReal x := by
  rw [inf_eq_top] at h
  simp only [Ideal.cmp, StableHlo.Predicate.ofBool_eq_one_iff, decide_eq_true_eq, max_lt_iff] at h
  refine ⟨h.1.ne, ?_⟩
  intro hx
  rw [hx] at h
  simp at h

/-- One float array of any shape: if the and-reduction of the words "|x i| < +∞" down to the scalar
    shape is 1, every entry is a real number. -/
theorem finite_of_test {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
          (cmpf .olt (Host.absf x) (broadcastInDim s ![] hb (constant Cert.Pre_finite_inputs.S_ .f32 0x7F800000#32)))
          (constantI Cert.Pre_finite_inputs.S_ 1 1#1) hr hu ix0 = 1#1) :
    ∀ i, Cert.Gcn.IsReal (x i) := fun i =>
  isReal_of_abs_lt_inf (x i) (Host.reduce_andi_all _ _ hr hu ix0 h i)

/-- The array of index words, lower test: if the and-reduction of the words "0 ≤ x i" (signed) is 1,
    every word is nonnegative. -/
theorem nonneg_of_test {s : Shape} {axes : List (Fin s.rank)} (x : IVec s 32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
          (cmpi .sge x (broadcastInDim s ![] hb (constantI Cert.Pre_finite_inputs.S_ 32 0#32)))
          (constantI Cert.Pre_finite_inputs.S_ 1 1#1) hr hu ix0 = 1#1) :
    ∀ i, 0 ≤ (x i).toInt := fun i => by
  have e : IntOp.cmpi .sge (x i) (0#32) = 1#1 := Host.reduce_andi_all _ _ hr hu ix0 h i
  have e' := IntOp.cmpi_sge.1 e
  rwa [show (0#32 : BitVec 32).toInt = 0 from by decide] at e'

/-- The array of index words, upper test: if the and-reduction of the words "x i < 10000" (signed) is 1,
    every word is below 10000. -/
theorem lt_of_test {s : Shape} {axes : List (Fin s.rank)} (x : IVec s 32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
          (cmpi .slt x (broadcastInDim s ![] hb (constantI Cert.Pre_finite_inputs.S_ 32 10000#32)))
          (constantI Cert.Pre_finite_inputs.S_ 1 1#1) hr hu ix0 = 1#1) :
    ∀ i, (x i).toInt < 10000 := fun i => by
  have e : IntOp.cmpi .slt (x i) (10000#32) = 1#1 := Host.reduce_andi_all _ _ hr hu ix0 h i
  have e' := IntOp.cmpi_slt.1 e
  rwa [show (10000#32 : BitVec 32).toInt = 10000 from by decide] at e'

/-- The precondition decoded: on every core the sixteen float arrays hold real numbers only and every
    index word lies in [0, 10000). -/
theorem pre_facts [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (kin m c).Finite ∧ (kin m c).InRange := by
  have e := congrFun (hpre c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at e
  simp only [Idealize.ShloMosaic.andi, IntOp.andi_eq_one] at e
  obtain ⟨⟨⟨⟨⟨⟨⟨⟨⟨⟨⟨⟨⟨⟨⟨⟨⟨h0, h1⟩, h3⟩, h4⟩, h5⟩, h6⟩, h7⟩, h8⟩, h9⟩, h10⟩, h11⟩, h12⟩, h13⟩, h14⟩, h15⟩, h16⟩, hge⟩, hlt⟩ := e
  exact ⟨⟨finite_of_test _ _ _ _ h0, finite_of_test _ _ _ _ h1, finite_of_test _ _ _ _ h3, finite_of_test _ _ _ _ h4,
      finite_of_test _ _ _ _ h5, finite_of_test _ _ _ _ h6, finite_of_test _ _ _ _ h7, finite_of_test _ _ _ _ h8,
      finite_of_test _ _ _ _ h9, finite_of_test _ _ _ _ h10, finite_of_test _ _ _ _ h11, finite_of_test _ _ _ _ h12,
      finite_of_test _ _ _ _ h13, finite_of_test _ _ _ _ h14, finite_of_test _ _ _ _ h15, finite_of_test _ _ _ _ h16⟩,
    fun i => ⟨nonneg_of_test _ _ _ _ hge i, lt_of_test _ _ _ _ hlt i⟩⟩

end Cert.KernelIdeal.Hand

end
-- ==== Proof.SpecLaws.lean ====
/- The algebra that joins the two spellings of the gated graph-convolution layer.

   A table read at an index word: a word in [0, 10000) is not shifted, lies in the table, and so reads the
   same row whether a word outside the table would have been filled or clamped.
   The two batch sizes are the reals 10000 and 300000.
   The variance: with the divisor equal to the number of rows R and every entry a real number, put
   m = (∑ a) / R; then ∑ (a - m)² = ∑ a² - 2 m ∑ a + R m² = ∑ a² - R m², so the mean of squared deviations
   is the mean of squares minus m².
   Finiteness: sums, products and differences of reals are reals, the logistic function of a real is a
   real, so every affine map, message, aggregate and pre-activation built from finite arguments is finite;
   that is what lets the variance identity be used on the pre-activations. -/
import proofs.«421314_j74577812128000_1_alg».proof.Proof.Spec
import Idealize.ShloMosaic.PureOps.Ideal
import Idealize.ShloMosaic.Lib.ValueIdx
import Mathlib.Data.EReal.Inv
import Mathlib.Algebra.BigOperators.Group.Finset.Basic
import Mathlib.Algebra.BigOperators.Ring.Finset
import Mathlib.Tactic.Ring
import Mathlib.Tactic.FieldSimp
import Mathlib.Tactic.NormNum

noncomputable section

namespace Cert.Gcn

open Idealize.ShloMosaic Idealize.ShloMosaic.ValueIdx

/-! ## A table read at a word in range -/

/-- A word in [0, 10000) is not shifted. -/
theorem nrm_of_inRange (v : BitVec 32) (hv : 0 ≤ v.toInt ∧ v.toInt < 10000) : nrm v = v := by
  unfold nrm
  rw [if_neg (by omega)]

/-- A word in [0, 10000) is a row of the table. -/
theorem inTable_of_inRange (v : BitVec 32) (hv : 0 ≤ v.toInt ∧ v.toInt < 10000) : inTable v := by
  unfold inTable
  rw [nrm_of_inRange v hv]
  omega

/-- At a word in range the fill is never read: both spellings read the same row. -/
theorem take_eq (tbl : Fin 10000 → Fin 256 → EReal) (v : BitVec 32) (j : Fin 256)
    (hv : 0 ≤ v.toInt ∧ v.toInt < 10000) : take true tbl v j = take false tbl v j := by
  have hin : inTable v := inTable_of_inRange v hv
  simp [take, hin]

/-! ## The two batch sizes -/

/-- Sign 0, exponent 140, fraction 1851392: (2^23 + 1851392) * 2^(140 - 127 - 23) = 10240000 / 1024. -/
theorem cN_eq : cN = ((10000 : ℝ) : EReal) := by
  unfold cN
  simp [Ideal.ofBits, Ideal.ieee, -EReal.coe_mul]; norm_num

/-- Sign 0, exponent 145, fraction 1211392: (2^23 + 1211392) * 2^(145 - 127 - 23) = 9600000 / 32. -/
theorem cE_eq : cE = ((300000 : ℝ) : EReal) := by
  unfold cE
  simp [Ideal.ofBits, Ideal.ieee, -EReal.coe_mul]; norm_num

/-! ## Finite extended reals -/

theorem isReal_coe (r : ℝ) : IsReal (r : EReal) := ⟨EReal.coe_ne_top r, EReal.coe_ne_bot r⟩

/-- A finite extended real is a real number. -/
theorem IsReal.exists_coe {t : EReal} (h : IsReal t) : ∃ r : ℝ, t = (r : EReal) :=
  ⟨t.toReal, (EReal.coe_toReal h.1 h.2).symm⟩

theorem isReal_zero : IsReal (0 : EReal) := by
  rw [← EReal.coe_zero]; exact isReal_coe 0

theorem IsReal.add {s t : EReal} (hs : IsReal s) (ht : IsReal t) : IsReal (s + t) := by
  obtain ⟨a, rfl⟩ := hs.exists_coe
  obtain ⟨b, rfl⟩ := ht.exists_coe
  rw [← EReal.coe_add]; exact isReal_coe _

theorem IsReal.mul {s t : EReal} (hs : IsReal s) (ht : IsReal t) : IsReal (s * t) := by
  obtain ⟨a, rfl⟩ := hs.exists_coe
  obtain ⟨b, rfl⟩ := ht.exists_coe
  rw [← EReal.coe_mul]; exact isReal_coe _

theorem IsReal.sub {s t : EReal} (hs : IsReal s) (ht : IsReal t) : IsReal (s - t) := by
  obtain ⟨a, rfl⟩ := hs.exists_coe
  obtain ⟨b, rfl⟩ := ht.exists_coe
  rw [← EReal.coe_sub]; exact isReal_coe _

/-- A finite sum of finite terms is finite. -/
theorem isReal_sum {ι : Type*} (s : Finset ι) (f : ι → EReal) (h : ∀ i ∈ s, IsReal (f i)) :
    IsReal (∑ i ∈ s, f i) := by
  classical
  revert h
  refine Finset.induction_on s ?_ ?_
  · intro _
    rw [Finset.sum_empty]; exact isReal_zero
  · intro a s ha ih h
    rw [Finset.sum_insert ha]
    exact (h a (Finset.mem_insert_self a s)).add (ih fun i hi => h i (Finset.mem_insert_of_mem hi))

/-- The inclusion of the reals carries finite sums to finite sums. -/
theorem coe_sum {ι : Type*} (s : Finset ι) (f : ι → ℝ) :
    ∑ i ∈ s, ((f i : ℝ) : EReal) = ((∑ i ∈ s, f i : ℝ) : EReal) := by
  classical
  refine Finset.induction_on s ?_ ?_
  · rw [Finset.sum_empty, Finset.sum_empty, EReal.coe_zero]
  · intro a s ha ih
    rw [Finset.sum_insert ha, Finset.sum_insert ha, ih, EReal.coe_add]

/-! ## The variance -/

/-- The real identity: with m the mean of R numbers, the mean of squares minus m² is the mean of the
    squared deviations from m. -/
theorem real_var_eq {R : ℕ} (hR : (R : ℝ) ≠ 0) (a : Fin R → ℝ) :
    (∑ r, a r * a r) / R - (∑ r, a r) / R * ((∑ r, a r) / R)
      = (∑ r, (a r - (∑ r, a r) / R) * (a r - (∑ r, a r) / R)) / R := by
  set T : ℝ := ∑ r, a r with hT
  have hexp : ∀ r, (a r - T / R) * (a r - T / R) = a r * a r - 2 * (T / R) * a r + T / R * (T / R) :=
    fun r => by ring
  simp only [hexp]
  rw [Finset.sum_add_distrib, Finset.sum_sub_distrib, ← Finset.mul_sum, ← hT, Finset.sum_const,
    Finset.card_univ, Fintype.card_fin, nsmul_eq_mul]
  field_simp
  ring

/-- The column mean of real entries over a batch whose divisor is its number of rows. -/
theorem mean_coe {R : ℕ} (hR : (R : ℝ) ≠ 0) (a : Fin R → ℝ) (p : Fin R → Fin 256 → EReal) (j : Fin 256)
    (ha : ∀ r, p r j = ((a r : ℝ) : EReal)) :
    mean ((R : ℝ) : EReal) p j = (((∑ r, a r) / R : ℝ) : EReal) := by
  unfold mean
  simp only [ha]
  rw [coe_sum Finset.univ a, Ideal.div_coe hR, ← EReal.coe_mul]
  congr 1
  ring

/-- Mean of squares minus squared mean is the mean of squared deviations, when the divisor is the
    number of rows and the column holds real numbers. -/
theorem var_eq {R : ℕ} (hR : R ≠ 0) (cnt : EReal) (hc : cnt = ((R : ℝ) : EReal))
    (p : Fin R → Fin 256 → EReal) (j : Fin 256) (hp : ∀ r, IsReal (p r j)) :
    var true cnt p j = var false cnt p j := by
  have hR' : (R : ℝ) ≠ 0 := Nat.cast_ne_zero.mpr hR
  choose a ha using fun r => (hp r).exists_coe
  subst hc
  have hm := mean_coe hR' a p j ha
  have hl : var true ((R : ℝ) : EReal) p j
      = (((∑ r, a r * a r) / R - (∑ r, a r) / R * ((∑ r, a r) / R) : ℝ) : EReal) := by
    unfold var
    rw [if_pos rfl, hm]
    simp only [ha, ← EReal.coe_mul]
    rw [coe_sum Finset.univ (fun r => a r * a r), Ideal.div_coe hR', ← EReal.coe_mul, ← EReal.coe_sub]
    congr 1
    ring
  have hr : var false ((R : ℝ) : EReal) p j
      = (((∑ r, (a r - (∑ r, a r) / R) * (a r - (∑ r, a r) / R)) / R : ℝ) : EReal) := by
    unfold var
    rw [if_neg Bool.false_ne_true, hm]
    simp only [ha, ← EReal.coe_sub, ← EReal.coe_mul]
    rw [coe_sum Finset.univ (fun r => (a r - (∑ r, a r) / R) * (a r - (∑ r, a r) / R)),
      Ideal.div_coe hR', ← EReal.coe_mul]
    congr 1
    ring
  rw [hl, hr, real_var_eq hR' a]

/-! ## Finiteness of the layer's intermediate arrays -/

/-- An affine map of finite arrays is finite. -/
theorem isReal_lin {R : ℕ} (a : (⟨2, ![R, 256]⟩ : Shape).Idx → EReal) (w : SW.Idx → EReal)
    (b : SB.Idx → EReal) (ha : ∀ i, IsReal (a i)) (hw : ∀ i, IsReal (w i)) (hb : ∀ i, IsReal (b i))
    (r : Fin R) (j : Fin 256) : IsReal (lin a w b r j) := by
  unfold lin
  exact (isReal_sum _ _ fun c _ => (ha _).mul (hw _)).add (hb _)

/-- The logistic function of a real number is a real number. -/
theorem isReal_logistic {t : EReal} (h : IsReal t) : IsReal (Ideal.logistic t) := by
  obtain ⟨r, rfl⟩ := h.exists_coe
  rw [Ideal.logistic_coe]; exact isReal_coe _

/-- A clamped read of a finite table is finite. -/
theorem isReal_take_false (tbl : Fin 10000 → Fin 256 → EReal) (h : ∀ r j, IsReal (tbl r j))
    (v : BitVec 32) (j : Fin 256) : IsReal (take false tbl v j) := by
  unfold take
  rw [if_neg (fun hk => Bool.false_ne_true hk.1)]
  exact h _ _

section
variable {x : Inputs}

theorem isReal_Uh (hf : x.Finite) (r : Fin 10000) (j : Fin 256) : IsReal (Uh x r j) :=
  isReal_lin _ _ _ hf.h hf.Uw hf.Ub r j
theorem isReal_Vh (hf : x.Finite) (r : Fin 10000) (j : Fin 256) : IsReal (Vh x r j) :=
  isReal_lin _ _ _ hf.h hf.Vw hf.Vb r j
theorem isReal_Bh (hf : x.Finite) (r : Fin 10000) (j : Fin 256) : IsReal (Bh x r j) :=
  isReal_lin _ _ _ hf.h hf.Bw hf.Bb r j
theorem isReal_Ch (hf : x.Finite) (r : Fin 10000) (j : Fin 256) : IsReal (Ch x r j) :=
  isReal_lin _ _ _ hf.h hf.Cw hf.Cb r j
theorem isReal_Ae (hf : x.Finite) (q : Fin 300000) (j : Fin 256) : IsReal (Ae x q j) :=
  isReal_lin _ _ _ hf.e hf.Aw hf.Ab q j

/-- A gated message is the product of two real numbers. -/
theorem isReal_msg (hf : x.Finite) (q : Fin 300000) (j : Fin 256) : IsReal (msg false x q j) := by
  unfold msg
  exact (isReal_logistic (hf.e _)).mul (isReal_take_false _ (isReal_Vh hf) _ _)

/-- The aggregate at a node is zero plus a finite sum of messages. -/
theorem isReal_agg (hf : x.Finite) (i : SN.Idx) : IsReal (agg false x i) := by
  unfold agg Ideal.hostScatterAdd
  exact isReal_zero.add (isReal_sum _ _ fun u _ => isReal_msg hf _ _)

theorem isReal_npre (hf : x.Finite) (r : Fin 10000) (j : Fin 256) : IsReal (npre false x r j) := by
  unfold npre
  exact (isReal_Uh hf r j).add (isReal_agg hf _)

theorem isReal_epre (hf : x.Finite) (q : Fin 300000) (j : Fin 256) : IsReal (epre false x q j) := by
  unfold epre
  exact ((isReal_Ae hf q j).add (isReal_take_false _ (isReal_Bh hf) _ _)).add
    (isReal_take_false _ (isReal_Ch hf) _ _)

/-! ## The two spellings agree on finite inputs with index words in range -/

theorem msg_eq (hr : x.InRange) : msg true x = msg false x := by
  funext q j
  exact congrArg (fun t => Ideal.logistic (x.e (ix2 q j)) * t) (take_eq (Vh x) (dst x q) j (hr _))

theorem agg_eq (hr : x.InRange) : agg true x = agg false x := by
  unfold agg
  rw [msg_eq hr]

theorem npre_eq (hr : x.InRange) : npre true x = npre false x := by
  funext r j
  unfold npre
  rw [agg_eq hr]

theorem epre_eq (hr : x.InRange) : epre true x = epre false x := by
  funext q j
  unfold epre
  rw [take_eq (Bh x) (src x q) j (hr _), take_eq (Ch x) (dst x q) j (hr _)]

end

/-- The normalisation step in either spelling, when the divisor is the number of rows and the batch is
    finite: only the variance is spelt differently. -/
theorem bn_eq {R : ℕ} (hR : R ≠ 0) (cnt : EReal) (hc : cnt = ((R : ℝ) : EReal))
    (p : Fin R → Fin 256 → EReal) (g b : SB.Idx → EReal) (res : Fin R → Fin 256 → EReal)
    (hp : ∀ r j, IsReal (p r j)) (r : Fin R) (j : Fin 256) :
    bn true cnt p g b res r j = bn false cnt p g b res r j := by
  unfold bn
  rw [var_eq hR cnt hc p j (fun r => hp r j)]

theorem hout_eq (x : Inputs) (hf : x.Finite) (hr : x.InRange) (r : Fin 10000) (j : Fin 256) :
    hout true x r j = hout false x r j := by
  unfold hout
  rw [npre_eq hr]
  exact bn_eq (by norm_num) cN (by rw [cN_eq]; norm_num) _ _ _ _ (isReal_npre hf) r j

theorem eout_eq (x : Inputs) (hf : x.Finite) (hr : x.InRange) (q : Fin 300000) (j : Fin 256) :
    eout true x q j = eout false x q j := by
  unfold eout
  rw [epre_eq hr]
  exact bn_eq (by norm_num) cE (by rw [cE_eq]; norm_num) _ _ _ _ (isReal_epre hf) q j

end Cert.Gcn

end
-- ==== Proof.ROps.lean ====
/- The reference program's @main as ONE straight line of host operations: @main's own statements in order, and at
   each call of a module-local function that function's statements in its place, over the call's operands and the
   call's record of buffers (the column variance's own inner call likewise). The line is cut into five consecutive
   chunks `ops0 … ops4`; `ops` is their concatenation. With each chunk go three tables read off it, entry by entry:
   every operation touches TensorCore references only (`ops_sub`) and determines its results (`ops_fresh`), which is
   what running the line asks of it, and the one buffer each writes (`written`, `ops_writes`), which is what tells the
   buffers the line leaves alone. `main_eq`: @main is that line. -/
import proofs.«421314_j74577812128000_1_alg».proof.ReferenceIdeal
import proofs.«421314_j74577812128000_1_alg».proof.Proof.Gen.ReferenceIdeal
import Idealize.ShloMosaic.Lib.StableHlo.Run

noncomputable section

namespace Cert.ReferenceIdeal.Hand

open Idealize.ShloMosaic Idealize.SL.Sem Cert.ReferenceIdeal
open Facts₀ Facts

variable {F : FTy → Type} [FloatOps F]

/-- 29 operations: edge_index's two rows and the five affine maps (through main_v28). -/
abbrev ops0 : List (HloOp τ sig (Elt F)) :=
  [ StableHlo.unary main_arg2 main_v0 ((extractStridedSlice S1x300000 ![0, 0] · slices_S2x300000_S1x300000_0_0) : (⟨S2x300000, .i32⟩ : BufTy).Contents (Elt F) → (⟨S1x300000, .i32⟩ : BufTy).Contents (Elt F)),
    StableHlo.reshape main_v0 main_v1 rfl shapeCasts_S1x300000_S300000,
    StableHlo.unary main_arg2 main_v2 ((extractStridedSlice S1x300000 ![1, 0] · slices_S2x300000_S1x300000_1_0) : (⟨S2x300000, .i32⟩ : BufTy).Contents (Elt F) → (⟨S1x300000, .i32⟩ : BufTy).Contents (Elt F)),
    StableHlo.reshape main_v2 main_v3 rfl shapeCasts_S1x300000_S300000,
    StableHlo.unary main_arg3 main_v4 ((transpose S256x256 [1, 0] · transposes_S256x256_S256x256_1_0) : (⟨S256x256, .f32⟩ : BufTy).Contents (Elt F) → (⟨S256x256, .f32⟩ : BufTy).Contents (Elt F)),
    StableHlo.binary main_arg0 main_v4 main_v5 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.unary main_arg4 main_v6 (broadcastInDim S1x256 ![1] bcast_S256_S1x256_1 : (⟨S256, .f32⟩ : BufTy).Contents (Elt F) → (⟨S1x256, .f32⟩ : BufTy).Contents (Elt F)),
    StableHlo.unary main_v6 main_v7 (broadcastInDim S10000x256 ![0, 1] bcast_S1x256_S10000x256_0_1 : (⟨S1x256, .f32⟩ : BufTy).Contents (Elt F) → (⟨S10000x256, .f32⟩ : BufTy).Contents (Elt F)),
    StableHlo.binary main_v5 main_v7 main_v8 (addf : (⟨S10000x256, .f32⟩ : BufTy).Contents (Elt F) → (⟨S10000x256, .f32⟩ : BufTy).Contents (Elt F) → (⟨S10000x256, .f32⟩ : BufTy).Contents (Elt F)),
    StableHlo.unary main_arg5 main_v9 ((transpose S256x256 [1, 0] · transposes_S256x256_S256x256_1_0) : (⟨S256x256, .f32⟩ : BufTy).Contents (Elt F) → (⟨S256x256, .f32⟩ : BufTy).Contents (Elt F)),
    StableHlo.binary main_arg0 main_v9 main_v10 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.unary main_arg6 main_v11 (broadcastInDim S1x256 ![1] bcast_S256_S1x256_1 : (⟨S256, .f32⟩ : BufTy).Contents (Elt F) → (⟨S1x256, .f32⟩ : BufTy).Contents (Elt F)),
    StableHlo.unary main_v11 main_v12 (broadcastInDim S10000x256 ![0, 1] bcast_S1x256_S10000x256_0_1 : (⟨S1x256, .f32⟩ : BufTy).Contents (Elt F) → (⟨S10000x256, .f32⟩ : BufTy).Contents (Elt F)),
    StableHlo.binary main_v10 main_v12 main_v13 (addf : (⟨S10000x256, .f32⟩ : BufTy).Contents (Elt F) → (⟨S10000x256, .f32⟩ : BufTy).Contents (Elt F) → (⟨S10000x256, .f32⟩ : BufTy).Contents (Elt F)),
    StableHlo.unary main_arg7 main_v14 ((transpose S256x256 [1, 0] · transposes_S256x256_S256x256_1_0) : (⟨S256x256, .f32⟩ : BufTy).Contents (Elt F) → (⟨S256x256, .f32⟩ : BufTy).Contents (Elt F)),
    StableHlo.binary main_arg1 main_v14 main_v15 ((fun l r => Host.dotGeneral dot_S300000x256_S256x256_S300000x256_1_0_0_1_n_n none l r) : (⟨S300000x256, .f32⟩ : BufTy).Contents (Elt F) → (⟨S256x256, .f32⟩ : BufTy).Contents (Elt F) → (⟨S300000x256, .f32⟩ : BufTy).Contents (Elt F)),
    StableHlo.unary main_arg8 main_v16 (broadcastInDim S1x256 ![1] bcast_S256_S1x256_1 : (⟨S256, .f32⟩ : BufTy).Contents (Elt F) → (⟨S1x256, .f32⟩ : BufTy).Contents (Elt F)),
    StableHlo.unary main_v16 main_v17 (broadcastInDim S300000x256 ![0, 1] bcast_S1x256_S300000x256_0_1 : (⟨S1x256, .f32⟩ : BufTy).Contents (Elt F) → (⟨S300000x256, .f32⟩ : BufTy).Contents (Elt F)),
    StableHlo.binary main_v15 main_v17 main_v18 (addf : (⟨S300000x256, .f32⟩ : BufTy).Contents (Elt F) → (⟨S300000x256, .f32⟩ : BufTy).Contents (Elt F) → (⟨S300000x256, .f32⟩ : BufTy).Contents (Elt F)),
    StableHlo.unary main_arg9 main_v19 ((transpose S256x256 [1, 0] · transposes_S256x256_S256x256_1_0) : (⟨S256x256, .f32⟩ : BufTy).Contents (Elt F) → (⟨S256x256, .f32⟩ : BufTy).Contents (Elt F)),
    StableHlo.binary main_arg0 main_v19 main_v20 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.unary main_arg10 main_v21 (broadcastInDim S1x256 ![1] bcast_S256_S1x256_1 : (⟨S256, .f32⟩ : BufTy).Contents (Elt F) → (⟨S1x256, .f32⟩ : BufTy).Contents (Elt F)),
    StableHlo.unary main_v21 main_v22 (broadcastInDim S10000x256 ![0, 1] bcast_S1x256_S10000x256_0_1 : (⟨S1x256, .f32⟩ : BufTy).Contents (Elt F) → (⟨S10000x256, .f32⟩ : BufTy).Contents (Elt F)),
    StableHlo.binary main_v20 main_v22 main_v23 (addf : (⟨S10000x256, .f32⟩ : BufTy).Contents (Elt F) → (⟨S10000x256, .f32⟩ : BufTy).Contents (Elt F) → (⟨S10000x256, .f32⟩ : BufTy).Contents (Elt F)),
    StableHlo.unary main_arg11 main_v24 ((transpose S256x256 [1, 0] · transposes_S256x256_S256x256_1_0) : (⟨S256x256, .f32⟩ : BufTy).Contents (Elt F) → (⟨S256x256, .f32⟩ : BufTy).Contents (Elt F)),
    StableHlo.binary main_arg0 main_v24 main_v25 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.unary main_arg12 main_v26 (broadcastInDim S1x256 ![1] bcast_S256_S1x256_1 : (⟨S256, .f32⟩ : BufTy).Contents (Elt F) → (⟨S1x256, .f32⟩ : BufTy).Contents (Elt F)),
    StableHlo.unary main_v26 main_v27 (broadcastInDim S10000x256 ![0, 1] bcast_S1x256_S10000x256_0_1 : (⟨S1x256, .f32⟩ : BufTy).Contents (Elt F) → (⟨S10000x256, .f32⟩ : BufTy).Contents (Elt F)),
    StableHlo.binary main_v25 main_v27 main_v28 (addf : (⟨S10000x256, .f32⟩ : BufTy).Contents (Elt F) → (⟨S10000x256, .f32⟩ : BufTy).Contents (Elt F) → (⟨S10000x256, .f32⟩ : BufTy).Contents (Elt F)) ]

theorem ops0_sub : (ops0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub ..⟩

/-- Each determines its results. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffer each of them writes, in order. -/
abbrev written0 : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28]

theorem ops0_writes : (ops0 : List (HloOp τ sig (Elt F))).map HloOp.writes
    = written0.map fun y => ({Proc.devRef (τ := τ) .tc y} : Finset (DevRef τ sig)) := rfl

/-- 23 operations: the gate, the table read of Vh, the messages, their aggregation, the node pre-activation (main_v29 … main_v46). -/
abbrev ops1 : List (HloOp τ sig (Elt F)) :=
  [ StableHlo.unary main_arg1 main_v29 (Host.negf : (⟨S300000x256, .f32⟩ : BufTy).Contents (Elt F) → (⟨S300000x256, .f32⟩ : BufTy).Contents (Elt F)),
    StableHlo.unary main_v29 main_v30 (Host.exp : (⟨S300000x256, .f32⟩ : BufTy).Contents (Elt F) → (⟨S300000x256, .f32⟩ : BufTy).Contents (Elt F)),
    StableHlo.nullary main_cst (constant S_ .f32 0x3F800000#32),
    StableHlo.unary main_cst main_v31 (broadcastInDim S300000x256 ![] bcast_S_S300000x256 : (⟨S_, .f32⟩ : BufTy).Contents (Elt F) → (⟨S300000x256, .f32⟩ : BufTy).Contents (Elt F)),
    StableHlo.binary main_v31 main_v30 main_v32 (addf : (⟨S300000x256, .f32⟩ : BufTy).Contents (Elt F) → (⟨S300000x256, .f32⟩ : BufTy).Contents (Elt F) → (⟨S300000x256, .f32⟩ : BufTy).Contents (Elt F)),
    StableHlo.nullary main_cst_0 (constant S_ .f32 0x3F800000#32),
    StableHlo.unary main_cst_0 main_v33 (broadcastInDim S300000x256 ![] bcast_S_S300000x256 : (⟨S_, .f32⟩ : BufTy).Contents (Elt F) → (⟨S300000x256, .f32⟩ : BufTy).Contents (Elt F)),
    StableHlo.binary main_v33 main_v32 main_v34 (Host.divf : (⟨S300000x256, .f32⟩ : BufTy).Contents (Elt F) → (⟨S300000x256, .f32⟩ : BufTy).Contents (Elt F) → (⟨S300000x256, .f32⟩ : BufTy).Contents (Elt F)),
    StableHlo.nullary main_c (constantI S_ 32 0#32),
    StableHlo.unary main_c main_v35 (broadcastInDim S300000 ![] bcast_S_S300000 : (⟨S_, .i32⟩ : BufTy).Contents (Elt F) → (⟨S300000, .i32⟩ : BufTy).Contents (Elt F)),
    StableHlo.binary main_v3 main_v35 main_v36 (cmpi .slt : (⟨S300000, .i32⟩ : BufTy).Contents (Elt F) → (⟨S300000, .i32⟩ : BufTy).Contents (Elt F) → (⟨S300000, .i1⟩ : BufTy).Contents (Elt F)),
    StableHlo.nullary main_c_1 (constantI S_ 32 10000#32),
    StableHlo.unary main_c_1 main_v37 (broadcastInDim S300000 ![] bcast_S_S300000 : (⟨S_, .i32⟩ : BufTy).Contents (Elt F) → (⟨S300000, .i32⟩ : BufTy).Contents (Elt F)),
    StableHlo.binary main_v3 main_v37 main_v38 (addi : (⟨S300000, .i32⟩ : BufTy).Contents (Elt F) → (⟨S300000, .i32⟩ : BufTy).Contents (Elt F) → (⟨S300000, .i32⟩ : BufTy).Contents (Elt F)),
    StableHlo.ternary main_v36 main_v38 main_v3 main_v39 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v39 main_v40 (broadcastInDim S300000x1 ![0] bcast_S300000_S300000x1_0 : (⟨S300000, .i32⟩ : BufTy).Contents (Elt F) → (⟨S300000x1, .i32⟩ : BufTy).Contents (Elt F)),
    StableHlo.binary main_v13 main_v40 main_v41 ((fun x i => Host.gather gather_S10000x256_S300000x1_S300000x256_1_0_n_n_0_1_1256 x i) : (⟨S10000x256, .f32⟩ : BufTy).Contents (Elt F) → (⟨S300000x1, .i32⟩ : BufTy).Contents (Elt F) → (⟨S300000x256, .f32⟩ : BufTy).Contents (Elt F)),
    StableHlo.binary main_v34 main_v41 main_v42 (mulf : (⟨S300000x256, .f32⟩ : BufTy).Contents (Elt F) → (⟨S300000x256, .f32⟩ : BufTy).Contents (Elt F) → (⟨S300000x256, .f32⟩ : BufTy).Contents (Elt F)),
    StableHlo.nullary main_cst_2 (constant S_ .f32 0x00000000#32),
    StableHlo.unary main_cst_2 main_v43 (broadcastInDim S10000x256 ![] bcast_S_S10000x256 : (⟨S_, .f32⟩ : BufTy).Contents (Elt F) → (⟨S10000x256, .f32⟩ : BufTy).Contents (Elt F)),
    StableHlo.unary main_v1 main_v44 (broadcastInDim S300000x1 ![0] bcast_S300000_S300000x1_0 : (⟨S300000, .i32⟩ : BufTy).Contents (Elt F) → (⟨S300000x1, .i32⟩ : BufTy).Contents (Elt F)),
    StableHlo.ternary main_v43 main_v44 main_v42 main_v45 ((fun x i u => Host.scatterAdd scatter_S10000x256_S300000x1_S300000x256_1_0_0_1 x i u) : (⟨S10000x256, .f32⟩ : BufTy).Contents (Elt F) → (⟨S300000x1, .i32⟩ : BufTy).Contents (Elt F) → (⟨S300000x256, .f32⟩ : BufTy).Contents (Elt F) → (⟨S10000x256, .f32⟩ : BufTy).Contents (Elt F)),
    StableHlo.binary main_v8 main_v45 main_v46 (addf : (⟨S10000x256, .f32⟩ : BufTy).Contents (Elt F) → (⟨S10000x256, .f32⟩ : BufTy).Contents (Elt F) → (⟨S10000x256, .f32⟩ : BufTy).Contents (Elt F)) ]

theorem ops1_sub : (ops1 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.binary_bufs_sub ..⟩

/-- Each determines its results. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The buffer each of them writes, in order. -/
abbrev written1 : List (Ref sig .tc) :=
  [main_v29, main_v30, main_cst, main_v31, main_v32, main_cst_0, main_v33, main_v34, main_c, main_v35, main_v36, main_c_1, main_v37, main_v38, main_v39, main_v40, main_v41, main_v42, main_cst_2, main_v43, main_v44, main_v45, main_v46]

theorem ops1_writes : (ops1 : List (HloOp τ sig (Elt F))).map HloOp.writes
    = written1.map fun y => ({Proc.devRef (τ := τ) .tc y} : Finset (DevRef τ sig)) := rfl

/-- 48 operations: the node side's column mean, variance (the call over main_call0, with its inner call), normalisation and clamp (the call over main_call1), and the first result main_v66. -/
abbrev ops2 : List (HloOp τ sig (Elt F)) :=
  [ StableHlo.nullary main_cst_3 (constant S_ .f32 0x00000000#32),
    StableHlo.binary main_v46 main_cst_3 main_v47 ((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)),
    StableHlo.unary main_v47 main_v48 (broadcastInDim S1x256 ![1] bcast_S256_S1x256_1 : (⟨S256, .f32⟩ : BufTy).Contents (Elt F) → (⟨S1x256, .f32⟩ : BufTy).Contents (Elt F)),
    StableHlo.nullary main_cst_4 (constant S_ .f32 0x461C4000#32),
    StableHlo.unary main_cst_4 main_v49 (broadcastInDim S1x256 ![] bcast_S_S1x256 : (⟨S_, .f32⟩ : BufTy).Contents (Elt F) → (⟨S1x256, .f32⟩ : BufTy).Contents (Elt F)),
    StableHlo.binary main_v48 main_v49 main_v50 (Host.divf : (⟨S1x256, .f32⟩ : BufTy).Contents (Elt F) → (⟨S1x256, .f32⟩ : BufTy).Contents (Elt F) → (⟨S1x256, .f32⟩ : BufTy).Contents (Elt F)),
    StableHlo.nullary main_c_5 (constantI S_ 32 0#32),
    StableHlo.TRef.nullary main_call0.cst (constant S_ .f32 0x00000000#32),
    StableHlo.TRef.binary (.of main_v46 : StableHlo.TRef sig ⟨S10000x256, .f32⟩) main_call0.cst main_call0.v0 (fun x v => Host.reduceAdd x v reducesTo_S10000x256_S256_d0 h_S_),
    StableHlo.TRef.unary main_call0.v0 main_call0.v1 (broadcastInDim S1x256 ![1] bcast_S256_S1x256_1),
    StableHlo.TRef.nullary main_call0.cst_0 (constant S_ .f32 0x461C4000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S10000x256 ![0, 1] bcast_S1x256_S10000x256_0_1),
    StableHlo.TRef.binary (.of main_v46 : StableHlo.TRef sig ⟨S10000x256, .f32⟩) main_call0.v4 main_call0.v5 subf,
    StableHlo.TRef.binary main_call0.v5 main_call0.v5 main_call0.v6 mulf,
    StableHlo.TRef.unary (.of main_c_5 : StableHlo.TRef sig ⟨S_, .i32⟩) main_call0.v7 (sitofp .f32),
    StableHlo.TRef.nullary main_call0.cst_1 (constant S_ .f32 0x461C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S10000x256_S256_d0 h_S_),
    StableHlo.TRef.unary main_call0.v9 main_call0.v10 (broadcastInDim S1x256 ![1] bcast_S256_S1x256_1),
    StableHlo.TRef.unary main_call0.v8 main_call0.v11 (broadcastInDim S1x256 ![] bcast_S_S1x256),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S1x256 ![] bcast_S_S1x256),
    StableHlo.TRef.ternary main_call0.v13 main_call0.v12 main_call0.call0.v1 main_call0.call0.v2 (fun p a b => select (broadcastInDim S1x256 ![] bcast_S_S1x256 p) a b),
    StableHlo.unary main_v50 main_v52 (broadcastInDim S10000x256 ![0, 1] bcast_S1x256_S10000x256_0_1 : (⟨S1x256, .f32⟩ : BufTy).Contents (Elt F) → (⟨S10000x256, .f32⟩ : BufTy).Contents (Elt F)),
    StableHlo.binary main_v46 main_v52 main_v53 (subf : (⟨S10000x256, .f32⟩ : BufTy).Contents (Elt F) → (⟨S10000x256, .f32⟩ : BufTy).Contents (Elt F) → (⟨S10000x256, .f32⟩ : BufTy).Contents (Elt F)),
    StableHlo.nullary main_cst_6 (constant S_ .f32 0x3727C5AC#32),
    StableHlo.unary main_cst_6 main_v54 (broadcastInDim S1x256 ![] bcast_S_S1x256 : (⟨S_, .f32⟩ : BufTy).Contents (Elt F) → (⟨S1x256, .f32⟩ : BufTy).Contents (Elt F)),
    StableHlo.binary main_v51 main_v54 main_v55 (addf : (⟨S1x256, .f32⟩ : BufTy).Contents (Elt F) → (⟨S1x256, .f32⟩ : BufTy).Contents (Elt F) → (⟨S1x256, .f32⟩ : BufTy).Contents (Elt F)),
    StableHlo.unary main_v55 main_v56 (Host.rsqrt : (⟨S1x256, .f32⟩ : BufTy).Contents (Elt F) → (⟨S1x256, .f32⟩ : BufTy).Contents (Elt F)),
    StableHlo.unary main_v56 main_v57 (broadcastInDim S10000x256 ![0, 1] bcast_S1x256_S10000x256_0_1 : (⟨S1x256, .f32⟩ : BufTy).Contents (Elt F) → (⟨S10000x256, .f32⟩ : BufTy).Contents (Elt F)),
    StableHlo.binary main_v53 main_v57 main_v58 (mulf : (⟨S10000x256, .f32⟩ : BufTy).Contents (Elt F) → (⟨S10000x256, .f32⟩ : BufTy).Contents (Elt F) → (⟨S10000x256, .f32⟩ : BufTy).Contents (Elt F)),
    StableHlo.unary main_arg13 main_v59 (broadcastInDim S1x256 ![1] bcast_S256_S1x256_1 : (⟨S256, .f32⟩ : BufTy).Contents (Elt F) → (⟨S1x256, .f32⟩ : BufTy).Contents (Elt F)),
    StableHlo.unary main_v59 main_v60 (broadcastInDim S10000x256 ![0, 1] bcast_S1x256_S10000x256_0_1 : (⟨S1x256, .f32⟩ : BufTy).Contents (Elt F) → (⟨S10000x256, .f32⟩ : BufTy).Contents (Elt F)),
    StableHlo.binary main_v58 main_v60 main_v61 (mulf : (⟨S10000x256, .f32⟩ : BufTy).Contents (Elt F) → (⟨S10000x256, .f32⟩ : BufTy).Contents (Elt F) → (⟨S10000x256, .f32⟩ : BufTy).Contents (Elt F)),
    StableHlo.unary main_arg14 main_v62 (broadcastInDim S1x256 ![1] bcast_S256_S1x256_1 : (⟨S256, .f32⟩ : BufTy).Contents (Elt F) → (⟨S1x256, .f32⟩ : BufTy).Contents (Elt F)),
    StableHlo.unary main_v62 main_v63 (broadcastInDim S10000x256 ![0, 1] bcast_S1x256_S10000x256_0_1 : (⟨S1x256, .f32⟩ : BufTy).Contents (Elt F) → (⟨S10000x256, .f32⟩ : BufTy).Contents (Elt F)),
    StableHlo.binary main_v61 main_v63 main_v64 (addf : (⟨S10000x256, .f32⟩ : BufTy).Contents (Elt F) → (⟨S10000x256, .f32⟩ : BufTy).Contents (Elt F) → (⟨S10000x256, .f32⟩ : BufTy).Contents (Elt F)),
    StableHlo.TRef.nullary main_call1.cst (constant S_ .f32 0x00000000#32),
    StableHlo.TRef.unary main_call1.cst main_call1.v0 (broadcastInDim S10000x256 ![] bcast_S_S10000x256),
    StableHlo.TRef.binary (.of main_v64 : StableHlo.TRef sig ⟨S10000x256, .f32⟩) main_call1.v0 main_call1.v1 maximumf,
    StableHlo.binary main_arg0 main_v65 main_v66 (addf : (⟨S10000x256, .f32⟩ : BufTy).Contents (Elt F) → (⟨S10000x256, .f32⟩ : BufTy).Contents (Elt F) → (⟨S10000x256, .f32⟩ : BufTy).Contents (Elt F)) ]

theorem ops2_sub : (ops2 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub ..⟩

/-- Each determines its results. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffer each of them writes, in order. -/
abbrev written2 : List (Ref sig .tc) :=
  [main_cst_3, main_v47, main_v48, main_cst_4, main_v49, main_v50, main_c_5, (main_call0.cst).ref, (main_call0.v0).ref, (main_call0.v1).ref, (main_call0.cst_0).ref, (main_call0.v2).ref, (main_call0.v3).ref, (main_call0.v4).ref, (main_call0.v5).ref, (main_call0.v6).ref, (main_call0.v7).ref, (main_call0.cst_1).ref, (main_call0.v8).ref, (main_call0.cst_2).ref, (main_call0.v9).ref, (main_call0.v10).ref, (main_call0.v11).ref, (main_call0.v12).ref, (main_call0.cst_3).ref, (main_call0.v13).ref, (main_call0.cst_4).ref, (main_call0.call0.v0).ref, (main_call0.call0.v1).ref, (main_call0.call0.v2).ref, main_v52, main_v53, main_cst_6, main_v54, main_v55, main_v56, main_v57, main_v58, main_v59, main_v60, main_v61, main_v62, main_v63, main_v64, (main_call1.cst).ref, (main_call1.v0).ref, (main_call1.v1).ref, main_v66]

theorem ops2_writes : (ops2 : List (HloOp τ sig (Elt F))).map HloOp.writes
    = written2.map fun y => ({Proc.devRef (τ := τ) .tc y} : Finset (DevRef τ sig)) := rfl

/-- 20 operations: the table reads of Bh and Ch and the edge pre-activation (main_c_7 … main_v82). -/
abbrev ops3 : List (HloOp τ sig (Elt F)) :=
  [ StableHlo.nullary main_c_7 (constantI S_ 32 0#32),
    StableHlo.unary main_c_7 main_v67 (broadcastInDim S300000 ![] bcast_S_S300000 : (⟨S_, .i32⟩ : BufTy).Contents (Elt F) → (⟨S300000, .i32⟩ : BufTy).Contents (Elt F)),
    StableHlo.binary main_v1 main_v67 main_v68 (cmpi .slt : (⟨S300000, .i32⟩ : BufTy).Contents (Elt F) → (⟨S300000, .i32⟩ : BufTy).Contents (Elt F) → (⟨S300000, .i1⟩ : BufTy).Contents (Elt F)),
    StableHlo.nullary main_c_8 (constantI S_ 32 10000#32),
    StableHlo.unary main_c_8 main_v69 (broadcastInDim S300000 ![] bcast_S_S300000 : (⟨S_, .i32⟩ : BufTy).Contents (Elt F) → (⟨S300000, .i32⟩ : BufTy).Contents (Elt F)),
    StableHlo.binary main_v1 main_v69 main_v70 (addi : (⟨S300000, .i32⟩ : BufTy).Contents (Elt F) → (⟨S300000, .i32⟩ : BufTy).Contents (Elt F) → (⟨S300000, .i32⟩ : BufTy).Contents (Elt F)),
    StableHlo.ternary main_v68 main_v70 main_v1 main_v71 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v71 main_v72 (broadcastInDim S300000x1 ![0] bcast_S300000_S300000x1_0 : (⟨S300000, .i32⟩ : BufTy).Contents (Elt F) → (⟨S300000x1, .i32⟩ : BufTy).Contents (Elt F)),
    StableHlo.binary main_v23 main_v72 main_v73 ((fun x i => Host.gather gather_S10000x256_S300000x1_S300000x256_1_0_n_n_0_1_1256 x i) : (⟨S10000x256, .f32⟩ : BufTy).Contents (Elt F) → (⟨S300000x1, .i32⟩ : BufTy).Contents (Elt F) → (⟨S300000x256, .f32⟩ : BufTy).Contents (Elt F)),
    StableHlo.binary main_v18 main_v73 main_v74 (addf : (⟨S300000x256, .f32⟩ : BufTy).Contents (Elt F) → (⟨S300000x256, .f32⟩ : BufTy).Contents (Elt F) → (⟨S300000x256, .f32⟩ : BufTy).Contents (Elt F)),
    StableHlo.nullary main_c_9 (constantI S_ 32 0#32),
    StableHlo.unary main_c_9 main_v75 (broadcastInDim S300000 ![] bcast_S_S300000 : (⟨S_, .i32⟩ : BufTy).Contents (Elt F) → (⟨S300000, .i32⟩ : BufTy).Contents (Elt F)),
    StableHlo.binary main_v3 main_v75 main_v76 (cmpi .slt : (⟨S300000, .i32⟩ : BufTy).Contents (Elt F) → (⟨S300000, .i32⟩ : BufTy).Contents (Elt F) → (⟨S300000, .i1⟩ : BufTy).Contents (Elt F)),
    StableHlo.nullary main_c_10 (constantI S_ 32 10000#32),
    StableHlo.unary main_c_10 main_v77 (broadcastInDim S300000 ![] bcast_S_S300000 : (⟨S_, .i32⟩ : BufTy).Contents (Elt F) → (⟨S300000, .i32⟩ : BufTy).Contents (Elt F)),
    StableHlo.binary main_v3 main_v77 main_v78 (addi : (⟨S300000, .i32⟩ : BufTy).Contents (Elt F) → (⟨S300000, .i32⟩ : BufTy).Contents (Elt F) → (⟨S300000, .i32⟩ : BufTy).Contents (Elt F)),
    StableHlo.ternary main_v76 main_v78 main_v3 main_v79 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v79 main_v80 (broadcastInDim S300000x1 ![0] bcast_S300000_S300000x1_0 : (⟨S300000, .i32⟩ : BufTy).Contents (Elt F) → (⟨S300000x1, .i32⟩ : BufTy).Contents (Elt F)),
    StableHlo.binary main_v28 main_v80 main_v81 ((fun x i => Host.gather gather_S10000x256_S300000x1_S300000x256_1_0_n_n_0_1_1256 x i) : (⟨S10000x256, .f32⟩ : BufTy).Contents (Elt F) → (⟨S300000x1, .i32⟩ : BufTy).Contents (Elt F) → (⟨S300000x256, .f32⟩ : BufTy).Contents (Elt F)),
    StableHlo.binary main_v74 main_v81 main_v82 (addf : (⟨S300000x256, .f32⟩ : BufTy).Contents (Elt F) → (⟨S300000x256, .f32⟩ : BufTy).Contents (Elt F) → (⟨S300000x256, .f32⟩ : BufTy).Contents (Elt F)) ]

theorem ops3_sub : (ops3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩

/-- Each determines its results. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- The buffer each of them writes, in order. -/
abbrev written3 : List (Ref sig .tc) :=
  [main_c_7, main_v67, main_v68, main_c_8, main_v69, main_v70, main_v71, main_v72, main_v73, main_v74, main_c_9, main_v75, main_v76, main_c_10, main_v77, main_v78, main_v79, main_v80, main_v81, main_v82]

theorem ops3_writes : (ops3 : List (HloOp τ sig (Elt F))).map HloOp.writes
    = written3.map fun y => ({Proc.devRef (τ := τ) .tc y} : Finset (DevRef τ sig)) := rfl

/-- 48 operations: the edge side's column mean, variance (the call over main_call2, with its inner call), normalisation and clamp (the call over main_call3), and the second result main_v102. -/
abbrev ops4 : List (HloOp τ sig (Elt F)) :=
  [ StableHlo.nullary main_cst_11 (constant S_ .f32 0x00000000#32),
    StableHlo.binary main_v82 main_cst_11 main_v83 ((fun x v => Host.reduceAdd x v reducesTo_S300000x256_S256_d0 h_S_) : (⟨S300000x256, .f32⟩ : BufTy).Contents (Elt F) → (⟨S_, .f32⟩ : BufTy).Contents (Elt F) → (⟨S256, .f32⟩ : BufTy).Contents (Elt F)),
    StableHlo.unary main_v83 main_v84 (broadcastInDim S1x256 ![1] bcast_S256_S1x256_1 : (⟨S256, .f32⟩ : BufTy).Contents (Elt F) → (⟨S1x256, .f32⟩ : BufTy).Contents (Elt F)),
    StableHlo.nullary main_cst_12 (constant S_ .f32 0x48927C00#32),
    StableHlo.unary main_cst_12 main_v85 (broadcastInDim S1x256 ![] bcast_S_S1x256 : (⟨S_, .f32⟩ : BufTy).Contents (Elt F) → (⟨S1x256, .f32⟩ : BufTy).Contents (Elt F)),
    StableHlo.binary main_v84 main_v85 main_v86 (Host.divf : (⟨S1x256, .f32⟩ : BufTy).Contents (Elt F) → (⟨S1x256, .f32⟩ : BufTy).Contents (Elt F) → (⟨S1x256, .f32⟩ : BufTy).Contents (Elt F)),
    StableHlo.nullary main_c_13 (constantI S_ 32 0#32),
    StableHlo.TRef.nullary main_call2.cst (constant S_ .f32 0x00000000#32),
    StableHlo.TRef.binary (.of main_v82 : StableHlo.TRef sig ⟨S300000x256, .f32⟩) main_call2.cst main_call2.v0 (fun x v => Host.reduceAdd x v reducesTo_S300000x256_S256_d0 h_S_),
    StableHlo.TRef.unary main_call2.v0 main_call2.v1 (broadcastInDim S1x256 ![1] bcast_S256_S1x256_1),
    StableHlo.TRef.nullary main_call2.cst_0 (constant S_ .f32 0x48927C00#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S300000x256 ![0, 1] bcast_S1x256_S300000x256_0_1),
    StableHlo.TRef.binary (.of main_v82 : StableHlo.TRef sig ⟨S300000x256, .f32⟩) main_call2.v4 main_call2.v5 subf,
    StableHlo.TRef.binary main_call2.v5 main_call2.v5 main_call2.v6 mulf,
    StableHlo.TRef.unary (.of main_c_13 : StableHlo.TRef sig ⟨S_, .i32⟩) main_call2.v7 (sitofp .f32),
    StableHlo.TRef.nullary main_call2.cst_1 (constant S_ .f32 0x48927C00#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S300000x256_S256_d0 h_S_),
    StableHlo.TRef.unary main_call2.v9 main_call2.v10 (broadcastInDim S1x256 ![1] bcast_S256_S1x256_1),
    StableHlo.TRef.unary main_call2.v8 main_call2.v11 (broadcastInDim S1x256 ![] bcast_S_S1x256),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S1x256 ![] bcast_S_S1x256),
    StableHlo.TRef.ternary main_call2.v13 main_call2.v12 main_call2.call0.v1 main_call2.call0.v2 (fun p a b => select (broadcastInDim S1x256 ![] bcast_S_S1x256 p) a b),
    StableHlo.unary main_v86 main_v88 (broadcastInDim S300000x256 ![0, 1] bcast_S1x256_S300000x256_0_1 : (⟨S1x256, .f32⟩ : BufTy).Contents (Elt F) → (⟨S300000x256, .f32⟩ : BufTy).Contents (Elt F)),
    StableHlo.binary main_v82 main_v88 main_v89 (subf : (⟨S300000x256, .f32⟩ : BufTy).Contents (Elt F) → (⟨S300000x256, .f32⟩ : BufTy).Contents (Elt F) → (⟨S300000x256, .f32⟩ : BufTy).Contents (Elt F)),
    StableHlo.nullary main_cst_14 (constant S_ .f32 0x3727C5AC#32),
    StableHlo.unary main_cst_14 main_v90 (broadcastInDim S1x256 ![] bcast_S_S1x256 : (⟨S_, .f32⟩ : BufTy).Contents (Elt F) → (⟨S1x256, .f32⟩ : BufTy).Contents (Elt F)),
    StableHlo.binary main_v87 main_v90 main_v91 (addf : (⟨S1x256, .f32⟩ : BufTy).Contents (Elt F) → (⟨S1x256, .f32⟩ : BufTy).Contents (Elt F) → (⟨S1x256, .f32⟩ : BufTy).Contents (Elt F)),
    StableHlo.unary main_v91 main_v92 (Host.rsqrt : (⟨S1x256, .f32⟩ : BufTy).Contents (Elt F) → (⟨S1x256, .f32⟩ : BufTy).Contents (Elt F)),
    StableHlo.unary main_v92 main_v93 (broadcastInDim S300000x256 ![0, 1] bcast_S1x256_S300000x256_0_1 : (⟨S1x256, .f32⟩ : BufTy).Contents (Elt F) → (⟨S300000x256, .f32⟩ : BufTy).Contents (Elt F)),
    StableHlo.binary main_v89 main_v93 main_v94 (mulf : (⟨S300000x256, .f32⟩ : BufTy).Contents (Elt F) → (⟨S300000x256, .f32⟩ : BufTy).Contents (Elt F) → (⟨S300000x256, .f32⟩ : BufTy).Contents (Elt F)),
    StableHlo.unary main_arg15 main_v95 (broadcastInDim S1x256 ![1] bcast_S256_S1x256_1 : (⟨S256, .f32⟩ : BufTy).Contents (Elt F) → (⟨S1x256, .f32⟩ : BufTy).Contents (Elt F)),
    StableHlo.unary main_v95 main_v96 (broadcastInDim S300000x256 ![0, 1] bcast_S1x256_S300000x256_0_1 : (⟨S1x256, .f32⟩ : BufTy).Contents (Elt F) → (⟨S300000x256, .f32⟩ : BufTy).Contents (Elt F)),
    StableHlo.binary main_v94 main_v96 main_v97 (mulf : (⟨S300000x256, .f32⟩ : BufTy).Contents (Elt F) → (⟨S300000x256, .f32⟩ : BufTy).Contents (Elt F) → (⟨S300000x256, .f32⟩ : BufTy).Contents (Elt F)),
    StableHlo.unary main_arg16 main_v98 (broadcastInDim S1x256 ![1] bcast_S256_S1x256_1 : (⟨S256, .f32⟩ : BufTy).Contents (Elt F) → (⟨S1x256, .f32⟩ : BufTy).Contents (Elt F)),
    StableHlo.unary main_v98 main_v99 (broadcastInDim S300000x256 ![0, 1] bcast_S1x256_S300000x256_0_1 : (⟨S1x256, .f32⟩ : BufTy).Contents (Elt F) → (⟨S300000x256, .f32⟩ : BufTy).Contents (Elt F)),
    StableHlo.binary main_v97 main_v99 main_v100 (addf : (⟨S300000x256, .f32⟩ : BufTy).Contents (Elt F) → (⟨S300000x256, .f32⟩ : BufTy).Contents (Elt F) → (⟨S300000x256, .f32⟩ : BufTy).Contents (Elt F)),
    StableHlo.TRef.nullary main_call3.cst (constant S_ .f32 0x00000000#32),
    StableHlo.TRef.unary main_call3.cst main_call3.v0 (broadcastInDim S300000x256 ![] bcast_S_S300000x256),
    StableHlo.TRef.binary (.of main_v100 : StableHlo.TRef sig ⟨S300000x256, .f32⟩) main_call3.v0 main_call3.v1 maximumf,
    StableHlo.binary main_arg1 main_v101 main_v102 (addf : (⟨S300000x256, .f32⟩ : BufTy).Contents (Elt F) → (⟨S300000x256, .f32⟩ : BufTy).Contents (Elt F) → (⟨S300000x256, .f32⟩ : BufTy).Contents (Elt F)) ]

theorem ops4_sub : (ops4 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub ..⟩

/-- Each determines its results. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffer each of them writes, in order. -/
abbrev written4 : List (Ref sig .tc) :=
  [main_cst_11, main_v83, main_v84, main_cst_12, main_v85, main_v86, main_c_13, (main_call2.cst).ref, (main_call2.v0).ref, (main_call2.v1).ref, (main_call2.cst_0).ref, (main_call2.v2).ref, (main_call2.v3).ref, (main_call2.v4).ref, (main_call2.v5).ref, (main_call2.v6).ref, (main_call2.v7).ref, (main_call2.cst_1).ref, (main_call2.v8).ref, (main_call2.cst_2).ref, (main_call2.v9).ref, (main_call2.v10).ref, (main_call2.v11).ref, (main_call2.v12).ref, (main_call2.cst_3).ref, (main_call2.v13).ref, (main_call2.cst_4).ref, (main_call2.call0.v0).ref, (main_call2.call0.v1).ref, (main_call2.call0.v2).ref, main_v88, main_v89, main_cst_14, main_v90, main_v91, main_v92, main_v93, main_v94, main_v95, main_v96, main_v97, main_v98, main_v99, main_v100, (main_call3.cst).ref, (main_call3.v0).ref, (main_call3.v1).ref, main_v102]

theorem ops4_writes : (ops4 : List (HloOp τ sig (Elt F))).map HloOp.writes
    = written4.map fun y => ({Proc.devRef (τ := τ) .tc y} : Finset (DevRef τ sig)) := rfl

/-- @main's 168 operations, in order. -/
abbrev ops : List (HloOp τ sig (Elt F)) := ops0 ++ ops1 ++ ops2 ++ ops3 ++ ops4

theorem ops_sub : (ops : List (HloOp τ sig (Elt F))).Forall fun op => op.bufs ⊆ StableHlo.tcRefs τ sig :=
  List.forall_append.2 ⟨List.forall_append.2 ⟨List.forall_append.2 ⟨List.forall_append.2 ⟨ops0_sub, ops1_sub⟩, ops2_sub⟩, ops3_sub⟩, ops4_sub⟩

theorem ops_fresh : (ops : List (HloOp τ sig (Elt F))).Forall fun op => op.fresh = ∅ :=
  List.forall_append.2 ⟨List.forall_append.2 ⟨List.forall_append.2 ⟨List.forall_append.2 ⟨ops0_fresh, ops1_fresh⟩, ops2_fresh⟩, ops3_fresh⟩, ops4_fresh⟩

/-- The buffers the line writes, in order: every buffer but the seventeen arguments', each once. -/
abbrev written : List (Ref sig .tc) := written0 ++ written1 ++ written2 ++ written3 ++ written4

theorem ops_writes : (ops : List (HloOp τ sig (Elt F))).map HloOp.writes
    = written.map fun y => ({Proc.devRef (τ := τ) .tc y} : Finset (DevRef τ sig)) := by
  simp only [ops, written, List.map_append, ops0_writes, ops1_writes, ops2_writes, ops3_writes, ops4_writes]

-- the printed windows and the functions' bodies unfolded and every bind re-associated: one rewrite per statement
set_option maxRecDepth 16384 in
/-- @main is that straight line: the three windows in order, each function's definition unfolded at its call and the
    call's record at its fields; both sides are then one chain of single steps once sequencing is re-associated. -/
theorem main_eq (c : Dev nD) : main (F := F) c = StableHlo.seq ops := by
  simp only [main, main_part0, main_part1, main_part2, fn_var.body, fn_var_0.body, fn_where.body, fn_relu.body, fn_relu_1.body,
    ops, ops0, ops1, ops2, ops3, ops4, List.cons_append, List.nil_append, StableHlo.seq, bind_assoc, pure_bind]

end Cert.ReferenceIdeal.Hand

end
-- ==== Proof.RRun.lean ====
/- The reference program's run. The program has no kernel: on each core @main is one straight line of host operations
   (the list `ops`), so every weakly fair execution from a memory with zero counters terminates, and each buffer
   ends at the line's fold over what the memory held at launch. Read at the two results this is the value the line
   computes; read at an argument's buffer, which no operation of the line writes, it is what the memory held. -/
import proofs.«421314_j74577812128000_1_alg».proof.Proof.ROps
import Idealize.ShloMosaic.Lib.StableHlo.Run

noncomputable section

namespace Cert.ReferenceIdeal.Hand

open Idealize.ShloMosaic Idealize.SL.Sem Cert.ReferenceIdeal

variable {F : FTy → Type} [FloatOps F]

/-- The signature scopes no TensorCore buffer … -/
theorem scopedRefs_eq : (Finset.univ.filter fun b : Ref sig .tc => b.isScoped) = ∅ := by decide
/-- … and no semaphore: the program is tensor values only. -/
theorem scopedSems_eq : (Finset.univ.filter fun sm : SemLoc sig => sm.isScoped .tc) = ∅ := by decide

/-- When the i-th operation of a line writes exactly the i-th buffer of a list, whatever the line writes is in
    that list. -/
theorem writes_sub_of_map_eq {l : List (HloOp τ sig (Elt F))} {W : List (Ref sig .tc)}
    (h : l.map HloOp.writes = W.map fun y => ({Proc.devRef (τ := τ) .tc y} : Finset (DevRef τ sig))) :
    l.Forall fun op => op.writes ⊆ (W.map (Proc.devRef (τ := τ) .tc)).toFinset := by
  rw [List.forall_iff_forall_mem]
  intro op hop
  have hmem : op.writes ∈ l.map HloOp.writes := List.mem_map_of_mem hop
  rw [h] at hmem
  obtain ⟨y, hy, e⟩ := List.mem_map.1 hmem
  rw [← e, Finset.singleton_subset_iff, List.mem_toFinset]
  exact List.mem_map_of_mem hy

/-- A buffer that is none of those the line writes holds after the line what it held before. -/
theorem kept (V : Valuation τ sig (Elt F)) {r : Ref sig .tc} (hr : r ∉ written) :
    StableHlo.after ops V (Proc.devRef .tc r) = V (Proc.devRef .tc r) :=
  StableHlo.after_of_writes_sub ops V (writes_sub_of_map_eq ops_writes) hr

/-- On every core, for any float values, from any memory with zero counters: every weakly fair execution of @main
    terminates; the two results hold the line's fold over the launch contents, read at their buffers, and the
    seventeen arguments hold what they held at launch. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
        r.2.mem ((c.tc : Thread nD τ).loc main_v66) = StableHlo.after ops (fun b => m ((c : Dev nD), b)) (Proc.devRef .tc main_v66)
        ∧ r.2.mem ((c.tc : Thread nD τ).loc main_v102) = StableHlo.after ops (fun b => m ((c : Dev nD), b)) (Proc.devRef .tc main_v102)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)) :=
  (θ_run defs _ _).mono (fun _ h c => ⟨h c main_v66, h c main_v102,
      (h c main_arg0).trans (kept _ (by decide)),
      (h c main_arg1).trans (kept _ (by decide)),
      (h c main_arg2).trans (kept _ (by decide)),
      (h c main_arg3).trans (kept _ (by decide)),
      (h c main_arg4).trans (kept _ (by decide)),
      (h c main_arg5).trans (kept _ (by decide)),
      (h c main_arg6).trans (kept _ (by decide)),
      (h c main_arg7).trans (kept _ (by decide)),
      (h c main_arg8).trans (kept _ (by decide)),
      (h c main_arg9).trans (kept _ (by decide)),
      (h c main_arg10).trans (kept _ (by decide)),
      (h c main_arg11).trans (kept _ (by decide)),
      (h c main_arg12).trans (kept _ (by decide)),
      (h c main_arg13).trans (kept _ (by decide)),
      (h c main_arg14).trans (kept _ (by decide)),
      (h c main_arg15).trans (kept _ (by decide)),
      (h c main_arg16).trans (kept _ (by decide))⟩)
    (StableHlo.run_seq scopedRefs_eq scopedSems_eq defs main (fun _ => ops) main_eq (fun _ => ops_sub) m ρ
      (fun _ => List.forall_iff_forall_mem.1 ops_fresh))

end Cert.ReferenceIdeal.Hand

end
-- ==== Proof.RPre.lean ====
/- The reference program's two pre-activations, read element by element, are the layer's.

   The reference computes five affine maps of the node and edge rows, gates each edge row through the
   logistic function, multiplies the gate by the neighbour's row of one of the maps, sums these messages
   onto their aggregation nodes, and adds the result to another of the maps: the node pre-activation.
   The edge pre-activation adds to the edge's own affine map the rows of two node maps read at the edge's
   two end nodes. Every stage is proved first as a statement about one host operation (or a short chain of
   them) applied to arbitrary arrays and read at one index; the stages are then composed along the list of
   the program's operations, chunk by chunk, never expanding the whole list into one term. -/
import proofs.«421314_j74577812128000_1_alg».proof.ReferenceIdeal
import proofs.«421314_j74577812128000_1_alg».proof.Proof.Gen.ReferenceIdeal
import proofs.«421314_j74577812128000_1_alg».proof.Proof.RInputs
import proofs.«421314_j74577812128000_1_alg».proof.Proof.ROps
import proofs.«421314_j74577812128000_1_alg».proof.Proof.Rd
import Idealize.ShloMosaic.Lib.StableHlo.Run
import Idealize.ShloMosaic.Lib.Pipeline.Frame
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.Hand

open Idealize.ShloMosaic Idealize.SL.Sem Cert.ReferenceIdeal Idealize.ShloMosaic.ValueIdx

/-! ## An affine map read at an index

The host's product with one contracted axis is, at the ideal values, the plain sum over that axis; the
right operand enters transposed, and the bias is broadcast along the rows. -/

/-- The node-side product's dimension numbers. -/
abbrev dotN : DotDims S10000x256 S256x256 S10000x256 := dot_S10000x256_S256x256_S10000x256_1_0_0_1_n_n
/-- The edge-side product's dimension numbers. -/
abbrev dotE : DotDims S300000x256 S256x256 S300000x256 := dot_S300000x256_S256x256_S300000x256_1_0_0_1_n_n

theorem lhs_dotN_0 (i : S10000x256.Idx) (q : dot_S10000x256_S256x256_S10000x256_1_0_0_1_n_n.contr.Idx) :
    (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide),
    dif_pos (show (0 : Fin S10000x256.rank) ∈ dot_S10000x256_S256x256_S10000x256_1_0_0_1_n_n.lhsNonContracting by decide)]
  rfl
theorem lhs_dotN_1 (i : S10000x256.Idx) (q : dot_S10000x256_S256x256_S10000x256_1_0_0_1_n_n.contr.Idx) :
    (dot_S10000x256_S256x256_S10000x256_1_0_0_1_n_n.lhsIdx i q 1).val = (q ⟨0, by decide⟩).val :=
  dot_S10000x256_S256x256_S10000x256_1_0_0_1_n_n.lhsIdx_val_of_single rfl i q
theorem rhs_dotN_0 (i : S10000x256.Idx) (q : dot_S10000x256_S256x256_S10000x256_1_0_0_1_n_n.contr.Idx) :
    (dot_S10000x256_S256x256_S10000x256_1_0_0_1_n_n.rhsIdx i q 0).val = (q ⟨0, by decide⟩).val :=
  dot_S10000x256_S256x256_S10000x256_1_0_0_1_n_n.rhsIdx_val_of_single rfl i q
theorem rhs_dotN_1 (i : S10000x256.Idx) (q : dot_S10000x256_S256x256_S10000x256_1_0_0_1_n_n.contr.Idx) :
    (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide),
    dif_pos (show (1 : Fin S256x256.rank) ∈ dot_S10000x256_S256x256_S10000x256_1_0_0_1_n_n.rhsNonContracting by decide)]
  rfl

/-- The node-side product at row `r`, column `j`: the sum over the contracted axis. -/
theorem dotN_apply (x : FVec Ideal S10000x256 .f32) (w : FVec Ideal S256x256 .f32) (r : Fin 10000) (j : Fin 256) :
    Host.dotGeneral (F := Ideal) dot_S10000x256_S256x256_S10000x256_1_0_0_1_n_n none x w (ix2 r j)
      = ∑ k : Fin 256, x (ix2 r k) * w (ix2 k j) := by
  simp only [Host.dotGeneral]
  rw [Ideal.dotGeneral_apply, ← Equiv.sum_comp (contrEquiv1 dot_S10000x256_S256x256_S10000x256_1_0_0_1_n_n 256 rfl rfl).symm]
  refine Finset.sum_congr rfl fun k _ => ?_
  have hk := contrEquiv1_symm_val dot_S10000x256_S256x256_S10000x256_1_0_0_1_n_n 256 rfl rfl k
  have el : dot_S10000x256_S256x256_S10000x256_1_0_0_1_n_n.lhsIdx (ix2 r j)
      ((contrEquiv1 dot_S10000x256_S256x256_S10000x256_1_0_0_1_n_n 256 rfl rfl).symm k) = ix2 r k :=
    funext fun a => Fin.ext (by
      match a with
      | ⟨0, _⟩ => exact lhs_dotN_0 _ _
      | ⟨1, _⟩ => exact (lhs_dotN_1 _ _).trans hk)
  have er : dot_S10000x256_S256x256_S10000x256_1_0_0_1_n_n.rhsIdx (ix2 r j)
      ((contrEquiv1 dot_S10000x256_S256x256_S10000x256_1_0_0_1_n_n 256 rfl rfl).symm k) = ix2 k j :=
    funext fun a => Fin.ext (by
      match a with
      | ⟨0, _⟩ => exact (rhs_dotN_0 _ _).trans hk
      | ⟨1, _⟩ => exact rhs_dotN_1 _ _)
  rw [el, er]

theorem lhs_dotE_0 (i : S300000x256.Idx) (q : dot_S300000x256_S256x256_S300000x256_1_0_0_1_n_n.contr.Idx) :
    (dot_S300000x256_S256x256_S300000x256_1_0_0_1_n_n.lhsIdx i q 0).val = (i 0).val := by
  unfold DotDims.lhsIdx
  rw [dif_neg (show ¬(0 : Fin S300000x256.rank) ∈ dot_S300000x256_S256x256_S300000x256_1_0_0_1_n_n.lhsBatch by decide),
    dif_pos (show (0 : Fin S300000x256.rank) ∈ dot_S300000x256_S256x256_S300000x256_1_0_0_1_n_n.lhsNonContracting by decide)]
  rfl
theorem lhs_dotE_1 (i : S300000x256.Idx) (q : dot_S300000x256_S256x256_S300000x256_1_0_0_1_n_n.contr.Idx) :
    (dot_S300000x256_S256x256_S300000x256_1_0_0_1_n_n.lhsIdx i q 1).val = (q ⟨0, by decide⟩).val :=
  dot_S300000x256_S256x256_S300000x256_1_0_0_1_n_n.lhsIdx_val_of_single rfl i q
theorem rhs_dotE_0 (i : S300000x256.Idx) (q : dot_S300000x256_S256x256_S300000x256_1_0_0_1_n_n.contr.Idx) :
    (dot_S300000x256_S256x256_S300000x256_1_0_0_1_n_n.rhsIdx i q 0).val = (q ⟨0, by decide⟩).val :=
  dot_S300000x256_S256x256_S300000x256_1_0_0_1_n_n.rhsIdx_val_of_single rfl i q
theorem rhs_dotE_1 (i : S300000x256.Idx) (q : dot_S300000x256_S256x256_S300000x256_1_0_0_1_n_n.contr.Idx) :
    (dot_S300000x256_S256x256_S300000x256_1_0_0_1_n_n.rhsIdx i q 1).val = (i 1).val := by
  unfold DotDims.rhsIdx
  rw [dif_neg (show ¬(1 : Fin S256x256.rank) ∈ dot_S300000x256_S256x256_S300000x256_1_0_0_1_n_n.rhsBatch by decide),
    dif_pos (show (1 : Fin S256x256.rank) ∈ dot_S300000x256_S256x256_S300000x256_1_0_0_1_n_n.rhsNonContracting by decide)]
  rfl

/-- The edge-side product at row `q`, column `j`: the sum over the contracted axis. -/
theorem dotE_apply (x : FVec Ideal S300000x256 .f32) (w : FVec Ideal S256x256 .f32) (q : Fin 300000) (j : Fin 256) :
    Host.dotGeneral (F := Ideal) dot_S300000x256_S256x256_S300000x256_1_0_0_1_n_n none x w (ix2 q j)
      = ∑ k : Fin 256, x (ix2 q k) * w (ix2 k j) := by
  simp only [Host.dotGeneral]
  rw [Ideal.dotGeneral_apply, ← Equiv.sum_comp (contrEquiv1 dot_S300000x256_S256x256_S300000x256_1_0_0_1_n_n 256 rfl rfl).symm]
  refine Finset.sum_congr rfl fun k _ => ?_
  have hk := contrEquiv1_symm_val dot_S300000x256_S256x256_S300000x256_1_0_0_1_n_n 256 rfl rfl k
  have el : dot_S300000x256_S256x256_S300000x256_1_0_0_1_n_n.lhsIdx (ix2 q j)
      ((contrEquiv1 dot_S300000x256_S256x256_S300000x256_1_0_0_1_n_n 256 rfl rfl).symm k) = ix2 q k :=
    funext fun a => Fin.ext (by
      match a with
      | ⟨0, _⟩ => exact lhs_dotE_0 _ _
      | ⟨1, _⟩ => exact (lhs_dotE_1 _ _).trans hk)
  have er : dot_S300000x256_S256x256_S300000x256_1_0_0_1_n_n.rhsIdx (ix2 q j)
      ((contrEquiv1 dot_S300000x256_S256x256_S300000x256_1_0_0_1_n_n 256 rfl rfl).symm k) = ix2 k j :=
    funext fun a => Fin.ext (by
      match a with
      | ⟨0, _⟩ => exact (rhs_dotE_0 _ _).trans hk
      | ⟨1, _⟩ => exact rhs_dotE_1 _ _)
  rw [el, er]

/-- A bias row broadcast down `R` rows reads, at `(r, j)`, the bias at `j`. -/
theorem bias_apply {R : ℕ} (b : FVec Ideal S256 .f32) (h1 : S256.BroadcastsInDim S1x256 ![1])
    (h2 : S1x256.BroadcastsInDim (⟨2, ![R, 256]⟩ : Shape) ![0, 1]) (r : Fin R) (j : Fin 256) :
    broadcastInDim (⟨2, ![R, 256]⟩ : Shape) ![0, 1] h2 (broadcastInDim S1x256 ![1] h1 b) (ix2 r j) = b (ix1 j) := by
  rw [broadcastInDim_apply ![0, 1] h2 _ (ix2 r j) (ix2 (0 : Fin 1) j) (fun a => by
    match a with
    | ⟨0, _⟩ => rfl
    | ⟨1, _⟩ => rfl)]
  exact broadcastInDim_apply ![1] h1 b (ix2 (0 : Fin 1) j) (ix1 j) (fun a => by
    match a with
    | ⟨0, _⟩ => rfl)

/-- The node-side affine map at `(r, j)` is the layer's. -/
theorem linN_apply (x : FVec Ideal S10000x256 .f32) (w : FVec Ideal S256x256 .f32) (b : FVec Ideal S256 .f32)
    (ht : S256x256.Transposes [1, 0] S256x256) (h1 : S256.BroadcastsInDim S1x256 ![1])
    (h2 : S1x256.BroadcastsInDim S10000x256 ![0, 1]) (r : Fin 10000) (j : Fin 256) :
    addf (Host.dotGeneral (F := Ideal) dot_S10000x256_S256x256_S10000x256_1_0_0_1_n_n none x (transpose S256x256 [1, 0] w ht))
        (broadcastInDim S10000x256 ![0, 1] h2 (broadcastInDim S1x256 ![1] h1 b)) (ix2 r j)
      = Cert.Gcn.lin x w b r j := by
  rw [addf_apply, dotN_apply, bias_apply]
  unfold Cert.Gcn.lin
  congr 1
  refine Finset.sum_congr rfl fun k _ => ?_
  rw [transpose_ix2_apply]

/-- The edge-side affine map at `(q, j)` is the layer's. -/
theorem linE_apply (x : FVec Ideal S300000x256 .f32) (w : FVec Ideal S256x256 .f32) (b : FVec Ideal S256 .f32)
    (ht : S256x256.Transposes [1, 0] S256x256) (h1 : S256.BroadcastsInDim S1x256 ![1])
    (h2 : S1x256.BroadcastsInDim S300000x256 ![0, 1]) (q : Fin 300000) (j : Fin 256) :
    addf (Host.dotGeneral (F := Ideal) dot_S300000x256_S256x256_S300000x256_1_0_0_1_n_n none x (transpose S256x256 [1, 0] w ht))
        (broadcastInDim S300000x256 ![0, 1] h2 (broadcastInDim S1x256 ![1] h1 b)) (ix2 q j)
      = Cert.Gcn.lin x w b q j := by
  rw [addf_apply, dotE_apply, bias_apply]
  unfold Cert.Gcn.lin
  congr 1
  refine Finset.sum_congr rfl fun k _ => ?_
  rw [transpose_ix2_apply]

/-! ## The gate

One over one plus the exponential of the negated entry, spelt in the host's operations, is the logistic
function of the entry. -/

theorem gate_apply (e : FVec Ideal S300000x256 .f32) (hb : S_.BroadcastsInDim S300000x256 ![]) (i : S300000x256.Idx) :
    Host.divf (broadcastInDim S300000x256 ![] hb (constant (F := Ideal) S_ .f32 0x3F800000#32))
        (addf (broadcastInDim S300000x256 ![] hb (constant (F := Ideal) S_ .f32 0x3F800000#32)) (Host.exp (Host.negf e))) i
      = Ideal.logistic (e i) := by
  rw [hostDivf_apply, addf_apply, broadcastInDim_scalar_apply, constant_apply, Ideal.ofBits_one_f32]
  rfl

/-! ## The two rows of the edge list

Row `a` of the two-row index array, cut out and flattened, reads at `q` the array at `(a, q)`. -/

theorem row0_apply (ei : IVec S2x300000 32) (hs : S2x300000.Slices ![0, 0] S1x300000)
    (hc : S1x300000.ShapeCasts S300000) (q : Fin 300000) :
    shapeCast S300000 (extractStridedSlice S1x300000 ![0, 0] ei hs) hc (ix1 q) = ei (ix2 (0 : Fin 2) q) := by
  rw [shapeCast_1a_a_apply]
  exact slice2_axis0_apply 0 ei hs (0 : Fin 1) q (0 : Fin 2) rfl

theorem row1_apply (ei : IVec S2x300000 32) (hs : S2x300000.Slices ![1, 0] S1x300000)
    (hc : S1x300000.ShapeCasts S300000) (q : Fin 300000) :
    shapeCast S300000 (extractStridedSlice S1x300000 ![1, 0] ei hs) hc (ix1 q) = ei (ix2 (1 : Fin 2) q) := by
  rw [shapeCast_1a_a_apply]
  exact slice2_axis0_apply 1 ei hs (0 : Fin 1) q (1 : Fin 2) rfl

/-! ## A table row read at an index word

The gather reads, for edge `q` and column `j`, the table at the row named by the edge's start index,
read signed and clamped into the table, and at column `j`. The start index is the edge's index word,
shifted up by the table's height when negative. -/

/-- The gather at `(q, j)`: the table at the clamped start index of edge `q`, column `j`. -/
theorem gather_apply (tbl : S10000x256.Idx → EReal) (idx : IVec S300000x1 32) (q : Fin 300000) (j : Fin 256) :
    Host.gather gather_S10000x256_S300000x1_S300000x256_1_0_n_n_0_1_1256 tbl idx (ix2 q j)
      = tbl (ix2 (⟨min (idx (ix2 q (0 : Fin 1))).toInt.toNat 9999, by omega⟩ : Fin 10000) j) := by
  unfold Host.gather
  congr 1
  funext a
  refine Fin.ext ?_
  match a with
  | ⟨0, _⟩ =>
    show gather_S10000x256_S300000x1_S300000x256_1_0_n_n_0_1_1256.start (ix2 q j) idx 0
        + gather_S10000x256_S300000x1_S300000x256_1_0_n_n_0_1_1256.batchCoord (ix2 q j) 0
        + gather_S10000x256_S300000x1_S300000x256_1_0_n_n_0_1_1256.offCoord (ix2 q j) 0 = _
    rw [GatherDims.batchCoord_eq_zero _ _ _ (show (0 : Fin S10000x256.rank) ∉
        gather_S10000x256_S300000x1_S300000x256_1_0_n_n_0_1_1256.operandBatchingDims by decide),
      GatherDims.offCoord_eq_zero _ _ _ (fun h => ((GatherDims.mem_sKept _ _).mp h).1
        (show (0 : Fin S10000x256.rank) ∈ gather_S10000x256_S300000x1_S300000x256_1_0_n_n_0_1_1256.collapsedSliceDims by decide))]
    simp only [Nat.add_zero]
    unfold GatherDims.start
    rw [dif_pos (show (0 : Fin S10000x256.rank) ∈ gather_S10000x256_S300000x1_S300000x256_1_0_n_n_0_1_1256.startIndexMap by decide)]
    have hsi : gather_S10000x256_S300000x1_S300000x256_1_0_n_n_0_1_1256.siIdx (ix2 q j)
        ⟨List.idxOf (0 : Fin S10000x256.rank) gather_S10000x256_S300000x1_S300000x256_1_0_n_n_0_1_1256.startIndexMap,
          List.idxOf_lt_length_iff.2 (show (0 : Fin S10000x256.rank) ∈
            gather_S10000x256_S300000x1_S300000x256_1_0_n_n_0_1_1256.startIndexMap by decide)⟩ = ix2 q (0 : Fin 1) := by
      funext b; refine Fin.ext ?_
      match b with
      | ⟨0, _⟩ => rfl
      | ⟨1, _⟩ => rfl
    rw [hsi]
    rfl
  | ⟨1, _⟩ =>
    show gather_S10000x256_S300000x1_S300000x256_1_0_n_n_0_1_1256.start (ix2 q j) idx 1
        + gather_S10000x256_S300000x1_S300000x256_1_0_n_n_0_1_1256.batchCoord (ix2 q j) 1
        + gather_S10000x256_S300000x1_S300000x256_1_0_n_n_0_1_1256.offCoord (ix2 q j) 1 = _
    rw [GatherDims.batchCoord_eq_zero _ _ _ (show (1 : Fin S10000x256.rank) ∉
        gather_S10000x256_S300000x1_S300000x256_1_0_n_n_0_1_1256.operandBatchingDims by decide)]
    unfold GatherDims.start
    rw [dif_neg (show ¬(1 : Fin S10000x256.rank) ∈ gather_S10000x256_S300000x1_S300000x256_1_0_n_n_0_1_1256.startIndexMap by decide)]
    unfold GatherDims.offCoord
    rw [dif_pos (show (1 : Fin S10000x256.rank) ∈ gather_S10000x256_S300000x1_S300000x256_1_0_n_n_0_1_1256.sKept by decide)]
    simp only [Nat.zero_add]
    rfl

/-- The same, with the start index named. -/
theorem gather_apply_of_eq (tbl : S10000x256.Idx → EReal) (idx : IVec S300000x1 32) (q : Fin 300000) (j : Fin 256)
    (w : BitVec 32) (hw : idx (ix2 q (0 : Fin 1)) = w) :
    Host.gather gather_S10000x256_S300000x1_S300000x256_1_0_n_n_0_1_1256 tbl idx (ix2 q j)
      = tbl (ix2 (⟨min w.toInt.toNat 9999, by omega⟩ : Fin 10000) j) := by
  subst hw; exact gather_apply tbl idx q j

/-- Selecting the word plus 10000 where the word is negative is the shifted index word. -/
theorem start_word (v : BitVec 32) :
    Scalar.select (IntOp.cmpi .slt v 0#32) (IntOp.addi v 10000#32) v = Cert.Gcn.nrm v := by
  unfold Cert.Gcn.nrm Scalar.select IntOp.addi
  show (if BitVec.ofBool (v.slt 0#32) = 1 then v + 10000#32 else v) = _
  by_cases h : v.toInt < 0
  · have hs : v.slt 0#32 = true := BitVec.slt_iff_toInt_lt.mpr (by simpa using h)
    rw [if_pos h, hs]; rfl
  · have hs : v.slt 0#32 = false := by
      rw [Bool.eq_false_iff]; intro hh; exact h (by simpa using BitVec.slt_iff_toInt_lt.mp hh)
    rw [if_neg h, hs]; rfl

/-- The program's shifted index words, at an index. -/
theorem nrm_apply (v : IVec S300000 32) (hb : S_.BroadcastsInDim S300000 ![]) (i : S300000.Idx) :
    select (cmpi .slt v (broadcastInDim S300000 ![] hb (constantI S_ 32 0#32)))
        (addi v (broadcastInDim S300000 ![] hb (constantI S_ 32 10000#32))) v i = Cert.Gcn.nrm (v i) := by
  show Scalar.select (IntOp.cmpi .slt (v i) (broadcastInDim S300000 ![] hb (constantI S_ 32 0#32) i))
      (IntOp.addi (v i) (broadcastInDim S300000 ![] hb (constantI S_ 32 10000#32) i)) (v i) = _
  rw [broadcastInDim_scalar_apply, broadcastInDim_scalar_apply]
  exact start_word (v i)

/-- A table read through the program's start indices at `(q, j)` is the layer's clamped row read. -/
theorem take_apply (tbl : FVec Ideal S10000x256 .f32) (v : IVec S300000 32)
    (hb : S_.BroadcastsInDim S300000 ![]) (hq : S300000.BroadcastsInDim S300000x1 ![0]) (q : Fin 300000) (j : Fin 256) :
    Host.gather gather_S10000x256_S300000x1_S300000x256_1_0_n_n_0_1_1256 tbl
        (broadcastInDim S300000x1 ![0] hq
          (select (cmpi .slt v (broadcastInDim S300000 ![] hb (constantI S_ 32 0#32)))
            (addi v (broadcastInDim S300000 ![] hb (constantI S_ 32 10000#32))) v)) (ix2 q j)
      = Cert.Gcn.take false (fun r j => tbl (ix2 r j)) (v (ix1 q)) j := by
  have hidx : broadcastInDim S300000x1 ![0] hq
      (select (cmpi .slt v (broadcastInDim S300000 ![] hb (constantI S_ 32 0#32)))
        (addi v (broadcastInDim S300000 ![] hb (constantI S_ 32 10000#32))) v) (ix2 q (0 : Fin 1))
      = Cert.Gcn.nrm (v (ix1 q)) := by
    rw [broadcastInDim_apply ![0] hq _ (ix2 q (0 : Fin 1)) (ix1 q) (fun a => by
      match a with
      | ⟨0, _⟩ => rfl)]
    exact nrm_apply v hb (ix1 q)
  refine (gather_apply_of_eq tbl _ q j _ hidx).trans ?_
  unfold Cert.Gcn.take
  rw [if_neg (by simp)]
  rfl

/-! ## The aggregation

The accumulating scatter from the zero array, its indices the edge's index words laid out as a column, is
the layer's sum of messages onto nodes. -/

theorem agg_eq (v : IVec S300000 32) (upd : FVec Ideal S300000x256 .f32)
    (hb : S_.BroadcastsInDim S10000x256 ![]) (hq : S300000.BroadcastsInDim S300000x1 ![0]) :
    Host.scatterAdd (F := Ideal) scatter_S10000x256_S300000x1_S300000x256_1_0_0_1
        (broadcastInDim S10000x256 ![] hb (constant (F := Ideal) S_ .f32 0x00000000#32))
        (broadcastInDim S300000x1 ![0] hq v) upd
      = Ideal.hostScatterAdd Cert.Gcn.sdims (fun _ => 0) (fun i : S300000x1.Idx => v (ix1 (i 0))) upd := by
  have hx : broadcastInDim S10000x256 ![] hb (constant (F := Ideal) S_ .f32 0x00000000#32) = fun _ => (0 : EReal) := by
    funext i
    rw [broadcastInDim_scalar_apply, constant_apply, Ideal.ofBits_zero_f32]
  have hi : broadcastInDim S300000x1 ![0] hq v = fun i : S300000x1.Idx => v (ix1 (i 0)) := by
    funext i
    exact broadcastInDim_apply ![0] hq v i (ix1 (i 0)) (fun a => by
      match a with
      | ⟨0, _⟩ => rfl)
  have hd : scatter_S10000x256_S300000x1_S300000x256_1_0_0_1 = Cert.Gcn.sdims := rfl
  rw [hx, hi, hd]
  rfl

/-! ## The two pre-activations as terms over arbitrary arrays

Each is the program's own chain of operations from the arrays it reads, stated over variables: once
those arrays are known to be the layer's maps and index words, the chain's value at an index is the
layer's pre-activation. -/

/-- Messages: the gate times the neighbour's table row, for every edge and column. -/
theorem msg_eq (x : Cert.Gcn.Inputs) (ae : FVec Ideal S300000x256 .f32) (a13 : FVec Ideal S10000x256 .f32)
    (v3 : IVec S300000 32)
    (he : ∀ q j, ae (ix2 q j) = x.e (ix2 q j)) (h13 : ∀ r j, a13 (ix2 r j) = Cert.Gcn.Vh x r j)
    (h3 : ∀ q, v3 (ix1 q) = Cert.Gcn.dst x q)
    (hbe : S_.BroadcastsInDim S300000x256 ![]) (hb : S_.BroadcastsInDim S300000 ![])
    (hq : S300000.BroadcastsInDim S300000x1 ![0]) :
    mulf
        (Host.divf (broadcastInDim S300000x256 ![] hbe (constant (F := Ideal) S_ .f32 0x3F800000#32))
          (addf (broadcastInDim S300000x256 ![] hbe (constant (F := Ideal) S_ .f32 0x3F800000#32)) (Host.exp (Host.negf ae))))
        (Host.gather gather_S10000x256_S300000x1_S300000x256_1_0_n_n_0_1_1256 a13
          (broadcastInDim S300000x1 ![0] hq
            (select (cmpi .slt v3 (broadcastInDim S300000 ![] hb (constantI S_ 32 0#32)))
              (addi v3 (broadcastInDim S300000 ![] hb (constantI S_ 32 10000#32))) v3)))
      = fun i : Cert.Gcn.SE.Idx => Cert.Gcn.msg false x (i 0) (i 1) := by
  funext i
  obtain ⟨q, j, rfl⟩ : ∃ (q : Fin 300000) (j : Fin 256), i = ix2 q j := ⟨i 0, i 1, eq_ix2 i⟩
  rw [mulf_apply, gate_apply, take_apply, he q j, h3 q]
  have ht : (fun r j => a13 (ix2 r j)) = Cert.Gcn.Vh x := funext fun r => funext fun j => h13 r j
  rw [ht]
  rfl

/-- The node pre-activation's chain at `(r, j)`. -/
theorem npre_term (x : Cert.Gcn.Inputs) (a8 a13 : FVec Ideal S10000x256 .f32) (ae : FVec Ideal S300000x256 .f32)
    (v1 v3 : IVec S300000 32)
    (h8 : ∀ r j, a8 (ix2 r j) = Cert.Gcn.Uh x r j) (h13 : ∀ r j, a13 (ix2 r j) = Cert.Gcn.Vh x r j)
    (he : ∀ q j, ae (ix2 q j) = x.e (ix2 q j))
    (h1 : ∀ q, v1 (ix1 q) = Cert.Gcn.src x q) (h3 : ∀ q, v3 (ix1 q) = Cert.Gcn.dst x q)
    (hbe : S_.BroadcastsInDim S300000x256 ![]) (hb : S_.BroadcastsInDim S300000 ![])
    (hq : S300000.BroadcastsInDim S300000x1 ![0]) (hbn : S_.BroadcastsInDim S10000x256 ![])
    (r : Fin 10000) (j : Fin 256) :
    addf a8
        (Host.scatterAdd (F := Ideal) scatter_S10000x256_S300000x1_S300000x256_1_0_0_1
          (broadcastInDim S10000x256 ![] hbn (constant (F := Ideal) S_ .f32 0x00000000#32))
          (broadcastInDim S300000x1 ![0] hq v1)
          (mulf
            (Host.divf (broadcastInDim S300000x256 ![] hbe (constant (F := Ideal) S_ .f32 0x3F800000#32))
              (addf (broadcastInDim S300000x256 ![] hbe (constant (F := Ideal) S_ .f32 0x3F800000#32)) (Host.exp (Host.negf ae))))
            (Host.gather gather_S10000x256_S300000x1_S300000x256_1_0_n_n_0_1_1256 a13
              (broadcastInDim S300000x1 ![0] hq
                (select (cmpi .slt v3 (broadcastInDim S300000 ![] hb (constantI S_ 32 0#32)))
                  (addi v3 (broadcastInDim S300000 ![] hb (constantI S_ 32 10000#32))) v3))))) (ix2 r j)
      = Cert.Gcn.npre false x r j := by
  rw [addf_apply, h8 r j, agg_eq, msg_eq x ae a13 v3 he h13 h3]
  have hi : (fun i : S300000x1.Idx => v1 (ix1 (i 0))) = fun i : Cert.Gcn.SQ.Idx => Cert.Gcn.src x (i 0) :=
    funext fun i => h1 (i 0)
  rw [hi]
  rfl

/-- The edge pre-activation's chain at `(q, j)`. -/
theorem epre_term (x : Cert.Gcn.Inputs) (a18 : FVec Ideal S300000x256 .f32) (a23 a28 : FVec Ideal S10000x256 .f32)
    (v1 v3 : IVec S300000 32)
    (h18 : ∀ q j, a18 (ix2 q j) = Cert.Gcn.Ae x q j) (h23 : ∀ r j, a23 (ix2 r j) = Cert.Gcn.Bh x r j)
    (h28 : ∀ r j, a28 (ix2 r j) = Cert.Gcn.Ch x r j)
    (h1 : ∀ q, v1 (ix1 q) = Cert.Gcn.src x q) (h3 : ∀ q, v3 (ix1 q) = Cert.Gcn.dst x q)
    (hb : S_.BroadcastsInDim S300000 ![]) (hq : S300000.BroadcastsInDim S300000x1 ![0])
    (q : Fin 300000) (j : Fin 256) :
    addf
        (addf a18
          (Host.gather gather_S10000x256_S300000x1_S300000x256_1_0_n_n_0_1_1256 a23
            (broadcastInDim S300000x1 ![0] hq
              (select (cmpi .slt v1 (broadcastInDim S300000 ![] hb (constantI S_ 32 0#32)))
                (addi v1 (broadcastInDim S300000 ![] hb (constantI S_ 32 10000#32))) v1))))
        (Host.gather gather_S10000x256_S300000x1_S300000x256_1_0_n_n_0_1_1256 a28
          (broadcastInDim S300000x1 ![0] hq
            (select (cmpi .slt v3 (broadcastInDim S300000 ![] hb (constantI S_ 32 0#32)))
              (addi v3 (broadcastInDim S300000 ![] hb (constantI S_ 32 10000#32))) v3))) (ix2 q j)
      = Cert.Gcn.epre false x q j := by
  rw [addf_apply, addf_apply, take_apply, take_apply, h18 q j, h1 q, h3 q]
  unfold Cert.Gcn.epre
  have hB : (fun r j => a23 (ix2 r j)) = Cert.Gcn.Bh x := funext fun r => funext fun j => h23 r j
  have hC : (fun r j => a28 (ix2 r j)) = Cert.Gcn.Ch x := funext fun r => funext fun j => h28 r j
  rw [hB, hC]

/-! ## Along the program's operations

The program's operations are taken chunk by chunk. For an arbitrary valuation before a chunk, the chunk's
results are its operations' terms over that valuation; a buffer the chunk does not write keeps its
contents. -/

open Cert.Gcn (rd rdi)

/-- A buffer that is not among the ones a line of operations writes keeps its contents. -/
theorem after_of_not_written {Val : EltTy → Type} (l : List (HloOp τ sig Val)) (wr : List (Ref sig .tc))
    (hw : l.map HloOp.writes = wr.map fun y => ({Proc.devRef (τ := τ) .tc y} : Finset (DevRef τ sig)))
    (V : Valuation τ sig Val) (a : Ref sig .tc) (ha : a ∉ wr) :
    StableHlo.after l V (Proc.devRef .tc a) = V (Proc.devRef .tc a) := by
  refine StableHlo.after_of_forall_not_mem l V fun op hop hmem => ?_
  have h : op.writes ∈ l.map HloOp.writes := List.mem_map.mpr ⟨op, hop, rfl⟩
  rw [hw] at h
  obtain ⟨y, hy, hyw⟩ := List.mem_map.mp h
  rw [← hyw, Finset.mem_singleton] at hmem
  exact ha (Proc.devRef_injective _ hmem ▸ hy)

/-- The seventeen arguments' buffers. -/
abbrev argRefs : List (Ref sig .tc) :=
  [main_arg0, main_arg1, main_arg2, main_arg3, main_arg4, main_arg5, main_arg6, main_arg7, main_arg8, main_arg9,
    main_arg10, main_arg11, main_arg12, main_arg13, main_arg14, main_arg15, main_arg16]

/-- The buffers read again after the first chunk: the arguments, the two rows of index words, and the three
    maps the edge side reads. -/
abbrev keptRefs : List (Ref sig .tc) :=
  [main_arg0, main_arg1, main_arg2, main_arg3, main_arg4, main_arg5, main_arg6, main_arg7, main_arg8, main_arg9,
    main_arg10, main_arg11, main_arg12, main_arg13, main_arg14, main_arg15, main_arg16,
    main_v1, main_v3, main_v18, main_v23, main_v28]

section Chunks

variable (W : Valuation τ sig (Elt Ideal))

theorem ops0_keeps (a : Ref sig .tc) (ha : a ∈ argRefs) :
    StableHlo.after (ops0 (F := Ideal)) W (Proc.devRef .tc a) = W (Proc.devRef .tc a) :=
  after_of_not_written _ written0 ops0_writes W a ((by decide : ∀ a ∈ argRefs, a ∉ written0) a ha)

theorem ops1_keeps (a : Ref sig .tc) (ha : a ∈ keptRefs) :
    StableHlo.after (ops1 (F := Ideal)) W (Proc.devRef .tc a) = W (Proc.devRef .tc a) :=
  after_of_not_written _ written1 ops1_writes W a ((by decide : ∀ a ∈ keptRefs, a ∉ written1) a ha)

theorem ops2_keeps (a : Ref sig .tc) (ha : a ∈ keptRefs) :
    StableHlo.after (ops2 (F := Ideal)) W (Proc.devRef .tc a) = W (Proc.devRef .tc a) :=
  after_of_not_written _ written2 ops2_writes W a ((by decide : ∀ a ∈ keptRefs, a ∉ written2) a ha)

theorem ops3_keeps (a : Ref sig .tc) (ha : a ∈ keptRefs) :
    StableHlo.after (ops3 (F := Ideal)) W (Proc.devRef .tc a) = W (Proc.devRef .tc a) :=
  after_of_not_written _ written3 ops3_writes W a ((by decide : ∀ a ∈ keptRefs, a ∉ written3) a ha)

/-! ### The first chunk: the two rows of index words and the five affine maps -/

theorem ops0_v1 (q : Fin 300000) :
    rdi (S := S300000) (StableHlo.after (ops0 (F := Ideal)) W (Proc.devRef .tc main_v1)) (ix1 q)
      = rdi (S := S2x300000) (W (Proc.devRef .tc main_arg2)) (ix2 (0 : Fin 2) q) := by
  after_results_simp
  exact row0_apply _ _ _ q

theorem ops0_v3 (q : Fin 300000) :
    rdi (S := S300000) (StableHlo.after (ops0 (F := Ideal)) W (Proc.devRef .tc main_v3)) (ix1 q)
      = rdi (S := S2x300000) (W (Proc.devRef .tc main_arg2)) (ix2 (1 : Fin 2) q) := by
  after_results_simp
  exact row1_apply _ _ _ q

theorem ops0_v8 (r : Fin 10000) (j : Fin 256) :
    rd (S := S10000x256) (StableHlo.after (ops0 (F := Ideal)) W (Proc.devRef .tc main_v8)) (ix2 r j)
      = Cert.Gcn.lin (rd (S := S10000x256) (W (Proc.devRef .tc main_arg0))) (rd (S := S256x256) (W (Proc.devRef .tc main_arg3)))
          (rd (S := S256) (W (Proc.devRef .tc main_arg4))) r j := by
  after_results_simp
  exact linN_apply _ _ _ _ _ _ r j

theorem ops0_v13 (r : Fin 10000) (j : Fin 256) :
    rd (S := S10000x256) (StableHlo.after (ops0 (F := Ideal)) W (Proc.devRef .tc main_v13)) (ix2 r j)
      = Cert.Gcn.lin (rd (S := S10000x256) (W (Proc.devRef .tc main_arg0))) (rd (S := S256x256) (W (Proc.devRef .tc main_arg5)))
          (rd (S := S256) (W (Proc.devRef .tc main_arg6))) r j := by
  after_results_simp
  exact linN_apply _ _ _ _ _ _ r j

theorem ops0_v18 (q : Fin 300000) (j : Fin 256) :
    rd (S := S300000x256) (StableHlo.after (ops0 (F := Ideal)) W (Proc.devRef .tc main_v18)) (ix2 q j)
      = Cert.Gcn.lin (rd (S := S300000x256) (W (Proc.devRef .tc main_arg1))) (rd (S := S256x256) (W (Proc.devRef .tc main_arg7)))
          (rd (S := S256) (W (Proc.devRef .tc main_arg8))) q j := by
  after_results_simp
  exact linE_apply _ _ _ _ _ _ q j

theorem ops0_v23 (r : Fin 10000) (j : Fin 256) :
    rd (S := S10000x256) (StableHlo.after (ops0 (F := Ideal)) W (Proc.devRef .tc main_v23)) (ix2 r j)
      = Cert.Gcn.lin (rd (S := S10000x256) (W (Proc.devRef .tc main_arg0))) (rd (S := S256x256) (W (Proc.devRef .tc main_arg9)))
          (rd (S := S256) (W (Proc.devRef .tc main_arg10))) r j := by
  after_results_simp
  exact linN_apply _ _ _ _ _ _ r j

theorem ops0_v28 (r : Fin 10000) (j : Fin 256) :
    rd (S := S10000x256) (StableHlo.after (ops0 (F := Ideal)) W (Proc.devRef .tc main_v28)) (ix2 r j)
      = Cert.Gcn.lin (rd (S := S10000x256) (W (Proc.devRef .tc main_arg0))) (rd (S := S256x256) (W (Proc.devRef .tc main_arg11)))
          (rd (S := S256) (W (Proc.devRef .tc main_arg12))) r j := by
  after_results_simp
  exact linN_apply _ _ _ _ _ _ r j

/-! ### The second chunk: the node pre-activation -/

theorem ops1_v46 (x : Cert.Gcn.Inputs)
    (h8 : ∀ r j, rd (S := S10000x256) (W (Proc.devRef .tc main_v8)) (ix2 r j) = Cert.Gcn.Uh x r j)
    (h13 : ∀ r j, rd (S := S10000x256) (W (Proc.devRef .tc main_v13)) (ix2 r j) = Cert.Gcn.Vh x r j)
    (he : ∀ q j, rd (S := S300000x256) (W (Proc.devRef .tc main_arg1)) (ix2 q j) = x.e (ix2 q j))
    (h1 : ∀ q, rdi (S := S300000) (W (Proc.devRef .tc main_v1)) (ix1 q) = Cert.Gcn.src x q)
    (h3 : ∀ q, rdi (S := S300000) (W (Proc.devRef .tc main_v3)) (ix1 q) = Cert.Gcn.dst x q)
    (r : Fin 10000) (j : Fin 256) :
    rd (S := S10000x256) (StableHlo.after (ops1 (F := Ideal)) W (Proc.devRef .tc main_v46)) (ix2 r j)
      = Cert.Gcn.npre false x r j := by
  after_results_simp
  exact npre_term x _ _ _ _ _ h8 h13 he h1 h3 _ _ _ _ r j

/-! ### The fourth chunk: the edge pre-activation -/

theorem ops3_v82 (x : Cert.Gcn.Inputs)
    (h18 : ∀ q j, rd (S := S300000x256) (W (Proc.devRef .tc main_v18)) (ix2 q j) = Cert.Gcn.Ae x q j)
    (h23 : ∀ r j, rd (S := S10000x256) (W (Proc.devRef .tc main_v23)) (ix2 r j) = Cert.Gcn.Bh x r j)
    (h28 : ∀ r j, rd (S := S10000x256) (W (Proc.devRef .tc main_v28)) (ix2 r j) = Cert.Gcn.Ch x r j)
    (h1 : ∀ q, rdi (S := S300000) (W (Proc.devRef .tc main_v1)) (ix1 q) = Cert.Gcn.src x q)
    (h3 : ∀ q, rdi (S := S300000) (W (Proc.devRef .tc main_v3)) (ix1 q) = Cert.Gcn.dst x q)
    (q : Fin 300000) (j : Fin 256) :
    rd (S := S300000x256) (StableHlo.after (ops3 (F := Ideal)) W (Proc.devRef .tc main_v82)) (ix2 q j)
      = Cert.Gcn.epre false x q j := by
  after_results_simp
  exact epre_term x _ _ _ _ _ h18 h23 h28 h1 h3 _ _ q j

end Chunks

/-! ## The two pre-activations and the arguments, from the launch memory -/

section Final

variable (m : (ℓ : Loc nD τ sig) → Buf (Elt Ideal) ℓ) (c : Dev nD)

/-- After the first chunk the arguments' buffers hold the launch memory. -/
theorem after0_arg (a : Ref sig .tc) (ha : a ∈ argRefs) :
    StableHlo.after (ops0 (F := Ideal)) (StableHlo.launchContents m c) (Proc.devRef .tc a)
      = m ((c.tc : Thread nD τ).loc a) :=
  ops0_keeps _ a ha

/-- No operation of the first two chunks writes an argument. -/
theorem ref_arg01 (a : Ref sig .tc) (ha : a ∈ argRefs) :
    StableHlo.after (ops0 (F := Ideal) ++ ops1) (StableHlo.launchContents m c) (Proc.devRef .tc a)
      = m ((c.tc : Thread nD τ).loc a) := by
  rw [StableHlo.after_append,
    ops1_keeps _ a ((by decide : ∀ a ∈ argRefs, a ∈ keptRefs) a ha)]
  exact after0_arg m c a ha

/-- No operation of the first four chunks writes an argument. -/
theorem ref_arg0123 (a : Ref sig .tc) (ha : a ∈ argRefs) :
    StableHlo.after (ops0 (F := Ideal) ++ ops1 ++ ops2 ++ ops3) (StableHlo.launchContents m c) (Proc.devRef .tc a)
      = m ((c.tc : Thread nD τ).loc a) := by
  have hk : a ∈ keptRefs := (by decide : ∀ a ∈ argRefs, a ∈ keptRefs) a ha
  rw [StableHlo.after_append, StableHlo.after_append, StableHlo.after_append,
    ops3_keeps _ a hk, ops2_keeps _ a hk, ops1_keeps _ a hk]
  exact after0_arg m c a ha

/-- After the first two chunks the node pre-activation's buffer holds the layer's, in the clamped spelling. -/
theorem ref_npre (r : Fin 10000) (j : Fin 256) :
    rd (S := S10000x256)
        (StableHlo.after (ops0 (F := Ideal) ++ ops1) (StableHlo.launchContents m c) (Proc.devRef .tc main_v46)) (ix2 r j)
      = Cert.Gcn.npre false (rin m c) r j := by
  rw [StableHlo.after_append]
  refine ops1_v46 _ (rin m c) (fun r j => ?_) (fun r j => ?_) (fun q j => ?_) (fun q => ?_) (fun q => ?_) r j
  · exact ops0_v8 _ r j
  · exact ops0_v13 _ r j
  · rw [after0_arg m c main_arg1 (by decide)]; rfl
  · exact ops0_v1 _ q
  · exact ops0_v3 _ q

/-- After the first four chunks the edge pre-activation's buffer holds the layer's, in the clamped spelling. -/
theorem ref_epre (q : Fin 300000) (j : Fin 256) :
    rd (S := S300000x256)
        (StableHlo.after (ops0 (F := Ideal) ++ ops1 ++ ops2 ++ ops3) (StableHlo.launchContents m c) (Proc.devRef .tc main_v82)) (ix2 q j)
      = Cert.Gcn.epre false (rin m c) q j := by
  rw [StableHlo.after_append, StableHlo.after_append, StableHlo.after_append]
  refine ops3_v82 _ (rin m c) (fun q j => ?_) (fun r j => ?_) (fun r j => ?_) (fun q => ?_) (fun q => ?_) q j
  · rw [ops2_keeps _ main_v18 (by decide), ops1_keeps _ main_v18 (by decide)]; exact ops0_v18 _ q j
  · rw [ops2_keeps _ main_v23 (by decide), ops1_keeps _ main_v23 (by decide)]; exact ops0_v23 _ r j
  · rw [ops2_keeps _ main_v28 (by decide), ops1_keeps _ main_v28 (by decide)]; exact ops0_v28 _ r j
  · rw [ops2_keeps _ main_v1 (by decide), ops1_keeps _ main_v1 (by decide)]; exact ops0_v1 _ q
  · rw [ops2_keeps _ main_v3 (by decide), ops1_keeps _ main_v3 (by decide)]; exact ops0_v3 _ q

end Final

end Cert.ReferenceIdeal.Hand

end
-- ==== Proof.RTail.lean ====
/- The reference's two normalisation tails.

   After the node pre-activation (10000 rows of 256) and after the edge pre-activation (300000 rows of 256)
   the reference program does the same thing: it takes each column's mean over the whole batch, each
   column's mean squared deviation from that mean (spelt through an outlined variance function that
   recomputes the mean, divides by "batch size minus zero" and guards the quotient by the test "divisor
   above zero"), subtracts the mean, multiplies by the reciprocal square root of variance plus a small
   constant, scales and shifts by two rows of 256 parameters, clamps at zero and adds the layer's input.

   First the whole tail is written once as a pure term over variable arrays, for any number of rows, and read
   at an entry: the column sums are sums over the rows, a row copied down the batch reads the row, the
   zero correction vanishes, the guard is true because the batch size is a positive real. That is the
   specification's batch normalisation in its mean-of-squared-deviations spelling.
   Then the program's operations from the pre-activation to the result are folded over any valuation:
   the result buffer holds exactly that term of the pre-activation, the input and the two parameter rows. -/
import proofs.«421314_j74577812128000_1_alg».proof.ReferenceIdeal
import proofs.«421314_j74577812128000_1_alg».proof.Proof.Gen.ReferenceIdeal
import proofs.«421314_j74577812128000_1_alg».proof.Proof.Spec
import proofs.«421314_j74577812128000_1_alg».proof.Proof.SpecLaws
import proofs.«421314_j74577812128000_1_alg».proof.Proof.Rd
import proofs.«421314_j74577812128000_1_alg».proof.Proof.ROps
import Idealize.ShloMosaic.Lib.StableHlo.Run
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.Hand

open Idealize.ShloMosaic Idealize.SL.Sem Cert.ReferenceIdeal Idealize.ShloMosaic.ValueIdx
open scoped BigOperators

/-! ## The normalisation tail as one pure term over variable arrays

The batch has `R` rows of 256 columns; `cw` is the word of the batch size. Every shape fact the
operations cite is a hypothesis, so the terms below are the program's own whatever proof it cites. -/

section Tail

variable {R : ℕ}
  (hr' : (⟨2, ![R, 256]⟩ : Shape).ReducesTo [0] S256)
  (hr : (⟨2, ![R, 256]⟩ : Shape).Reduces [0] S256)
  (h0 : 0 < S_.numel)
  (hv : S256.BroadcastsInDim S1x256 (![1] : Fin 1 → Fin S1x256.rank))
  (hs1 : S_.BroadcastsInDim S1x256 (![] : Fin 0 → Fin S1x256.rank))
  (hb : S1x256.BroadcastsInDim (⟨2, ![R, 256]⟩ : Shape) (![0, 1] : Fin 2 → Fin (⟨2, ![R, 256]⟩ : Shape).rank))
  (hsR : S_.BroadcastsInDim (⟨2, ![R, 256]⟩ : Shape) (![] : Fin 0 → Fin (⟨2, ![R, 256]⟩ : Shape).rank))

include hr in
/-- The column sums of a batch of rows: the reduction from a zero start, read at a column. -/
theorem colSum_apply (x : FVec Ideal ⟨2, ![R, 256]⟩ .f32) (j : Fin 256) :
    Host.reduceAdd (F := Ideal) x (constant S_ .f32 0x00000000#32) hr' h0 (ix1 j)
      = ∑ r : Fin R, x (ix2 r j) := by
  rw [hostReduceAdd_apply, Ideal.hostReduceAdd_single hr' hr, constant_apply, Ideal.ofBits_zero_f32, zero_add]
  refine Finset.sum_congr rfl fun k _ => congrArg x ?_
  funext c
  match c with
  | ⟨0, _⟩ => exact Fin.ext rfl
  | ⟨1, _⟩ => exact Fin.ext rfl

/-- A vector of 256 entries laid out as one row reads its entry. -/
theorem rowOfVec_apply {α : Type} (v : S256.Idx → α) (i : Fin 1) (j : Fin 256) :
    broadcastInDim S1x256 ![1] hv v (ix2 i j) = v (ix1 j) :=
  broadcastInDim_apply _ hv v (ix2 i j) (ix1 j) (fun a => match a with | ⟨0, _⟩ => rfl)

/-- One row copied down the batch reads the row. -/
theorem downRows_apply {α : Type} (v : S1x256.Idx → α) (r : Fin R) (j : Fin 256) :
    broadcastInDim (⟨2, ![R, 256]⟩ : Shape) ![0, 1] hb v (ix2 r j) = v (ix2 0 j) :=
  broadcastInDim_apply _ hb v (ix2 r j) (ix2 0 j) (fun a => match a with | ⟨0, _⟩ => rfl | ⟨1, _⟩ => rfl)

/-- The row of column means: column sums over the batch size. -/
def meanRow (cw : BitVec 32) (x : FVec Ideal ⟨2, ![R, 256]⟩ .f32) : FVec Ideal S1x256 .f32 :=
  Host.divf (broadcastInDim S1x256 ![1] hv (Host.reduceAdd x (constant S_ .f32 0x00000000#32) hr' h0))
    (broadcastInDim S1x256 ![] hs1 (constant S_ .f32 cw))

include hr in
theorem meanRow_apply (cw : BitVec 32) (x : FVec Ideal ⟨2, ![R, 256]⟩ .f32) (j : Fin 256) :
    meanRow hr' h0 hv hs1 cw x (ix2 0 j)
      = Cert.Gcn.mean (Ideal.ofBits .f32 cw) (fun r j => x (ix2 r j)) j := by
  unfold meanRow Cert.Gcn.mean
  rw [hostDivf_apply, rowOfVec_apply, colSum_apply hr' hr h0, broadcastInDim_scalar_apply, constant_apply]

/-- The deviations from the column means. -/
def dev (cw : BitVec 32) (x : FVec Ideal ⟨2, ![R, 256]⟩ .f32) : FVec Ideal ⟨2, ![R, 256]⟩ .f32 :=
  subf x (broadcastInDim (⟨2, ![R, 256]⟩ : Shape) ![0, 1] hb (meanRow hr' h0 hv hs1 cw x))

include hr in
theorem dev_apply (cw : BitVec 32) (x : FVec Ideal ⟨2, ![R, 256]⟩ .f32) (r : Fin R) (j : Fin 256) :
    dev hr' h0 hv hs1 hb cw x (ix2 r j)
      = x (ix2 r j) - Cert.Gcn.mean (Ideal.ofBits .f32 cw) (fun r j => x (ix2 r j)) j := by
  unfold dev
  rw [subf_apply, downRows_apply, meanRow_apply hr' hr]

/-- The variance's divisor: the batch size less a zero correction, as the program spells it. -/
def divisor (cw : BitVec 32) : FVec Ideal S_ .f32 :=
  subf (constant S_ .f32 cw) (sitofp .f32 (constantI S_ 32 0#32))

theorem divisor_apply (cw : BitVec 32) : divisor cw ix0 = Ideal.ofBits .f32 cw := by
  unfold divisor
  rw [subf_apply, sitofp_apply, constant_apply]
  show Ideal.ofBits .f32 cw - (((0#32 : BitVec 32).toInt : ℝ) : EReal) = _
  simp

/-- The row of column variances: mean squared deviation, behind a guard on the divisor's sign. -/
def varRow (cw : BitVec 32) (x : FVec Ideal ⟨2, ![R, 256]⟩ .f32) : FVec Ideal S1x256 .f32 :=
  select (broadcastInDim S1x256 ![] hs1 (cmpf .ogt (divisor cw) (constant S_ .f32 0x00000000#32)))
    (Host.divf
      (broadcastInDim S1x256 ![1] hv
        (Host.reduceAdd (mulf (dev hr' h0 hv hs1 hb cw x) (dev hr' h0 hv hs1 hb cw x)) (constant S_ .f32 0x00000000#32) hr' h0))
      (broadcastInDim S1x256 ![] hs1 (divisor cw)))
    (broadcastInDim S1x256 ![] hs1 (id (constant S_ .f32 0x7FC00000#32)))

include hr in
theorem varRow_apply (cw : BitVec 32) (c : ℝ) (hc : Ideal.ofBits .f32 cw = ((c : ℝ) : EReal)) (hpos : 0 < c)
    (x : FVec Ideal ⟨2, ![R, 256]⟩ .f32) (j : Fin 256) :
    varRow hr' h0 hv hs1 hb cw x (ix2 0 j)
      = Cert.Gcn.var false (Ideal.ofBits .f32 cw) (fun r j => x (ix2 r j)) j := by
  have hg : (broadcastInDim S1x256 ![] hs1 (cmpf .ogt (divisor cw) (constant S_ .f32 0x00000000#32))) (ix2 0 j) = 1#1 := by
    rw [broadcastInDim_scalar_apply, cmpf_apply, Ideal.cmpf_def, divisor_apply, constant_apply, Ideal.ofBits_zero_f32, hc]
    unfold Ideal.cmp
    simp [hpos]
  unfold varRow Cert.Gcn.var
  rw [select_apply, hg, select_one, hostDivf_apply, rowOfVec_apply, colSum_apply hr' hr h0, broadcastInDim_scalar_apply,
    divisor_apply]
  simp only [mulf_apply, dev_apply hr' hr]
  rfl

/-- The reciprocal square root of a row reads entry by entry. -/
theorem hostRsqrt_apply {s : Shape} (v : FVec Ideal s .f32) (i : s.Idx) : Host.rsqrt v i = Ideal.rsqrt (v i) := rfl

/-- The whole tail: normalise by the column statistics, scale, shift, clamp at zero, add the residual rows. -/
def tailTerm (cw : BitVec 32) (x h : FVec Ideal ⟨2, ![R, 256]⟩ .f32) (g b : FVec Ideal S256 .f32) :
    FVec Ideal ⟨2, ![R, 256]⟩ .f32 :=
  addf h
    (maximumf
      (addf
        (mulf
          (mulf (dev hr' h0 hv hs1 hb cw x)
            (broadcastInDim (⟨2, ![R, 256]⟩ : Shape) ![0, 1] hb
              (Host.rsqrt (addf (varRow hr' h0 hv hs1 hb cw x) (broadcastInDim S1x256 ![] hs1 (constant S_ .f32 0x3727C5AC#32))))))
          (broadcastInDim (⟨2, ![R, 256]⟩ : Shape) ![0, 1] hb (broadcastInDim S1x256 ![1] hv g)))
        (broadcastInDim (⟨2, ![R, 256]⟩ : Shape) ![0, 1] hb (broadcastInDim S1x256 ![1] hv b)))
      (broadcastInDim (⟨2, ![R, 256]⟩ : Shape) ![] hsR (constant S_ .f32 0x00000000#32)))

include hr in
theorem tailTerm_apply (cw : BitVec 32) (c : ℝ) (hc : Ideal.ofBits .f32 cw = ((c : ℝ) : EReal)) (hpos : 0 < c)
    (x h : FVec Ideal ⟨2, ![R, 256]⟩ .f32) (g b : FVec Ideal S256 .f32) (r : Fin R) (j : Fin 256) :
    tailTerm hr' h0 hv hs1 hb hsR cw x h g b (ix2 r j)
      = Cert.Gcn.bn false (Ideal.ofBits .f32 cw) (fun r j => x (ix2 r j)) g b (fun r j => h (ix2 r j)) r j := by
  unfold tailTerm Cert.Gcn.bn
  rw [addf_apply, maximumf_apply, addf_apply, mulf_apply, mulf_apply, dev_apply hr' hr, downRows_apply, downRows_apply,
    downRows_apply, rowOfVec_apply, rowOfVec_apply, broadcastInDim_scalar_apply, constant_apply, Ideal.ofBits_zero_f32]
  rw [hostRsqrt_apply, addf_apply, varRow_apply hr' hr h0 hv hs1 hb cw c hc hpos, broadcastInDim_scalar_apply, constant_apply]
  rfl

end Tail

/-! ## The program's operations folded over a valuation -/

section Chunk

open Facts₀ Facts

/-- After the node side's operations the first result's buffer holds the tail term of the node pre-activation,
    the node input and the two node parameter rows, whatever the valuation before them. -/
theorem node_term (W : Valuation τ sig (Elt Ideal)) :
    Cert.Gcn.rd (S := S10000x256) (StableHlo.after ops2 W (Proc.devRef .tc main_v66))
      = tailTerm reducesTo_S10000x256_S256_d0 h_S_ bcast_S256_S1x256_1 bcast_S_S1x256 bcast_S1x256_S10000x256_0_1
          bcast_S_S10000x256 0x461C4000#32
          (Cert.Gcn.rd (S := S10000x256) (W (Proc.devRef .tc main_v46)))
          (Cert.Gcn.rd (S := S10000x256) (W (Proc.devRef .tc main_arg0)))
          (Cert.Gcn.rd (S := S256) (W (Proc.devRef .tc main_arg13)))
          (Cert.Gcn.rd (S := S256) (W (Proc.devRef .tc main_arg14))) := by
  dsimp only [ops2]
  after_results_simp
  rfl

/-- The same on the edge side: the second result's buffer holds the tail term of the edge pre-activation,
    the edge input and the two edge parameter rows. -/
theorem edge_term (W : Valuation τ sig (Elt Ideal)) :
    Cert.Gcn.rd (S := S300000x256) (StableHlo.after ops4 W (Proc.devRef .tc main_v102))
      = tailTerm reducesTo_S300000x256_S256_d0 h_S_ bcast_S256_S1x256_1 bcast_S_S1x256 bcast_S1x256_S300000x256_0_1
          bcast_S_S300000x256 0x48927C00#32
          (Cert.Gcn.rd (S := S300000x256) (W (Proc.devRef .tc main_v82)))
          (Cert.Gcn.rd (S := S300000x256) (W (Proc.devRef .tc main_arg1)))
          (Cert.Gcn.rd (S := S256) (W (Proc.devRef .tc main_arg15)))
          (Cert.Gcn.rd (S := S256) (W (Proc.devRef .tc main_arg16))) := by
  dsimp only [ops4]
  after_results_simp
  rfl

/-- THE NODE TAIL: the first result at row `r`, column `j` is the batch normalisation of the node
    pre-activation `p` over its 10000 rows, scaled and shifted by the node parameter rows, clamped at zero,
    plus the node input. -/
theorem node_tail (W : Valuation τ sig (Elt Ideal)) (p : Fin 10000 → Fin 256 → EReal)
    (hp : ∀ (r : Fin 10000) (j : Fin 256),
      Cert.Gcn.rd (S := S10000x256) (W (Proc.devRef .tc main_v46)) (ix2 r j) = p r j)
    (r : Fin 10000) (j : Fin 256) :
    Cert.Gcn.rd (S := S10000x256) (StableHlo.after ops2 W (Proc.devRef .tc main_v66)) (ix2 r j)
      = Cert.Gcn.bn false Cert.Gcn.cN p
          (Cert.Gcn.rd (S := S256) (W (Proc.devRef .tc main_arg13)))
          (Cert.Gcn.rd (S := S256) (W (Proc.devRef .tc main_arg14)))
          (fun r j => Cert.Gcn.rd (S := S10000x256) (W (Proc.devRef .tc main_arg0)) (ix2 r j)) r j := by
  rw [node_term W,
    tailTerm_apply reducesTo_S10000x256_S256_d0 (by decide) h_S_ bcast_S256_S1x256_1 bcast_S_S1x256
      bcast_S1x256_S10000x256_0_1 bcast_S_S10000x256 0x461C4000#32 10000 Cert.Gcn.cN_eq (by norm_num)]
  have e : (fun r j => Cert.Gcn.rd (S := S10000x256) (W (Proc.devRef .tc main_v46)) (ix2 r j)) = p :=
    funext fun r => funext fun j => hp r j
  rw [e]
  rfl

/-- THE EDGE TAIL: the second result at row `q`, column `j` is the batch normalisation of the edge
    pre-activation `p` over its 300000 rows, scaled and shifted by the edge parameter rows, clamped at zero,
    plus the edge input. -/
theorem edge_tail (W : Valuation τ sig (Elt Ideal)) (p : Fin 300000 → Fin 256 → EReal)
    (hp : ∀ (q : Fin 300000) (j : Fin 256),
      Cert.Gcn.rd (S := S300000x256) (W (Proc.devRef .tc main_v82)) (ix2 q j) = p q j)
    (q : Fin 300000) (j : Fin 256) :
    Cert.Gcn.rd (S := S300000x256) (StableHlo.after ops4 W (Proc.devRef .tc main_v102)) (ix2 q j)
      = Cert.Gcn.bn false Cert.Gcn.cE p
          (Cert.Gcn.rd (S := S256) (W (Proc.devRef .tc main_arg15)))
          (Cert.Gcn.rd (S := S256) (W (Proc.devRef .tc main_arg16)))
          (fun q j => Cert.Gcn.rd (S := S300000x256) (W (Proc.devRef .tc main_arg1)) (ix2 q j)) q j := by
  rw [edge_term W,
    tailTerm_apply reducesTo_S300000x256_S256_d0 (by decide) h_S_ bcast_S256_S1x256_1 bcast_S_S1x256
      bcast_S1x256_S300000x256_0_1 bcast_S_S300000x256 0x48927C00#32 300000 Cert.Gcn.cE_eq (by norm_num)]
  have e : (fun q j => Cert.Gcn.rd (S := S300000x256) (W (Proc.devRef .tc main_v82)) (ix2 q j)) = p :=
    funext fun q => funext fun j => hp q j
  rw [e]
  rfl

end Chunk

end Cert.ReferenceIdeal.Hand

end
-- ==== Proof.RVal.lean ====
/- The reference program's two results as the layer's, assembled. The line of operations is five chunks in order, so
   its fold is the chunks' folds composed. The first result is written in the third chunk and by nothing after it:
   it is the third chunk's fold over what the first two chunks leave, read at the result's buffer. There the node
   pre-activation's buffer holds the layer's pre-activation, and the three argument rows the tail reads are still
   the launch memory's, because no operation writes an argument: that is the normalised, scaled, shifted, clamped
   pre-activation plus the input row, the layer's node output. The second result is written in the last chunk: the
   same over what the first four chunks leave, with the edge pre-activation. -/
import proofs.«421314_j74577812128000_1_alg».proof.Proof.ROps
import proofs.«421314_j74577812128000_1_alg».proof.Proof.RRun
import proofs.«421314_j74577812128000_1_alg».proof.Proof.RInputs
import proofs.«421314_j74577812128000_1_alg».proof.Proof.Spec
import proofs.«421314_j74577812128000_1_alg».proof.Proof.Rd
import proofs.«421314_j74577812128000_1_alg».proof.Proof.RPre
import proofs.«421314_j74577812128000_1_alg».proof.Proof.RTail
import Idealize.ShloMosaic.Lib.StableHlo.Run
import Idealize.ShloMosaic.Lib.Pipeline.Frame
import Idealize.ShloMosaic.Lib.ValueIdx

noncomputable section

namespace Cert.ReferenceIdeal.Hand

open Idealize.ShloMosaic Idealize.SL.Sem Cert.ReferenceIdeal Idealize.ShloMosaic.ValueIdx

/-- A chunk leaves a buffer that is none of those it writes as it found it. -/
theorem kept_of {l : List (HloOp τ sig (Elt Ideal))} {Wl : List (Ref sig .tc)}
    (h : l.map HloOp.writes = Wl.map fun y => ({Proc.devRef (τ := τ) .tc y} : Finset (DevRef τ sig)))
    (V : Valuation τ sig (Elt Ideal)) {r : Ref sig .tc} (hr : r ∉ Wl) :
    StableHlo.after l V (Proc.devRef .tc r) = V (Proc.devRef .tc r) :=
  StableHlo.after_of_writes_sub l V (writes_sub_of_map_eq h) hr

/-- The first two chunks write the buffers of their two tables, in order. -/
theorem ops01_writes : (ops0 (F := Ideal) ++ ops1).map HloOp.writes
    = (written0 ++ written1).map fun y => ({Proc.devRef (τ := τ) .tc y} : Finset (DevRef τ sig)) := by
  simp only [List.map_append, ops0_writes, ops1_writes]

/-- The first four chunks write the buffers of their four tables, in order. -/
theorem ops0123_writes : (ops0 (F := Ideal) ++ ops1 ++ ops2 ++ ops3).map HloOp.writes
    = (written0 ++ written1 ++ written2 ++ written3).map fun y => ({Proc.devRef (τ := τ) .tc y} : Finset (DevRef τ sig)) := by
  simp only [List.map_append, ops0_writes, ops1_writes, ops2_writes, ops3_writes]

/-- The first result's buffer is written in the third chunk and left alone by the last two: the whole line's fold
    there is the third chunk's over what the first two leave. -/
theorem after_v66 (V : Valuation τ sig (Elt Ideal)) :
    StableHlo.after ops V (Proc.devRef .tc main_v66)
      = StableHlo.after ops2 (StableHlo.after (ops0 ++ ops1) V) (Proc.devRef .tc main_v66) := by
  show StableHlo.after (ops0 ++ ops1 ++ ops2 ++ ops3 ++ ops4) V _ = _
  rw [StableHlo.after_append, kept_of ops4_writes _ (r := main_v66) (by decide),
    StableHlo.after_append, kept_of ops3_writes _ (r := main_v66) (by decide), StableHlo.after_append]

/-- The second result's buffer is written in the last chunk: the whole line's fold there is the last chunk's over
    what the first four leave. -/
theorem after_v102 (V : Valuation τ sig (Elt Ideal)) :
    StableHlo.after ops V (Proc.devRef .tc main_v102)
      = StableHlo.after ops4 (StableHlo.after (ops0 ++ ops1 ++ ops2 ++ ops3) V) (Proc.devRef .tc main_v102) := by
  show StableHlo.after (ops0 ++ ops1 ++ ops2 ++ ops3 ++ ops4) V _ = _
  rw [StableHlo.after_append]

/-- The first result is the layer's node output, in the clamped spelling. -/
theorem href (m : (ℓ : Loc nD τ sig) → Buf (Elt Ideal) ℓ) (c : Dev nD) (r : Fin 10000) (j : Fin 256) :
    (StableHlo.after ops (fun b => m ((c : Dev nD), b)) (Proc.devRef .tc main_v66) : Vec Ideal S10000x256 .f32) (ix2 r j)
      = Cert.Gcn.hout false (rin m c) r j := by
  have t := node_tail (StableHlo.after (ops0 ++ ops1) (StableHlo.launchContents m c)) (Cert.Gcn.npre false (rin m c))
    (fun r j => ref_npre m c r j) r j
  rw [kept_of ops01_writes _ (r := main_arg13) (by decide), kept_of ops01_writes _ (r := main_arg14) (by decide),
    kept_of ops01_writes _ (r := main_arg0) (by decide)] at t
  rw [after_v66]
  exact t

/-- The second result is the layer's edge output, in the clamped spelling. -/
theorem eref (m : (ℓ : Loc nD τ sig) → Buf (Elt Ideal) ℓ) (c : Dev nD) (q : Fin 300000) (j : Fin 256) :
    (StableHlo.after ops (fun b => m ((c : Dev nD), b)) (Proc.devRef .tc main_v102) : Vec Ideal S300000x256 .f32) (ix2 q j)
      = Cert.Gcn.eout false (rin m c) q j := by
  have t := edge_tail (StableHlo.after (ops0 ++ ops1 ++ ops2 ++ ops3) (StableHlo.launchContents m c)) (Cert.Gcn.epre false (rin m c))
    (fun q j => ref_epre m c q j) q j
  rw [kept_of ops0123_writes _ (r := main_arg15) (by decide), kept_of ops0123_writes _ (r := main_arg16) (by decide),
    kept_of ops0123_writes _ (r := main_arg1) (by decide)] at t
  rw [after_v102]
  exact t

end Cert.ReferenceIdeal.Hand

end
-- ==== Proof.lean ====
/- The certificate of the gated graph-convolution layer: the kernel program against its reference, over the
   extended reals, for finite float arguments and index words that name node rows.

   The three programs' executions terminate without a fault and leave their arguments unchanged: the two kernel
   programs by their generated frames, the reference by its run as one line of host operations. The idealized
   kernel's ledger is empty. For the value claim both programs' results are named: the kernel's are what the last
   boundary of its run holds, and that is the specification's layer in the spelling `k = true` (a table row read
   outside the table gives the fill value; the variance is the mean of squares minus the squared mean); the
   reference's are the layer in the spelling `k = false` (the row index clamped; the variance the mean of squared
   deviations). Memories that agree on the arguments give the same specification inputs, and on finite inputs whose
   index words are rows of the table the two spellings are one function. -/
import proofs.«421314_j74577812128000_1_alg».proof.Defs
import proofs.«421314_j74577812128000_1_alg».proof.Proof.Gen.Kernel
import proofs.«421314_j74577812128000_1_alg».proof.Proof.Gen.Kernel.Skeleton
import proofs.«421314_j74577812128000_1_alg».proof.Proof.Gen.Kernel.Launch
import proofs.«421314_j74577812128000_1_alg».proof.Proof.Gen.Kernel.Points
import proofs.«421314_j74577812128000_1_alg».proof.Proof.Gen.Kernel.Frame
import proofs.«421314_j74577812128000_1_alg».proof.Proof.Gen.KernelIdeal
import proofs.«421314_j74577812128000_1_alg».proof.Proof.Gen.KernelIdeal.Skeleton
import proofs.«421314_j74577812128000_1_alg».proof.Proof.Gen.KernelIdeal.Launch
import proofs.«421314_j74577812128000_1_alg».proof.Proof.Gen.KernelIdeal.Points
import proofs.«421314_j74577812128000_1_alg».proof.Proof.Gen.KernelIdeal.Frame
import proofs.«421314_j74577812128000_1_alg».proof.Proof.Gen.ReferenceIdeal
import proofs.«421314_j74577812128000_1_alg».proof.Proof.Gen.Pre_finite_inputs
import proofs.«421314_j74577812128000_1_alg».proof.Proof.KRun
import proofs.«421314_j74577812128000_1_alg».proof.Proof.KInputs
import proofs.«421314_j74577812128000_1_alg».proof.Proof.RInputs
import proofs.«421314_j74577812128000_1_alg».proof.Proof.KChain
import proofs.«421314_j74577812128000_1_alg».proof.Proof.PreFacts
import proofs.«421314_j74577812128000_1_alg».proof.Proof.SpecLaws
import proofs.«421314_j74577812128000_1_alg».proof.Proof.RRun
import proofs.«421314_j74577812128000_1_alg».proof.Proof.RVal
import Idealize.ShloMosaic.Adequacy
import Idealize.ShloMosaic.Init
import Idealize.ShloMosaic.Lib.ValueIdx

noncomputable section

namespace Cert.Proof

open Idealize.ShloMosaic Idealize.SL.Sem Idealize.ShloMosaic.ValueIdx Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Hand.run (F := Ideal) m ρ),
  trivial,
  fun m g m' g' hpre hagree => by
    -- memories agreeing on the seventeen arguments give the same inputs
    have hin : ∀ c, Cert.ReferenceIdeal.Hand.rin m' c = Cert.KernelIdeal.Hand.kin m c := fun c => by
      obtain ⟨h0, h1, h2, h3, h4, h5, h6, h7, h8, h9, h10, h11, h12, h13, h14, h15, h16⟩ := hagree c
      simp only [Cert.ReferenceIdeal.Hand.rin, Cert.KernelIdeal.Hand.kin, h0, h1, h2, h3, h4, h5, h6, h7, h8, h9, h10, h11, h12, h13, h14, h15, h16]
    -- the common results are the kernel's, as its run names them
    refine ⟨fun c => Cert.KernelIdeal.Gen.W13 m g c (Proc.devRef .tc Cert.KernelIdeal.main_v46),
            fun c => Cert.KernelIdeal.Gen.W13 m g c (Proc.devRef .tc Cert.KernelIdeal.main_v36),
            Cert.KernelIdeal.Hand.run (F := Ideal) m g, ?_⟩
    refine (θ_run Cert.ReferenceIdeal.defs _ _).mono (fun r h c => ?_) (Cert.ReferenceIdeal.Hand.run (F := Ideal) m' g')
    obtain ⟨hf, hr⟩ := Cert.KernelIdeal.Hand.pre_facts m hpre c
    refine ⟨(h c).1.trans ?_, (h c).2.1.trans ?_, (h c).2.2⟩
    · -- entry by entry: the reference's spelling, at the same inputs, is the kernel's spelling
      funext i
      obtain ⟨a, b, rfl⟩ : ∃ (a : Fin 10000) (b : Fin 256), i = ix2 a b := ⟨i 0, i 1, eq_ix2 i⟩
      exact ((Cert.ReferenceIdeal.Hand.href m' c a b).trans (by rw [hin c, ← Cert.Gcn.hout_eq _ hf hr])).trans (Cert.KernelIdeal.Hand.hval m g c a b).symm
    · funext i
      obtain ⟨a, b, rfl⟩ : ∃ (a : Fin 300000) (b : Fin 256), i = ix2 a b := ⟨i 0, i 1, eq_ix2 i⟩
      exact ((Cert.ReferenceIdeal.Hand.eref m' c a b).trans (by rw [hin c, ← Cert.Gcn.eout_eq _ hf hr])).trans (Cert.KernelIdeal.Hand.eval m g c a b).symm⟩

end Cert.Proof

end
